-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S256x384 : Shape := ⟨2, ![256, 384]⟩
abbrev S384 : Shape := ⟨1, ![384]⟩
abbrev S128x256 : Shape := ⟨2, ![128, 256]⟩
abbrev S256 : Shape := ⟨1, ![256]⟩
abbrev S128x1 : Shape := ⟨2, ![128, 1]⟩
abbrev S1 : Shape := ⟨1, ![1]⟩
abbrev S256x1024 : Shape := ⟨2, ![256, 1024]⟩
abbrev S1024 : Shape := ⟨1, ![1024]⟩
abbrev S512x256 : Shape := ⟨2, ![512, 256]⟩
abbrev S256x512 : Shape := ⟨2, ![256, 512]⟩
abbrev S512 : Shape := ⟨1, ![512]⟩
abbrev S128 : Shape := ⟨1, ![128]⟩
abbrev S512x512 : Shape := ⟨2, ![512, 512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_

variable [Facts]

def fn_part8 {F : FTy → Type} [FloatOps F] (main_arg29 : FVec F S256 .f32) (main_arg30 : FVec F S256 .f32) (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  let main_v139 : FVec F S256 .f32 := Host.absf main_arg29
  let main_cst_54 : FVec F S_ .f32 := constant S_ .f32 0x7F800000#32
  let main_v140 : FVec F S256 .f32 := broadcastInDim S256 ![] bcast_S_S256 main_cst_54
  let main_v141 : IVec S256 1 := cmpf .olt main_v139 main_v140
  let main_c_55 : IVec S_ 1 := constantI S_ 1 1#1
  let main_v142 : IVec S_ 1 := (fun x v => Host.reduce IntOp.andi x v reducesTo_S256_S_d0 h_S_) main_v141 main_c_55
  let main_v143 : IVec S_ 1 := andi main_v138 main_v142
  let main_v144 : FVec F S256 .f32 := Host.absf main_arg30
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  main_v148

def fn_part7 {F : FTy → Type} [FloatOps F] (main_arg26 : FVec F S512 .f32) (main_arg27 : FVec F S512x256 .f32) (main_arg28 : FVec F S256 .f32) (main_arg29 : FVec F S256 .f32) (main_arg30 : FVec F S256 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512 .f32 := Host.absf main_arg26
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S512x256 .f32 := Host.absf main_arg27
  let main_cst_50 : FVec F S_ .f32 := constant S_ .f32 0x7F800000#32
  let main_v130 : FVec F S512x256 .f32 := broadcastInDim S512x256 ![] bcast_S_S512x256 main_cst_50
  let main_v131 : IVec S512x256 1 := cmpf .olt main_v129 main_v130
  let main_c_51 : IVec S_ 1 := constantI S_ 1 1#1
  let main_v132 : IVec S_ 1 := (fun x v => Host.reduce IntOp.andi x v reducesTo_S512x256_S_d0_1 h_S_) main_v131 main_c_51
  let main_v133 : IVec S_ 1 := andi main_v128 main_v132
  let main_v134 : FVec F S256 .f32 := Host.absf main_arg28
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_arg29 main_arg30 main_v133 main_v136

def fn_part6 {F : FTy → Type} [FloatOps F] (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S512x512 .f32 := Host.absf main_arg23
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg24
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg25
  fn_part7 (F := F) main_arg26 main_arg27 main_arg28 main_arg29 main_arg30 main_v118 main_v119

def fn_part5 {F : FTy → Type} [FloatOps F] (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x256 .f32 := Host.absf main_arg19
  let main_cst_34 : FVec F S_ .f32 := constant S_ .f32 0x7F800000#32
  let main_v90 : FVec F S512x256 .f32 := broadcastInDim S512x256 ![] bcast_S_S512x256 main_cst_34
  let main_v91 : IVec S512x256 1 := cmpf .olt main_v89 main_v90
  let main_c_35 : IVec S_ 1 := constantI S_ 1 1#1
  let main_v92 : IVec S_ 1 := (fun x v => Host.reduce IntOp.andi x v reducesTo_S512x256_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_arg29 main_arg30 main_v98 main_v101 main_c_39

def fn_part4 {F : FTy → Type} [FloatOps F] (main_arg15 : FVec F S256x512 .f32) (main_arg16 : FVec F S512 .f32) (main_arg17 : FVec F S512 .f32) (main_arg18 : FVec F S512 .f32) (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v63 : IVec S_ 1) (main_v67 : IVec S_ 1) : IVec S_ 1 :=
  let main_v68 : IVec S_ 1 := andi main_v63 main_v67
  let main_v69 : FVec F S256x512 .f32 := Host.absf main_arg15
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg17
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_v83 main_v84 main_cst_32

def fn_part3 {F : FTy → Type} [FloatOps F] (main_arg12 : FVec F S1024 .f32) (main_arg13 : FVec F S512x256 .f32) (main_arg14 : FVec F S256 .f32) (main_arg15 : FVec F S256x512 .f32) (main_arg16 : FVec F S512 .f32) (main_arg17 : FVec F S512 .f32) (main_arg18 : FVec F S512 .f32) (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S512x256 .f32 := Host.absf main_arg13
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S256 .f32) (main_arg9 : FVec F S128x1 .f32) (main_arg10 : FVec F S1 .f32) (main_arg11 : FVec F S256x1024 .f32) (main_arg12 : FVec F S1024 .f32) (main_arg13 : FVec F S512x256 .f32) (main_arg14 : FVec F S256 .f32) (main_arg15 : FVec F S256x512 .f32) (main_arg16 : FVec F S512 .f32) (main_arg17 : FVec F S512 .f32) (main_arg18 : FVec F S512 .f32) (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x1024 .f32 := Host.absf main_arg11
  let main_cst_18 : FVec F S_ .f32 := constant S_ .f32 0x7F800000#32
  let main_v50 : FVec F S256x1024 .f32 := broadcastInDim S256x1024 ![] bcast_S_S256x1024 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg5 : FVec F S256x384 .f32) (main_arg6 : FVec F S384 .f32) (main_arg7 : FVec F S128x256 .f32) (main_arg8 : FVec F S256 .f32) (main_arg9 : FVec F S128x1 .f32) (main_arg10 : FVec F S1 .f32) (main_arg11 : FVec F S256x1024 .f32) (main_arg12 : FVec F S1024 .f32) (main_arg13 : FVec F S512x256 .f32) (main_arg14 : FVec F S256 .f32) (main_arg15 : FVec F S256x512 .f32) (main_arg16 : FVec F S512 .f32) (main_arg17 : FVec F S512 .f32) (main_arg18 : FVec F S512 .f32) (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x384 .f32 := Host.absf main_arg5
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S8192x256 .f32) (main_arg1 : IVec S8192x8192 32) (main_arg2 : FVec F S256x256 .f32) (main_arg3 : FVec F S256x1 .f32) (main_arg4 : FVec F S256x1 .f32) (main_arg5 : FVec F S256x384 .f32) (main_arg6 : FVec F S384 .f32) (main_arg7 : FVec F S128x256 .f32) (main_arg8 : FVec F S256 .f32) (main_arg9 : FVec F S128x1 .f32) (main_arg10 : FVec F S1 .f32) (main_arg11 : FVec F S256x1024 .f32) (main_arg12 : FVec F S1024 .f32) (main_arg13 : FVec F S512x256 .f32) (main_arg14 : FVec F S256 .f32) (main_arg15 : FVec F S256x512 .f32) (main_arg16 : FVec F S512 .f32) (main_arg17 : FVec F S512 .f32) (main_arg18 : FVec F S512 .f32) (main_arg19 : FVec F S512x256 .f32) (main_arg20 : FVec F S256 .f32) (main_arg21 : FVec F S128 .f32) (main_arg22 : FVec F S1 .f32) (main_arg23 : FVec F S512x512 .f32) (main_arg24 : FVec F S512 .f32) (main_arg25 : FVec F S512 .f32) (main_arg26 : FVec F S512 .f32) (main_arg27 : FVec F S512x256 .f32) (main_arg28 : FVec F S256 .f32) (main_arg29 : FVec F S256 .f32) (main_arg30 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S256x384 : Shape := ⟨2, ![256, 384]⟩
abbrev S384 : Shape := ⟨1, ![384]⟩
abbrev S128x256 : Shape := ⟨2, ![128, 256]⟩
abbrev S256 : Shape := ⟨1, ![256]⟩
abbrev S128x1 : Shape := ⟨2, ![128, 1]⟩
abbrev S1 : Shape := ⟨1, ![1]⟩
abbrev S256x1024 : Shape := ⟨2, ![256, 1024]⟩
abbrev S1024 : Shape := ⟨1, ![1024]⟩
abbrev S512x256 : Shape := ⟨2, ![512, 256]⟩
abbrev S256x512 : Shape := ⟨2, ![256, 512]⟩
abbrev S512 : Shape := ⟨1, ![512]⟩
abbrev S128 : Shape := ⟨1, ![128]⟩
abbrev S512x512 : Shape := ⟨2, ![512, 512]⟩
abbrev S8192x1 : Shape := ⟨2, ![8192, 1]⟩
abbrev S1x8192 : Shape := ⟨2, ![1, 8192]⟩
abbrev S1x128 : Shape := ⟨2, ![1, 128]⟩
abbrev S1x512 : Shape := ⟨2, ![1, 512]⟩
abbrev S1x256 : Shape := ⟨2, ![1, 256]⟩
abbrev S1x384 : Shape := ⟨2, ![1, 384]⟩
abbrev S1x1 : Shape := ⟨2, ![1, 1]⟩
abbrev S1x1024 : Shape := ⟨2, ![1, 1024]⟩
abbrev S512x1 : Shape := ⟨2, ![512, 1]⟩
abbrev S1x2048 : Shape := ⟨2, ![1, 2048]⟩
abbrev S512x2048 : Shape := ⟨2, ![512, 2048]⟩
abbrev S2048x256 : Shape := ⟨2, ![2048, 256]⟩
abbrev S512x384 : Shape := ⟨2, ![512, 384]⟩
abbrev S512x128 : Shape := ⟨2, ![512, 128]⟩
abbrev S512x1024 : Shape := ⟨2, ![512, 1024]⟩

abbrev nBuf : Space → Nat
  | .hbm => 55
  | .vmem => 40
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S256x384, .f32⟩
  | .hbm, ⟨6, _⟩ => ⟨S384, .f32⟩
  | .hbm, ⟨7, _⟩ => ⟨S128x256, .f32⟩
  | .hbm, ⟨8, _⟩ => ⟨S256, .f32⟩
  | .hbm, ⟨9, _⟩ => ⟨S128x1, .f32⟩
  | .hbm, ⟨10, _⟩ => ⟨S1, .f32⟩
  | .hbm, ⟨11, _⟩ => ⟨S256x1024, .f32⟩
  | .hbm, ⟨12, _⟩ => ⟨S1024, .f32⟩
  | .hbm, ⟨13, _⟩ => ⟨S512x256, .f32⟩
  | .hbm, ⟨14, _⟩ => ⟨S256, .f32⟩
  | .hbm, ⟨15, _⟩ => ⟨S256x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x256, .f32⟩
  | .hbm, ⟨20, _⟩ => ⟨S256, .f32⟩
  | .hbm, ⟨21, _⟩ => ⟨S128, .f32⟩
  | .hbm, ⟨22, _⟩ => ⟨S1, .f32⟩
  | .hbm, ⟨23, _⟩ => ⟨S512x512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512x256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S8192x256, .f32⟩
  | .hbm, ⟨32, _⟩ => ⟨S8192x1, .f32⟩
  | .hbm, ⟨33, _⟩ => ⟨S8192x1, .f32⟩
  | .hbm, ⟨34, _⟩ => ⟨S1x8192, .f32⟩
  | .hbm, ⟨35, _⟩ => ⟨S8192x256, .bf16⟩
  | .hbm, ⟨36, _⟩ => ⟨S1x128, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x256, .f32⟩
  | .hbm, ⟨41, _⟩ => ⟨S1x384, .f32⟩
  | .hbm, ⟨42, _⟩ => ⟨S1x256, .f32⟩
  | .hbm, ⟨43, _⟩ => ⟨S1x1, .f32⟩
  | .hbm, ⟨44, _⟩ => ⟨S1x128, .f32⟩
  | .hbm, ⟨45, _⟩ => ⟨S1x1024, .f32⟩
  | .hbm, ⟨46, _⟩ => ⟨S1x1, .f32⟩
  | .hbm, ⟨47, _⟩ => ⟨S1x256, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S8192x256, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S512x2048, .i32⟩
  | .local _ .vmem, ⟨5, _⟩ => ⟨S512x2048, .i32⟩
  | .local _ .vmem, ⟨6, _⟩ => ⟨S8192x256, .bf16⟩
  | .local _ .vmem, ⟨7, _⟩ => ⟨S512x256, .f32⟩
  | .local _ .vmem, ⟨8, _⟩ => ⟨S512x256, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x256, .f32⟩
  | .local _ .vmem, ⟨14, _⟩ => ⟨S1x256, .f32⟩
  | .local _ .vmem, ⟨15, _⟩ => ⟨S256x384, .f32⟩
  | .local _ .vmem, ⟨16, _⟩ => ⟨S1x384, .f32⟩
  | .local _ .vmem, ⟨17, _⟩ => ⟨S128x256, .f32⟩
  | .local _ .vmem, ⟨18, _⟩ => ⟨S1x256, .f32⟩
  | .local _ .vmem, ⟨19, _⟩ => ⟨S1x128, .f32⟩
  | .local _ .vmem, ⟨20, _⟩ => ⟨S1x1, .f32⟩
  | .local _ .vmem, ⟨21, _⟩ => ⟨S1x128, .f32⟩
  | .local _ .vmem, ⟨22, _⟩ => ⟨S256x1024, .f32⟩
  | .local _ .vmem, ⟨23, _⟩ => ⟨S1x1024, .f32⟩
  | .local _ .vmem, ⟨24, _⟩ => ⟨S1x1, .f32⟩
  | .local _ .vmem, ⟨25, _⟩ => ⟨S512x256, .f32⟩
  | .local _ .vmem, ⟨26, _⟩ => ⟨S1x256, .f32⟩
  | .local _ .vmem, ⟨27, _⟩ => ⟨S512x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S512x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S512x256, .f32⟩
  | .local _ .vmem, ⟨36, _⟩ => ⟨S512x256, .f32⟩
  | .local _ .vmem, ⟨37, _⟩ => ⟨S512x1, .f32⟩
  | .local _ .vmem, ⟨38, _⟩ => ⟨S512x1, .f32⟩
  | .local _ .vmem, ⟨39, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg31_0 : Ref sig .tc := ⟨.vmem, 35, rfl⟩
abbrev cc0_stg31_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem31_0 : DmaSem sig := 35
abbrev cc0_sem31_1 : DmaSem sig := 36

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v38 : BitVec 32 := Scalar.muli arg1 c2048_i32
  v38
def k0_off1 (i : grid0.Coords) : Fin 2 → Nat :=
  let arg1 : BitVec 32 := BitVec.ofNat 32 (i 1).val
  let c2048_i32 : BitVec 32 := 2048#32
  let v38 : BitVec 32 := Scalar.muli arg1 c2048_i32
  let v39 : BitVec 32 := v38
  let v40 : Index := Scalar.indexCast v39
  let c0_19 : Index := 0#32
  ![v40.toNat, 0]
def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S512x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S512x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S1x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 2 → Memref sig .tc .vmem S512x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, false]

class Facts₀ : Prop where
  transposes_S8192x1_S1x8192_1_0 : S8192x1.Transposes [1, 0] S1x8192
  bitsLt_bf16_f32 : FTy.bits .bf16 < FTy.bits .f32
  transposes_S128x1_S1x128_1_0 : S128x1.Transposes [1, 0] S1x128
  shapeCasts_S512_S1x512 : S512.ShapeCasts S1x512
  shapeCasts_S256_S1x256 : S256.ShapeCasts S1x256
  shapeCasts_S384_S1x384 : S384.ShapeCasts S1x384
  shapeCasts_S1_S1x1 : S1.ShapeCasts S1x1
  shapeCasts_S128_S1x128 : S128.ShapeCasts S1x128
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  h_S2048x256 : 0 < S2048x256.numel
  shapeCasts_S2048x256_S2048x256 : S2048x256.ShapeCasts S2048x256
  broadcasts_S512x1_S512x256 : S512x1.Broadcasts S512x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x384_S256x384_0_0 : ∀ a, (![0, 0] : Fin 2 → Nat) a + S256x384.size a ≤ S256x384.size a
  h_S256x384 : 0 < S256x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  broadcasts_S512x1_S512x128 : S512x1.Broadcasts S512x128
  inb_S128x256_S128x256_0_0 : ∀ a, (![0, 0] : Fin 2 → Nat) a + S128x256.size a ≤ S128x256.size a
  h_S128x256 : 0 < S128x256.numel
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x512 : S1x1.Broadcasts S512x512
  broadcasts_S1x1_S512x1 : S1x1.Broadcasts S512x1
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  reduces_S512x256_S512 : S512x256.Reduces [1] S512
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S512x2048_S2048x256_S512x256_1_0_0_1_n_n_wf : DotDims.WF S512x2048 S2048x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x384_S512x384_1_0_0_1_n_n_wf : DotDims.WF S512x256 S256x384 S512x384 [1] [0] [0] [1] [] []
  dot_S512x128_S128x256_S512x256_1_0_0_1_n_n_wf : DotDims.WF S512x128 S128x256 S512x256 [1] [0] [0] [1] [] []
  dot_S512x256_S256x1024_S512x1024_1_0_0_1_n_n_wf : DotDims.WF S512x256 S256x1024 S512x1024 [1] [0] [0] [1] [] []
  dot_S512x512_S512x512_S512x512_1_0_0_1_n_n_wf : DotDims.WF S512x512 S512x512 S512x512 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .i32 = 32 ∨ (Rect.block (s := S8192x8192) S512x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x384.size a ≤ S256x384.size a
  hwx0_11 : ∀ i : grid0.Coords, EltTy.bits .f32 = 32 ∨ (Rect.block (s := S256x384) S256x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x384.size a ≤ S1x384.size a
  hwx0_12 : ∀ i : grid0.Coords, EltTy.bits .f32 = 32 ∨ (Rect.block (s := S1x384) S1x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .f32 = 32 ∨ (Rect.block (s := S128x256) S128x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S256x1024.size a
  hwx0_18 : ∀ i : grid0.Coords, EltTy.bits .f32 = 32 ∨ (Rect.block (s := S256x1024) S256x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1024.size a ≤ S1x1024.size a
  hwx0_19 : ∀ i : grid0.Coords, EltTy.bits .f32 = 32 ∨ (Rect.block (s := S1x1024) S1x1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x256.size a ≤ S512x256.size a
  hwx0_21 : ∀ i : grid0.Coords, EltTy.bits .f32 = 32 ∨ (Rect.block (s := S512x256) S512x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x512.size a ≤ S512x512.size a
  hwx0_23 : ∀ i : grid0.Coords, EltTy.bits .f32 = 32 ∨ (Rect.block (s := S512x512) S512x512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x512.size a ≤ S1x512.size a
  hwx0_24 : ∀ i : grid0.Coords, EltTy.bits .f32 = 32 ∨ (Rect.block (s := S1x512) S1x512.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x512.size a ≤ S1x512.size a
  hwx0_25 : ∀ i : grid0.Coords, EltTy.bits .f32 = 32 ∨ (Rect.block (s := S1x512) S1x512.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x512.size a ≤ S1x512.size a
  hwx0_26 : ∀ i : grid0.Coords, EltTy.bits .f32 = 32 ∨ (Rect.block (s := S1x512) S1x512.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S512x256.size a ≤ S512x256.size a
  hwx0_27 : ∀ i : grid0.Coords, EltTy.bits .f32 = 32 ∨ (Rect.block (s := S512x256) S512x256.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x256.size a ≤ S1x256.size a
  hwx0_28 : ∀ i : grid0.Coords, EltTy.bits .f32 = 32 ∨ (Rect.block (s := S1x256) S1x256.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x256.size a ≤ S1x256.size a
  hwx0_29 : ∀ i : grid0.Coords, EltTy.bits .f32 = 32 ∨ (Rect.block (s := S1x256) S1x256.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x256.size a ≤ S1x256.size a
  hwx0_30 : ∀ i : grid0.Coords, EltTy.bits .f32 = 32 ∨ (Rect.block (s := S1x256) S1x256.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S512x256.size a ≤ S8192x256.size a
  hwx0_31 : ∀ i : grid0.Coords, EltTy.bits .f32 = 32 ∨ (Rect.block (s := S8192x256) S512x256.size (cc0_transform_31 i) (hinb0_31 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg19) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg5) S256x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg7) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v5) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v12) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg11) S256x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S1x1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v15) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg13) S512x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v16) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S512x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v17) S1x512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v18) S1x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v19) S1x512.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S512x256.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v20) S1x256.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v21) S1x256.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v22) S1x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v23) S512x256.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

abbrev idle0 : Fin 32 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun _ => false | 30 => fun _ => false | 31 => fun i => !(k0_cond2 i == 1#1) | ⟨_ + 32, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256x1 : Shape := ⟨2, ![256, 1]⟩
abbrev S256x384 : Shape := ⟨2, ![256, 384]⟩
abbrev S384 : Shape := ⟨1, ![384]⟩
abbrev S128x256 : Shape := ⟨2, ![128, 256]⟩
abbrev S256 : Shape := ⟨1, ![256]⟩
abbrev S128x1 : Shape := ⟨2, ![128, 1]⟩
abbrev S1 : Shape := ⟨1, ![1]⟩
abbrev S256x1024 : Shape := ⟨2, ![256, 1024]⟩
abbrev S1024 : Shape := ⟨1, ![1024]⟩
abbrev S512x256 : Shape := ⟨2, ![512, 256]⟩
abbrev S256x512 : Shape := ⟨2, ![256, 512]⟩
abbrev S512 : Shape := ⟨1, ![512]⟩
abbrev S128 : Shape := ⟨1, ![128]⟩
abbrev S512x512 : Shape := ⟨2, ![512, 512]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S8192x512 : Shape := ⟨2, ![8192, 512]⟩
abbrev S1x512 : Shape := ⟨2, ![1, 512]⟩
abbrev S1x256 : Shape := ⟨2, ![1, 256]⟩
abbrev S8192x384 : Shape := ⟨2, ![8192, 384]⟩
abbrev S1x384 : Shape := ⟨2, ![1, 384]⟩
abbrev S8192x128 : Shape := ⟨2, ![8192, 128]⟩
abbrev S1x128 : Shape := ⟨2, ![1, 128]⟩
abbrev S8192x1024 : Shape := ⟨2, ![8192, 1024]⟩
abbrev S1x1024 : Shape := ⟨2, ![1, 1024]⟩
abbrev S1x1 : Shape := ⟨2, ![1, 1]⟩

abbrev nBuf : Space → Nat
  | .hbm => 266
  | .vmem => 0
  | .smem => 0
  | _ => 0

abbrev hbmTy0_0 (i : Nat) : BufTy := match i % 128 with
  | 0 => ⟨S8192x256, .f32⟩
  | 1 => ⟨S8192x8192, .i32⟩
  | 2 => ⟨S256x256, .f32⟩
  | 3 => ⟨S256x1, .f32⟩
  | 4 => ⟨S256x1, .f32⟩
  | 5 => ⟨S256x384, .f32⟩
  | 6 => ⟨S384, .f32⟩
  | 7 => ⟨S128x256, .f32⟩
  | 8 => ⟨S256, .f32⟩
  | 9 => ⟨S128x1, .f32⟩
  | 10 => ⟨S1, .f32⟩
  | 11 => ⟨S256x1024, .f32⟩
  | 12 => ⟨S1024, .f32⟩
  | 13 => ⟨S512x256, .f32⟩
  | 14 => ⟨S256, .f32⟩
  | 15 => ⟨S256x512, .f32⟩
  | 16 => ⟨S512, .f32⟩
  | 17 => ⟨S512, .f32⟩
  | 18 => ⟨S512, .f32⟩
  | 19 => ⟨S512x256, .f32⟩
  | 20 => ⟨S256, .f32⟩
  | 21 => ⟨S128, .f32⟩
  | 22 => ⟨S1, .f32⟩
  | 23 => ⟨S512x512, .f32⟩
  | 24 => ⟨S512, .f32⟩
  | 25 => ⟨S512, .f32⟩
  | 26 => ⟨S512, .f32⟩
  | 27 => ⟨S512x256, .f32⟩
  | 28 => ⟨S256, .f32⟩
  | 29 => ⟨S256, .f32⟩
  | 30 => ⟨S256, .f32⟩
  | 31 => ⟨S8192x256, .f32⟩
  | 32 => ⟨S8192x1, .f32⟩
  | 33 => ⟨S8192x1, .f32⟩
  | 34 => ⟨S1x8192, .f32⟩
  | 35 => ⟨S8192x8192, .f32⟩
  | 36 => ⟨S8192x8192, .f32⟩
  | 37 => ⟨S8192x8192, .f32⟩
  | 38 => ⟨S_, .f32⟩
  | 39 => ⟨S8192x8192, .f32⟩
  | 40 => ⟨S8192x8192, .i1⟩
  | 41 => ⟨S_, .f32⟩
  | 42 => ⟨S8192x8192, .f32⟩
  | 43 => ⟨S8192x8192, .f32⟩
  | 44 => ⟨S8192x8192, .f32⟩
  | 45 => ⟨S_, .i32⟩
  | 46 => ⟨S8192x8192, .i32⟩
  | 47 => ⟨S8192x8192, .i1⟩
  | 48 => ⟨S_, .f32⟩
  | 49 => ⟨S8192x8192, .f32⟩
  | 50 => ⟨S8192x8192, .f32⟩
  | 51 => ⟨S_, .f32⟩
  | 52 => ⟨S8192, .f32⟩
  | 53 => ⟨S_, .f32⟩
  | 54 => ⟨S8192, .f32⟩
  | 55 => ⟨S8192, .f32⟩
  | 56 => ⟨S8192x1, .f32⟩
  | 57 => ⟨S8192x8192, .f32⟩
  | 58 => ⟨S8192x8192, .f32⟩
  | 59 => ⟨S8192x8192, .f32⟩
  | 60 => ⟨S_, .f32⟩
  | 61 => ⟨S8192, .f32⟩
  | 62 => ⟨S8192x1, .f32⟩
  | 63 => ⟨S8192x8192, .f32⟩
  | 64 => ⟨S8192x8192, .f32⟩
  | 65 => ⟨S8192x256, .f32⟩
  | 66 => ⟨S8192x512, .f32⟩
  | 67 => ⟨S1x512, .f32⟩
  | 68 => ⟨S8192x512, .f32⟩
  | 69 => ⟨S8192x512, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x512, .f32⟩
  | 77 => ⟨S8192x512, .f32⟩
  | 78 => ⟨S8192x512, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S8192x512, .f32⟩
  | 86 => ⟨S8192x512, .f32⟩
  | 87 => ⟨S_, .f32⟩
  | 88 => ⟨S8192x1, .f32⟩
  | 89 => ⟨S8192x1, .f32⟩
  | 90 => ⟨S8192x1, .f32⟩
  | 91 => ⟨S8192x512, .f32⟩
  | 92 => ⟨S8192x512, .f32⟩
  | 93 => ⟨S1x512, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S8192x512, .f32⟩
  | 108 => ⟨S8192x256, .f32⟩
  | 109 => ⟨S1x256, .f32⟩
  | 110 => ⟨S8192x256, .f32⟩
  | 111 => ⟨S8192x256, .f32⟩
  | 112 => ⟨S8192x384, .f32⟩
  | 113 => ⟨S1x384, .f32⟩
  | 114 => ⟨S8192x384, .f32⟩
  | 115 => ⟨S8192x384, .f32⟩
  | 116 => ⟨S8192x128, .f32⟩
  | 117 => ⟨S8192x128, .f32⟩
  | 118 => ⟨S8192x128, .f32⟩
  | 119 => ⟨S1x128, .f32⟩
  | 120 => ⟨S8192x128, .f32⟩
  | 121 => ⟨S8192x128, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1, .f32⟩
  | _ => ⟨S8192x256, .f32⟩

abbrev hbmTy0_1 (i : Nat) : BufTy := match i % 128 with
  | 0 => ⟨S8192x128, .f32⟩
  | 1 => ⟨S8192x128, .f32⟩
  | 2 => ⟨S8192x128, .f32⟩
  | 3 => ⟨S_, .f32⟩
  | 4 => ⟨S8192, .f32⟩
  | 5 => ⟨S8192x1, .f32⟩
  | 6 => ⟨S8192x128, .f32⟩
  | 7 => ⟨S8192x128, .f32⟩
  | 8 => ⟨S8192x128, .f32⟩
  | 9 => ⟨S8192x256, .f32⟩
  | 10 => ⟨S1x256, .f32⟩
  | 11 => ⟨S8192x256, .f32⟩
  | 12 => ⟨S8192x256, .f32⟩
  | 13 => ⟨S8192x256, .f32⟩
  | 14 => ⟨S8192x1024, .f32⟩
  | 15 => ⟨S1x1024, .f32⟩
  | 16 => ⟨S8192x1024, .f32⟩
  | 17 => ⟨S8192x1024, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S1x1, .f32⟩
  | 31 => ⟨S8192x512, .f32⟩
  | 32 => ⟨S8192x512, .f32⟩
  | 33 => ⟨S8192x512, .f32⟩
  | 34 => ⟨S8192x256, .f32⟩
  | 35 => ⟨S1x256, .f32⟩
  | 36 => ⟨S8192x256, .f32⟩
  | 37 => ⟨S8192x256, .f32⟩
  | 38 => ⟨S8192x1, .f32⟩
  | 39 => ⟨S1x1, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x256, .f32⟩
  | 46 => ⟨S8192x256, .f32⟩
  | 47 => ⟨S8192x512, .f32⟩
  | 48 => ⟨S8192x512, .f32⟩
  | 49 => ⟨S1x512, .f32⟩
  | 50 => ⟨S8192x512, .f32⟩
  | 51 => ⟨S8192x512, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x512, .f32⟩
  | 59 => ⟨S8192x512, .f32⟩
  | 60 => ⟨S8192x512, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x512, .f32⟩
  | 68 => ⟨S8192x512, .f32⟩
  | 69 => ⟨S_, .f32⟩
  | 70 => ⟨S8192x1, .f32⟩
  | 71 => ⟨S8192x1, .f32⟩
  | 72 => ⟨S8192x1, .f32⟩
  | 73 => ⟨S8192x512, .f32⟩
  | 74 => ⟨S8192x512, .f32⟩
  | 75 => ⟨S1x512, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x512, .f32⟩
  | 90 => ⟨S8192x256, .f32⟩
  | 91 => ⟨S1x256, .f32⟩
  | 92 => ⟨S8192x256, .f32⟩
  | 93 => ⟨S8192x256, .f32⟩
  | 94 => ⟨S8192x256, .f32⟩
  | 95 => ⟨S8192x256, .f32⟩
  | 96 => ⟨S_, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S8192x256, .f32⟩
  | 103 => ⟨S_, .f32⟩
  | 104 => ⟨S8192x256, .f32⟩
  | 105 => ⟨S8192x256, .f32⟩
  | 106 => ⟨S8192x256, .f32⟩
  | 107 => ⟨S8192x256, .f32⟩
  | 108 => ⟨S8192x256, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S8192x256, .f32⟩
  | 116 => ⟨S8192x256, .f32⟩
  | 117 => ⟨S8192x256, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S8192x256, .f32⟩
  | 125 => ⟨S8192x256, .f32⟩
  | 126 => ⟨S_, .f32⟩
  | 127 => ⟨S8192x1, .f32⟩
  | _ => ⟨S8192x256, .f32⟩

abbrev hbmTy0_2 (i : Nat) : BufTy := match i % 128 with
  | 0 => ⟨S8192x1, .f32⟩
  | 1 => ⟨S8192x1, .f32⟩
  | 2 => ⟨S8192x256, .f32⟩
  | 3 => ⟨S8192x256, .f32⟩
  | 4 => ⟨S1x256, .f32⟩
  | 5 => ⟨S8192x256, .f32⟩
  | 6 => ⟨S8192x256, .f32⟩
  | 7 => ⟨S1x256, .f32⟩
  | 8 => ⟨S8192x256, .f32⟩
  | 9 => ⟨S8192x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_call1_v0 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_4 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_7 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_9 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_call2_v5 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_10 : Ref sig .tc := ⟨.hbm, 122, rfl⟩
abbrev main_v70 : Ref sig .tc := ⟨.hbm, 123, rfl⟩
abbrev main_cst_11 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_12 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_call3_v0 : Ref sig .tc := ⟨.hbm, 148, rfl⟩
abbrev main_call3_v1 : Ref sig .tc := ⟨.hbm, 149, rfl⟩
abbrev main_call3_cst : Ref sig .tc := ⟨.hbm, 150, rfl⟩
abbrev main_call3_v2 : Ref sig .tc := ⟨.hbm, 151, rfl⟩
abbrev main_call3_v3 : Ref sig .tc := ⟨.hbm, 152, rfl⟩
abbrev main_call3_cst_0 : Ref sig .tc := ⟨.hbm, 153, rfl⟩
abbrev main_call3_v4 : Ref sig .tc := ⟨.hbm, 154, rfl⟩
abbrev main_call3_v5 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_13 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_14 : Ref sig .tc := ⟨.hbm, 180, rfl⟩
abbrev main_v116 : Ref sig .tc := ⟨.hbm, 181, rfl⟩
abbrev main_v117 : Ref sig .tc := ⟨.hbm, 182, rfl⟩
abbrev main_cst_15 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_16 : Ref sig .tc := ⟨.hbm, 189, rfl⟩
abbrev main_v123 : Ref sig .tc := ⟨.hbm, 190, rfl⟩
abbrev main_v124 : Ref sig .tc := ⟨.hbm, 191, rfl⟩
abbrev main_cst_17 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_18 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_call4_v0 : Ref sig .tc := ⟨.hbm, 209, rfl⟩
abbrev main_call4_v1 : Ref sig .tc := ⟨.hbm, 210, rfl⟩
abbrev main_call4_cst : Ref sig .tc := ⟨.hbm, 211, rfl⟩
abbrev main_call4_v2 : Ref sig .tc := ⟨.hbm, 212, rfl⟩
abbrev main_call4_v3 : Ref sig .tc := ⟨.hbm, 213, rfl⟩
abbrev main_call4_cst_0 : Ref sig .tc := ⟨.hbm, 214, rfl⟩
abbrev main_call4_v4 : Ref sig .tc := ⟨.hbm, 215, rfl⟩
abbrev main_call4_v5 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_19 : Ref sig .tc := ⟨.hbm, 224, rfl⟩
abbrev main_v147 : Ref sig .tc := ⟨.hbm, 225, rfl⟩
abbrev main_v148 : Ref sig .tc := ⟨.hbm, 226, rfl⟩
abbrev main_cst_20 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_cst_21 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_22 : Ref sig .tc := ⟨.hbm, 237, rfl⟩
abbrev main_v157 : Ref sig .tc := ⟨.hbm, 238, rfl⟩
abbrev main_v158 : Ref sig .tc := ⟨.hbm, 239, rfl⟩
abbrev main_cst_23 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_cst_24 : Ref sig .tc := ⟨.hbm, 246, rfl⟩
abbrev main_v164 : Ref sig .tc := ⟨.hbm, 247, rfl⟩
abbrev main_v165 : Ref sig .tc := ⟨.hbm, 248, rfl⟩
abbrev main_cst_25 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_cst_26 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S384_S1x384_1 : S384.BroadcastsInDim S1x384 (![1] : Fin 1 → Fin S1x384.rank)
  bcast_S1x384_S8192x384_0_1 : S1x384.BroadcastsInDim S8192x384 (![0, 1] : Fin 2 → Fin S8192x384.rank)
  slices_S8192x384_S8192x128_0_0 : S8192x384.Slices ![0, 0] S8192x128
  slices_S8192x384_S8192x128_0_128 : S8192x384.Slices ![0, 128] S8192x128
  slices_S8192x384_S8192x128_0_256 : S8192x384.Slices ![0, 256] S8192x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S8192x1_S8192x128_0_1 : S8192x1.BroadcastsInDim S8192x128 (![0, 1] : Fin 2 → Fin S8192x128.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x1024_S8192x512_0_0 : S8192x1024.Slices ![0, 0] S8192x512
  slices_S8192x1024_S8192x512_0_512 : S8192x1024.Slices ![0, 512] S8192x512
  bcast_S1_S1x1_1 : S1.BroadcastsInDim S1x1 (![1] : Fin 1 → Fin S1x1.rank)
  bcast_S1x1_S8192x512_0_1 : S1x1.BroadcastsInDim S8192x512 (![0, 1] : Fin 2 → Fin S8192x512.rank)
  bcast_S1x1_S8192x1_0_1 : S1x1.BroadcastsInDim S8192x1 (![0, 1] : Fin 2 → Fin S8192x1.rank)
  bcast_S8192x1_S8192x256_0_1 : S8192x1.BroadcastsInDim S8192x256 (![0, 1] : Fin 2 → Fin S8192x256.rank)
  concatenates_S8192x256_S8192x256_S8192x512_d1 : Shape.Concatenates [S8192x256, S8192x256] S8192x512 1
  bcast_S_S8192x256 : S_.BroadcastsInDim S8192x256 (![] : Fin 0 → Fin S8192x256.rank)
  reducesTo_S8192x256_S8192_d1 : S8192x256.ReducesTo [1] S8192
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []
  dot_S8192x256_S256x384_S8192x384_1_0_0_1_n_n_wf : DotDims.WF S8192x256 S256x384 S8192x384 [1] [0] [0] [1] [] []
  dot_S8192x128_S128x256_S8192x256_1_0_0_1_n_n_wf : DotDims.WF S8192x128 S128x256 S8192x256 [1] [0] [0] [1] [] []
  dot_S8192x256_S256x1024_S8192x1024_1_0_0_1_n_n_wf : DotDims.WF S8192x256 S256x1024 S8192x1024 [1] [0] [0] [1] [] []
  dot_S8192x128_S128x1_S8192x1_1_0_0_1_n_n_wf : DotDims.WF S8192x128 S128x1 S8192x1 [1] [0] [0] [1] [] []
  dot_S8192x512_S512x512_S8192x512_1_0_0_1_n_n_wf : DotDims.WF S8192x512 S512x512 S8192x512 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x384_S8192x384_1_0_0_1_n_n : DotDims S8192x256 S256x384 S8192x384 where
  lhsContracting := [1]
  rhsContracting := [0]
  lhsNonContracting := [0]
  rhsNonContracting := [1]
  lhsBatch := []
  rhsBatch := []
  wf := dot_S8192x256_S256x384_S8192x384_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/-
  The result of both programs, one output row at a time, on the extended reals.

  Every operation after the attention is row-wise: output row `r` depends on row `r` of
  `Wh = h · W`, on row `r` of the attention output and on the weights. So the result is stated as
  a function `epi` of those two rows. The attention output itself is the softmax, along a row of
  the masked leaky-relu logits, times `Wh`.

  The float words (layer-norm epsilon, row lengths, slope, mask fill, unit) are kept as their bit
  patterns: both programs spell the same words, so they are never evaluated here.
-/
import Idealize.ShloMosaic.PureOps.Ideal
import Idealize.ShloMosaic.Lib.ValueIdx

noncomputable section

namespace Cert.Spec

open Idealize.ShloMosaic Idealize.ShloMosaic.ValueIdx

/-- The words both programs spell. -/
abbrev wZero : EReal := Ideal.ofBits .f32 0x00000000#32
abbrev wOne : EReal := Ideal.ofBits .f32 0x3F800000#32
abbrev w512 : EReal := Ideal.ofBits .f32 0x44000000#32
abbrev w256 : EReal := Ideal.ofBits .f32 0x43800000#32
abbrev wEps : EReal := Ideal.ofBits .f32 0x3727C5AC#32
abbrev wSlope : EReal := Ideal.ofBits .f32 0x3E4CCCCD#32
abbrev wFill : EReal := Ideal.ofBits .f32 0xD9FFCB9E#32
abbrev wNegInf : EReal := Ideal.ofBits .f32 0xFF800000#32

/-! ## Row operations -/

/-- A row times a matrix, plus a bias row. -/
def lin {a b : ℕ} (x : Fin a → EReal) (W : Fin a → Fin b → EReal) (bias : Fin b → EReal) : Fin b → EReal :=
  fun q => (∑ k, x k * W k q) + bias q

/-- The mean of a row (`N` the word for its length). -/
def mean {n : ℕ} (N : EReal) (x : Fin n → EReal) : EReal := Ideal.div (∑ k, x k) N

/-- The variance of a row about its mean. -/
def var {n : ℕ} (N : EReal) (x : Fin n → EReal) : EReal :=
  Ideal.div (∑ k, (x k - mean N x) * (x k - mean N x)) N

/-- Layer norm of a row, in the reciprocal-square-root form. -/
def ln {n : ℕ} (N : EReal) (x g b : Fin n → EReal) : Fin n → EReal :=
  fun q => (x q - mean N x) * Ideal.rsqrt (var N x + wEps) * g q + b q

/-- `x · σ(x)`, entry by entry. -/
def silu {n : ℕ} (x : Fin n → EReal) : Fin n → EReal := fun q => x q * Ideal.logistic (x q)

/-- The maximum of a row, taken from `-∞` (and once more against `-∞`, as both programs do). -/
def rowMax {n : ℕ} (x : Fin n → EReal) : EReal := max wNegInf (Finset.univ.fold max wNegInf x)

/-- Softmax along a row. -/
def softmax {n : ℕ} (x : Fin n → EReal) : Fin n → EReal :=
  fun q => Ideal.div (Ideal.exp (x q - rowMax x)) (∑ k, Ideal.exp (x k - rowMax x))

/-! ## The weights, layout-free -/

structure Wts where
  fe1_w : Fin 256 → Fin 512 → EReal
  fe1_b : Fin 512 → EReal
  fe_ln_g : Fin 512 → EReal
  fe_ln_b : Fin 512 → EReal
  fe2_w : Fin 512 → Fin 256 → EReal
  fe2_b : Fin 256 → EReal
  W_bcdt : Fin 256 → Fin 384 → EReal
  b_bcdt : Fin 384 → EReal
  abp_w : Fin 128 → Fin 256 → EReal
  abp_b : Fin 256 → EReal
  cp_w : Fin 128 → EReal
  cp_b : EReal
  A : Fin 128 → EReal
  W_hz : Fin 256 → Fin 1024 → EReal
  b_hz : Fin 1024 → EReal
  D : EReal
  out_w : Fin 512 → Fin 256 → EReal
  out_b : Fin 256 → EReal
  g1_w : Fin 512 → Fin 512 → EReal
  g1_b : Fin 512 → EReal
  g_ln_g : Fin 512 → EReal
  g_ln_b : Fin 512 → EReal
  g2_w : Fin 512 → Fin 256 → EReal
  g2_b : Fin 256 → EReal
  ln_g : Fin 256 → EReal
  ln_b : Fin 256 → EReal

/-! ## One output row from its row of `Wh` and its row of the attention output -/

section Epi

variable (w : Wts) (wh ha : Fin 256 → EReal)

/-- The feature enhancer: linear, layer norm, silu, linear. -/
def hEnh : Fin 256 → EReal :=
  lin (silu (ln w512 (lin wh w.fe1_w w.fe1_b) w.fe_ln_g w.fe_ln_b)) w.fe2_w w.fe2_b

/-- The projection whose three thirds are `B`, `C` and `dt`. -/
def bcdt : Fin 384 → EReal := lin wh w.W_bcdt w.b_bcdt
def Bq (q : Fin 128) : EReal := bcdt w wh ⟨q.val, by omega⟩
def Cq (q : Fin 128) : EReal := bcdt w wh ⟨128 + q.val, by omega⟩
def dtq (q : Fin 128) : EReal := bcdt w wh ⟨256 + q.val, by omega⟩

/-- `softmax (dt + A) · B`, projected. -/
def ab : Fin 256 → EReal :=
  lin (fun q => softmax (fun k => dtq w wh k + w.A k) q * Bq w wh q) w.abp_w w.abp_b

/-- The gated hidden projection and its two halves. -/
def hz : Fin 1024 → EReal := lin (fun q => wh q * ab w wh q) w.W_hz w.b_hz
def hPart (q : Fin 512) : EReal := hz w wh ⟨q.val, by omega⟩
def zq (q : Fin 512) : EReal := hz w wh ⟨512 + q.val, by omega⟩

def hs2 : Fin 256 → EReal :=
  lin (fun q => hPart w wh q * (zq w wh q * Ideal.logistic (zq w wh q)) + hPart w wh q * w.D) w.out_w w.out_b

/-- The scalar projection of `C`. -/
def cProj : EReal := (∑ k, Cq w wh k * w.cp_w k) + w.cp_b

def hsFinal : Fin 256 → EReal := fun q => hs2 w wh q * (wOne + cProj w wh)

/-- The attention row and the state-space row side by side. -/
def comb : Fin 512 → EReal := fun q =>
  if h : q.val < 256 then ha ⟨q.val, h⟩ else hsFinal w wh ⟨q.val - 256, by omega⟩

/-- The gate. -/
def gate : Fin 256 → EReal := fun q =>
  Ideal.logistic (lin (silu (ln w512 (lin (comb w wh ha) w.g1_w w.g1_b) w.g_ln_g w.g_ln_b)) w.g2_w w.g2_b q)

def fused : Fin 256 → EReal := fun q =>
  gate w wh ha q * ha q + (wOne - gate w wh ha q) * hsFinal w wh q + hEnh w wh q

/-- One output row. -/
def epi : Fin 256 → EReal := ln w256 (fused w wh ha) w.ln_g w.ln_b

end Epi

/-! ## The attention -/

/-- The masked leaky-relu logit from the two projections' entries and the adjacency word. -/
def logit (qs ks : EReal) (adj : BitVec 32) : EReal :=
  Scalar.select (IntOp.cmpi .sgt adj 0#32)
    (Scalar.select (FloatOps.cmpf (F := Ideal) (φ := .f32) .ogt (qs + ks) wZero) (qs + ks) (wSlope * (qs + ks))) wFill

/-- `Wh = h · W` at row `r`, column `c`. -/
def Wh (h : (⟨2, ![8192, 256]⟩ : Shape).Idx → EReal) (W : (⟨2, ![256, 256]⟩ : Shape).Idx → EReal)
    (r : Fin 8192) (c : Fin 256) : EReal := ∑ k : Fin 256, h (ix2 r k) * W (ix2 k c)

/-- A row of `Wh` against one of the two attention vectors (a `256 × 1` column). -/
def proj (wh : Fin 256 → EReal) (a : (⟨2, ![256, 1]⟩ : Shape).Idx → EReal) : EReal :=
  ∑ c : Fin 256, wh c * a (ix2 c 0)

/-- The softmax of a row of logits against a column of values. -/
def attn (e v : Fin 8192 → EReal) : EReal := ∑ k, softmax e k * v k

/-- Row `r` of the logits. -/
def logits (h : (⟨2, ![8192, 256]⟩ : Shape).Idx → EReal) (adj : (⟨2, ![8192, 8192]⟩ : Shape).Idx → BitVec 32)
    (W : (⟨2, ![256, 256]⟩ : Shape).Idx → EReal) (aSrc aDst : (⟨2, ![256, 1]⟩ : Shape).Idx → EReal)
    (r : Fin 8192) : Fin 8192 → EReal :=
  fun k => logit (proj (Wh h W r) aSrc) (proj (Wh h W k) aDst) (adj (ix2 r k))

/-- Row `r` of the result. -/
def outRow (h : (⟨2, ![8192, 256]⟩ : Shape).Idx → EReal) (adj : (⟨2, ![8192, 8192]⟩ : Shape).Idx → BitVec 32)
    (W : (⟨2, ![256, 256]⟩ : Shape).Idx → EReal) (aSrc aDst : (⟨2, ![256, 1]⟩ : Shape).Idx → EReal) (w : Wts)
    (r : Fin 8192) : Fin 256 → EReal :=
  epi w (Wh h W r) (fun c => attn (logits h adj W aSrc aDst r) (fun k => Wh h W k c))

end Cert.Spec

end
-- ==== Proof.AttnPay.lean ====
/-
  The attention update read at an index.

  One column step of the online softmax takes the running row maximum, the running denominator and
  the running numerator block, and a tile of logits. Here each of the three updated values is read at
  an index: the new maximum is the old one against the tile row's maximum, the new denominator is the
  old one rescaled plus the row sum of the shifted exponentials, the new numerator is the old one
  rescaled plus the shifted exponentials against the value tile.
-/
import proofs.«172967_j79852031967736_2_alg».proof.Proof.Gen.KernelIdeal.Skeleton
import proofs.«172967_j79852031967736_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Attn

open Idealize.ShloMosaic Idealize.ShloMosaic.ValueIdx Cert.KernelIdeal Cert.KernelIdeal.Gen

/-! ## Layout operations at an index -/

section Layout
variable {α : Type}

/-- A column `[a, 1]` broadcast to `[a, b]` reads, at `(p, c)`, the column at `p`. -/
theorem bcol_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    exact (if_pos rfl).symm

/-- An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The initial values -/

theorem pay17_apply (p : Fin 512) : k0_pay17 (F := Ideal) (ix2 p 0) = Cert.Spec.wNegInf := by
  unfold k0_pay17
  rw [shapeCast_self]
  rfl

theorem pay18_apply (p : Fin 512) : k0_pay18 (F := Ideal) (ix2 p 0) = Cert.Spec.wZero := by
  unfold k0_pay18
  rw [shapeCast_self]
  rfl

theorem pay19_apply (p : Fin 512) (c : Fin 256) : k0_pay19 (F := Ideal) (ix2 p c) = Cert.Spec.wZero := by
  unfold k0_pay19
  rw [shapeCast_self]
  rfl

/-! ## The tile of logits -/

/-- The logit at row `p`, column `b` of the tile. -/
def tileLogit (x0 : Vec Ideal S512x1 .f32) (x1 : Vec Ideal S1x2048 .f32) (x2 : Vec Ideal S512x2048 .i32)
    (p : Fin 512) (b : Fin 2048) : EReal :=
  Cert.Spec.logit (x0 (ix2 p 0)) (x1 (ix2 0 b)) (x2 (ix2 p b))

theorem pay20_apply (x0 : Vec Ideal S512x1 .f32) (x1 : Vec Ideal S1x2048 .f32) (x2 : Vec Ideal S512x2048 .i32)
    (p : Fin 512) (b : Fin 2048) : k0_pay20 x0 x1 x2 (ix2 p b) = tileLogit x0 x1 x2 p b := by
  unfold k0_pay20 tileLogit Cert.Spec.logit
  rw [shapeCast_self, shapeCast_self]
  have h7 : broadcastTo S512x2048 x0 broadcasts_S512x1_S512x2048 (ix2 p b) = x0 (ix2 p 0) :=
    bcol_apply x0 broadcasts_S512x1_S512x2048 p b
  have h8 : broadcastTo S512x2048 x1 broadcasts_S1x2048_S512x2048 (ix2 p b) = x1 (ix2 0 b) :=
    broadcastTo_1b_ab_apply x1 broadcasts_S1x2048_S512x2048 p b
  simp only [select_apply, cmpf_apply, mulf_apply, addf_apply, broadcast_apply, h7, h8]
  rfl

/-! ## Reductions along a row of the tile -/

/-- The maximum along row `p` of a `512 × 2048` block, from `-∞`. -/
theorem rowMax_apply (src : FVec Ideal S512x2048 .f32) (hφ : FKind.Formats .f32)
    (hacc : (0xFF800000#32 : BitVec 32) = 0xFF800000#32) (p : Fin 512) :
    multiReduction .maximumf [1] S512 src 0xFF800000#32 reduces_S512x2048_S512 hφ hacc (ix1 p)
      = Finset.univ.fold max Cert.Spec.wNegInf (fun b : Fin 2048 => src (ix2 p b)) := by
  refine (Ideal.multiReduction_maximumf_single src 0xFF800000#32 reduces_S512x2048_S512 hφ hacc (ix1 p)).trans ?_
  show (Finset.univ : Finset (Fin 2048)).fold max Cert.Spec.wNegInf
      (fun b : Fin 2048 => src (reduces_S512x2048_S512.lift (ix1 p) b)) = _
  congr 1
  funext b
  exact congrArg src (funext fun a => Fin.ext (match a with | ⟨0, _⟩ => rfl | ⟨1, _⟩ => rfl))

/-- The sum along row `p` of a `512 × 2048` block. -/
theorem rowSum_apply (src : FVec Ideal S512x2048 .f32) (hφ : FKind.Formats .f32)
    (hacc : (0x00000000#32 : BitVec 32) = 0x00000000#32) (p : Fin 512) :
    multiReduction .add [1] S512 src 0x00000000#32 reduces_S512x2048_S512 hφ hacc (ix1 p)
      = ∑ b : Fin 2048, src (ix2 p b) := by
  refine (Ideal.multiReduction_add_single src 0x00000000#32 reduces_S512x2048_S512 hφ hacc (ix1 p)).trans ?_
  show ∑ b : Fin 2048, src (reduces_S512x2048_S512.lift (ix1 p) b) = _
  refine Finset.sum_congr rfl fun b _ => ?_
  exact congrArg src (funext fun a => Fin.ext (match a with | ⟨0, _⟩ => rfl | ⟨1, _⟩ => rfl))

/-! ## The product of the tile of weights with the tile of values -/

theorem lhs_tile_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_tile_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_tile_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_tile_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A `512 × 2048` block times a `2048 × 256` block, read at `(p, c)`. -/
theorem tile_matmul_apply (l : FVec Ideal S512x2048 .bf16) (r : FVec Ideal S2048x256 .bf16) (p : Fin 512) (c : Fin 256) :
    matmul dot_S512x2048_S2048x256_S512x256_1_0_0_1_n_n none l r (constant (F := Ideal) S512x256 .f32 0x00000000#32) (ix2 p c)
      = ∑ b : Fin 2048, l (ix2 p b) * r (ix2 b c) := by
  simp only [matmul]
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p c) ((contrEquiv1 dot_S512x2048_S2048x256_S512x256_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S512x2048_S2048x256_S512x256_1_0_0_1_n_n.rhsIdx (ix2 p c) ((contrEquiv1 dot_S512x2048_S2048x256_S512x256_1_0_0_1_n_n 2048 rfl rfl).symm k) = ix2 k c := funext fun a => Fin.ext (by
    match a with
    | ⟨0, _⟩ => exact (rhs_tile_0 _ _).trans hk
    | ⟨1, _⟩ => exact rhs_tile_1 _ _)
  rw [el, er]

/-! ## The three updated values -/

/-- The new row maximum. -/
def stepM (x0 : Vec Ideal S512x1 .f32) (x1 : Vec Ideal S1x2048 .f32) (x2 : Vec Ideal S512x2048 .i32)
    (mIn : Vec Ideal S512x1 .f32) : FVec Ideal S512x1 .f32 :=
  k0_pay3 (k0_pay21 x0 x1 x2 mIn)

/-- The new denominator. -/
def stepL (x0 : Vec Ideal S512x1 .f32) (x1 : Vec Ideal S1x2048 .f32) (x2 : Vec Ideal S512x2048 .i32)
    (mIn lIn : Vec Ideal S512x1 .f32) : FVec Ideal S512x1 .f32 :=
  k0_pay1 (k0_pay24 x0 x1 x2 mIn mIn lIn)

/-- The new numerator block. -/
def stepAcc (x0 : Vec Ideal S512x1 .f32) (x1 : Vec Ideal S1x2048 .f32) (x2 : Vec Ideal S512x2048 .i32)
    (tile : Vec Ideal S2048x256 .bf16) (mIn : Vec Ideal S512x1 .f32) (accIn : Vec Ideal S512x256 .f32) :
    FVec Ideal S512x256 .f32 :=
  k0_pay2 (k0_pay22 x0 x1 x2 mIn mIn) (k0_pay23 x0 x1 x2 mIn) tile accIn

theorem stepM_eq (x0 : Vec Ideal S512x1 .f32) (x1 : Vec Ideal S1x2048 .f32) (x2 : Vec Ideal S512x2048 .i32)
    (mIn : Vec Ideal S512x1 .f32) : stepM x0 x1 x2 mIn = k0_pay21 x0 x1 x2 mIn := by
  unfold stepM k0_pay3
  exact shapeCast_self _ _

theorem stepM_apply (x0 : Vec Ideal S512x1 .f32) (x1 : Vec Ideal S1x2048 .f32) (x2 : Vec Ideal S512x2048 .i32)
    (mIn : Vec Ideal S512x1 .f32) (p : Fin 512) :
    stepM x0 x1 x2 mIn (ix2 p 0) = max (mIn (ix2 p 0))
      (Finset.univ.fold max Cert.Spec.wNegInf (fun b : Fin 2048 => tileLogit x0 x1 x2 p b)) := by
  rw [stepM_eq]
  unfold k0_pay21
  rw [maximumf_apply]
  refine congrArg (max (mIn (ix2 p 0))) ?_
  refine (shapeCast_a_a1_apply _ shapeCasts_S512_S512x1 p 0).trans ?_
  refine (rowMax_apply (k0_pay20 x0 x1 x2) _ _ p).trans ?_
  congr 1
  funext b
  exact pay20_apply x0 x1 x2 p b

/-- The rescaling factor of the running values. -/
theorem pay22_apply (x0 : Vec Ideal S512x1 .f32) (x1 : Vec Ideal S1x2048 .f32) (x2 : Vec Ideal S512x2048 .i32)
    (mIn m : Vec Ideal S512x1 .f32) (p : Fin 512) :
    k0_pay22 x0 x1 x2 mIn m (ix2 p 0) = Ideal.exp (m (ix2 p 0) - stepM x0 x1 x2 mIn (ix2 p 0)) := by
  rw [stepM_eq]
  unfold k0_pay22
  rfl

/-- The shifted exponentials of the tile. -/
theorem pay23_apply (x0 : Vec Ideal S512x1 .f32) (x1 : Vec Ideal S1x2048 .f32) (x2 : Vec Ideal S512x2048 .i32)
    (mIn : Vec Ideal S512x1 .f32) (p : Fin 512) (b : Fin 2048) :
    k0_pay23 x0 x1 x2 mIn (ix2 p b) = Ideal.exp (tileLogit x0 x1 x2 p b - stepM x0 x1 x2 mIn (ix2 p 0)) := by
  rw [stepM_eq]
  unfold k0_pay23
  show Ideal.exp (k0_pay20 x0 x1 x2 (ix2 p b)
    - broadcastTo S512x2048 (k0_pay21 x0 x1 x2 mIn) broadcasts_S512x1_S512x2048 (ix2 p b)) = _
  rw [pay20_apply, bcol_apply]

theorem stepL_apply (x0 : Vec Ideal S512x1 .f32) (x1 : Vec Ideal S1x2048 .f32) (x2 : Vec Ideal S512x2048 .i32)
    (mIn lIn : Vec Ideal S512x1 .f32) (p : Fin 512) :
    stepL x0 x1 x2 mIn lIn (ix2 p 0) = Ideal.exp (mIn (ix2 p 0) - stepM x0 x1 x2 mIn (ix2 p 0)) * lIn (ix2 p 0)
      + ∑ b : Fin 2048, Ideal.exp (tileLogit x0 x1 x2 p b - stepM x0 x1 x2 mIn (ix2 p 0)) := by
  unfold stepL k0_pay1
  rw [shapeCast_self]
  unfold k0_pay24
  rw [addf_apply, mulf_apply, pay22_apply]
  refine congrArg (Ideal.exp (mIn (ix2 p 0) - stepM x0 x1 x2 mIn (ix2 p 0)) * lIn (ix2 p 0) + ·) ?_
  refine (shapeCast_a_a1_apply _ shapeCasts_S512_S512x1 p 0).trans ?_
  refine (rowSum_apply (k0_pay23 x0 x1 x2 mIn) _ _ p).trans ?_
  exact Finset.sum_congr rfl fun b _ => pay23_apply x0 x1 x2 mIn p b

theorem stepAcc_apply (x0 : Vec Ideal S512x1 .f32) (x1 : Vec Ideal S1x2048 .f32) (x2 : Vec Ideal S512x2048 .i32)
    (tile : Vec Ideal S2048x256 .bf16) (mIn : Vec Ideal S512x1 .f32) (accIn : Vec Ideal S512x256 .f32)
    (p : Fin 512) (c : Fin 256) :
    stepAcc x0 x1 x2 tile mIn accIn (ix2 p c)
      = Ideal.exp (mIn (ix2 p 0) - stepM x0 x1 x2 mIn (ix2 p 0)) * accIn (ix2 p c)
        + ∑ b : Fin 2048, Ideal.exp (tileLogit x0 x1 x2 p b - stepM x0 x1 x2 mIn (ix2 p 0)) * tile (ix2 b c) := by
  unfold stepAcc k0_pay2
  rw [shapeCast_self, shapeCast_self, addf_apply, mulf_apply, bcol_apply, pay22_apply, tile_matmul_apply]
  refine congrArg (Ideal.exp (mIn (ix2 p 0) - stepM x0 x1 x2 mIn (ix2 p 0)) * accIn (ix2 p c) + ·) ?_
  refine Finset.sum_congr rfl fun b _ => ?_
  rw [truncf_apply, pay23_apply]

end Cert.KernelIdeal.Attn

end
-- ==== Proof.EpiA0.lean ====
import proofs.«172967_j79852031967736_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«172967_j79852031967736_2_alg».proof.Proof.Spec

noncomputable section

namespace Cert.KernelIdeal.EpiA

open Idealize.ShloMosaic Idealize.ShloMosaic.ValueIdx Cert.KernelIdeal Cert.KernelIdeal.Gen

/-! ## Layout operations read at coordinates -/

section Layout
variable {α : Type}

/-- A column `[a, 1]` broadcast to `[a, b]` reads, at `(p, c)`, the column at `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry `[1, 1]` broadcast to `[a, b]` reads that entry everywhere. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to the column `[a, 1]` reads, at `(p, 0)`, the vector at `p`. -/
theorem cast_col {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

end Layout

/-! ## Reductions along the lanes -/

/-- The lane sum of an `[a, n]` block, at row `p`. -/
theorem lane_sum {a n : ℕ} (v : FVec Ideal ⟨2, ![a, n]⟩ .f32)
    (hr : (⟨2, ![a, n]⟩ : Shape).Reduces [1] ⟨1, ![a]⟩) (hφ : FTy.f32 = FTy.f32 ∨ FTy.f32 = FTy.bf16)
    (hacc : (0x00000000#32 : BitVec 32) = 0x00000000#32) (p : Fin a) :
    multiReduction (F := Ideal) .add (no_index [1]) ⟨1, ![a]⟩ v 0x00000000#32 hr hφ hacc (ix1 p) = ∑ k : Fin n, v (ix2 p k) := by
  refine (Ideal.multiReduction_add_single v 0x00000000#32 hr hφ hacc (ix1 p)).trans ?_
  refine Finset.sum_congr rfl fun k _ => congrArg v (funext fun c => Fin.ext ?_)
  match c with
  | ⟨0, _⟩ => rfl
  | ⟨1, _⟩ => rfl

/-- The lane maximum of an `[a, n]` block, at row `p`, from `-∞`'s word. -/
theorem lane_max {a n : ℕ} (v : FVec Ideal ⟨2, ![a, n]⟩ .f32)
    (hr : (⟨2, ![a, n]⟩ : Shape).Reduces [1] ⟨1, ![a]⟩) (hφ : FTy.f32 = FTy.f32 ∨ FTy.f32 = FTy.bf16)
    (hacc : (0xFF800000#32 : BitVec 32) = 0xFF800000#32) (p : Fin a) :
    multiReduction (F := Ideal) .maximumf (no_index [1]) ⟨1, ![a]⟩ v 0xFF800000#32 hr hφ hacc (ix1 p)
      = (Finset.univ : Finset (Fin n)).fold max (Ideal.ofBits .f32 0xFF800000#32) (fun k => v (ix2 p k)) := by
  refine (Ideal.multiReduction_maximumf_single v 0xFF800000#32 hr hφ hacc (ix1 p)).trans ?_
  refine congrArg (fun f => (Finset.univ : Finset (Fin n)).fold max (Ideal.ofBits .f32 0xFF800000#32) f) (funext fun k => ?_)
  refine congrArg v (funext fun c => Fin.ext ?_)
  match c with
  | ⟨0, _⟩ => rfl
  | ⟨1, _⟩ => rfl

/-- The lane sum kept as a column. -/
theorem lane_sum_col {a n : ℕ} (v : FVec Ideal ⟨2, ![a, n]⟩ .f32)
    (hr : (⟨2, ![a, n]⟩ : Shape).Reduces [1] ⟨1, ![a]⟩) (hφ : FTy.f32 = FTy.f32 ∨ FTy.f32 = FTy.bf16)
    (hacc : (0x00000000#32 : BitVec 32) = 0x00000000#32)
    (hc : (⟨1, ![a]⟩ : Shape).ShapeCasts ⟨2, ![a, 1]⟩) (p : Fin a) :
    shapeCast ⟨2, ![a, 1]⟩ (multiReduction (F := Ideal) .add (no_index [1]) ⟨1, ![a]⟩ v 0x00000000#32 hr hφ hacc) hc (ix2 p (0 : Fin 1))
      = ∑ k : Fin n, v (ix2 p k) := by
  rw [cast_col, lane_sum]

/-! ## The pointwise special functions read at an index -/

theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-- A row `[1, b]`, cast to itself and broadcast over `a` rows, reads at `(p, c)` the row at `c`. -/
theorem bcast_row {a b : ℕ} (v : (⟨2, ![1, b]⟩ : Shape).Idx → EReal) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self, broadcastTo_1b_ab_apply]

/-! ## The matrix products read at coordinates -/

theorem lhs_256_512_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_256_512_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_256_512_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_256_512_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl
/-- A `[512, 256]` block times a `[256, 512]` block, into zero, at `(p, q)`. -/
theorem mm_256_512 (lhs : FVec Ideal S512x256 .bf16) (rhs : FVec Ideal S256x512 .bf16) (p : Fin 512) (q : Fin 512) :
    matmul dot_S512x256_S256x512_S512x512_1_0_0_1_n_n none lhs rhs (constant (F := Ideal) S512x512 .f32 0x00000000#32) (ix2 p q)
      = ∑ k : Fin 256, lhs (ix2 p k) * rhs (ix2 k q) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k := funext fun a => Fin.ext (by
    match a with
    | ⟨0, _⟩ => exact lhs_256_512_0 _ _
    | ⟨1, _⟩ => exact (lhs_256_512_1 _ _).trans hk)
  have er : dot_S512x256_S256x512_S512x512_1_0_0_1_n_n.rhsIdx (ix2 p q) ((contrEquiv1 dot_S512x256_S256x512_S512x512_1_0_0_1_n_n 256 rfl rfl).symm k) = ix2 k q := funext fun a => Fin.ext (by
    match a with
    | ⟨0, _⟩ => exact (rhs_256_512_0 _ _).trans hk
    | ⟨1, _⟩ => exact rhs_256_512_1 _ _)
  rw [el, er]

theorem lhs_512_256_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_512_256_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_512_256_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_512_256_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl
/-- A `[512, 512]` block times a `[512, 256]` block, into zero, at `(p, q)`. -/
theorem mm_512_256 (lhs : FVec Ideal S512x512 .bf16) (rhs : FVec Ideal S512x256 .bf16) (p : Fin 512) (q : Fin 256) :
    matmul dot_S512x512_S512x256_S512x256_1_0_0_1_n_n none lhs rhs (constant (F := Ideal) S512x256 .f32 0x00000000#32) (ix2 p q)
      = ∑ k : Fin 512, lhs (ix2 p k) * rhs (ix2 k q) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact lhs_512_256_0 _ _
    | ⟨1, _⟩ => exact (lhs_512_256_1 _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (rhs_512_256_0 _ _).trans hk
    | ⟨1, _⟩ => exact rhs_512_256_1 _ _)
  rw [el, er]

theorem lhs_256_384_0 (i : S512x384.Idx) (q : dot_S512x256_S256x384_S512x384_1_0_0_1_n_n.contr.Idx) :
    (dot_S512x256_S256x384_S512x384_1_0_0_1_n_n.lhsIdx i q 0).val = (i 0).val := by
  unfold DotDims.lhsIdx
  rw [dif_neg (show ¬(0 : Fin S512x256.rank) ∈ dot_S512x256_S256x384_S512x384_1_0_0_1_n_n.lhsBatch by decide), dif_pos (show (0 : Fin S512x256.rank) ∈ dot_S512x256_S256x384_S512x384_1_0_0_1_n_n.lhsNonContracting by decide)]
  rfl
theorem lhs_256_384_1 (i : S512x384.Idx) (q : dot_S512x256_S256x384_S512x384_1_0_0_1_n_n.contr.Idx) :
    (dot_S512x256_S256x384_S512x384_1_0_0_1_n_n.lhsIdx i q 1).val = (q ⟨0, by decide⟩).val :=
  dot_S512x256_S256x384_S512x384_1_0_0_1_n_n.lhsIdx_val_of_single rfl i q
theorem rhs_256_384_0 (i : S512x384.Idx) (q : dot_S512x256_S256x384_S512x384_1_0_0_1_n_n.contr.Idx) :
    (dot_S512x256_S256x384_S512x384_1_0_0_1_n_n.rhsIdx i q 0).val = (q ⟨0, by decide⟩).val :=
  dot_S512x256_S256x384_S512x384_1_0_0_1_n_n.rhsIdx_val_of_single rfl i q
theorem rhs_256_384_1 (i : S512x384.Idx) (q : dot_S512x256_S256x384_S512x384_1_0_0_1_n_n.contr.Idx) :
    (dot_S512x256_S256x384_S512x384_1_0_0_1_n_n.rhsIdx i q 1).val = (i 1).val := by
  unfold DotDims.rhsIdx
  rw [dif_neg (show ¬(1 : Fin S256x384.rank) ∈ dot_S512x256_S256x384_S512x384_1_0_0_1_n_n.rhsBatch by decide), dif_pos (show (1 : Fin S256x384.rank) ∈ dot_S512x256_S256x384_S512x384_1_0_0_1_n_n.rhsNonContracting by decide)]
  rfl
/-- A `[512, 256]` block times a `[256, 384]` block, into zero, at `(p, q)`. -/
theorem mm_256_384 (lhs : FVec Ideal S512x256 .bf16) (rhs : FVec Ideal S256x384 .bf16) (p : Fin 512) (q : Fin 384) :
    matmul dot_S512x256_S256x384_S512x384_1_0_0_1_n_n none lhs rhs (constant (F := Ideal) S512x384 .f32 0x00000000#32) (ix2 p q)
      = ∑ k : Fin 256, lhs (ix2 p k) * rhs (ix2 k q) := by
  simp only [matmul]
  rw [Ideal.matmul_constant_zero_apply, ← Equiv.sum_comp (contrEquiv1 dot_S512x256_S256x384_S512x384_1_0_0_1_n_n 256 rfl rfl).symm]
  refine Finset.sum_congr rfl fun k _ => ?_
  have hk := contrEquiv1_symm_val dot_S512x256_S256x384_S512x384_1_0_0_1_n_n 256 rfl rfl k
  have el : dot_S512x256_S256x384_S512x384_1_0_0_1_n_n.lhsIdx (ix2 p q) ((contrEquiv1 dot_S512x256_S256x384_S512x384_1_0_0_1_n_n 256 rfl rfl).symm k) = ix2 p k := funext fun a => Fin.ext (by
    match a with
    | ⟨0, _⟩ => exact lhs_256_384_0 _ _
    | ⟨1, _⟩ => exact (lhs_256_384_1 _ _).trans hk)
  have er : dot_S512x256_S256x384_S512x384_1_0_0_1_n_n.rhsIdx (ix2 p q) ((contrEquiv1 dot_S512x256_S256x384_S512x384_1_0_0_1_n_n 256 rfl rfl).symm k) = ix2 k q := funext fun a => Fin.ext (by
    match a with
    | ⟨0, _⟩ => exact (rhs_256_384_0 _ _).trans hk
    | ⟨1, _⟩ => exact rhs_256_384_1 _ _)
  rw [el, er]

theorem lhs_128_256_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
theorem lhs_128_256_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem rhs_128_256_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem rhs_128_256_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl
/-- A `[512, 128]` block times a `[128, 256]` block, into zero, at `(p, q)`. -/
theorem mm_128_256 (lhs : FVec Ideal S512x128 .bf16) (rhs : FVec Ideal S128x256 .bf16) (p : Fin 512) (q : Fin 256) :
    matmul dot_S512x128_S128x256_S512x256_1_0_0_1_n_n none lhs rhs (constant (F := Ideal) S512x256 .f32 0x00000000#32) (ix2 p q)
      = ∑ k : Fin 128, lhs (ix2 p k) * rhs (ix2 k q) := by
  simp only [matmul]
  rw [Ideal.matmul_constant_zero_apply, ← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 p q) ((contrEquiv1 dot_S512x128_S128x256_S512x256_1_0_0_1_n_n 128 rfl rfl).symm k) = ix2 p k := funext fun a => Fin.ext (by
    match a with
    | ⟨0, _⟩ => exact lhs_128_256_0 _ _
    | ⟨1, _⟩ => exact (lhs_128_256_1 _ _).trans hk)
  have er : dot_S512x128_S128x256_S512x256_1_0_0_1_n_n.rhsIdx (ix2 p q) ((contrEquiv1 dot_S512x128_S128x256_S512x256_1_0_0_1_n_n 128 rfl rfl).symm k) = ix2 k q := funext fun a => Fin.ext (by
    match a with
    | ⟨0, _⟩ => exact (rhs_128_256_0 _ _).trans hk
    | ⟨1, _⟩ => exact rhs_128_256_1 _ _)
  rw [el, er]

theorem lhs_256_1024_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_256_1024_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_256_1024_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_256_1024_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl
/-- A `[512, 256]` block times a `[256, 1024]` block, into zero, at `(p, q)`. -/
theorem mm_256_1024 (lhs : FVec Ideal S512x256 .bf16) (rhs : FVec Ideal S256x1024 .bf16) (p : Fin 512) (q : Fin 1024) :
    matmul dot_S512x256_S256x1024_S512x1024_1_0_0_1_n_n none lhs rhs (constant (F := Ideal) S512x1024 .f32 0x00000000#32) (ix2 p q)
      = ∑ k : Fin 256, lhs (ix2 p k) * rhs (ix2 k q) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q) ((contrEquiv1 dot_S512x256_S256x1024_S512x1024_1_0_0_1_n_n 256 rfl rfl).symm k) = ix2 p k := funext fun a => Fin.ext (by
    match a with
    | ⟨0, _⟩ => exact lhs_256_1024_0 _ _
    | ⟨1, _⟩ => exact (lhs_256_1024_1 _ _).trans hk)
  have er : dot_S512x256_S256x1024_S512x1024_1_0_0_1_n_n.rhsIdx (ix2 p q) ((contrEquiv1 dot_S512x256_S256x1024_S512x1024_1_0_0_1_n_n 256 rfl rfl).symm k) = ix2 k q := funext fun a => Fin.ext (by
    match a with
    | ⟨0, _⟩ => exact (rhs_256_1024_0 _ _).trans hk
    | ⟨1, _⟩ => exact rhs_256_1024_1 _ _)
  rw [el, er]

end Cert.KernelIdeal.EpiA

end
-- ==== Proof.EpiA.lean ====
import proofs.«172967_j79852031967736_2_alg».proof.Proof.Gen.KernelIdeal.Skeleton
import proofs.«172967_j79852031967736_2_alg».proof.Proof.Spec
import proofs.«172967_j79852031967736_2_alg».proof.Proof.EpiA0

/-!
  The first half of the kernel's epilogue, one block row at a time: each payload read at an index is the
  row-level specification's function of the row of `Wh` (the feature enhancer, the `B`/`C`/`dt` projection
  and its slices, the softmax of `dt + A` times `B` projected, the gated hidden projection, the scalar
  projection of `C`).
-/

noncomputable section

namespace Cert.KernelIdeal.EpiA

open Idealize.ShloMosaic Idealize.ShloMosaic.ValueIdx Cert.KernelIdeal Cert.KernelIdeal.Gen

theorem pay5_apply (acc : Vec Ideal S512x256 .f32) (l : Vec Ideal S512x1 .f32) (p : Fin 512) (c : Fin 256) :
    k0_pay5 (F := Ideal) acc l (ix2 p c) = Ideal.div (acc (ix2 p c)) (l (ix2 p 0)) := by
  simp only [k0_pay5, divf_apply, bcast_col]

theorem pay6_eq (x4 : Vec Ideal S512x256 .f32) : k0_pay6 (F := Ideal) x4 = x4 := by
  unfold k0_pay6
  exact shapeCast_self _ _

theorem pay7_apply (x4 : Vec Ideal S512x256 .f32) (x5 : Vec Ideal S256x512 .f32) (x6 x7 x8 : Vec Ideal S1x512 .f32)
    (w : Cert.Spec.Wts) (h5 : ∀ k q, x5 (ix2 k q) = w.fe1_w k q) (h6 : ∀ q, x6 (ix2 0 q) = w.fe1_b q)
    (h7 : ∀ q, x7 (ix2 0 q) = w.fe_ln_g q) (h8 : ∀ q, x8 (ix2 0 q) = w.fe_ln_b q) (p q : Fin 512) :
    k0_pay7 (F := Ideal) x4 x5 x6 x7 x8 (ix2 p q)
      = Cert.Spec.ln Cert.Spec.w512 (Cert.Spec.lin (fun c => x4 (ix2 p c)) w.fe1_w w.fe1_b) w.fe_ln_g w.fe_ln_b q := by
  unfold k0_pay7
  simp only [addf_apply, mulf_apply, subf_apply, divf_apply, broadcast_apply, rsqrt_apply, bcast_col, bcast_row,
    lane_sum_col, mm_256_512, truncf_apply, pay6_eq, Ideal.ofBits_def, h5, h6, h7, h8]
  rfl

theorem pay8_apply (v97 : FVec Ideal S512x512 .f32) (x9 : Vec Ideal S512x256 .f32) (x10 : Vec Ideal S1x256 .f32)
    (p : Fin 512) (q : Fin 256) :
    k0_pay8 (F := Ideal) v97 x9 x10 (ix2 p q)
      = (∑ k : Fin 512, v97 (ix2 p k) * Ideal.logistic (v97 (ix2 p k)) * x9 (ix2 k q)) + x10 (ix2 0 q) := by
  unfold k0_pay8
  simp only [addf_apply, mulf_apply, logistic_apply, bcast_row, mm_512_256, truncf_apply]

theorem hEnh_apply (x4 : Vec Ideal S512x256 .f32) (x5 : Vec Ideal S256x512 .f32) (x6 x7 x8 : Vec Ideal S1x512 .f32)
    (x9 : Vec Ideal S512x256 .f32) (x10 : Vec Ideal S1x256 .f32)
    (w : Cert.Spec.Wts) (h5 : ∀ k q, x5 (ix2 k q) = w.fe1_w k q) (h6 : ∀ q, x6 (ix2 0 q) = w.fe1_b q)
    (h7 : ∀ q, x7 (ix2 0 q) = w.fe_ln_g q) (h8 : ∀ q, x8 (ix2 0 q) = w.fe_ln_b q)
    (h9 : ∀ k q, x9 (ix2 k q) = w.fe2_w k q) (h10 : ∀ q, x10 (ix2 0 q) = w.fe2_b q) (p : Fin 512) (q : Fin 256) :
    k0_pay8 (F := Ideal) (k0_pay7 x4 x5 x6 x7 x8) x9 x10 (ix2 p q) = Cert.Spec.hEnh w (fun c => x4 (ix2 p c)) q := by
  rw [pay8_apply]
  simp only [pay7_apply x4 x5 x6 x7 x8 w h5 h6 h7 h8, h9, h10]
  rfl

theorem pay9_apply (x4 : Vec Ideal S512x256 .f32) (x11 : Vec Ideal S256x384 .f32) (x12 : Vec Ideal S1x384 .f32)
    (w : Cert.Spec.Wts) (h11 : ∀ k q, x11 (ix2 k q) = w.W_bcdt k q) (h12 : ∀ q, x12 (ix2 0 q) = w.b_bcdt q)
    (p : Fin 512) (j : Fin 384) :
    k0_pay9 (F := Ideal) x4 x11 x12 (ix2 p j) = Cert.Spec.bcdt w (fun c => x4 (ix2 p c)) j := by
  unfold k0_pay9
  simp only [addf_apply, bcast_row, mm_256_384, truncf_apply, h11, h12]
  rfl

theorem Cq_apply (x4 : Vec Ideal S512x256 .f32) (x11 : Vec Ideal S256x384 .f32) (x12 : Vec Ideal S1x384 .f32)
    (w : Cert.Spec.Wts) (h11 : ∀ k q, x11 (ix2 k q) = w.W_bcdt k q) (h12 : ∀ q, x12 (ix2 0 q) = w.b_bcdt q)
    (p : Fin 512) (k : Fin 128) :
    k0_pay10 (F := Ideal) (k0_pay6 x4) x11 x12 (ix2 p k) = Cert.Spec.Cq w (fun c => x4 (ix2 p c)) k := by
  rw [pay6_eq]
  unfold k0_pay10
  refine (slice2_axis1_eq 128 (k0_pay9 (F := Ideal) x4 x11 x12) slices_S512x384_o0_128_S512x128 p k).trans ?_
  rw [pay9_apply x4 x11 x12 w h11 h12]
  rfl

theorem cProj_apply (x4 : Vec Ideal S512x256 .f32) (x11 : Vec Ideal S256x384 .f32) (x12 : Vec Ideal S1x384 .f32)
    (x15 : Vec Ideal S1x128 .f32) (x16 : Vec Ideal S1x1 .f32)
    (w : Cert.Spec.Wts) (h11 : ∀ k q, x11 (ix2 k q) = w.W_bcdt k q) (h12 : ∀ q, x12 (ix2 0 q) = w.b_bcdt q)
    (h15 : ∀ k, x15 (ix2 0 k) = w.cp_w k) (h16 : x16 (ix2 0 0) = w.cp_b) (p : Fin 512) :
    k0_pay13 (F := Ideal) (k0_pay10 (k0_pay6 x4) x11 x12) x15 x16 (ix2 p 0)
      = Cert.Spec.cProj w (fun c => x4 (ix2 p c)) := by
  unfold k0_pay13
  simp only [addf_apply, mulf_apply, bcast_row, lane_sum_col, Cq_apply x4 x11 x12 w h11 h12, h15, h16]
  rfl

theorem pay11_apply (x4 : Vec Ideal S512x256 .f32) (x11 : Vec Ideal S256x384 .f32) (x12 : Vec Ideal S1x384 .f32)
    (x17 : Vec Ideal S1x128 .f32) (x13 : Vec Ideal S128x256 .f32)
    (w : Cert.Spec.Wts) (h11 : ∀ k q, x11 (ix2 k q) = w.W_bcdt k q) (h12 : ∀ q, x12 (ix2 0 q) = w.b_bcdt q)
    (h17 : ∀ q, x17 (ix2 0 q) = w.A q) (h13 : ∀ k q, x13 (ix2 k q) = w.abp_w k q) (p : Fin 512) (q : Fin 256) :
    k0_pay11 (F := Ideal) x4 x11 x12 x17 x13 (ix2 p q)
      = ∑ k : Fin 128, (Cert.Spec.softmax (fun k => Cert.Spec.dtq w (fun c => x4 (ix2 p c)) k + w.A k) k
          * Cert.Spec.Bq w (fun c => x4 (ix2 p c)) k) * w.abp_w k q := by
  unfold k0_pay11
  simp only [mm_128_256, truncf_apply, mulf_apply, divf_apply, exp_apply, subf_apply, addf_apply, maximumf_apply,
    broadcast_apply, bcast_col, bcast_row, cast_col, lane_sum, lane_sum_col, lane_max, Nat.zero_add, slice2_axis1_eq,
    pay9_apply x4 x11 x12 w h11 h12, h17, h13, Ideal.ofBits_def]
  rfl

theorem hs2_apply (x4 : Vec Ideal S512x256 .f32) (x11 : Vec Ideal S256x384 .f32) (x12 : Vec Ideal S1x384 .f32)
    (x17 : Vec Ideal S1x128 .f32) (x13 : Vec Ideal S128x256 .f32) (x14 : Vec Ideal S1x256 .f32)
    (x18 : Vec Ideal S256x1024 .f32) (x19 : Vec Ideal S1x1024 .f32) (x20 : Vec Ideal S1x1 .f32)
    (x21 : Vec Ideal S512x256 .f32) (x22 : Vec Ideal S1x256 .f32)
    (w : Cert.Spec.Wts) (h11 : ∀ k q, x11 (ix2 k q) = w.W_bcdt k q) (h12 : ∀ q, x12 (ix2 0 q) = w.b_bcdt q)
    (h17 : ∀ q, x17 (ix2 0 q) = w.A q) (h13 : ∀ k q, x13 (ix2 k q) = w.abp_w k q)
    (h14 : ∀ q, x14 (ix2 0 q) = w.abp_b q) (h18 : ∀ k q, x18 (ix2 k q) = w.W_hz k q)
    (h19 : ∀ q, x19 (ix2 0 q) = w.b_hz q) (h20 : x20 (ix2 0 0) = w.D)
    (h21 : ∀ k q, x21 (ix2 k q) = w.out_w k q) (h22 : ∀ q, x22 (ix2 0 q) = w.out_b q)
    (p : Fin 512) (q : Fin 256) :
    k0_pay12 (F := Ideal) (k0_pay6 x4) (k0_pay11 (k0_pay6 x4) x11 x12 x17 x13) x14 x18 x19 x20 x21 x22 (ix2 p q)
      = Cert.Spec.hs2 w (fun c => x4 (ix2 p c)) q := by
  rw [pay6_eq]
  unfold k0_pay12
  simp only [addf_apply, mulf_apply, logistic_apply, truncf_apply, mm_512_256, mm_256_1024, shapeCast_self,
    broadcastTo_1b_ab_apply, bcast_one, slice2_axis1_eq, Nat.zero_add,
    pay11_apply x4 x11 x12 x17 x13 w h11 h12 h17 h13, h14, h18, h19, h20, h21, h22]
  rfl

end Cert.KernelIdeal.EpiA

end
-- ==== Proof.EpiB.lean ====
/-
  The second half of the epilogue, read at an index: the gate, the fusion and the two layer norms.

  A block of 512 rows is handled one row at a time: every operation here is either pointwise, a
  broadcast of a column or of a row, a sum along a row, or a product with a weight matrix, so the
  value at row p, column q depends only on row p of the operands and on the weights.
-/
import proofs.«172967_j79852031967736_2_alg».proof.Proof.Gen.KernelIdeal.Skeleton
import proofs.«172967_j79852031967736_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EpiB

open Idealize.ShloMosaic Idealize.ShloMosaic.ValueIdx Cert.KernelIdeal Cert.KernelIdeal.Gen

/-! ## Layout operations at a row and a column -/

/-- A column (an a × 1 block) broadcast to a × b reads, at (p, c), the column at p. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a cast to an a × 1 column reads, at (p, u), the vector at p. -/
theorem cast_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index over row p whose coordinate along the row is k. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The sum along each row, kept as a column, reads at (p, u) the sum of row p. -/
theorem lane_sum {a b : ℕ} (x : FVec Ideal ⟨2, ![a, b]⟩ .f32)
    (hr : (⟨2, ![a, b]⟩ : Shape).Reduces [1] (⟨1, ![a]⟩ : Shape))
    (hc : (⟨1, ![a]⟩ : Shape).ShapeCasts ⟨2, ![a, 1]⟩) (hφ : FKind.Formats .f32)
    (hacc : (0x00000000#32 : BitVec 32) = 0x00000000#32) (p : Fin a) (u : Fin 1) :
    shapeCast ⟨2, ![a, 1]⟩ (multiReduction (F := Ideal) .add [1] ⟨1, ![a]⟩ x 0x00000000#32 hr hφ hacc) hc (ix2 p u)
      = ∑ k : Fin b, x (ix2 p k) := by
  refine (cast_col _ hc p u).trans ?_
  refine (Ideal.multiReduction_add_single x 0x00000000#32 hr hφ hacc (ix1 p)).trans ?_
  exact Finset.sum_congr rfl fun k _ => congrArg x (lift_row hr p k)

/-! ## The two products with a weight matrix -/

theorem lhs_g2_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_g2_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_g2_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_g2_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The product of a block of rows by a weight matrix, into the zero block: at (p, q) the sum over k of
    row p of the left factor at k times the weight at (k, q). -/
theorem matmul_g2 (lhs : FVec Ideal S512x512 .bf16) (rhs : FVec Ideal S512x256 .bf16) (p : Fin 512) (q : Fin 256) :
    matmul dot_S512x512_S512x256_S512x256_1_0_0_1_n_n none lhs rhs (constant (F := Ideal) S512x256 .f32 0x00000000#32) (ix2 p q)
      = ∑ k : Fin 512, lhs (ix2 p k) * rhs (ix2 k q) := by
  refine (Ideal.matmul_constant_zero_apply dot_S512x512_S512x256_S512x256_1_0_0_1_n_n none lhs rhs (ix2 p q)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact lhs_g2_0 _ _
    | ⟨1, _⟩ => exact (lhs_g2_1 _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (rhs_g2_0 _ _).trans hk
    | ⟨1, _⟩ => exact rhs_g2_1 _ _)
  rw [el, er]

theorem lhs_g1_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_g1_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_g1_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_g1_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a block of rows by a weight matrix, into the zero block: at (p, q) the sum over k of
    row p of the left factor at k times the weight at (k, q). -/
theorem matmul_g1 (lhs : FVec Ideal S512x512 .bf16) (rhs : FVec Ideal S512x512 .bf16) (p : Fin 512) (q : Fin 512) :
    matmul dot_S512x512_S512x512_S512x512_1_0_0_1_n_n none lhs rhs (constant (F := Ideal) S512x512 .f32 0x00000000#32) (ix2 p q)
      = ∑ k : Fin 512, lhs (ix2 p k) * rhs (ix2 k q) := by
  refine (Ideal.matmul_constant_zero_apply dot_S512x512_S512x512_S512x512_1_0_0_1_n_n none lhs rhs (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_g1_0 _ _
    | ⟨1, _⟩ => exact (lhs_g1_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_g1_0 _ _).trans hk
    | ⟨1, _⟩ => exact rhs_g1_1 _ _)
  rw [el, er]

/-! ## Pointwise operations the library does not name -/

theorem rsqrt_apply {s : Shape} {φ : FTy} (a : FVec Ideal s φ) (i : s.Idx) : rsqrt a i = Ideal.rsqrt (a i) := rfl

theorem logistic_apply {s : Shape} {φ : FTy} (a : FVec Ideal s φ) (i : s.Idx) : logistic a i = Ideal.logistic (a i) := rfl

/-! ## The layer norm of a block, row by row -/

/-- Each row's sum divided by the word N, kept as a column. -/
def meanCol {a b : ℕ} (x : FVec Ideal ⟨2, ![a, b]⟩ .f32) (N : BitVec 32)
    (hr : (⟨2, ![a, b]⟩ : Shape).Reduces [1] (⟨1, ![a]⟩ : Shape))
    (hc : (⟨1, ![a]⟩ : Shape).ShapeCasts ⟨2, ![a, 1]⟩) (hφ : FKind.Formats .f32)
    (hacc : (0x00000000#32 : BitVec 32) = 0x00000000#32) : FVec Ideal ⟨2, ![a, 1]⟩ .f32 :=
  divf (shapeCast ⟨2, ![a, 1]⟩ (multiReduction (F := Ideal) .add [1] ⟨1, ![a]⟩ x 0x00000000#32 hr hφ hacc) hc)
    (broadcast ⟨2, ![a, 1]⟩ (Scalar.ofBits (F := Ideal) .f32 N))

/-- At row p it is the mean of row p. -/
theorem meanCol_apply {a b : ℕ} (x : FVec Ideal ⟨2, ![a, b]⟩ .f32) (N : BitVec 32)
    (hr : (⟨2, ![a, b]⟩ : Shape).Reduces [1] (⟨1, ![a]⟩ : Shape))
    (hc : (⟨1, ![a]⟩ : Shape).ShapeCasts ⟨2, ![a, 1]⟩) (hφ : FKind.Formats .f32)
    (hacc : (0x00000000#32 : BitVec 32) = 0x00000000#32)
    (p : Fin a) (xr : Fin b → EReal) (hx : ∀ c, x (ix2 p c) = xr c) (u : Fin 1) :
    meanCol x N hr hc hφ hacc (ix2 p u) = Cert.Spec.mean (Ideal.ofBits .f32 N) xr := by
  unfold meanCol Cert.Spec.mean
  rw [divf_apply, lane_sum, broadcast_apply]
  simp only [hx]
  rfl

/-- The layer norm of every row of a block, in the reciprocal-square-root form: subtract the row's mean,
    multiply by the reciprocal square root of the row's variance plus the small word, scale and shift
    by the two weight rows. -/
def lnBlock {a b : ℕ} (x : FVec Ideal ⟨2, ![a, b]⟩ .f32) (N : BitVec 32) (g bb : FVec Ideal ⟨2, ![1, b]⟩ .f32)
    (hr : (⟨2, ![a, b]⟩ : Shape).Reduces [1] (⟨1, ![a]⟩ : Shape))
    (hc : (⟨1, ![a]⟩ : Shape).ShapeCasts ⟨2, ![a, 1]⟩) (hφ : FKind.Formats .f32)
    (hacc : (0x00000000#32 : BitVec 32) = 0x00000000#32)
    (hb : (⟨2, ![a, 1]⟩ : Shape).Broadcasts ⟨2, ![a, b]⟩) (hb' : (⟨2, ![1, b]⟩ : Shape).Broadcasts ⟨2, ![a, b]⟩) :
    FVec Ideal ⟨2, ![a, b]⟩ .f32 :=
  addf (mulf (mulf (subf x (broadcastTo ⟨2, ![a, b]⟩ (meanCol x N hr hc hφ hacc) hb))
      (broadcastTo ⟨2, ![a, b]⟩ (rsqrt (addf
        (meanCol (mulf (subf x (broadcastTo ⟨2, ![a, b]⟩ (meanCol x N hr hc hφ hacc) hb))
          (subf x (broadcastTo ⟨2, ![a, b]⟩ (meanCol x N hr hc hφ hacc) hb))) N hr hc hφ hacc)
        (broadcast ⟨2, ![a, 1]⟩ (Scalar.ofBits (F := Ideal) .f32 0x3727C5AC#32)))) hb))
      (broadcastTo ⟨2, ![a, b]⟩ g hb')) (broadcastTo ⟨2, ![a, b]⟩ bb hb')

/-- At (p, q) it is the layer norm of row p, at q. -/
theorem lnBlock_apply {a b : ℕ} (x : FVec Ideal ⟨2, ![a, b]⟩ .f32) (N : BitVec 32) (g bb : FVec Ideal ⟨2, ![1, b]⟩ .f32)
    (hr : (⟨2, ![a, b]⟩ : Shape).Reduces [1] (⟨1, ![a]⟩ : Shape))
    (hc : (⟨1, ![a]⟩ : Shape).ShapeCasts ⟨2, ![a, 1]⟩) (hφ : FKind.Formats .f32)
    (hacc : (0x00000000#32 : BitVec 32) = 0x00000000#32)
    (hb : (⟨2, ![a, 1]⟩ : Shape).Broadcasts ⟨2, ![a, b]⟩) (hb' : (⟨2, ![1, b]⟩ : Shape).Broadcasts ⟨2, ![a, b]⟩)
    (p : Fin a) (xr gr br : Fin b → EReal) (hx : ∀ c, x (ix2 p c) = xr c)
    (hg : ∀ c, g (ix2 (0 : Fin 1) c) = gr c) (hbb : ∀ c, bb (ix2 (0 : Fin 1) c) = br c) (q : Fin b) :
    lnBlock x N g bb hr hc hφ hacc hb hb' (ix2 p q) = Cert.Spec.ln (Ideal.ofBits .f32 N) xr gr br q := by
  have hm : ∀ u : Fin 1, meanCol x N hr hc hφ hacc (ix2 p u) = Cert.Spec.mean (Ideal.ofBits .f32 N) xr :=
    fun u => meanCol_apply x N hr hc hφ hacc p xr hx u
  have hd : ∀ c, subf x (broadcastTo ⟨2, ![a, b]⟩ (meanCol x N hr hc hφ hacc) hb) (ix2 p c)
      = xr c - Cert.Spec.mean (Ideal.ofBits .f32 N) xr := fun c => by
    rw [subf_apply, bcast_col, hm, hx]
  have hv : ∀ u : Fin 1, meanCol (mulf (subf x (broadcastTo ⟨2, ![a, b]⟩ (meanCol x N hr hc hφ hacc) hb))
        (subf x (broadcastTo ⟨2, ![a, b]⟩ (meanCol x N hr hc hφ hacc) hb))) N hr hc hφ hacc (ix2 p u)
      = Cert.Spec.var (Ideal.ofBits .f32 N) xr := fun u =>
    meanCol_apply _ N hr hc hφ hacc p
      (fun c => (xr c - Cert.Spec.mean (Ideal.ofBits .f32 N) xr) * (xr c - Cert.Spec.mean (Ideal.ofBits .f32 N) xr))
      (fun c => by rw [mulf_apply, hd]) u
  unfold lnBlock Cert.Spec.ln
  rw [addf_apply, mulf_apply, mulf_apply, hd, bcast_col, rsqrt_apply, addf_apply, hv, broadcast_apply,
    broadcastTo_1b_ab_apply, broadcastTo_1b_ab_apply, hg, hbb]
  rfl

/-! ## Two blocks side by side -/

/-- Two 512 × 256 blocks side by side read, at (p, q), the left one when q < 256 and the right one at q - 256 otherwise. -/
theorem concat_row {α : Type} (x₁ x₂ : S512x256.Idx → α) (h : Shape.Concatenates [S512x256, S512x256] S512x512 1)
    (p : Fin 512) (q : Fin 512) :
    concatenate S512x512 1 [⟨S512x256, x₁⟩, ⟨S512x256, x₂⟩] h (ix2 p q)
      = if hq : q.val < 256 then x₁ (ix2 p (⟨q.val, hq⟩ : Fin 256)) else x₂ (ix2 p (⟨q.val - 256, by omega⟩ : Fin 256)) := by
  split
  · next hq =>
    refine concatenate_pair_apply_left (1 : Fin S512x512.rank) x₁ x₂ h (ix2 p q) rfl (ix2 p (⟨q.val, hq⟩ : Fin 256)) fun b => ?_
    match b with
    | ⟨0, _⟩ => rfl
    | ⟨1, _⟩ => rfl
  · next hq =>
    refine concatenate_pair_apply_right (1 : Fin S512x512.rank) x₁ x₂ h (ix2 p q) rfl rfl
      (ix2 p (⟨q.val - 256, by omega⟩ : Fin 256)) (fun b hb => ?_) ?_
    · match b with
      | ⟨0, _⟩ => rfl
      | ⟨1, _⟩ => exact absurd rfl hb
    · show q.val - 256 + 256 = q.val
      omega

/-! ## The payloads -/

/-- The state-space row scaled by one plus the scalar projection. -/
theorem pay14_apply (v169 : FVec Ideal S512x256 .f32) (v179 : FVec Ideal S512x1 .f32) (p : Fin 512) (q : Fin 256) :
    k0_pay14 (F := Ideal) v169 v179 (Scalar.ofBits .f32 0x3F800000#32) (ix2 p q)
      = v169 (ix2 p q) * (Cert.Spec.wOne + v179 (ix2 p 0)) := by
  unfold k0_pay14
  rw [mulf_apply, bcast_col, addf_apply, broadcast_apply]
  rfl

/-- The cast of the last weight matrix changes nothing. -/
theorem pay16_apply (x27 : Vec Ideal S512x256 .f32) (k : Fin 512) (q : Fin 256) :
    k0_pay16 (F := Ideal) x27 (ix2 k q) = x27 (ix2 k q) := rfl

/-- The gate's hidden layer: the attention row and the scaled state-space row side by side, through the first
    gate matrix and its bias, the layer norm of the result, and x · σ(x) of that. -/
theorem pay15_apply (v61 v169 : FVec Ideal S512x256 .f32) (v179 : FVec Ideal S512x1 .f32) (x23 : Vec Ideal S512x512 .f32) (x24 x25 x26 : Vec Ideal S1x512 .f32) (w : Cert.Spec.Wts)
    (h23 : ∀ k q, x23 (ix2 k q) = w.g1_w k q) (h24 : ∀ q, x24 (ix2 0 q) = w.g1_b q) (h25 : ∀ q, x25 (ix2 0 q) = w.g_ln_g q) (h26 : ∀ q, x26 (ix2 0 q) = w.g_ln_b q)
    (p : Fin 512) (ha hsF : Fin 256 → EReal) (h61 : ∀ c, v61 (ix2 p c) = ha c) (hF : ∀ c, v169 (ix2 p c) * (Cert.Spec.wOne + v179 (ix2 p 0)) = hsF c) (q : Fin 512) :
    k0_pay15 (F := Ideal) v61 v169 v179 (Scalar.ofBits .f32 0x3F800000#32) x23 x24 x25 x26 (ix2 p q)
      = Cert.Spec.silu (Cert.Spec.ln Cert.Spec.w512 (Cert.Spec.lin (fun q : Fin 512 => if h : q.val < 256 then ha ⟨q.val, h⟩ else hsF ⟨q.val - 256, by omega⟩) w.g1_w w.g1_b) w.g_ln_g w.g_ln_b) q := by
  -- row p of the two blocks side by side
  have hcat : ∀ k : Fin 512, (concatenate S512x512 1 [⟨S512x256, v61⟩, ⟨S512x256, k0_pay14 (F := Ideal) v169 v179 (Scalar.ofBits .f32 0x3F800000#32)⟩] concatenates_S512x256_S512x256_S512x512_d1) (ix2 p k) = (fun q : Fin 512 => if h : q.val < 256 then ha ⟨q.val, h⟩ else hsF ⟨q.val - 256, by omega⟩) k := fun k => by
    rw [concat_row]
    by_cases hq : k.val < 256
    · simp only [dif_pos hq]; exact h61 _
    · simp only [dif_neg hq]; rw [pay14_apply]; exact hF _
  -- row p after the first gate matrix and its bias
  have hy : ∀ c : Fin 512, (addf (matmul dot_S512x512_S512x512_S512x512_1_0_0_1_n_n none (truncf .bf16 (concatenate S512x512 1 [⟨S512x256, v61⟩, ⟨S512x256, k0_pay14 (F := Ideal) v169 v179 (Scalar.ofBits .f32 0x3F800000#32)⟩] concatenates_S512x256_S512x256_S512x512_d1) bitsLt_bf16_f32 : FVec Ideal S512x512 .bf16) (truncf .bf16 (x23 : FVec Ideal S512x512 .f32) bitsLt_bf16_f32 : FVec Ideal S512x512 .bf16) (constant (F := Ideal) S512x512 .f32 0x00000000#32)) (broadcastTo S512x512 (shapeCast S1x512 x24 shapeCasts_S1x512_S1x512) broadcasts_S1x512_S512x512) : FVec Ideal S512x512 .f32) (ix2 p c) = Cert.Spec.lin (fun q : Fin 512 => if h : q.val < 256 then ha ⟨q.val, h⟩ else hsF ⟨q.val - 256, by omega⟩) w.g1_w w.g1_b c := fun c => by
    rw [addf_apply, matmul_g1, broadcastTo_1b_ab_apply, shapeCast_self, h24]
    unfold Cert.Spec.lin
    refine congrArg (· + w.g1_b c) (Finset.sum_congr rfl fun k _ => ?_)
    rw [truncf_apply, truncf_apply, hcat, h23]
  -- its layer norm
  have hL : (lnBlock (addf (matmul dot_S512x512_S512x512_S512x512_1_0_0_1_n_n none (truncf .bf16 (concatenate S512x512 1 [⟨S512x256, v61⟩, ⟨S512x256, k0_pay14 (F := Ideal) v169 v179 (Scalar.ofBits .f32 0x3F800000#32)⟩] concatenates_S512x256_S512x256_S512x512_d1) bitsLt_bf16_f32 : FVec Ideal S512x512 .bf16) (truncf .bf16 (x23 : FVec Ideal S512x512 .f32) bitsLt_bf16_f32 : FVec Ideal S512x512 .bf16) (constant (F := Ideal) S512x512 .f32 0x00000000#32)) (broadcastTo S512x512 (shapeCast S1x512 x24 shapeCasts_S1x512_S1x512) broadcasts_S1x512_S512x512) : FVec Ideal S512x512 .f32) 0x44000000#32 (shapeCast S1x512 x25 shapeCasts_S1x512_S1x512) (shapeCast S1x512 x26 shapeCasts_S1x512_S1x512) reduces_S512x512_S512 shapeCasts_S512_S512x1 (.inl rfl) rfl broadcasts_S512x1_S512x512 broadcasts_S1x512_S512x512) (ix2 p q) = Cert.Spec.ln Cert.Spec.w512 (Cert.Spec.lin (fun q : Fin 512 => if h : q.val < 256 then ha ⟨q.val, h⟩ else hsF ⟨q.val - 256, by omega⟩) w.g1_w w.g1_b) w.g_ln_g w.g_ln_b q :=
    lnBlock_apply _ 0x44000000#32 _ _ _ _ _ _ _ _ p _ _ _ hy
      (fun c => by rw [shapeCast_self]; exact h25 c) (fun c => by rw [shapeCast_self]; exact h26 c) q
  show (lnBlock (addf (matmul dot_S512x512_S512x512_S512x512_1_0_0_1_n_n none (truncf .bf16 (concatenate S512x512 1 [⟨S512x256, v61⟩, ⟨S512x256, k0_pay14 (F := Ideal) v169 v179 (Scalar.ofBits .f32 0x3F800000#32)⟩] concatenates_S512x256_S512x256_S512x512_d1) bitsLt_bf16_f32 : FVec Ideal S512x512 .bf16) (truncf .bf16 (x23 : FVec Ideal S512x512 .f32) bitsLt_bf16_f32 : FVec Ideal S512x512 .bf16) (constant (F := Ideal) S512x512 .f32 0x00000000#32)) (broadcastTo S512x512 (shapeCast S1x512 x24 shapeCasts_S1x512_S1x512) broadcasts_S1x512_S512x512) : FVec Ideal S512x512 .f32) 0x44000000#32 (shapeCast S1x512 x25 shapeCasts_S1x512_S1x512) (shapeCast S1x512 x26 shapeCasts_S1x512_S1x512) reduces_S512x512_S512 shapeCasts_S512_S512x1 (.inl rfl) rfl broadcasts_S512x1_S512x512 broadcasts_S1x512_S512x512) (ix2 p q) * Ideal.logistic ((lnBlock (addf (matmul dot_S512x512_S512x512_S512x512_1_0_0_1_n_n none (truncf .bf16 (concatenate S512x512 1 [⟨S512x256, v61⟩, ⟨S512x256, k0_pay14 (F := Ideal) v169 v179 (Scalar.ofBits .f32 0x3F800000#32)⟩] concatenates_S512x256_S512x256_S512x512_d1) bitsLt_bf16_f32 : FVec Ideal S512x512 .bf16) (truncf .bf16 (x23 : FVec Ideal S512x512 .f32) bitsLt_bf16_f32 : FVec Ideal S512x512 .bf16) (constant (F := Ideal) S512x512 .f32 0x00000000#32)) (broadcastTo S512x512 (shapeCast S1x512 x24 shapeCasts_S1x512_S1x512) broadcasts_S1x512_S512x512) : FVec Ideal S512x512 .f32) 0x44000000#32 (shapeCast S1x512 x25 shapeCasts_S1x512_S1x512) (shapeCast S1x512 x26 shapeCasts_S1x512_S1x512) reduces_S512x512_S512 shapeCasts_S512_S512x1 (.inl rfl) rfl broadcasts_S512x1_S512x512 broadcasts_S1x512_S512x512) (ix2 p q)) = _
  rw [hL]
  rfl

/-- The output block: the gate (the hidden layer through the second gate matrix and its bias, then the sigmoid),
    the gated mixture of the attention row and the state-space row plus the enhanced features, and the final
    layer norm. -/
theorem pay4_apply (v61 v107 v183 : FVec Ideal S512x256 .f32) (v221 : FVec Ideal S512x512 .bf16) (v223 : FVec Ideal S512x256 .bf16) (x28 x29 x30 : Vec Ideal S1x256 .f32) (w : Cert.Spec.Wts)
    (h28 : ∀ q, x28 (ix2 0 q) = w.g2_b q) (h29 : ∀ q, x29 (ix2 0 q) = w.ln_g q) (h30 : ∀ q, x30 (ix2 0 q) = w.ln_b q)
    (p : Fin 512) (ha hE hsF : Fin 256 → EReal) (g1s : Fin 512 → EReal)
    (h61 : ∀ c, v61 (ix2 p c) = ha c) (h107 : ∀ c, v107 (ix2 p c) = hE c) (h183 : ∀ c, v183 (ix2 p c) = hsF c)
    (h221 : ∀ k, v221 (ix2 p k) = g1s k) (h223 : ∀ k q, v223 (ix2 k q) = w.g2_w k q) (q : Fin 256) :
    k0_pay4 (F := Ideal) v61 v107 v183 v221 v223 x28 x29 x30 (ix2 p q)
      = Cert.Spec.ln Cert.Spec.w256 (fun q => Ideal.logistic (Cert.Spec.lin g1s w.g2_w w.g2_b q) * ha q + (Cert.Spec.wOne - Ideal.logistic (Cert.Spec.lin g1s w.g2_w w.g2_b q)) * hsF q + hE q) w.ln_g w.ln_b q := by
  -- row p of the gate
  have hG : ∀ c : Fin 256, (logistic (addf (matmul dot_S512x512_S512x256_S512x256_1_0_0_1_n_n none v221 v223 (constant (F := Ideal) S512x256 .f32 0x00000000#32)) (broadcastTo S512x256 (shapeCast S1x256 x28 shapeCasts_S1x256_S1x256) broadcasts_S1x256_S512x256)) : FVec Ideal S512x256 .f32) (ix2 p c) = Ideal.logistic (Cert.Spec.lin g1s w.g2_w w.g2_b c) := fun c => by
    rw [logistic_apply, addf_apply, matmul_g2, broadcastTo_1b_ab_apply, shapeCast_self, h28]
    unfold Cert.Spec.lin
    refine congrArg (fun t => Ideal.logistic (t + w.g2_b c)) (Finset.sum_congr rfl fun k _ => ?_)
    rw [h221, h223]
  -- row p of the gated mixture plus the enhanced features
  have hfu : ∀ c : Fin 256, (addf (addf (mulf (logistic (addf (matmul dot_S512x512_S512x256_S512x256_1_0_0_1_n_n none v221 v223 (constant (F := Ideal) S512x256 .f32 0x00000000#32)) (broadcastTo S512x256 (shapeCast S1x256 x28 shapeCasts_S1x256_S1x256) broadcasts_S1x256_S512x256)) : FVec Ideal S512x256 .f32) v61) (mulf (subf (broadcast S512x256 (Scalar.ofBits (F := Ideal) .f32 0x3F800000#32)) (logistic (addf (matmul dot_S512x512_S512x256_S512x256_1_0_0_1_n_n none v221 v223 (constant (F := Ideal) S512x256 .f32 0x00000000#32)) (broadcastTo S512x256 (shapeCast S1x256 x28 shapeCasts_S1x256_S1x256) broadcasts_S1x256_S512x256)) : FVec Ideal S512x256 .f32)) v183)) v107 : FVec Ideal S512x256 .f32) (ix2 p c) = (fun q => Ideal.logistic (Cert.Spec.lin g1s w.g2_w w.g2_b q) * ha q + (Cert.Spec.wOne - Ideal.logistic (Cert.Spec.lin g1s w.g2_w w.g2_b q)) * hsF q + hE q) c := fun c => by
    rw [addf_apply, addf_apply, mulf_apply, mulf_apply, subf_apply, broadcast_apply, hG, h61, h183, h107]
    rfl
  exact lnBlock_apply (addf (addf (mulf (logistic (addf (matmul dot_S512x512_S512x256_S512x256_1_0_0_1_n_n none v221 v223 (constant (F := Ideal) S512x256 .f32 0x00000000#32)) (broadcastTo S512x256 (shapeCast S1x256 x28 shapeCasts_S1x256_S1x256) broadcasts_S1x256_S512x256)) : FVec Ideal S512x256 .f32) v61) (mulf (subf (broadcast S512x256 (Scalar.ofBits (F := Ideal) .f32 0x3F800000#32)) (logistic (addf (matmul dot_S512x512_S512x256_S512x256_1_0_0_1_n_n none v221 v223 (constant (F := Ideal) S512x256 .f32 0x00000000#32)) (broadcastTo S512x256 (shapeCast S1x256 x28 shapeCasts_S1x256_S1x256) broadcasts_S1x256_S512x256)) : FVec Ideal S512x256 .f32)) v183)) v107 : FVec Ideal S512x256 .f32) 0x43800000#32 (shapeCast S1x256 x29 shapeCasts_S1x256_S1x256) (shapeCast S1x256 x30 shapeCasts_S1x256_S1x256)
    reduces_S512x256_S512 shapeCasts_S512_S512x1 (.inl rfl) rfl broadcasts_S512x1_S512x256 broadcasts_S1x256_S512x256 p _ _ _ hfu
    (fun c => by rw [shapeCast_self]; exact h29 c) (fun c => by rw [shapeCast_self]; exact h30 c) q

end Cert.KernelIdeal.EpiB

end
-- ==== Proof.KEpi.lean ====
/-
  The epilogue of a block of rows, composed.

  On the last column step the kernel normalises the attention numerator by its denominator and runs
  the feature enhancer, the state-space branch, the gated fusion and the final layer norm on the block.
  Read at a row, the block written is the specification's epilogue of that row of `Wh` and of the
  normalised attention row.
-/
import proofs.«172967_j79852031967736_2_alg».proof.Proof.Gen.KernelIdeal.Skeleton
import proofs.«172967_j79852031967736_2_alg».proof.Proof.Spec
import proofs.«172967_j79852031967736_2_alg».proof.Proof.EpiA
import proofs.«172967_j79852031967736_2_alg».proof.Proof.EpiB

noncomputable section

namespace Cert.KernelIdeal.Epi

open Idealize.ShloMosaic Idealize.ShloMosaic.ValueIdx Cert.KernelIdeal Cert.KernelIdeal.Gen

/-- What the last column step writes to the output block: the epilogue of the block's rows. -/
def epiBlock (acc : Vec Ideal S512x256 .f32) (l : Vec Ideal S512x1 .f32)
    (x4 : Vec Ideal S512x256 .f32) (x5 : Vec Ideal S256x512 .f32) (x6 : Vec Ideal S1x512 .f32) (x7 : Vec Ideal S1x512 .f32) (x8 : Vec Ideal S1x512 .f32) (x9 : Vec Ideal S512x256 .f32) (x10 : Vec Ideal S1x256 .f32) (x11 : Vec Ideal S256x384 .f32) (x12 : Vec Ideal S1x384 .f32) (x13 : Vec Ideal S128x256 .f32) (x14 : Vec Ideal S1x256 .f32) (x15 : Vec Ideal S1x128 .f32) (x16 : Vec Ideal S1x1 .f32) (x17 : Vec Ideal S1x128 .f32) (x18 : Vec Ideal S256x1024 .f32) (x19 : Vec Ideal S1x1024 .f32) (x20 : Vec Ideal S1x1 .f32) (x21 : Vec Ideal S512x256 .f32) (x22 : Vec Ideal S1x256 .f32) (x23 : Vec Ideal S512x512 .f32) (x24 : Vec Ideal S1x512 .f32) (x25 : Vec Ideal S1x512 .f32) (x26 : Vec Ideal S1x512 .f32) (x27 : Vec Ideal S512x256 .f32) (x28 : Vec Ideal S1x256 .f32) (x29 : Vec Ideal S1x256 .f32) (x30 : Vec Ideal S1x256 .f32) : FVec Ideal S512x256 .f32 :=
  k0_pay4 (k0_pay5 acc l) (k0_pay8 (k0_pay7 x4 x5 x6 x7 x8) x9 x10)
    (k0_pay14 (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32))
    (k0_pay15 (k0_pay5 acc l) (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32) x23 x24 x25 x26)
    (k0_pay16 x27) x28 x29 x30

/-- Each row of that block is the specification's epilogue of the row of `Wh` and the normalised
    attention row. -/
theorem epiBlock_apply (acc : Vec Ideal S512x256 .f32) (l : Vec Ideal S512x1 .f32)
    (x4 : Vec Ideal S512x256 .f32) (x5 : Vec Ideal S256x512 .f32) (x6 : Vec Ideal S1x512 .f32) (x7 : Vec Ideal S1x512 .f32) (x8 : Vec Ideal S1x512 .f32) (x9 : Vec Ideal S512x256 .f32) (x10 : Vec Ideal S1x256 .f32) (x11 : Vec Ideal S256x384 .f32) (x12 : Vec Ideal S1x384 .f32) (x13 : Vec Ideal S128x256 .f32) (x14 : Vec Ideal S1x256 .f32) (x15 : Vec Ideal S1x128 .f32) (x16 : Vec Ideal S1x1 .f32) (x17 : Vec Ideal S1x128 .f32) (x18 : Vec Ideal S256x1024 .f32) (x19 : Vec Ideal S1x1024 .f32) (x20 : Vec Ideal S1x1 .f32) (x21 : Vec Ideal S512x256 .f32) (x22 : Vec Ideal S1x256 .f32) (x23 : Vec Ideal S512x512 .f32) (x24 : Vec Ideal S1x512 .f32) (x25 : Vec Ideal S1x512 .f32) (x26 : Vec Ideal S1x512 .f32) (x27 : Vec Ideal S512x256 .f32) (x28 : Vec Ideal S1x256 .f32) (x29 : Vec Ideal S1x256 .f32) (x30 : Vec Ideal S1x256 .f32) (w : Cert.Spec.Wts)
    (h5 : ∀ k q, x5 (ix2 k q) = w.fe1_w k q) (h6 : ∀ q, x6 (ix2 0 q) = w.fe1_b q) (h7 : ∀ q, x7 (ix2 0 q) = w.fe_ln_g q) (h8 : ∀ q, x8 (ix2 0 q) = w.fe_ln_b q) (h9 : ∀ k q, x9 (ix2 k q) = w.fe2_w k q) (h10 : ∀ q, x10 (ix2 0 q) = w.fe2_b q) (h11 : ∀ k q, x11 (ix2 k q) = w.W_bcdt k q) (h12 : ∀ q, x12 (ix2 0 q) = w.b_bcdt q) (h13 : ∀ k q, x13 (ix2 k q) = w.abp_w k q) (h14 : ∀ q, x14 (ix2 0 q) = w.abp_b q) (h15 : ∀ k, x15 (ix2 0 k) = w.cp_w k) (h16 : x16 (ix2 0 0) = w.cp_b) (h17 : ∀ q, x17 (ix2 0 q) = w.A q) (h18 : ∀ k q, x18 (ix2 k q) = w.W_hz k q) (h19 : ∀ q, x19 (ix2 0 q) = w.b_hz q) (h20 : x20 (ix2 0 0) = w.D) (h21 : ∀ k q, x21 (ix2 k q) = w.out_w k q) (h22 : ∀ q, x22 (ix2 0 q) = w.out_b q) (h23 : ∀ k q, x23 (ix2 k q) = w.g1_w k q) (h24 : ∀ q, x24 (ix2 0 q) = w.g1_b q) (h25 : ∀ q, x25 (ix2 0 q) = w.g_ln_g q) (h26 : ∀ q, x26 (ix2 0 q) = w.g_ln_b q) (h27 : ∀ k q, x27 (ix2 k q) = w.g2_w k q) (h28 : ∀ q, x28 (ix2 0 q) = w.g2_b q) (h29 : ∀ q, x29 (ix2 0 q) = w.ln_g q) (h30 : ∀ q, x30 (ix2 0 q) = w.ln_b q)
    (p : Fin 512) (q : Fin 256) :
    epiBlock acc l x4 x5 x6 x7 x8 x9 x10 x11 x12 x13 x14 x15 x16 x17 x18 x19 x20 x21 x22 x23 x24 x25 x26 x27 x28 x29 x30 (ix2 p q)
      = Cert.Spec.epi w (fun c => x4 (ix2 p c)) (fun c => Ideal.div (acc (ix2 p c)) (l (ix2 p 0))) q := by
  unfold epiBlock
  have hF : ∀ c, (k0_pay12 (k0_pay6 x4) (k0_pay11 (k0_pay6 x4) x11 x12 x17 x13) x14 x18 x19 x20 x21 x22) (ix2 p c) * (Cert.Spec.wOne + (k0_pay13 (k0_pay10 (k0_pay6 x4) x11 x12) x15 x16) (ix2 p 0))
      = Cert.Spec.hsFinal w (fun c => x4 (ix2 p c)) c := fun c => by
    rw [EpiA.hs2_apply x4 x11 x12 x17 x13 x14 x18 x19 x20 x21 x22 w h11 h12 h17 h13 h14 h18 h19 h20 h21 h22 p c,
      EpiA.cProj_apply x4 x11 x12 x15 x16 w h11 h12 h15 h16 p]
    rfl
  have h61 : ∀ c, k0_pay5 (F := Ideal) acc l (ix2 p c) = (fun c => Ideal.div (acc (ix2 p c)) (l (ix2 p 0))) c := fun c => EpiA.pay5_apply acc l p c
  refine (EpiB.pay4_apply (k0_pay5 acc l) (k0_pay8 (k0_pay7 x4 x5 x6 x7 x8) x9 x10)
    (k0_pay14 (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32))
    (k0_pay15 (k0_pay5 acc l) (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32) x23 x24 x25 x26)
    (k0_pay16 x27) x28 x29 x30 w h28 h29 h30 p
    (fun c => Ideal.div (acc (ix2 p c)) (l (ix2 p 0))) (Cert.Spec.hEnh w (fun c => x4 (ix2 p c))) (Cert.Spec.hsFinal w (fun c => x4 (ix2 p c)))
    (Cert.Spec.silu (Cert.Spec.ln Cert.Spec.w512 (Cert.Spec.lin (fun q : Fin 512 => if h : q.val < 256 then (fun c => Ideal.div (acc (ix2 p c)) (l (ix2 p 0))) ⟨q.val, h⟩ else Cert.Spec.hsFinal w (fun c => x4 (ix2 p c)) ⟨q.val - 256, by omega⟩) w.g1_w w.g1_b) w.g_ln_g w.g_ln_b))
    h61
    (fun c => EpiA.hEnh_apply x4 x5 x6 x7 x8 x9 x10 w h5 h6 h7 h8 h9 h10 p c)
    (fun c => (EpiB.pay14_apply (k0_pay12 (k0_pay6 x4) (k0_pay11 (k0_pay6 x4) x11 x12 x17 x13) x14 x18 x19 x20 x21 x22) (k0_pay13 (k0_pay10 (k0_pay6 x4) x11 x12) x15 x16) p c).trans (hF c))
    (fun k => EpiB.pay15_apply (k0_pay5 acc l) (k0_pay12 (k0_pay6 x4) (k0_pay11 (k0_pay6 x4) x11 x12 x17 x13) x14 x18 x19 x20 x21 x22) (k0_pay13 (k0_pay10 (k0_pay6 x4) x11 x12) x15 x16) x23 x24 x25 x26 w h23 h24 h25 h26 p
      (fun c => Ideal.div (acc (ix2 p c)) (l (ix2 p 0))) (Cert.Spec.hsFinal w (fun c => x4 (ix2 p c))) h61 hF k)
    (fun k q => (EpiB.pay16_apply x27 k q).trans (h27 k q))
    q).trans ?_
  rfl

end Cert.KernelIdeal.Epi

end
-- ==== Proof.KBlocks.lean ====
/-
  The kernel's windows read at an index, and the output window's cover.

  The grid has 16 x 4 points; point `t` has row block `t / 4` and column block `t % 4`. A
  window's block at a point starts, on each axis, at the block index times the block's size, so
  an index inside the block sits at that offset plus its own coordinate. The block indices are
  the printed index maps, decided once over the 64 points. Most windows hold a whole array:
  their block index is `0` on both axes and the block read at an index is the array read there.

  The output window's block moves with the row block and is written back at the last column
  step of each row block; those sixteen blocks cover the output array.
-/
import proofs.«172967_j79852031967736_2_alg».proof.Proof.Gen.KernelIdeal.Frame.Runs
import Idealize.ShloMosaic.PureOps.Ideal
import Idealize.ShloMosaic.Lib.ValueIdx
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-- A grid point is one of 64. -/
theorem lt64 (t : Fin cfg0.N) : t.val < 64 := lt_of_lt_of_eq t.isLt (show cfg0.N = 64 from N_0)

/-- The array row of row `p` of the block at point `t`: row block `t / 4`, blocks of 512 rows. -/
abbrev ROW (t : Fin cfg0.N) (p : Fin 512) : Fin 8192 :=
  ⟨512 * (t.val / 4) + p.val, by have := lt64 t; have := p.isLt; omega⟩

/-- The array column of column `b` of the block at point `t`: column block `t % 4`, blocks of 2048 columns. -/
abbrev COL (t : Fin cfg0.N) (b : Fin 2048) : Fin 8192 :=
  ⟨2048 * (t.val % 4) + b.val, by have := b.isLt; omega⟩

/-! ## The index maps, decided over the grid -/

/-- The moving windows' block indices: the row block, the column block, or `0`. -/
theorem idx_moving : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = t.val % 4
    ∧ win0_4.index t (0 : Fin 2) = t.val / 4 ∧ win0_4.index t (1 : Fin 2) = 0
    ∧ win0_31.index t (0 : Fin 2) = t.val / 4 ∧ win0_31.index t (1 : Fin 2) = 0 :=
  (by decide +kernel : ∀ t : Fin grid0.N, _)

/-! ## The moving windows -/

/-- Window 0: the block of 512 rows of the one-column array at the row block. -/
theorem iblk0_apply (t : Fin cfg0.N) (p : Fin 512) :
    iblk m c 0 t (ix2 p 0) = V m c main_v1 (ix2 (ROW t p) 0) := by
  obtain ⟨e00, e01, -⟩ := idx_moving t
  unfold iblk
  rw [View.read_apply]
  show V m c main_v1 (((cfg0.win 0).blk t).view.emb (ix2 p 0)) = V m c main_v1 (ix2 (ROW t p) 0)
  refine congrArg _ ?_
  funext d; apply Fin.ext
  match d with
  | ⟨0, _⟩ => show win0_0.index t (0 : Fin 2) * 512 + 1 * p.val = 512 * (t.val / 4) + p.val; omega
  | ⟨1, _⟩ => show win0_0.index t (1 : Fin 2) * 1 + 1 * 0 = 0; omega

/-- Window 1: the block of 2048 columns of the one-row array at the column block. -/
theorem iblk1_apply (t : Fin cfg0.N) (b : Fin 2048) :
    iblk m c 1 t (ix2 0 b) = V m c main_v3 (ix2 0 (COL t b)) := by
  obtain ⟨-, -, e10, e11, -⟩ := idx_moving t
  unfold iblk
  rw [View.read_apply]
  show V m c main_v3 (((cfg0.win 1).blk t).view.emb (ix2 0 b)) = V m c main_v3 (ix2 0 (COL t b))
  refine congrArg _ ?_
  funext d; apply Fin.ext
  match d with
  | ⟨0, _⟩ => show win0_1.index t (0 : Fin 2) * 1 + 1 * 0 = 0; omega
  | ⟨1, _⟩ => show win0_1.index t (1 : Fin 2) * 2048 + 1 * b.val = 2048 * (t.val % 4) + b.val; omega

/-- Window 2: the 512 x 2048 block of the adjacency at the row block and the column block. -/
theorem iblk2_apply (t : Fin cfg0.N) (p : Fin 512) (b : Fin 2048) :
    iblk m c 2 t (ix2 p b) = V m c main_arg1 (ix2 (ROW t p) (COL t b)) := by
  obtain ⟨-, -, -, -, e20, e21, -⟩ := idx_moving t
  unfold iblk
  rw [View.read_apply]
  show V m c main_arg1 (((cfg0.win 2).blk t).view.emb (ix2 p b)) = V m c main_arg1 (ix2 (ROW t p) (COL t b))
  refine congrArg _ ?_
  funext d; apply Fin.ext
  match d with
  | ⟨0, _⟩ => show win0_2.index t (0 : Fin 2) * 512 + 1 * p.val = 512 * (t.val / 4) + p.val; omega
  | ⟨1, _⟩ => show win0_2.index t (1 : Fin 2) * 2048 + 1 * b.val = 2048 * (t.val % 4) + b.val; omega

/-- Window 4: the block of 512 rows of the 256-column array at the row block. -/
theorem iblk4_apply (t : Fin cfg0.N) (p : Fin 512) (q : Fin 256) :
    iblk m c 4 t (ix2 p q) = V m c main_v0 (ix2 (ROW t p) q) := by
  obtain ⟨-, -, -, -, -, -, e40, e41, -⟩ := idx_moving t
  unfold iblk
  rw [View.read_apply]
  show V m c main_v0 (((cfg0.win 4).blk t).view.emb (ix2 p q)) = V m c main_v0 (ix2 (ROW t p) q)
  refine congrArg _ ?_
  funext d; apply Fin.ext
  match d with
  | ⟨0, _⟩ => show win0_4.index t (0 : Fin 2) * 512 + 1 * p.val = 512 * (t.val / 4) + p.val; omega
  | ⟨1, _⟩ => show win0_4.index t (1 : Fin 2) * 256 + 1 * q.val = q.val; omega

/-! ## The windows that hold a whole array -/

/-- Window 3 holds all of its array: its block index is `0` on both axes at every point. -/
theorem idx3 : ∀ t : Fin cfg0.N, win0_3.index t (0 : Fin 2) = 0 ∧ win0_3.index t (1 : Fin 2) = 0 :=
  (by decide +kernel : ∀ t : Fin grid0.N, _)

/-- Window 3's block read at an index is its array read there. -/
theorem iblk3_apply (t : Fin cfg0.N) (a : Fin 8192) (b : Fin 256) :
    iblk m c 3 t (ix2 a b) = V m c main_v4 (ix2 a b) := by
  obtain ⟨e0, e1⟩ := idx3 t
  unfold iblk
  rw [View.read_apply]
  show V m c main_v4 (((cfg0.win 3).blk t).view.emb (ix2 a b)) = V m c main_v4 (ix2 a b)
  refine congrArg _ ?_
  funext d; apply Fin.ext
  match d with
  | ⟨0, _⟩ => show win0_3.index t (0 : Fin 2) * 8192 + 1 * a.val = a.val; omega
  | ⟨1, _⟩ => show win0_3.index t (1 : Fin 2) * 256 + 1 * b.val = b.val; omega

/-- Window 5 holds all of its array: its block index is `0` on both axes at every point. -/
theorem idx5 : ∀ t : Fin cfg0.N, win0_5.index t (0 : Fin 2) = 0 ∧ win0_5.index t (1 : Fin 2) = 0 :=
  (by decide +kernel : ∀ t : Fin grid0.N, _)

/-- Window 5's block read at an index is its array read there. -/
theorem iblk5_apply (t : Fin cfg0.N) (a : Fin 256) (b : Fin 512) :
    iblk m c 5 t (ix2 a b) = V m c main_arg15 (ix2 a b) := by
  obtain ⟨e0, e1⟩ := idx5 t
  unfold iblk
  rw [View.read_apply]
  show V m c main_arg15 (((cfg0.win 5).blk t).view.emb (ix2 a b)) = V m c main_arg15 (ix2 a b)
  refine congrArg _ ?_
  funext d; apply Fin.ext
  match d with
  | ⟨0, _⟩ => show win0_5.index t (0 : Fin 2) * 256 + 1 * a.val = a.val; omega
  | ⟨1, _⟩ => show win0_5.index t (1 : Fin 2) * 512 + 1 * b.val = b.val; omega

/-- Window 6 holds all of its array: its block index is `0` on both axes at every point. -/
theorem idx6 : ∀ t : Fin cfg0.N, win0_6.index t (0 : Fin 2) = 0 ∧ win0_6.index t (1 : Fin 2) = 0 :=
  (by decide +kernel : ∀ t : Fin grid0.N, _)

/-- Window 6's block read at an index is its array read there. -/
theorem iblk6_apply (t : Fin cfg0.N) (a : Fin 1) (b : Fin 512) :
    iblk m c 6 t (ix2 a b) = V m c main_v6 (ix2 a b) := by
  obtain ⟨e0, e1⟩ := idx6 t
  unfold iblk
  rw [View.read_apply]
  show V m c main_v6 (((cfg0.win 6).blk t).view.emb (ix2 a b)) = V m c main_v6 (ix2 a b)
  refine congrArg _ ?_
  funext d; apply Fin.ext
  match d with
  | ⟨0, _⟩ => show win0_6.index t (0 : Fin 2) * 1 + 1 * a.val = a.val; omega
  | ⟨1, _⟩ => show win0_6.index t (1 : Fin 2) * 512 + 1 * b.val = b.val; omega

/-- Window 7 holds all of its array: its block index is `0` on both axes at every point. -/
theorem idx7 : ∀ t : Fin cfg0.N, win0_7.index t (0 : Fin 2) = 0 ∧ win0_7.index t (1 : Fin 2) = 0 :=
  (by decide +kernel : ∀ t : Fin grid0.N, _)

/-- Window 7's block read at an index is its array read there. -/
theorem iblk7_apply (t : Fin cfg0.N) (a : Fin 1) (b : Fin 512) :
    iblk m c 7 t (ix2 a b) = V m c main_v7 (ix2 a b) := by
  obtain ⟨e0, e1⟩ := idx7 t
  unfold iblk
  rw [View.read_apply]
  show V m c main_v7 (((cfg0.win 7).blk t).view.emb (ix2 a b)) = V m c main_v7 (ix2 a b)
  refine congrArg _ ?_
  funext d; apply Fin.ext
  match d with
  | ⟨0, _⟩ => show win0_7.index t (0 : Fin 2) * 1 + 1 * a.val = a.val; omega
  | ⟨1, _⟩ => show win0_7.index t (1 : Fin 2) * 512 + 1 * b.val = b.val; omega

/-- Window 8 holds all of its array: its block index is `0` on both axes at every point. -/
theorem idx8 : ∀ t : Fin cfg0.N, win0_8.index t (0 : Fin 2) = 0 ∧ win0_8.index t (1 : Fin 2) = 0 :=
  (by decide +kernel : ∀ t : Fin grid0.N, _)

/-- Window 8's block read at an index is its array read there. -/
theorem iblk8_apply (t : Fin cfg0.N) (a : Fin 1) (b : Fin 512) :
    iblk m c 8 t (ix2 a b) = V m c main_v8 (ix2 a b) := by
  obtain ⟨e0, e1⟩ := idx8 t
  unfold iblk
  rw [View.read_apply]
  show V m c main_v8 (((cfg0.win 8).blk t).view.emb (ix2 a b)) = V m c main_v8 (ix2 a b)
  refine congrArg _ ?_
  funext d; apply Fin.ext
  match d with
  | ⟨0, _⟩ => show win0_8.index t (0 : Fin 2) * 1 + 1 * a.val = a.val; omega
  | ⟨1, _⟩ => show win0_8.index t (1 : Fin 2) * 512 + 1 * b.val = b.val; omega

/-- Window 9 holds all of its array: its block index is `0` on both axes at every point. -/
theorem idx9 : ∀ t : Fin cfg0.N, win0_9.index t (0 : Fin 2) = 0 ∧ win0_9.index t (1 : Fin 2) = 0 :=
  (by decide +kernel : ∀ t : Fin grid0.N, _)

/-- Window 9's block read at an index is its array read there. -/
theorem iblk9_apply (t : Fin cfg0.N) (a : Fin 512) (b : Fin 256) :
    iblk m c 9 t (ix2 a b) = V m c main_arg19 (ix2 a b) := by
  obtain ⟨e0, e1⟩ := idx9 t
  unfold iblk
  rw [View.read_apply]
  show V m c main_arg19 (((cfg0.win 9).blk t).view.emb (ix2 a b)) = V m c main_arg19 (ix2 a b)
  refine congrArg _ ?_
  funext d; apply Fin.ext
  match d with
  | ⟨0, _⟩ => show win0_9.index t (0 : Fin 2) * 512 + 1 * a.val = a.val; omega
  | ⟨1, _⟩ => show win0_9.index t (1 : Fin 2) * 256 + 1 * b.val = b.val; omega

/-- Window 10 holds all of its array: its block index is `0` on both axes at every point. -/
theorem idx10 : ∀ t : Fin cfg0.N, win0_10.index t (0 : Fin 2) = 0 ∧ win0_10.index t (1 : Fin 2) = 0 :=
  (by decide +kernel : ∀ t : Fin grid0.N, _)

/-- Window 10's block read at an index is its array read there. -/
theorem iblk10_apply (t : Fin cfg0.N) (a : Fin 1) (b : Fin 256) :
    iblk m c 10 t (ix2 a b) = V m c main_v9 (ix2 a b) := by
  obtain ⟨e0, e1⟩ := idx10 t
  unfold iblk
  rw [View.read_apply]
  show V m c main_v9 (((cfg0.win 10).blk t).view.emb (ix2 a b)) = V m c main_v9 (ix2 a b)
  refine congrArg _ ?_
  funext d; apply Fin.ext
  match d with
  | ⟨0, _⟩ => show win0_10.index t (0 : Fin 2) * 1 + 1 * a.val = a.val; omega
  | ⟨1, _⟩ => show win0_10.index t (1 : Fin 2) * 256 + 1 * b.val = b.val; omega

/-- Window 11 holds all of its array: its block index is `0` on both axes at every point. -/
theorem idx11 : ∀ t : Fin cfg0.N, win0_11.index t (0 : Fin 2) = 0 ∧ win0_11.index t (1 : Fin 2) = 0 :=
  (by decide +kernel : ∀ t : Fin grid0.N, _)

/-- Window 11's block read at an index is its array read there. -/
theorem iblk11_apply (t : Fin cfg0.N) (a : Fin 256) (b : Fin 384) :
    iblk m c 11 t (ix2 a b) = V m c main_arg5 (ix2 a b) := by
  obtain ⟨e0, e1⟩ := idx11 t
  unfold iblk
  rw [View.read_apply]
  show V m c main_arg5 (((cfg0.win 11).blk t).view.emb (ix2 a b)) = V m c main_arg5 (ix2 a b)
  refine congrArg _ ?_
  funext d; apply Fin.ext
  match d with
  | ⟨0, _⟩ => show win0_11.index t (0 : Fin 2) * 256 + 1 * a.val = a.val; omega
  | ⟨1, _⟩ => show win0_11.index t (1 : Fin 2) * 384 + 1 * b.val = b.val; omega

/-- Window 12 holds all of its array: its block index is `0` on both axes at every point. -/
theorem idx12 : ∀ t : Fin cfg0.N, win0_12.index t (0 : Fin 2) = 0 ∧ win0_12.index t (1 : Fin 2) = 0 :=
  (by decide +kernel : ∀ t : Fin grid0.N, _)

/-- Window 12's block read at an index is its array read there. -/
theorem iblk12_apply (t : Fin cfg0.N) (a : Fin 1) (b : Fin 384) :
    iblk m c 12 t (ix2 a b) = V m c main_v10 (ix2 a b) := by
  obtain ⟨e0, e1⟩ := idx12 t
  unfold iblk
  rw [View.read_apply]
  show V m c main_v10 (((cfg0.win 12).blk t).view.emb (ix2 a b)) = V m c main_v10 (ix2 a b)
  refine congrArg _ ?_
  funext d; apply Fin.ext
  match d with
  | ⟨0, _⟩ => show win0_12.index t (0 : Fin 2) * 1 + 1 * a.val = a.val; omega
  | ⟨1, _⟩ => show win0_12.index t (1 : Fin 2) * 384 + 1 * b.val = b.val; omega

/-- Window 13 holds all of its array: its block index is `0` on both axes at every point. -/
theorem idx13 : ∀ t : Fin cfg0.N, win0_13.index t (0 : Fin 2) = 0 ∧ win0_13.index t (1 : Fin 2) = 0 :=
  (by decide +kernel : ∀ t : Fin grid0.N, _)

/-- Window 13's block read at an index is its array read there. -/
theorem iblk13_apply (t : Fin cfg0.N) (a : Fin 128) (b : Fin 256) :
    iblk m c 13 t (ix2 a b) = V m c main_arg7 (ix2 a b) := by
  obtain ⟨e0, e1⟩ := idx13 t
  unfold iblk
  rw [View.read_apply]
  show V m c main_arg7 (((cfg0.win 13).blk t).view.emb (ix2 a b)) = V m c main_arg7 (ix2 a b)
  refine congrArg _ ?_
  funext d; apply Fin.ext
  match d with
  | ⟨0, _⟩ => show win0_13.index t (0 : Fin 2) * 128 + 1 * a.val = a.val; omega
  | ⟨1, _⟩ => show win0_13.index t (1 : Fin 2) * 256 + 1 * b.val = b.val; omega

/-- Window 14 holds all of its array: its block index is `0` on both axes at every point. -/
theorem idx14 : ∀ t : Fin cfg0.N, win0_14.index t (0 : Fin 2) = 0 ∧ win0_14.index t (1 : Fin 2) = 0 :=
  (by decide +kernel : ∀ t : Fin grid0.N, _)

/-- Window 14's block read at an index is its array read there. -/
theorem iblk14_apply (t : Fin cfg0.N) (a : Fin 1) (b : Fin 256) :
    iblk m c 14 t (ix2 a b) = V m c main_v11 (ix2 a b) := by
  obtain ⟨e0, e1⟩ := idx14 t
  unfold iblk
  rw [View.read_apply]
  show V m c main_v11 (((cfg0.win 14).blk t).view.emb (ix2 a b)) = V m c main_v11 (ix2 a b)
  refine congrArg _ ?_
  funext d; apply Fin.ext
  match d with
  | ⟨0, _⟩ => show win0_14.index t (0 : Fin 2) * 1 + 1 * a.val = a.val; omega
  | ⟨1, _⟩ => show win0_14.index t (1 : Fin 2) * 256 + 1 * b.val = b.val; omega

/-- Window 15 holds all of its array: its block index is `0` on both axes at every point. -/
theorem idx15 : ∀ t : Fin cfg0.N, win0_15.index t (0 : Fin 2) = 0 ∧ win0_15.index t (1 : Fin 2) = 0 :=
  (by decide +kernel : ∀ t : Fin grid0.N, _)

/-- Window 15's block read at an index is its array read there. -/
theorem iblk15_apply (t : Fin cfg0.N) (a : Fin 1) (b : Fin 128) :
    iblk m c 15 t (ix2 a b) = V m c main_v5 (ix2 a b) := by
  obtain ⟨e0, e1⟩ := idx15 t
  unfold iblk
  rw [View.read_apply]
  show V m c main_v5 (((cfg0.win 15).blk t).view.emb (ix2 a b)) = V m c main_v5 (ix2 a b)
  refine congrArg _ ?_
  funext d; apply Fin.ext
  match d with
  | ⟨0, _⟩ => show win0_15.index t (0 : Fin 2) * 1 + 1 * a.val = a.val; omega
  | ⟨1, _⟩ => show win0_15.index t (1 : Fin 2) * 128 + 1 * b.val = b.val; omega

/-- Window 16 holds all of its array: its block index is `0` on both axes at every point. -/
theorem idx16 : ∀ t : Fin cfg0.N, win0_16.index t (0 : Fin 2) = 0 ∧ win0_16.index t (1 : Fin 2) = 0 :=
  (by decide +kernel : ∀ t : Fin grid0.N, _)

/-- Window 16's block read at an index is its array read there. -/
theorem iblk16_apply (t : Fin cfg0.N) (a : Fin 1) (b : Fin 1) :
    iblk m c 16 t (ix2 a b) = V m c main_v12 (ix2 a b) := by
  obtain ⟨e0, e1⟩ := idx16 t
  unfold iblk
  rw [View.read_apply]
  show V m c main_v12 (((cfg0.win 16).blk t).view.emb (ix2 a b)) = V m c main_v12 (ix2 a b)
  refine congrArg _ ?_
  funext d; apply Fin.ext
  match d with
  | ⟨0, _⟩ => show win0_16.index t (0 : Fin 2) * 1 + 1 * a.val = a.val; omega
  | ⟨1, _⟩ => show win0_16.index t (1 : Fin 2) * 1 + 1 * b.val = b.val; omega

/-- Window 17 holds all of its array: its block index is `0` on both axes at every point. -/
theorem idx17 : ∀ t : Fin cfg0.N, win0_17.index t (0 : Fin 2) = 0 ∧ win0_17.index t (1 : Fin 2) = 0 :=
  (by decide +kernel : ∀ t : Fin grid0.N, _)

/-- Window 17's block read at an index is its array read there. -/
theorem iblk17_apply (t : Fin cfg0.N) (a : Fin 1) (b : Fin 128) :
    iblk m c 17 t (ix2 a b) = V m c main_v13 (ix2 a b) := by
  obtain ⟨e0, e1⟩ := idx17 t
  unfold iblk
  rw [View.read_apply]
  show V m c main_v13 (((cfg0.win 17).blk t).view.emb (ix2 a b)) = V m c main_v13 (ix2 a b)
  refine congrArg _ ?_
  funext d; apply Fin.ext
  match d with
  | ⟨0, _⟩ => show win0_17.index t (0 : Fin 2) * 1 + 1 * a.val = a.val; omega
  | ⟨1, _⟩ => show win0_17.index t (1 : Fin 2) * 128 + 1 * b.val = b.val; omega

/-- Window 18 holds all of its array: its block index is `0` on both axes at every point. -/
theorem idx18 : ∀ t : Fin cfg0.N, win0_18.index t (0 : Fin 2) = 0 ∧ win0_18.index t (1 : Fin 2) = 0 :=
  (by decide +kernel : ∀ t : Fin grid0.N, _)

/-- Window 18's block read at an index is its array read there. -/
theorem iblk18_apply (t : Fin cfg0.N) (a : Fin 256) (b : Fin 1024) :
    iblk m c 18 t (ix2 a b) = V m c main_arg11 (ix2 a b) := by
  obtain ⟨e0, e1⟩ := idx18 t
  unfold iblk
  rw [View.read_apply]
  show V m c main_arg11 (((cfg0.win 18).blk t).view.emb (ix2 a b)) = V m c main_arg11 (ix2 a b)
  refine congrArg _ ?_
  funext d; apply Fin.ext
  match d with
  | ⟨0, _⟩ => show win0_18.index t (0 : Fin 2) * 256 + 1 * a.val = a.val; omega
  | ⟨1, _⟩ => show win0_18.index t (1 : Fin 2) * 1024 + 1 * b.val = b.val; omega

/-- Window 19 holds all of its array: its block index is `0` on both axes at every point. -/
theorem idx19 : ∀ t : Fin cfg0.N, win0_19.index t (0 : Fin 2) = 0 ∧ win0_19.index t (1 : Fin 2) = 0 :=
  (by decide +kernel : ∀ t : Fin grid0.N, _)

/-- Window 19's block read at an index is its array read there. -/
theorem iblk19_apply (t : Fin cfg0.N) (a : Fin 1) (b : Fin 1024) :
    iblk m c 19 t (ix2 a b) = V m c main_v14 (ix2 a b) := by
  obtain ⟨e0, e1⟩ := idx19 t
  unfold iblk
  rw [View.read_apply]
  show V m c main_v14 (((cfg0.win 19).blk t).view.emb (ix2 a b)) = V m c main_v14 (ix2 a b)
  refine congrArg _ ?_
  funext d; apply Fin.ext
  match d with
  | ⟨0, _⟩ => show win0_19.index t (0 : Fin 2) * 1 + 1 * a.val = a.val; omega
  | ⟨1, _⟩ => show win0_19.index t (1 : Fin 2) * 1024 + 1 * b.val = b.val; omega

/-- Window 20 holds all of its array: its block index is `0` on both axes at every point. -/
theorem idx20 : ∀ t : Fin cfg0.N, win0_20.index t (0 : Fin 2) = 0 ∧ win0_20.index t (1 : Fin 2) = 0 :=
  (by decide +kernel : ∀ t : Fin grid0.N, _)

/-- Window 20's block read at an index is its array read there. -/
theorem iblk20_apply (t : Fin cfg0.N) (a : Fin 1) (b : Fin 1) :
    iblk m c 20 t (ix2 a b) = V m c main_v15 (ix2 a b) := by
  obtain ⟨e0, e1⟩ := idx20 t
  unfold iblk
  rw [View.read_apply]
  show V m c main_v15 (((cfg0.win 20).blk t).view.emb (ix2 a b)) = V m c main_v15 (ix2 a b)
  refine congrArg _ ?_
  funext d; apply Fin.ext
  match d with
  | ⟨0, _⟩ => show win0_20.index t (0 : Fin 2) * 1 + 1 * a.val = a.val; omega
  | ⟨1, _⟩ => show win0_20.index t (1 : Fin 2) * 1 + 1 * b.val = b.val; omega

/-- Window 21 holds all of its array: its block index is `0` on both axes at every point. -/
theorem idx21 : ∀ t : Fin cfg0.N, win0_21.index t (0 : Fin 2) = 0 ∧ win0_21.index t (1 : Fin 2) = 0 :=
  (by decide +kernel : ∀ t : Fin grid0.N, _)

/-- Window 21's block read at an index is its array read there. -/
theorem iblk21_apply (t : Fin cfg0.N) (a : Fin 512) (b : Fin 256) :
    iblk m c 21 t (ix2 a b) = V m c main_arg13 (ix2 a b) := by
  obtain ⟨e0, e1⟩ := idx21 t
  unfold iblk
  rw [View.read_apply]
  show V m c main_arg13 (((cfg0.win 21).blk t).view.emb (ix2 a b)) = V m c main_arg13 (ix2 a b)
  refine congrArg _ ?_
  funext d; apply Fin.ext
  match d with
  | ⟨0, _⟩ => show win0_21.index t (0 : Fin 2) * 512 + 1 * a.val = a.val; omega
  | ⟨1, _⟩ => show win0_21.index t (1 : Fin 2) * 256 + 1 * b.val = b.val; omega

/-- Window 22 holds all of its array: its block index is `0` on both axes at every point. -/
theorem idx22 : ∀ t : Fin cfg0.N, win0_22.index t (0 : Fin 2) = 0 ∧ win0_22.index t (1 : Fin 2) = 0 :=
  (by decide +kernel : ∀ t : Fin grid0.N, _)

/-- Window 22's block read at an index is its array read there. -/
theorem iblk22_apply (t : Fin cfg0.N) (a : Fin 1) (b : Fin 256) :
    iblk m c 22 t (ix2 a b) = V m c main_v16 (ix2 a b) := by
  obtain ⟨e0, e1⟩ := idx22 t
  unfold iblk
  rw [View.read_apply]
  show V m c main_v16 (((cfg0.win 22).blk t).view.emb (ix2 a b)) = V m c main_v16 (ix2 a b)
  refine congrArg _ ?_
  funext d; apply Fin.ext
  match d with
  | ⟨0, _⟩ => show win0_22.index t (0 : Fin 2) * 1 + 1 * a.val = a.val; omega
  | ⟨1, _⟩ => show win0_22.index t (1 : Fin 2) * 256 + 1 * b.val = b.val; omega

/-- Window 23 holds all of its array: its block index is `0` on both axes at every point. -/
theorem idx23 : ∀ t : Fin cfg0.N, win0_23.index t (0 : Fin 2) = 0 ∧ win0_23.index t (1 : Fin 2) = 0 :=
  (by decide +kernel : ∀ t : Fin grid0.N, _)

/-- Window 23's block read at an index is its array read there. -/
theorem iblk23_apply (t : Fin cfg0.N) (a : Fin 512) (b : Fin 512) :
    iblk m c 23 t (ix2 a b) = V m c main_arg23 (ix2 a b) := by
  obtain ⟨e0, e1⟩ := idx23 t
  unfold iblk
  rw [View.read_apply]
  show V m c main_arg23 (((cfg0.win 23).blk t).view.emb (ix2 a b)) = V m c main_arg23 (ix2 a b)
  refine congrArg _ ?_
  funext d; apply Fin.ext
  match d with
  | ⟨0, _⟩ => show win0_23.index t (0 : Fin 2) * 512 + 1 * a.val = a.val; omega
  | ⟨1, _⟩ => show win0_23.index t (1 : Fin 2) * 512 + 1 * b.val = b.val; omega

/-- Window 24 holds all of its array: its block index is `0` on both axes at every point. -/
theorem idx24 : ∀ t : Fin cfg0.N, win0_24.index t (0 : Fin 2) = 0 ∧ win0_24.index t (1 : Fin 2) = 0 :=
  (by decide +kernel : ∀ t : Fin grid0.N, _)

/-- Window 24's block read at an index is its array read there. -/
theorem iblk24_apply (t : Fin cfg0.N) (a : Fin 1) (b : Fin 512) :
    iblk m c 24 t (ix2 a b) = V m c main_v17 (ix2 a b) := by
  obtain ⟨e0, e1⟩ := idx24 t
  unfold iblk
  rw [View.read_apply]
  show V m c main_v17 (((cfg0.win 24).blk t).view.emb (ix2 a b)) = V m c main_v17 (ix2 a b)
  refine congrArg _ ?_
  funext d; apply Fin.ext
  match d with
  | ⟨0, _⟩ => show win0_24.index t (0 : Fin 2) * 1 + 1 * a.val = a.val; omega
  | ⟨1, _⟩ => show win0_24.index t (1 : Fin 2) * 512 + 1 * b.val = b.val; omega

/-- Window 25 holds all of its array: its block index is `0` on both axes at every point. -/
theorem idx25 : ∀ t : Fin cfg0.N, win0_25.index t (0 : Fin 2) = 0 ∧ win0_25.index t (1 : Fin 2) = 0 :=
  (by decide +kernel : ∀ t : Fin grid0.N, _)

/-- Window 25's block read at an index is its array read there. -/
theorem iblk25_apply (t : Fin cfg0.N) (a : Fin 1) (b : Fin 512) :
    iblk m c 25 t (ix2 a b) = V m c main_v18 (ix2 a b) := by
  obtain ⟨e0, e1⟩ := idx25 t
  unfold iblk
  rw [View.read_apply]
  show V m c main_v18 (((cfg0.win 25).blk t).view.emb (ix2 a b)) = V m c main_v18 (ix2 a b)
  refine congrArg _ ?_
  funext d; apply Fin.ext
  match d with
  | ⟨0, _⟩ => show win0_25.index t (0 : Fin 2) * 1 + 1 * a.val = a.val; omega
  | ⟨1, _⟩ => show win0_25.index t (1 : Fin 2) * 512 + 1 * b.val = b.val; omega

/-- Window 26 holds all of its array: its block index is `0` on both axes at every point. -/
theorem idx26 : ∀ t : Fin cfg0.N, win0_26.index t (0 : Fin 2) = 0 ∧ win0_26.index t (1 : Fin 2) = 0 :=
  (by decide +kernel : ∀ t : Fin grid0.N, _)

/-- Window 26's block read at an index is its array read there. -/
theorem iblk26_apply (t : Fin cfg0.N) (a : Fin 1) (b : Fin 512) :
    iblk m c 26 t (ix2 a b) = V m c main_v19 (ix2 a b) := by
  obtain ⟨e0, e1⟩ := idx26 t
  unfold iblk
  rw [View.read_apply]
  show V m c main_v19 (((cfg0.win 26).blk t).view.emb (ix2 a b)) = V m c main_v19 (ix2 a b)
  refine congrArg _ ?_
  funext d; apply Fin.ext
  match d with
  | ⟨0, _⟩ => show win0_26.index t (0 : Fin 2) * 1 + 1 * a.val = a.val; omega
  | ⟨1, _⟩ => show win0_26.index t (1 : Fin 2) * 512 + 1 * b.val = b.val; omega

/-- Window 27 holds all of its array: its block index is `0` on both axes at every point. -/
theorem idx27 : ∀ t : Fin cfg0.N, win0_27.index t (0 : Fin 2) = 0 ∧ win0_27.index t (1 : Fin 2) = 0 :=
  (by decide +kernel : ∀ t : Fin grid0.N, _)

/-- Window 27's block read at an index is its array read there. -/
theorem iblk27_apply (t : Fin cfg0.N) (a : Fin 512) (b : Fin 256) :
    iblk m c 27 t (ix2 a b) = V m c main_arg27 (ix2 a b) := by
  obtain ⟨e0, e1⟩ := idx27 t
  unfold iblk
  rw [View.read_apply]
  show V m c main_arg27 (((cfg0.win 27).blk t).view.emb (ix2 a b)) = V m c main_arg27 (ix2 a b)
  refine congrArg _ ?_
  funext d; apply Fin.ext
  match d with
  | ⟨0, _⟩ => show win0_27.index t (0 : Fin 2) * 512 + 1 * a.val = a.val; omega
  | ⟨1, _⟩ => show win0_27.index t (1 : Fin 2) * 256 + 1 * b.val = b.val; omega

/-- Window 28 holds all of its array: its block index is `0` on both axes at every point. -/
theorem idx28 : ∀ t : Fin cfg0.N, win0_28.index t (0 : Fin 2) = 0 ∧ win0_28.index t (1 : Fin 2) = 0 :=
  (by decide +kernel : ∀ t : Fin grid0.N, _)

/-- Window 28's block read at an index is its array read there. -/
theorem iblk28_apply (t : Fin cfg0.N) (a : Fin 1) (b : Fin 256) :
    iblk m c 28 t (ix2 a b) = V m c main_v20 (ix2 a b) := by
  obtain ⟨e0, e1⟩ := idx28 t
  unfold iblk
  rw [View.read_apply]
  show V m c main_v20 (((cfg0.win 28).blk t).view.emb (ix2 a b)) = V m c main_v20 (ix2 a b)
  refine congrArg _ ?_
  funext d; apply Fin.ext
  match d with
  | ⟨0, _⟩ => show win0_28.index t (0 : Fin 2) * 1 + 1 * a.val = a.val; omega
  | ⟨1, _⟩ => show win0_28.index t (1 : Fin 2) * 256 + 1 * b.val = b.val; omega

/-- Window 29 holds all of its array: its block index is `0` on both axes at every point. -/
theorem idx29 : ∀ t : Fin cfg0.N, win0_29.index t (0 : Fin 2) = 0 ∧ win0_29.index t (1 : Fin 2) = 0 :=
  (by decide +kernel : ∀ t : Fin grid0.N, _)

/-- Window 29's block read at an index is its array read there. -/
theorem iblk29_apply (t : Fin cfg0.N) (a : Fin 1) (b : Fin 256) :
    iblk m c 29 t (ix2 a b) = V m c main_v21 (ix2 a b) := by
  obtain ⟨e0, e1⟩ := idx29 t
  unfold iblk
  rw [View.read_apply]
  show V m c main_v21 (((cfg0.win 29).blk t).view.emb (ix2 a b)) = V m c main_v21 (ix2 a b)
  refine congrArg _ ?_
  funext d; apply Fin.ext
  match d with
  | ⟨0, _⟩ => show win0_29.index t (0 : Fin 2) * 1 + 1 * a.val = a.val; omega
  | ⟨1, _⟩ => show win0_29.index t (1 : Fin 2) * 256 + 1 * b.val = b.val; omega

/-- Window 30 holds all of its array: its block index is `0` on both axes at every point. -/
theorem idx30 : ∀ t : Fin cfg0.N, win0_30.index t (0 : Fin 2) = 0 ∧ win0_30.index t (1 : Fin 2) = 0 :=
  (by decide +kernel : ∀ t : Fin grid0.N, _)

/-- Window 30's block read at an index is its array read there. -/
theorem iblk30_apply (t : Fin cfg0.N) (a : Fin 1) (b : Fin 256) :
    iblk m c 30 t (ix2 a b) = V m c main_v22 (ix2 a b) := by
  obtain ⟨e0, e1⟩ := idx30 t
  unfold iblk
  rw [View.read_apply]
  show V m c main_v22 (((cfg0.win 30).blk t).view.emb (ix2 a b)) = V m c main_v22 (ix2 a b)
  refine congrArg _ ?_
  funext d; apply Fin.ext
  match d with
  | ⟨0, _⟩ => show win0_30.index t (0 : Fin 2) * 1 + 1 * a.val = a.val; omega
  | ⟨1, _⟩ => show win0_30.index t (1 : Fin 2) * 256 + 1 * b.val = b.val; omega

/-! ## The output window -/

/-- The output block is written back at the last column step of each row block. -/
theorem flush31_iff (t : Fin cfg0.N) : (cfg0.win 31).flush t = true ↔ t.val % 4 = 3 :=
  (by decide +kernel : ∀ t : Fin grid0.N, (win0_31.flush t = true ↔ t.val % 4 = 3)) t

/-- An index of the output block at point `t`, placed in the output array. -/
theorem emb31 (t : Fin cfg0.N) (p : Fin 512) (q : Fin 256) :
    ((cfg0.win 31).blk t).view.emb (ix2 p q) = ix2 (ROW t p) q := by
  obtain ⟨-, -, -, -, -, -, -, -, e0, e1⟩ := idx_moving t
  funext d; apply Fin.ext
  match d with
  | ⟨0, _⟩ => show win0_31.index t (0 : Fin 2) * 512 + 1 * p.val = 512 * (t.val / 4) + p.val; omega
  | ⟨1, _⟩ => show win0_31.index t (1 : Fin 2) * 256 + 1 * q.val = q.val; omega

/-- An index of the output array is in point `t`'s block iff each coordinate is in the block's range on its axis. -/
theorem mem_blk31 (t : Fin cfg0.N) (i : S8192x256.Idx) :
    i ∈ ((cfg0.win 31).blk t).view.set ↔ ∀ a : Fin 2, win0_31.index t a * S512x256.size a ≤ (i a).val
      ∧ (i a).val < win0_31.index t a * S512x256.size a + S512x256.size a := by
  show i ∈ ((View.whole main_v23).slice (win0_31.rect t)).set ↔ _
  rw [View.set_slice_whole, Rect.mem_set_unit]
  exact Iff.rfl

/-- Every index of the output array is in the block some point writes back: the last column step of its row block. -/
theorem cover31 (i : S8192x256.Idx) :
    ∃ t : Fin cfg0.N, (cfg0.win 31).flush t = true ∧ i ∈ ((cfg0.win 31).blk t).view.set := by
  have hi0 : (i 0).val < 8192 := (i 0).isLt
  have hi1 : (i 1).val < 256 := (i 1).isLt
  have hlt : 4 * ((i 0).val / 512) + 3 < cfg0.N := lt_of_lt_of_eq (by omega) (show (64 : ℕ) = cfg0.N from N_0.symm)
  refine ⟨⟨4 * ((i 0).val / 512) + 3, hlt⟩, (flush31_iff _).mpr (by show (4 * ((i 0).val / 512) + 3) % 4 = 3; omega), ?_⟩
  obtain ⟨-, -, -, -, -, -, -, -, e0, e1⟩ := idx_moving ⟨4 * ((i 0).val / 512) + 3, hlt⟩
  have e0' : win0_31.index ⟨4 * ((i 0).val / 512) + 3, hlt⟩ (0 : Fin 2) = (4 * ((i 0).val / 512) + 3) / 4 := e0
  rw [mem_blk31]
  intro a
  match a with
  | ⟨0, _⟩ =>
    show win0_31.index ⟨4 * ((i 0).val / 512) + 3, hlt⟩ (0 : Fin 2) * 512 ≤ (i 0).val
      ∧ (i 0).val < win0_31.index ⟨4 * ((i 0).val / 512) + 3, hlt⟩ (0 : Fin 2) * 512 + 512
    omega
  | ⟨1, _⟩ =>
    show win0_31.index ⟨4 * ((i 0).val / 512) + 3, hlt⟩ (1 : Fin 2) * 256 ≤ (i 1).val
      ∧ (i 1).val < win0_31.index ⟨4 * ((i 0).val / 512) + 3, hlt⟩ (1 : Fin 2) * 256 + 256
    omega

end Cert.KernelIdeal.Blocks

end
-- ==== Proof.KHost.lean ====
/-
  The kernel program's host operations before the call, read at an index.

  `Wh = h · W` is a sum over the 256 input features; the two attention projections are sums over
  the 256 columns of `Wh`; the key projection is transposed into a row; the bf16 copy of `Wh` is
  `Wh` itself on the extended reals; each bias and scale vector is reshaped into a one-row matrix,
  and the `128 × 1` column `cp_w` is transposed into a row.
-/
import proofs.«172967_j79852031967736_2_alg».proof.Proof.Gen.KernelIdeal.Frame.Runs
import proofs.«172967_j79852031967736_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostValue

open Idealize.ShloMosaic Idealize.ShloMosaic.ValueIdx Idealize.ShloMosaic.TcCoe Idealize.SL.Sem Idealize.ShloMosaic.StableHlo
open Cert.KernelIdeal Cert.KernelIdeal.Gen

/-! ## The two host products at an index -/

theorem lhsA_0 (i : S8192x256.Idx) (q : dot_S8192x256_S256x256_S8192x256_1_0_0_1_n_n.contr.Idx) : (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhsA_1 (i : S8192x256.Idx) (q : dot_S8192x256_S256x256_S8192x256_1_0_0_1_n_n.contr.Idx) : (dot_S8192x256_S256x256_S8192x256_1_0_0_1_n_n.lhsIdx i q 1).val = (q ⟨0, by decide⟩).val :=
  dot_S8192x256_S256x256_S8192x256_1_0_0_1_n_n.lhsIdx_val_of_single rfl i q
theorem rhsA_0 (i : S8192x256.Idx) (q : dot_S8192x256_S256x256_S8192x256_1_0_0_1_n_n.contr.Idx) : (dot_S8192x256_S256x256_S8192x256_1_0_0_1_n_n.rhsIdx i q 0).val = (q ⟨0, by decide⟩).val :=
  dot_S8192x256_S256x256_S8192x256_1_0_0_1_n_n.rhsIdx_val_of_single rfl i q
theorem rhsA_1 (i : S8192x256.Idx) (q : dot_S8192x256_S256x256_S8192x256_1_0_0_1_n_n.contr.Idx) : (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- `(l · r) (i, c) = ∑ k, l (i, k) * r (k, c)` for the `8192 × 256` by `256 × 256` product. -/
theorem dotA_apply (l : S8192x256.Idx → EReal) (r : S256x256.Idx → EReal) (i : Fin 8192) (c : Fin 256) :
    Host.dotGeneral (F := Ideal) (φ₁ := .f32) (φ₂ := .f32) dot_S8192x256_S256x256_S8192x256_1_0_0_1_n_n none l r (ix2 i c) = ∑ k : Fin 256, l (ix2 i k) * r (ix2 k c) := by
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 i c) ((ValueIdx.contrEquiv1 dot_S8192x256_S256x256_S8192x256_1_0_0_1_n_n 256 rfl rfl).symm k) = ix2 i k := funext fun a => Fin.ext (by
    match a with
    | ⟨0, _⟩ => exact lhsA_0 _ _
    | ⟨1, _⟩ => exact (lhsA_1 _ _).trans hk)
  have er : dot_S8192x256_S256x256_S8192x256_1_0_0_1_n_n.rhsIdx (ix2 i c) ((ValueIdx.contrEquiv1 dot_S8192x256_S256x256_S8192x256_1_0_0_1_n_n 256 rfl rfl).symm k) = ix2 k c := funext fun a => Fin.ext (by
    match a with
    | ⟨0, _⟩ => exact (rhsA_0 _ _).trans hk
    | ⟨1, _⟩ => exact rhsA_1 _ _)
  rw [el, er]

theorem lhsB_0 (i : S8192x1.Idx) (q : dot_S8192x256_S256x1_S8192x1_1_0_0_1_n_n.contr.Idx) : (dot_S8192x256_S256x1_S8192x1_1_0_0_1_n_n.lhsIdx i q 0).val = (i 0).val := by
  unfold DotDims.lhsIdx
  rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
  rfl
theorem lhsB_1 (i : S8192x1.Idx) (q : dot_S8192x256_S256x1_S8192x1_1_0_0_1_n_n.contr.Idx) : (dot_S8192x256_S256x1_S8192x1_1_0_0_1_n_n.lhsIdx i q 1).val = (q ⟨0, by decide⟩).val :=
  dot_S8192x256_S256x1_S8192x1_1_0_0_1_n_n.lhsIdx_val_of_single rfl i q
theorem rhsB_0 (i : S8192x1.Idx) (q : dot_S8192x256_S256x1_S8192x1_1_0_0_1_n_n.contr.Idx) : (dot_S8192x256_S256x1_S8192x1_1_0_0_1_n_n.rhsIdx i q 0).val = (q ⟨0, by decide⟩).val :=
  dot_S8192x256_S256x1_S8192x1_1_0_0_1_n_n.rhsIdx_val_of_single rfl i q
theorem rhsB_1 (i : S8192x1.Idx) (q : dot_S8192x256_S256x1_S8192x1_1_0_0_1_n_n.contr.Idx) : (dot_S8192x256_S256x1_S8192x1_1_0_0_1_n_n.rhsIdx i q 1).val = (i 1).val := by
  unfold DotDims.rhsIdx
  rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
  rfl

/-- The `8192 × 256` by `256 × 1` product at row `i`. -/
theorem dotB_apply (l : S8192x256.Idx → EReal) (r : S256x1.Idx → EReal) (i : Fin 8192) :
    Host.dotGeneral (F := Ideal) (φ₁ := .f32) (φ₂ := .f32) dot_S8192x256_S256x1_S8192x1_1_0_0_1_n_n none l r (ix2 i 0) = ∑ k : Fin 256, l (ix2 i k) * r (ix2 k 0) := by
  simp only [Host.dotGeneral]
  rw [Ideal.dotGeneral_apply, ← Equiv.sum_comp (ValueIdx.contrEquiv1 dot_S8192x256_S256x1_S8192x1_1_0_0_1_n_n 256 rfl rfl).symm]
  refine Finset.sum_congr rfl fun k _ => ?_
  have hk := ValueIdx.contrEquiv1_symm_val dot_S8192x256_S256x1_S8192x1_1_0_0_1_n_n 256 rfl rfl k
  have el : dot_S8192x256_S256x1_S8192x1_1_0_0_1_n_n.lhsIdx (ix2 i 0) ((ValueIdx.contrEquiv1 dot_S8192x256_S256x1_S8192x1_1_0_0_1_n_n 256 rfl rfl).symm k) = ix2 i k := funext fun a => Fin.ext (by
    match a with
    | ⟨0, _⟩ => exact lhsB_0 _ _
    | ⟨1, _⟩ => exact (lhsB_1 _ _).trans hk)
  have er : dot_S8192x256_S256x1_S8192x1_1_0_0_1_n_n.rhsIdx (ix2 i 0) ((ValueIdx.contrEquiv1 dot_S8192x256_S256x1_S8192x1_1_0_0_1_n_n 256 rfl rfl).symm k) = ix2 k 0 := funext fun a => Fin.ext (by
    match a with
    | ⟨0, _⟩ => exact (rhsB_0 _ _).trans hk
    | ⟨1, _⟩ => exact rhsB_1 _ _)
  rw [el, er]

/-! ## The buffers the call's windows read -/

variable (m : (ℓ : Loc nD τ sig) → Buf (Elt Ideal) ℓ) (c : Dev nD)

/-- The five attention inputs as the program's memory holds them. -/
abbrev aH : S8192x256.Idx → EReal := m ((c : Thread nD τ).loc main_arg0)
abbrev aAdj : S8192x8192.Idx → BitVec 32 := m ((c : Thread nD τ).loc main_arg1)
abbrev aW : S256x256.Idx → EReal := m ((c : Thread nD τ).loc main_arg2)
abbrev aSrc : S256x1.Idx → EReal := m ((c : Thread nD τ).loc main_arg3)
abbrev aDst : S256x1.Idx → EReal := m ((c : Thread nD τ).loc main_arg4)

theorem V_v0_apply (r : Fin 8192) (q : Fin 256) : V m c main_v0 (ix2 r q) = Cert.Spec.Wh (aH m c) (aW m c) r q := by
  have e : (V m c main_v0 : S8192x256.Idx → EReal)
      = Host.dotGeneral (F := Ideal) (φ₁ := .f32) (φ₂ := .f32) dot_S8192x256_S256x256_S8192x256_1_0_0_1_n_n none (aH m c) (aW m c) := by
    dsimp only [V, hostOps0]; after_results
  rw [e, dotA_apply]; rfl

theorem V_v4_apply (r : Fin 8192) (q : Fin 256) : V m c main_v4 (ix2 r q) = Cert.Spec.Wh (aH m c) (aW m c) r q := by
  have e : (V m c main_v4 : S8192x256.Idx → EReal)
      = truncf .bf16 (Host.dotGeneral (F := Ideal) (φ₁ := .f32) (φ₂ := .f32) dot_S8192x256_S256x256_S8192x256_1_0_0_1_n_n none (aH m c) (aW m c)) bitsLt_bf16_f32 := by
    dsimp only [V, hostOps0]; after_results
  rw [e, truncf_apply, dotA_apply]; rfl

theorem V_v1_apply (r : Fin 8192) : V m c main_v1 (ix2 r 0) = Cert.Spec.proj (Cert.Spec.Wh (aH m c) (aW m c) r) (aSrc m c) := by
  have e : (V m c main_v1 : S8192x1.Idx → EReal)
      = Host.dotGeneral (F := Ideal) (φ₁ := .f32) (φ₂ := .f32) dot_S8192x256_S256x1_S8192x1_1_0_0_1_n_n none
          (Host.dotGeneral (F := Ideal) (φ₁ := .f32) (φ₂ := .f32) dot_S8192x256_S256x256_S8192x256_1_0_0_1_n_n none (aH m c) (aW m c)) (aSrc m c) := by
    dsimp only [V, hostOps0]; after_results
  rw [e]
  refine (dotB_apply _ _ r).trans ?_
  unfold Cert.Spec.proj
  refine Finset.sum_congr rfl fun k _ => ?_
  rw [dotA_apply]; rfl

theorem V_v3_apply (k : Fin 8192) : V m c main_v3 (ix2 0 k) = Cert.Spec.proj (Cert.Spec.Wh (aH m c) (aW m c) k) (aDst m c) := by
  have e : (V m c main_v3 : S1x8192.Idx → EReal)
      = transpose S1x8192 [1, 0] (Host.dotGeneral (F := Ideal) (φ₁ := .f32) (φ₂ := .f32) dot_S8192x256_S256x1_S8192x1_1_0_0_1_n_n none
          (Host.dotGeneral (F := Ideal) (φ₁ := .f32) (φ₂ := .f32) dot_S8192x256_S256x256_S8192x256_1_0_0_1_n_n none (aH m c) (aW m c)) (aDst m c)) transposes_S8192x1_S1x8192_1_0 := by
    dsimp only [V, hostOps0]; after_results
  rw [e, transpose_ix2_apply]
  refine (dotB_apply _ _ k).trans ?_
  unfold Cert.Spec.proj
  refine Finset.sum_congr rfl fun j _ => ?_
  rw [dotA_apply]; rfl

/-- The transposed `cp_w` column. -/
theorem V_v5_apply (k : Fin 128) : V m c main_v5 (ix2 0 k) = m ((c : Thread nD τ).loc main_arg9) (ix2 k 0) := by
  have e : (V m c main_v5 : S1x128.Idx → EReal)
      = transpose S1x128 [1, 0] (m ((c : Thread nD τ).loc main_arg9) : S128x1.Idx → EReal) transposes_S128x1_S1x128_1_0 := by
    dsimp only [V, hostOps0]; after_results
  rw [e, transpose_ix2_apply]

end Cert.KernelIdeal.HostValue

end
-- ==== Proof.KHost2.lean ====
/-
  The one-row matrices the call finds.

  Before the call the program reshapes seventeen vectors into one-row matrices. Each such matrix, read
  at its one row and column `q`, is the vector it came from at `q`.
-/
import proofs.«172967_j79852031967736_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue2

open Idealize.ShloMosaic Idealize.ShloMosaic.ValueIdx Idealize.ShloMosaic.TcCoe Idealize.SL.Sem Idealize.ShloMosaic.StableHlo Cert.KernelIdeal Cert.KernelIdeal.Gen

variable (m : (ℓ : Loc nD τ sig) → Buf (Elt Ideal) ℓ) (c : Dev nD)

theorem V_v6_apply (q : Fin 512) :
    (V m c main_v6 : S1x512.Idx → EReal) (ix2 0 q) = m ((c : Thread nD τ).loc main_arg16) (ix1 q) := by
  have e : (V m c main_v6 : S1x512.Idx → EReal)
      = shapeCast S1x512 (m ((c : Thread nD τ).loc main_arg16) : S512.Idx → EReal) shapeCasts_S512_S1x512 := by
    dsimp only [V, hostOps0]
    after_results
    rfl
  rw [e]
  exact shapeCast_a_1a_apply _ _ 0 q

theorem V_v7_apply (q : Fin 512) :
    (V m c main_v7 : S1x512.Idx → EReal) (ix2 0 q) = m ((c : Thread nD τ).loc main_arg17) (ix1 q) := by
  have e : (V m c main_v7 : S1x512.Idx → EReal)
      = shapeCast S1x512 (m ((c : Thread nD τ).loc main_arg17) : S512.Idx → EReal) shapeCasts_S512_S1x512 := by
    dsimp only [V, hostOps0]
    after_results
    rfl
  rw [e]
  exact shapeCast_a_1a_apply _ _ 0 q

theorem V_v8_apply (q : Fin 512) :
    (V m c main_v8 : S1x512.Idx → EReal) (ix2 0 q) = m ((c : Thread nD τ).loc main_arg18) (ix1 q) := by
  have e : (V m c main_v8 : S1x512.Idx → EReal)
      = shapeCast S1x512 (m ((c : Thread nD τ).loc main_arg18) : S512.Idx → EReal) shapeCasts_S512_S1x512 := by
    dsimp only [V, hostOps0]
    after_results
    rfl
  rw [e]
  exact shapeCast_a_1a_apply _ _ 0 q

theorem V_v9_apply (q : Fin 256) :
    (V m c main_v9 : S1x256.Idx → EReal) (ix2 0 q) = m ((c : Thread nD τ).loc main_arg20) (ix1 q) := by
  have e : (V m c main_v9 : S1x256.Idx → EReal)
      = shapeCast S1x256 (m ((c : Thread nD τ).loc main_arg20) : S256.Idx → EReal) shapeCasts_S256_S1x256 := by
    dsimp only [V, hostOps0]
    after_results
    rfl
  rw [e]
  exact shapeCast_a_1a_apply _ _ 0 q

theorem V_v10_apply (q : Fin 384) :
    (V m c main_v10 : S1x384.Idx → EReal) (ix2 0 q) = m ((c : Thread nD τ).loc main_arg6) (ix1 q) := by
  have e : (V m c main_v10 : S1x384.Idx → EReal)
      = shapeCast S1x384 (m ((c : Thread nD τ).loc main_arg6) : S384.Idx → EReal) shapeCasts_S384_S1x384 := by
    dsimp only [V, hostOps0]
    after_results
    rfl
  rw [e]
  exact shapeCast_a_1a_apply _ _ 0 q

theorem V_v11_apply (q : Fin 256) :
    (V m c main_v11 : S1x256.Idx → EReal) (ix2 0 q) = m ((c : Thread nD τ).loc main_arg8) (ix1 q) := by
  have e : (V m c main_v11 : S1x256.Idx → EReal)
      = shapeCast S1x256 (m ((c : Thread nD τ).loc main_arg8) : S256.Idx → EReal) shapeCasts_S256_S1x256 := by
    dsimp only [V, hostOps0]
    after_results
    rfl
  rw [e]
  exact shapeCast_a_1a_apply _ _ 0 q

theorem V_v12_apply (q : Fin 1) :
    (V m c main_v12 : S1x1.Idx → EReal) (ix2 0 q) = m ((c : Thread nD τ).loc main_arg10) (ix1 q) := by
  have e : (V m c main_v12 : S1x1.Idx → EReal)
      = shapeCast S1x1 (m ((c : Thread nD τ).loc main_arg10) : S1.Idx → EReal) shapeCasts_S1_S1x1 := by
    dsimp only [V, hostOps0]
    after_results
    rfl
  rw [e]
  exact shapeCast_a_1a_apply _ _ 0 q

theorem V_v13_apply (q : Fin 128) :
    (V m c main_v13 : S1x128.Idx → EReal) (ix2 0 q) = m ((c : Thread nD τ).loc main_arg21) (ix1 q) := by
  have e : (V m c main_v13 : S1x128.Idx → EReal)
      = shapeCast S1x128 (m ((c : Thread nD τ).loc main_arg21) : S128.Idx → EReal) shapeCasts_S128_S1x128 := by
    dsimp only [V, hostOps0]
    after_results
    rfl
  rw [e]
  exact shapeCast_a_1a_apply _ _ 0 q

theorem V_v14_apply (q : Fin 1024) :
    (V m c main_v14 : S1x1024.Idx → EReal) (ix2 0 q) = m ((c : Thread nD τ).loc main_arg12) (ix1 q) := by
  have e : (V m c main_v14 : S1x1024.Idx → EReal)
      = shapeCast S1x1024 (m ((c : Thread nD τ).loc main_arg12) : S1024.Idx → EReal) shapeCasts_S1024_S1x1024 := by
    dsimp only [V, hostOps0]
    after_results
    rfl
  rw [e]
  exact shapeCast_a_1a_apply _ _ 0 q

theorem V_v15_apply (q : Fin 1) :
    (V m c main_v15 : S1x1.Idx → EReal) (ix2 0 q) = m ((c : Thread nD τ).loc main_arg22) (ix1 q) := by
  have e : (V m c main_v15 : S1x1.Idx → EReal)
      = shapeCast S1x1 (m ((c : Thread nD τ).loc main_arg22) : S1.Idx → EReal) shapeCasts_S1_S1x1 := by
    dsimp only [V, hostOps0]
    after_results
    rfl
  rw [e]
  exact shapeCast_a_1a_apply _ _ 0 q

theorem V_v16_apply (q : Fin 256) :
    (V m c main_v16 : S1x256.Idx → EReal) (ix2 0 q) = m ((c : Thread nD τ).loc main_arg14) (ix1 q) := by
  have e : (V m c main_v16 : S1x256.Idx → EReal)
      = shapeCast S1x256 (m ((c : Thread nD τ).loc main_arg14) : S256.Idx → EReal) shapeCasts_S256_S1x256 := by
    dsimp only [V, hostOps0]
    after_results
    rfl
  rw [e]
  exact shapeCast_a_1a_apply _ _ 0 q

theorem V_v17_apply (q : Fin 512) :
    (V m c main_v17 : S1x512.Idx → EReal) (ix2 0 q) = m ((c : Thread nD τ).loc main_arg24) (ix1 q) := by
  have e : (V m c main_v17 : S1x512.Idx → EReal)
      = shapeCast S1x512 (m ((c : Thread nD τ).loc main_arg24) : S512.Idx → EReal) shapeCasts_S512_S1x512 := by
    dsimp only [V, hostOps0]
    after_results
    rfl
  rw [e]
  exact shapeCast_a_1a_apply _ _ 0 q

theorem V_v18_apply (q : Fin 512) :
    (V m c main_v18 : S1x512.Idx → EReal) (ix2 0 q) = m ((c : Thread nD τ).loc main_arg25) (ix1 q) := by
  have e : (V m c main_v18 : S1x512.Idx → EReal)
      = shapeCast S1x512 (m ((c : Thread nD τ).loc main_arg25) : S512.Idx → EReal) shapeCasts_S512_S1x512 := by
    dsimp only [V, hostOps0]
    after_results
    rfl
  rw [e]
  exact shapeCast_a_1a_apply _ _ 0 q

theorem V_v19_apply (q : Fin 512) :
    (V m c main_v19 : S1x512.Idx → EReal) (ix2 0 q) = m ((c : Thread nD τ).loc main_arg26) (ix1 q) := by
  have e : (V m c main_v19 : S1x512.Idx → EReal)
      = shapeCast S1x512 (m ((c : Thread nD τ).loc main_arg26) : S512.Idx → EReal) shapeCasts_S512_S1x512 := by
    dsimp only [V, hostOps0]
    after_results
    rfl
  rw [e]
  exact shapeCast_a_1a_apply _ _ 0 q

theorem V_v20_apply (q : Fin 256) :
    (V m c main_v20 : S1x256.Idx → EReal) (ix2 0 q) = m ((c : Thread nD τ).loc main_arg28) (ix1 q) := by
  have e : (V m c main_v20 : S1x256.Idx → EReal)
      = shapeCast S1x256 (m ((c : Thread nD τ).loc main_arg28) : S256.Idx → EReal) shapeCasts_S256_S1x256 := by
    dsimp only [V, hostOps0]
    after_results
    rfl
  rw [e]
  exact shapeCast_a_1a_apply _ _ 0 q

theorem V_v21_apply (q : Fin 256) :
    (V m c main_v21 : S1x256.Idx → EReal) (ix2 0 q) = m ((c : Thread nD τ).loc main_arg29) (ix1 q) := by
  have e : (V m c main_v21 : S1x256.Idx → EReal)
      = shapeCast S1x256 (m ((c : Thread nD τ).loc main_arg29) : S256.Idx → EReal) shapeCasts_S256_S1x256 := by
    dsimp only [V, hostOps0]
    after_results
    rfl
  rw [e]
  exact shapeCast_a_1a_apply _ _ 0 q

theorem V_v22_apply (q : Fin 256) :
    (V m c main_v22 : S1x256.Idx → EReal) (ix2 0 q) = m ((c : Thread nD τ).loc main_arg30) (ix1 q) := by
  have e : (V m c main_v22 : S1x256.Idx → EReal)
      = shapeCast S1x256 (m ((c : Thread nD τ).loc main_arg30) : S256.Idx → EReal) shapeCasts_S256_S1x256 := by
    dsimp only [V, hostOps0]
    after_results
    rfl
  rw [e]
  exact shapeCast_a_1a_apply _ _ 0 q

end Cert.KernelIdeal.HostValue2

end
-- ==== Proof.SpecArgs.lean ====
/-
  The weights of the row specification, read off the two programs' common argument layout:
  matrices as they are, bias and scale vectors of rank one, `cp_w` a `128 × 1` column, `cp_b` and
  `D` vectors of length one.
-/
import proofs.«172967_j79852031967736_2_alg».proof.Proof.Spec

noncomputable section

namespace Cert.Spec

open Idealize.ShloMosaic Idealize.ShloMosaic.ValueIdx

/-- The weights from the arguments `W_bcdt, b_bcdt, abp_w, abp_b, cp_w, cp_b, W_hz, b_hz, out_w, out_b, fe1_w,
    fe1_b, fe_ln_g, fe_ln_b, fe2_w, fe2_b, A, D, g1_w, g1_b, g_ln_g, g_ln_b, g2_w, g2_b, ln_g, ln_b` in the order
    both programs take them. -/
def wtsOf
    (a5 : (⟨2, ![256, 384]⟩ : Shape).Idx → EReal) (a6 : (⟨1, ![384]⟩ : Shape).Idx → EReal)
    (a7 : (⟨2, ![128, 256]⟩ : Shape).Idx → EReal) (a8 : (⟨1, ![256]⟩ : Shape).Idx → EReal)
    (a9 : (⟨2, ![128, 1]⟩ : Shape).Idx → EReal) (a10 : (⟨1, ![1]⟩ : Shape).Idx → EReal)
    (a11 : (⟨2, ![256, 1024]⟩ : Shape).Idx → EReal) (a12 : (⟨1, ![1024]⟩ : Shape).Idx → EReal)
    (a13 : (⟨2, ![512, 256]⟩ : Shape).Idx → EReal) (a14 : (⟨1, ![256]⟩ : Shape).Idx → EReal)
    (a15 : (⟨2, ![256, 512]⟩ : Shape).Idx → EReal) (a16 a17 a18 : (⟨1, ![512]⟩ : Shape).Idx → EReal)
    (a19 : (⟨2, ![512, 256]⟩ : Shape).Idx → EReal) (a20 : (⟨1, ![256]⟩ : Shape).Idx → EReal)
    (a21 : (⟨1, ![128]⟩ : Shape).Idx → EReal) (a22 : (⟨1, ![1]⟩ : Shape).Idx → EReal)
    (a23 : (⟨2, ![512, 512]⟩ : Shape).Idx → EReal) (a24 a25 a26 : (⟨1, ![512]⟩ : Shape).Idx → EReal)
    (a27 : (⟨2, ![512, 256]⟩ : Shape).Idx → EReal) (a28 a29 a30 : (⟨1, ![256]⟩ : Shape).Idx → EReal) : Wts where
  fe1_w k q := a15 (ix2 k q)
  fe1_b q := a16 (ix1 q)
  fe_ln_g q := a17 (ix1 q)
  fe_ln_b q := a18 (ix1 q)
  fe2_w k q := a19 (ix2 k q)
  fe2_b q := a20 (ix1 q)
  W_bcdt k q := a5 (ix2 k q)
  b_bcdt q := a6 (ix1 q)
  abp_w k q := a7 (ix2 k q)
  abp_b q := a8 (ix1 q)
  cp_w k := a9 (ix2 k 0)
  cp_b := a10 (ix1 0)
  A q := a21 (ix1 q)
  W_hz k q := a11 (ix2 k q)
  b_hz q := a12 (ix1 q)
  D := a22 (ix1 0)
  out_w k q := a13 (ix2 k q)
  out_b q := a14 (ix1 q)
  g1_w k q := a23 (ix2 k q)
  g1_b q := a24 (ix1 q)
  g_ln_g q := a25 (ix1 q)
  g_ln_b q := a26 (ix1 q)
  g2_w k q := a27 (ix2 k q)
  g2_b q := a28 (ix1 q)
  ln_g q := a29 (ix1 q)
  ln_b q := a30 (ix1 q)

end Cert.Spec

end
-- ==== Proof.Finite.lean ====
/-
  Finiteness of the attention inputs, read back from the precondition.
  The precondition is one conjunction, over all float inputs, of "every entry has absolute
  value strictly below +infinity"; at the exact instance an entry with that property is a real.
  The conjunction is printed as a chain of parts, each and-ing a few more reductions onto the
  value accumulated so far; a chain that is one had every accumulated value one.
-/
import proofs.«172967_j79852031967736_2_alg».proof.Defs
import Idealize.ShloMosaic.Lib.ReduceAll
import Idealize.ShloMosaic.Lib.ValueIdx

noncomputable section

namespace Cert.Finite

open Idealize.ShloMosaic Idealize.SL.Sem Cert.Pre_finite_inputs

instance : Subsingleton S_.Idx := ⟨fun a b => funext fun d => d.elim0⟩

/-- The positive all-ones-exponent word denotes the top of the extended reals. -/
theorem ofBits_posInf : Ideal.ofBits .f32 0x7F800000#32 = ⊤ := by
  simp [Ideal.ofBits, Ideal.ieee]

/-- An extended real whose absolute value lies strictly below the top is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word of "absolute value below the infinity word" being one says the entry is real. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [ofBits_posInf] at h'
  by_contra hc
  simp [Ideal.cmp, hc] at h'

/-- An array whose entrywise comparison "absolute value below the broadcast infinity word" is all ones is real everywhere. -/
theorem real_of_cmp_all {s : Shape} (dims : Fin S_.rank → Fin s.rank) (bc : S_.BroadcastsInDim s dims) (x : FVec Ideal s .f32)
    (h : ∀ i, cmpf .olt (Host.absf x) (broadcastInDim s dims bc (constant S_ .f32 0x7F800000#32)) i = 1#1) :
    ∀ i, ∃ r : ℝ, x i = (r : EReal) :=
  fun i => real_of_cmp (x i) (h i)

/-- A reduction by and into the one-index result that is one had a one at every operand index. -/
theorem all_of_reduce {s : Shape} {axes : List (Fin s.rank)} (p : IVec s 1) (init : IVec S_ 1) (red : s.ReducesTo axes S_)
    (h0 : 0 < S_.numel) (h : Host.reduce IntOp.andi p init red h0 ValueIdx.ix0 = 1#1) : ∀ i, p i = 1#1 :=
  Host.reduce_andi_all p init red h0 ValueIdx.ix0 h

/-- The left operand of an and of two one-index words that is one. -/
theorem andi_l {a b : IVec S_ 1} (h : andi a b ValueIdx.ix0 = 1#1) : a ValueIdx.ix0 = 1#1 :=
  (IntOp.andi_eq_one.1 h).1

/-- The right operand of an and of two one-index words that is one. -/
theorem andi_r {a b : IVec S_ 1} (h : andi a b ValueIdx.ix0 = 1#1) : b ValueIdx.ix0 = 1#1 :=
  (IntOp.andi_eq_one.1 h).2

variable [Cert.Pre_finite_inputs.Facts]

/-- Part 8 of the conjunction being one forces the conjunction accumulated before it to be one. -/
theorem part8_acc (main_arg29 : FVec Ideal S256 .f32) (main_arg30 : FVec Ideal S256 .f32) (main_v133 : IVec S_ 1) (main_v136 : IVec S256 1)
    (h : fn_part8 (F := Ideal) main_arg29 main_arg30 main_v133 main_v136 ValueIdx.ix0 = 1#1) : main_v133 ValueIdx.ix0 = 1#1 := by
  unfold fn_part8 at h
  dsimp only at h
  exact andi_l (andi_l (andi_l (h)))

/-- Part 7 of the conjunction being one forces the conjunction accumulated before it to be one. -/
theorem part7_acc (main_arg26 : FVec Ideal S512 .f32) (main_arg27 : FVec Ideal S512x256 .f32) (main_arg28 : FVec Ideal S256 .f32) (main_arg29 : FVec Ideal S256 .f32) (main_arg30 : FVec Ideal S256 .f32) (main_v118 : IVec S_ 1) (main_v119 : FVec Ideal S512 .f32)
    (h : fn_part7 (F := Ideal) main_arg26 main_arg27 main_arg28 main_arg29 main_arg30 main_v118 main_v119 ValueIdx.ix0 = 1#1) : main_v118 ValueIdx.ix0 = 1#1 := by
  unfold fn_part7 at h
  dsimp only at h
  have h2 := part8_acc _ _ _ _ h
  exact andi_l (andi_l (andi_l (h2)))

/-- Part 6 of the conjunction being one forces the conjunction accumulated before it to be one. -/
theorem part6_acc (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v98 : IVec S_ 1) (main_v101 : IVec S128 1) (main_c_39 : IVec S_ 1)
    (h : fn_part6 (F := Ideal) main_arg22 main_arg23 main_arg24 main_arg25 main_arg26 main_arg27 main_arg28 main_arg29 main_arg30 main_v98 main_v101 main_c_39 ValueIdx.ix0 = 1#1) : main_v98 ValueIdx.ix0 = 1#1 := by
  unfold fn_part6 at h
  dsimp only at h
  have h2 := part7_acc _ _ _ _ _ _ _ h
  exact andi_l (andi_l (andi_l (andi_l (h2))))

/-- Part 5 of the conjunction being one forces the conjunction accumulated before it to be one. -/
theorem part5_acc (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v83 : IVec S_ 1) (main_v84 : FVec Ideal S512 .f32) (main_cst_32 : FVec Ideal S_ .f32)
    (h : fn_part5 (F := Ideal) main_arg19 main_arg20 main_arg21 main_arg22 main_arg23 main_arg24 main_arg25 main_arg26 main_arg27 main_arg28 main_arg29 main_arg30 main_v83 main_v84 main_cst_32 ValueIdx.ix0 = 1#1) : main_v83 ValueIdx.ix0 = 1#1 := by
  unfold fn_part5 at h
  dsimp only at h
  have h2 := part6_acc _ _ _ _ _ _ _ _ _ _ _ _ h
  exact andi_l (andi_l (andi_l (h2)))

/-- Part 4 of the conjunction being one forces the conjunction accumulated before it to be one. -/
theorem part4_acc (main_arg15 : FVec Ideal S256x512 .f32) (main_arg16 : FVec Ideal S512 .f32) (main_arg17 : FVec Ideal S512 .f32) (main_arg18 : FVec Ideal S512 .f32) (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v63 : IVec S_ 1) (main_v67 : IVec S_ 1)
    (h : fn_part4 (F := Ideal) main_arg15 main_arg16 main_arg17 main_arg18 main_arg19 main_arg20 main_arg21 main_arg22 main_arg23 main_arg24 main_arg25 main_arg26 main_arg27 main_arg28 main_arg29 main_arg30 main_v63 main_v67 ValueIdx.ix0 = 1#1) : main_v63 ValueIdx.ix0 = 1#1 := by
  unfold fn_part4 at h
  dsimp only at h
  have h2 := part5_acc _ _ _ _ _ _ _ _ _ _ _ _ _ _ _ h
  exact andi_l (andi_l (andi_l (andi_l (h2))))

/-- Part 3 of the conjunction being one forces the conjunction accumulated before it to be one. -/
theorem part3_acc (main_arg12 : FVec Ideal S1024 .f32) (main_arg13 : FVec Ideal S512x256 .f32) (main_arg14 : FVec Ideal S256 .f32) (main_arg15 : FVec Ideal S256x512 .f32) (main_arg16 : FVec Ideal S512 .f32) (main_arg17 : FVec Ideal S512 .f32) (main_arg18 : FVec Ideal S512 .f32) (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v48 : IVec S_ 1) (main_v49 : FVec Ideal S256x1024 .f32) (main_v50 : FVec Ideal S256x1024 .f32)
    (h : fn_part3 (F := Ideal) main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50 ValueIdx.ix0 = 1#1) : main_v48 ValueIdx.ix0 = 1#1 := by
  unfold fn_part3 at h
  dsimp only at h
  have h2 := part4_acc _ _ _ _ _ _ _ _ _ _ _ _ _ _ _ _ _ _ h
  exact andi_l (andi_l (andi_l (h2)))

/-- Part 2 of the conjunction being one forces the conjunction accumulated before it to be one. -/
theorem part2_acc (main_arg8 : FVec Ideal S256 .f32) (main_arg9 : FVec Ideal S128x1 .f32) (main_arg10 : FVec Ideal S1 .f32) (main_arg11 : FVec Ideal S256x1024 .f32) (main_arg12 : FVec Ideal S1024 .f32) (main_arg13 : FVec Ideal S512x256 .f32) (main_arg14 : FVec Ideal S256 .f32) (main_arg15 : FVec Ideal S256x512 .f32) (main_arg16 : FVec Ideal S512 .f32) (main_arg17 : FVec Ideal S512 .f32) (main_arg18 : FVec Ideal S512 .f32) (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v33 : IVec S_ 1)
    (h : fn_part2 (F := Ideal) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33 ValueIdx.ix0 = 1#1) : main_v33 ValueIdx.ix0 = 1#1 := by
  unfold fn_part2 at h
  dsimp only at h
  have h2 := part3_acc _ _ _ _ _ _ _ _ _ _ _ _ _ _ _ _ _ _ _ _ _ _ h
  exact andi_l (andi_l (andi_l (h2)))

/-- Part 1 being one forces the value accumulated before it, and every entry of the comparison it reduces first, to be one. -/
theorem part1_acc (main_arg5 : FVec Ideal S256x384 .f32) (main_arg6 : FVec Ideal S384 .f32) (main_arg7 : FVec Ideal S128x256 .f32) (main_arg8 : FVec Ideal S256 .f32) (main_arg9 : FVec Ideal S128x1 .f32) (main_arg10 : FVec Ideal S1 .f32) (main_arg11 : FVec Ideal S256x1024 .f32) (main_arg12 : FVec Ideal S1024 .f32) (main_arg13 : FVec Ideal S512x256 .f32) (main_arg14 : FVec Ideal S256 .f32) (main_arg15 : FVec Ideal S256x512 .f32) (main_arg16 : FVec Ideal S512 .f32) (main_arg17 : FVec Ideal S512 .f32) (main_arg18 : FVec Ideal S512 .f32) (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32) (main_v13 : IVec S_ 1) (main_v16 : IVec S256x1 1)
    (h : fn_part1 (F := Ideal) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16 ValueIdx.ix0 = 1#1) :
    main_v13 ValueIdx.ix0 = 1#1 ∧ ∀ i, main_v16 i = 1#1 := by
  unfold fn_part1 at h
  dsimp only at h
  have h2 := part2_acc _ _ _ _ _ _ _ _ _ _ _ _ _ _ _ _ _ _ _ _ _ _ _ _ h
  have h3 := andi_l (andi_l (andi_l h2))
  exact ⟨andi_l h3, all_of_reduce _ _ _ _ (andi_r h3)⟩

/-- The whole conjunction being one makes the first, third, fourth and fifth inputs real everywhere. -/
theorem fn_real (main_arg0 : FVec Ideal S8192x256 .f32) (main_arg1 : IVec S8192x8192 32) (main_arg2 : FVec Ideal S256x256 .f32) (main_arg3 : FVec Ideal S256x1 .f32) (main_arg4 : FVec Ideal S256x1 .f32) (main_arg5 : FVec Ideal S256x384 .f32) (main_arg6 : FVec Ideal S384 .f32) (main_arg7 : FVec Ideal S128x256 .f32) (main_arg8 : FVec Ideal S256 .f32) (main_arg9 : FVec Ideal S128x1 .f32) (main_arg10 : FVec Ideal S1 .f32) (main_arg11 : FVec Ideal S256x1024 .f32) (main_arg12 : FVec Ideal S1024 .f32) (main_arg13 : FVec Ideal S512x256 .f32) (main_arg14 : FVec Ideal S256 .f32) (main_arg15 : FVec Ideal S256x512 .f32) (main_arg16 : FVec Ideal S512 .f32) (main_arg17 : FVec Ideal S512 .f32) (main_arg18 : FVec Ideal S512 .f32) (main_arg19 : FVec Ideal S512x256 .f32) (main_arg20 : FVec Ideal S256 .f32) (main_arg21 : FVec Ideal S128 .f32) (main_arg22 : FVec Ideal S1 .f32) (main_arg23 : FVec Ideal S512x512 .f32) (main_arg24 : FVec Ideal S512 .f32) (main_arg25 : FVec Ideal S512 .f32) (main_arg26 : FVec Ideal S512 .f32) (main_arg27 : FVec Ideal S512x256 .f32) (main_arg28 : FVec Ideal S256 .f32) (main_arg29 : FVec Ideal S256 .f32) (main_arg30 : FVec Ideal S256 .f32)
    (h : fn (F := Ideal) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 ValueIdx.ix0 = 1#1) :
    (∀ i, ∃ r : ℝ, main_arg0 i = (r : EReal)) ∧ (∀ i, ∃ r : ℝ, main_arg2 i = (r : EReal))
      ∧ (∀ i, ∃ r : ℝ, main_arg3 i = (r : EReal)) ∧ (∀ i, ∃ r : ℝ, main_arg4 i = (r : EReal)) := by
  unfold fn at h
  dsimp only at h
  obtain ⟨h13, h16⟩ := part1_acc _ _ _ _ _ _ _ _ _ _ _ _ _ _ _ _ _ _ _ _ _ _ _ _ _ _ _ _ h
  have h8 := andi_l h13
  exact ⟨real_of_cmp_all _ _ _ (all_of_reduce _ _ _ _ (andi_l h8)),
    real_of_cmp_all _ _ _ (all_of_reduce _ _ _ _ (andi_r h8)),
    real_of_cmp_all _ _ _ (all_of_reduce _ _ _ _ (andi_r h13)),
    real_of_cmp_all _ _ _ h16⟩

/-- The precondition on a device, as the four facts. -/
theorem args_real (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal)) :=
  fn_real _ _ _ _ _ _ _ _ _ _ _ _ _ _ _ _ _ _ _ _ _ _ _ _ _ _ _ _ _ _ _ (congrFun (hpre c) ValueIdx.ix0)

/-- Every entry of input 0 is a real. -/
theorem arg0_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, ∃ x : ℝ, m ((c.tc : Thread Cert.KernelIdeal.nD Cert.KernelIdeal.τ).loc Cert.KernelIdeal.main_arg0) i = (x : EReal) :=
  (args_real m hpre c).1

/-- Every entry of input 2 is a real. -/
theorem arg2_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, ∃ x : ℝ, m ((c.tc : Thread Cert.KernelIdeal.nD Cert.KernelIdeal.τ).loc Cert.KernelIdeal.main_arg2) i = (x : EReal) :=
  (args_real m hpre c).2.1

/-- Every entry of input 3 is a real. -/
theorem arg3_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, ∃ x : ℝ, m ((c.tc : Thread Cert.KernelIdeal.nD Cert.KernelIdeal.τ).loc Cert.KernelIdeal.main_arg3) i = (x : EReal) :=
  (args_real m hpre c).2.2.1

/-- Every entry of input 4 is a real. -/
theorem arg4_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ i, ∃ x : ℝ, m ((c.tc : Thread Cert.KernelIdeal.nD Cert.KernelIdeal.τ).loc Cert.KernelIdeal.main_arg4) i = (x : EReal) :=
  (args_real m hpre c).2.2.2

end Cert.Finite

end
-- ==== Proof.OnlineSoftmax.lean ====
/-
  The online softmax, over the reals.

  A row of logits `e` is swept in blocks. After the blocks `0 … j-1` the sweep keeps an offset `m`
  (a running maximum; its being a maximum is never used), the denominator `∑ exp (e k - m)` and,
  for each output column, the numerator `∑ exp (e k - m) * w k`, the sums over the columns met so
  far. Moving the offset from `m` to `m'` multiplies both by `exp (m - m')`; that is the whole
  step. At the end numerator / denominator is the softmax-weighted sum whatever offset either side
  used, because a common positive factor cancels.

  The first step starts from the offset `-∞` with both sums `0`: `exp (-∞ - m') = 0`, and the
  step's formula gives the first block's sums.
-/
import Idealize.ShloMosaic.PureOps.Ideal

noncomputable section

namespace Cert.OnlineSoftmax

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with `max`. -/
theorem coe_max (a b : ℝ) : ((max a b : ℝ) : EReal) = max (a : EReal) (b : EReal) :=
  EReal.coe_strictMono.monotone.map_max

/-- A maximum taken from `-∞` over a nonempty family of reals is a real. -/
theorem fold_max_real {ι : Type*} (s : Finset ι) (hs : s.Nonempty) (g : ι → EReal)
    (hg : ∀ i ∈ s, ∃ r : ℝ, g i = r) : ∃ r : ℝ, s.fold max (⊥ : EReal) g = r := by
  classical
  have key : ∀ t : Finset ι, t ⊆ s → (t = ∅ ∧ t.fold max (⊥ : EReal) g = ⊥) ∨ ∃ r : ℝ, t.fold max (⊥ : EReal) g = r := by
    intro t
    induction t using Finset.induction_on with
    | empty => intro _; exact Or.inl ⟨rfl, Finset.fold_empty⟩
    | insert a t ha ih =>
      intro hsub
      obtain ⟨ra, hra⟩ := hg a (hsub (Finset.mem_insert_self a t))
      rw [Finset.fold_insert ha, hra]
      rcases ih (fun x hx => hsub (Finset.mem_insert_of_mem hx)) with ⟨_, h⟩ | ⟨r, h⟩
      · exact Or.inr ⟨ra, by rw [h]; exact max_eq_left bot_le⟩
      · exact Or.inr ⟨max ra r, by rw [h, coe_max]⟩
  rcases key s le_rfl with ⟨h, _⟩ | h
  · exact absurd h hs.ne_empty
  · exact h

section Sweep

variable {κ : Type*} [Fintype κ]

/-- The denominator after `j` blocks at offset `m`. -/
def den (E : ℕ → κ → ℝ) (j : ℕ) (m : ℝ) : ℝ := ∑ j' ∈ Finset.range j, ∑ b, Real.exp (E j' b - m)

/-- The numerator after `j` blocks at offset `m`, for the values `W`. -/
def num (E W : ℕ → κ → ℝ) (j : ℕ) (m : ℝ) : ℝ := ∑ j' ∈ Finset.range j, ∑ b, Real.exp (E j' b - m) * W j' b

theorem den_step (E : ℕ → κ → ℝ) (j : ℕ) (m m' : ℝ) :
    Real.exp (m - m') * den E j m + ∑ b, Real.exp (E j b - m') = den E (j + 1) m' := by
  unfold den
  rw [Finset.sum_range_succ, Finset.mul_sum]
  congr 1
  refine Finset.sum_congr rfl fun j' _ => ?_
  rw [Finset.mul_sum]
  refine Finset.sum_congr rfl fun b _ => ?_
  rw [← Real.exp_add]; congr 1; ring

theorem num_step (E W : ℕ → κ → ℝ) (j : ℕ) (m m' : ℝ) :
    Real.exp (m - m') * num E W j m + ∑ b, Real.exp (E j b - m') * W j b = num E W (j + 1) m' := by
  unfold num
  rw [Finset.sum_range_succ, Finset.mul_sum]
  congr 1
  refine Finset.sum_congr rfl fun j' _ => ?_
  rw [Finset.mul_sum]
  refine Finset.sum_congr rfl fun b _ => ?_
  rw [← mul_assoc, ← Real.exp_add]; congr 2; ring

/-- What the sweep holds before block `j`: at `j = 0` the offset `-∞` and a zero sum, afterwards a
    real offset `mr` and the sum `S j mr` at it (`S` is `den E` or `num E W`). -/
def Held (S : ℕ → ℝ → ℝ) (j : ℕ) (m x : EReal) : Prop :=
  (j = 0 ∧ m = ⊥ ∧ x = 0) ∨ ∃ mr : ℝ, m = mr ∧ x = (S j mr : ℝ)

/-- One block of the sweep, for a sum `S` whose step over the block's terms `T` is the rescaling
    law: the new offset is real and the rescaled sum plus the block's is `S (j + 1)` at it. -/
theorem Held.step {S : ℕ → ℝ → ℝ} {j : ℕ} {m x μ : EReal} (T : κ → ℝ → ℝ)
    (hS0 : ∀ m' : ℝ, S 0 m' = 0)
    (hstep : ∀ m m' : ℝ, Real.exp (m - m') * S j m + ∑ b, T b m' = S (j + 1) m')
    (h : Held S j m x) (hμ : ∃ r : ℝ, μ = r) :
    ∃ mr' : ℝ, max m μ = mr' ∧
      Ideal.exp (m - max m μ) * x + ∑ b, ((T b mr' : ℝ) : EReal) = (S (j + 1) mr' : ℝ) := by
  obtain ⟨μr, rfl⟩ := hμ
  rcases h with ⟨rfl, rfl, rfl⟩ | ⟨mr, rfl, rfl⟩
  · refine ⟨μr, max_eq_right bot_le, ?_⟩
    rw [mul_zero, zero_add, ← coe_sum]
    have := hstep 0 μr
    rw [hS0, mul_zero, zero_add] at this
    rw [this]
  · refine ⟨max mr μr, (coe_max mr μr).symm, ?_⟩
    rw [← coe_max, ← EReal.coe_sub, Ideal.exp_coe, ← EReal.coe_mul, ← coe_sum, ← EReal.coe_add, hstep]

end Sweep

/-- The ratio numerator / denominator does not depend on the offset: the softmax-weighted sum. -/
theorem ratio_eq {ι : Type*} [Fintype ι] [Nonempty ι] (e w : ι → ℝ) (m M : ℝ) :
    (∑ k, Real.exp (e k - m) * w k) / (∑ k, Real.exp (e k - m))
      = ∑ k, Real.exp (e k - M) / (∑ k', Real.exp (e k' - M)) * w k := by
  have hc : Real.exp (M - m) ≠ 0 := (Real.exp_pos _).ne'
  have h1 : ∀ k, Real.exp (e k - m) = Real.exp (M - m) * Real.exp (e k - M) := fun k => by
    rw [← Real.exp_add]; congr 1; ring
  have hn : (∑ k, Real.exp (e k - m) * w k) = Real.exp (M - m) * ∑ k, Real.exp (e k - M) * w k := by
    rw [Finset.mul_sum]; exact Finset.sum_congr rfl fun k _ => by rw [h1 k, mul_assoc]
  have hd : (∑ k, Real.exp (e k - m)) = Real.exp (M - m) * ∑ k, Real.exp (e k - M) := by
    rw [Finset.mul_sum]; exact Finset.sum_congr rfl fun k _ => h1 k
  rw [hn, hd, mul_div_mul_left _ _ hc, Finset.sum_div]
  exact Finset.sum_congr rfl fun k _ => by rw [div_mul_eq_mul_div]

/-- A sum of exponentials over a nonempty index type is positive. -/
theorem sum_exp_pos {ι : Type*} [Fintype ι] [Nonempty ι] (e : ι → ℝ) (m : ℝ) : 0 < ∑ k, Real.exp (e k - m) :=
  Finset.sum_pos (fun _ _ => Real.exp_pos _) Finset.univ_nonempty

/-- Column `b` of block `j` of a row of `8192` columns swept in blocks of `2048`. -/
def col (j : ℕ) (b : Fin 2048) : Fin 8192 := ⟨(2048 * j + b.val) % 8192, Nat.mod_lt _ (by norm_num)⟩

/-- The four blocks of `2048` columns are the `8192` columns. -/
theorem sum_blocks {M : Type*} [AddCommMonoid M] (f : Fin 8192 → M) :
    ∑ j ∈ Finset.range 4, ∑ b : Fin 2048, f (col j b) = ∑ k, f k := by
  rw [← Fintype.sum_equiv (finProdFinEquiv : Fin 4 × Fin 2048 ≃ Fin 8192) (fun p => f (finProdFinEquiv p)) f (fun _ => rfl),
    Fintype.sum_prod_type, Finset.sum_range]
  refine Finset.sum_congr rfl fun j _ => Finset.sum_congr rfl fun b _ => congrArg f (Fin.ext ?_)
  show (2048 * j.val + b.val) % 8192 = b.val + 2048 * j.val
  have := j.isLt; have := b.isLt; omega

end Cert.OnlineSoftmax

end
-- ==== Proof.Consts.lean ====
/-
  The float literals the two programs spell, as the extended reals their bit patterns denote.
  Both programs use the same words for the layer-norm epsilon, the leaky-relu slope, the mask
  fill, the row lengths 512 and 256 and the unit; only their signs and finiteness matter below.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `512.0` denotes the real `512`. -/
theorem ofBits_512 : Ideal.ofBits .f32 0x44000000#32 = ((512 : ℝ) : EReal) := by
  simp [Ideal.ofBits, Ideal.ieee, -EReal.coe_mul]; norm_num

/-- `256.0` denotes the real `256`. -/
theorem ofBits_256 : Ideal.ofBits .f32 0x43800000#32 = ((256 : ℝ) : EReal) := by
  simp [Ideal.ofBits, Ideal.ieee, -EReal.coe_mul]; norm_num

/-- The all-ones-exponent negative word denotes `-∞`, the bottom of the extended reals. -/
theorem ofBits_negInf : Ideal.ofBits .f32 0xFF800000#32 = ⊥ := by
  simp [Ideal.ofBits, Ideal.ieee]

/-- The layer-norm epsilon (the float nearest `1e-5`) denotes a positive real. -/
theorem eps_real : ∃ r : ℝ, 0 < r ∧ Ideal.ofBits .f32 0x3727C5AC#32 = (r : EReal) := by
  refine ⟨_, ?_, by simp [Ideal.ofBits, Ideal.ieee, -EReal.coe_mul]; rfl⟩
  positivity

theorem eps_pos : (0 : EReal) < Ideal.ofBits .f32 0x3727C5AC#32 := by
  obtain ⟨r, hr, h⟩ := eps_real
  rw [h]; exact_mod_cast hr

/-- The leaky-relu slope (the float nearest `0.2`) denotes a real. -/
theorem slope_real : ∃ r : ℝ, Ideal.ofBits .f32 0x3E4CCCCD#32 = (r : EReal) :=
  ⟨_, by simp [Ideal.ofBits, Ideal.ieee, -EReal.coe_mul]; rfl⟩

/-- The mask fill (the float nearest `-9e15`) denotes a real. -/
theorem fill_real : ∃ r : ℝ, Ideal.ofBits .f32 0xD9FFCB9E#32 = (r : EReal) :=
  ⟨_, by simp [Ideal.ofBits, Ideal.ieee, -EReal.coe_mul]; rfl⟩

end Cert.Consts

end
-- ==== Proof.Sweep.lean ====
/-
  The four-block sweep of the online softmax on the extended reals, and the coercions.

  The sweep starts from the offset `-∞` with both sums `0` and takes four block steps. After
  each step the offset is a real and the two sums are the real denominator and numerator at that
  offset, so after the fourth their quotient is the softmax-weighted sum of the whole row. The
  reference takes the row maximum as the offset; the quotient does not depend on the offset.

  The logits are reals as soon as the inputs are: sums of products of reals are reals, and a
  selection between reals is a real.
-/
import proofs.«172967_j79852031967736_2_alg».proof.Proof.OnlineSoftmax
import proofs.«172967_j79852031967736_2_alg».proof.Proof.Spec
import proofs.«172967_j79852031967736_2_alg».proof.Proof.Consts

noncomputable section

namespace Cert.Sweep

open Idealize.ShloMosaic Idealize.ShloMosaic.ValueIdx Cert.OnlineSoftmax

/-- The word for `-∞` is the bottom of the extended reals. -/
theorem wNegInf_eq : Cert.Spec.wNegInf = ⊥ := Cert.Consts.ofBits_negInf

/-- The word for `+0.0` is `0`. -/
theorem wZero_eq : Cert.Spec.wZero = 0 := Cert.Consts.ofBits_zero

/-- The quotient of two reals with a nonzero denominator is the real quotient. -/
theorem div_coe_coe (x y : ℝ) (hy : y ≠ 0) : Ideal.div (x : EReal) (y : EReal) = ((x / y : ℝ) : EReal) := by
  rw [Ideal.div_coe hy, ← EReal.coe_mul, mul_one_div]

/-- Equal second summands give equal sums. -/
theorem add_eq_of_eq {x y z : EReal} (h : y = z) : x + y = x + z := by rw [h]

/-- One block step for the denominator and the numerator together. -/
theorem step_both (E W : ℕ → Fin 2048 → ℝ) (j : ℕ) (mj mj1 lj lj1 aj aj1 : EReal)
    (hm : mj1 = max mj (Finset.univ.fold max (⊥ : EReal) (fun b : Fin 2048 => ((E j b : ℝ) : EReal))))
    (hl : lj1 = Ideal.exp (mj - mj1) * lj + ∑ b : Fin 2048, Ideal.exp (((E j b : ℝ) : EReal) - mj1))
    (ha : aj1 = Ideal.exp (mj - mj1) * aj
            + ∑ b : Fin 2048, Ideal.exp (((E j b : ℝ) : EReal) - mj1) * ((W j b : ℝ) : EReal))
    (Hl : Held (den E) j mj lj) (Ha : Held (num E W) j mj aj) :
    Held (den E) (j + 1) mj1 lj1 ∧ Held (num E W) (j + 1) mj1 aj1 := by
  have hμ : ∃ r : ℝ, Finset.univ.fold max (⊥ : EReal) (fun b : Fin 2048 => ((E j b : ℝ) : EReal)) = r :=
    fold_max_real _ Finset.univ_nonempty _ (fun i _ => ⟨_, rfl⟩)
  subst hm
  obtain ⟨r1, h1, e1⟩ := Held.step (T := fun b m' => Real.exp (E j b - m'))
    (fun m' => by simp [den]) (den_step E j) Hl hμ
  obtain ⟨r2, h2, e2⟩ := Held.step (T := fun b m' => Real.exp (E j b - m') * W j b)
    (fun m' => by simp [num]) (num_step E W j) Ha hμ
  have h12 : r2 = r1 := EReal.coe_injective (h2.symm.trans h1)
  subst h12
  refine ⟨Or.inr ⟨r2, h1, ?_⟩, Or.inr ⟨r2, h1, ?_⟩⟩
  · rw [hl, ← e1]
    refine add_eq_of_eq ?_
    refine Finset.sum_congr rfl fun b _ => ?_
    rw [h1, ← EReal.coe_sub, Ideal.exp_coe]
  · rw [ha, ← e2]
    refine add_eq_of_eq ?_
    refine Finset.sum_congr rfl fun b _ => ?_
    rw [h1, ← EReal.coe_sub, Ideal.exp_coe, ← EReal.coe_mul]

/-- The reference's softmax-weighted sum of a real row against real values is a real, the
    weighted sum at the row maximum as offset. -/
theorem attn_coe (e w : Fin 8192 → ℝ) :
    ∃ M : ℝ, Cert.Spec.attn (fun k => ((e k : ℝ) : EReal)) (fun k => ((w k : ℝ) : EReal))
      = ((∑ k, Real.exp (e k - M) / (∑ k', Real.exp (e k' - M)) * w k : ℝ) : EReal) := by
  obtain ⟨M, hM⟩ := fold_max_real (Finset.univ : Finset (Fin 8192)) Finset.univ_nonempty
    (fun k => ((e k : ℝ) : EReal)) (fun i _ => ⟨_, rfl⟩)
  have hrow : Cert.Spec.rowMax (fun k => ((e k : ℝ) : EReal)) = (M : EReal) := by
    unfold Cert.Spec.rowMax
    rw [wNegInf_eq, hM]
    exact max_eq_right bot_le
  refine ⟨M, ?_⟩
  unfold Cert.Spec.attn Cert.Spec.softmax
  rw [hrow, coe_sum]
  have hden : (∑ k', Ideal.exp (((e k' : ℝ) : EReal) - (M : EReal)))
      = ((∑ k', Real.exp (e k' - M) : ℝ) : EReal) := by
    rw [coe_sum]
    exact Finset.sum_congr rfl fun k' _ => by rw [← EReal.coe_sub, Ideal.exp_coe]
  refine Finset.sum_congr rfl fun k _ => ?_
  show Ideal.div (Ideal.exp (((e k : ℝ) : EReal) - (M : EReal)))
      (∑ k', Ideal.exp (((e k' : ℝ) : EReal) - (M : EReal))) * ((w k : ℝ) : EReal) = _
  rw [hden, ← EReal.coe_sub, Ideal.exp_coe, div_coe_coe _ _ (sum_exp_pos e M).ne', ← EReal.coe_mul]

/-- Four block steps from the reset: numerator / denominator is the softmax-weighted sum of the reference. -/
theorem sweep_ratio (e w : Fin 8192 → ℝ) (m l a : ℕ → EReal)
    (hm0 : m 0 = Cert.Spec.wNegInf) (hl0 : l 0 = Cert.Spec.wZero) (ha0 : a 0 = Cert.Spec.wZero)
    (hm : ∀ j, j < 4 → m (j + 1) = max (m j) (Finset.univ.fold max Cert.Spec.wNegInf (fun b : Fin 2048 => ((e (col j b) : ℝ) : EReal))))
    (hl : ∀ j, j < 4 → l (j + 1) = Ideal.exp (m j - m (j + 1)) * l j + ∑ b : Fin 2048, Ideal.exp (((e (col j b) : ℝ) : EReal) - m (j + 1)))
    (ha : ∀ j, j < 4 → a (j + 1) = Ideal.exp (m j - m (j + 1)) * a j
            + ∑ b : Fin 2048, Ideal.exp (((e (col j b) : ℝ) : EReal) - m (j + 1)) * ((w (col j b) : ℝ) : EReal)) :
    Ideal.div (a 4) (l 4) = Cert.Spec.attn (fun k => ((e k : ℝ) : EReal)) (fun k => ((w k : ℝ) : EReal)) := by
  rw [wNegInf_eq] at hm0
  rw [wZero_eq] at hl0 ha0
  have hm' : ∀ j, j < 4 → m (j + 1) = max (m j) (Finset.univ.fold max (⊥ : EReal) (fun b : Fin 2048 => ((e (col j b) : ℝ) : EReal))) := by
    intro j hj
    have := hm j hj
    rw [wNegInf_eq] at this
    exact this
  have key : ∀ j, j ≤ 4 →
      Held (den (fun j b => e (col j b))) j (m j) (l j)
        ∧ Held (num (fun j b => e (col j b)) (fun j b => w (col j b))) j (m j) (a j) := by
    intro j
    induction j with
    | zero => intro _; exact ⟨Or.inl ⟨rfl, hm0, hl0⟩, Or.inl ⟨rfl, hm0, ha0⟩⟩
    | succ j ih =>
      intro hj
      have H := ih (by omega)
      exact step_both (fun j b => e (col j b)) (fun j b => w (col j b)) j _ _ _ _ _ _
        (hm' j (by omega)) (hl j (by omega)) (ha j (by omega)) H.1 H.2
  obtain ⟨Hl, Ha⟩ := key 4 le_rfl
  rcases Hl with ⟨h0, _, _⟩ | ⟨mr, hmr, hl4⟩
  · exact absurd h0 (by norm_num)
  rcases Ha with ⟨h0, _, _⟩ | ⟨mr', hmr', ha4⟩
  · exact absurd h0 (by norm_num)
  have hmm : mr' = mr := EReal.coe_injective (hmr'.symm.trans hmr)
  subst hmm
  have hden : den (fun j b => e (col j b)) 4 mr' = ∑ k, Real.exp (e k - mr') :=
    sum_blocks (fun k => Real.exp (e k - mr'))
  have hnum : num (fun j b => e (col j b)) (fun j b => w (col j b)) 4 mr' = ∑ k, Real.exp (e k - mr') * w k :=
    sum_blocks (fun k => Real.exp (e k - mr') * w k)
  obtain ⟨M, hM⟩ := attn_coe e w
  rw [hM, hl4, ha4, hden, hnum, div_coe_coe _ _ (sum_exp_pos e mr').ne', ratio_eq e w mr' M]

/-! ## The logits are reals -/

/-- A finite sum of products of reals is a real. -/
theorem sum_mul_real {ι : Type*} (s : Finset ι) (f g : ι → EReal)
    (hf : ∀ i, ∃ x : ℝ, f i = x) (hg : ∀ i, ∃ x : ℝ, g i = x) : ∃ x : ℝ, ∑ i ∈ s, f i * g i = x := by
  choose f' hf' using hf
  choose g' hg' using hg
  refine ⟨∑ i ∈ s, f' i * g' i, ?_⟩
  rw [coe_sum]
  exact Finset.sum_congr rfl fun i _ => by rw [hf', hg', EReal.coe_mul]

/-- Entries of a product of real matrices are real, and so on up to the logits. -/
theorem Wh_real (h : (⟨2, ![8192, 256]⟩ : Shape).Idx → EReal) (W : (⟨2, ![256, 256]⟩ : Shape).Idx → EReal)
    (hh : ∀ i, ∃ x : ℝ, h i = x) (hW : ∀ i, ∃ x : ℝ, W i = x) (r : Fin 8192) (c : Fin 256) :
    ∃ x : ℝ, Cert.Spec.Wh h W r c = x :=
  sum_mul_real Finset.univ (fun k : Fin 256 => h (ix2 r k)) (fun k : Fin 256 => W (ix2 k c))
    (fun _ => hh _) (fun _ => hW _)

theorem proj_real (wh : Fin 256 → EReal) (a : (⟨2, ![256, 1]⟩ : Shape).Idx → EReal)
    (hwh : ∀ c, ∃ x : ℝ, wh c = x) (ha : ∀ i, ∃ x : ℝ, a i = x) : ∃ x : ℝ, Cert.Spec.proj wh a = x :=
  sum_mul_real Finset.univ wh (fun c : Fin 256 => a (ix2 c 0)) hwh (fun _ => ha _)

theorem logit_real (qs ks : EReal) (adj : BitVec 32) (hq : ∃ x : ℝ, qs = x) (hk : ∃ x : ℝ, ks = x) :
    ∃ x : ℝ, Cert.Spec.logit qs ks adj = x := by
  obtain ⟨q, rfl⟩ := hq
  obtain ⟨k, rfl⟩ := hk
  obtain ⟨s, hs⟩ := Cert.Consts.slope_real
  obtain ⟨f, hf⟩ := Cert.Consts.fill_real
  unfold Cert.Spec.logit Scalar.select
  split_ifs
  · exact ⟨q + k, (EReal.coe_add q k).symm⟩
  · exact ⟨s * (q + k), by rw [EReal.coe_mul, EReal.coe_add]; exact congrArg (· * _) hs⟩
  · exact ⟨f, hf⟩

theorem logits_real (h : (⟨2, ![8192, 256]⟩ : Shape).Idx → EReal) (adj : (⟨2, ![8192, 8192]⟩ : Shape).Idx → BitVec 32)
    (W : (⟨2, ![256, 256]⟩ : Shape).Idx → EReal) (aSrc aDst : (⟨2, ![256, 1]⟩ : Shape).Idx → EReal)
    (hh : ∀ i, ∃ x : ℝ, h i = x) (hW : ∀ i, ∃ x : ℝ, W i = x)
    (hs : ∀ i, ∃ x : ℝ, aSrc i = x) (hd : ∀ i, ∃ x : ℝ, aDst i = x) (r k : Fin 8192) :
    ∃ x : ℝ, Cert.Spec.logits h adj W aSrc aDst r k = x :=
  logit_real _ _ _ (proj_real _ _ (fun c => Wh_real h W hh hW r c) hs)
    (proj_real _ _ (fun c => Wh_real h W hh hW k c) hd)

end Cert.Sweep

end
-- ==== Proof.KSweep.lean ====
/-
  The attention of one block of 512 rows, swept over its four column steps.

  The grid has 64 points; point t works on row block t / 4 and column step t % 4. Three buffers are
  carried from one point to the next: the running offset, the running denominator and the running
  numerator block. At the first column step of a row block they start from -∞, 0 and 0; at each
  step they are updated from the 2048 logits of the step and the matching 2048 rows of the value
  matrix. After the fourth step the numerator divided by the denominator is the softmax of the whole
  row of 8192 logits against the matching column of the value matrix.
-/
import proofs.«172967_j79852031967736_2_alg».proof.Proof.Gen.KernelIdeal.Skeleton
import proofs.«172967_j79852031967736_2_alg».proof.Proof.Spec
import proofs.«172967_j79852031967736_2_alg».proof.Proof.AttnPay
import proofs.«172967_j79852031967736_2_alg».proof.Proof.Sweep
import proofs.«172967_j79852031967736_2_alg».proof.Proof.OnlineSoftmax

noncomputable section

namespace Cert.KernelIdeal.Sweep

open Idealize.ShloMosaic Idealize.ShloMosaic.ValueIdx Cert.KernelIdeal Cert.KernelIdeal.Gen Cert.KernelIdeal.Attn

/-- The grid point that is column step j of row block i. -/
def pt (i j : ℕ) : Fin 64 := ⟨(4 * i + j) % 64, Nat.mod_lt _ (by norm_num)⟩

theorem pt_val (i j : ℕ) (hi : i < 16) (hj : j < 4) : (pt i j).val = 4 * i + j := by
  show (4 * i + j) % 64 = 4 * i + j
  omega

/-- One entry of a carried buffer along the four steps of row block i: the starting word before the first
    step, then what the buffer holds after each point. -/
def seqOf {S : Shape} (init : EReal) (buf : Fin 64 → Vec Ideal S .f32) (x : S.Idx) (i : ℕ) : ℕ → EReal
  | 0 => init
  | j + 1 => buf (pt i j) x

/-- Column b of step j, as the sweep names it, is column 2048 · j + b. -/
theorem col_eq (i j : ℕ) (hi : i < 16) (hj : j < 4) (b : Fin 2048) (hlt : 2048 * ((pt i j).val % 4) + b.val < 8192) :
    (⟨2048 * ((pt i j).val % 4) + b.val, hlt⟩ : Fin 8192) = Cert.OnlineSoftmax.col j b := by
  apply Fin.ext
  show 2048 * ((pt i j).val % 4) + b.val = (2048 * j + b.val) % 8192
  rw [pt_val i j hi hj]
  have := b.isLt
  omega

/-- The row of a point of row block i is row 512 · i + p. -/
theorem row_eq (i j : ℕ) (hi : i < 16) (hj : j < 4) (p : Fin 512) (n : ℕ) (hn : n / 4 = i)
    (hlt : 512 * ((pt i j).val / 4) + p.val < 8192) (hlt' : 512 * (n / 4) + p.val < 8192) :
    (⟨512 * ((pt i j).val / 4) + p.val, hlt⟩ : Fin 8192) = ⟨512 * (n / 4) + p.val, hlt'⟩ := by
  apply Fin.ext
  show 512 * ((pt i j).val / 4) + p.val = 512 * (n / 4) + p.val
  rw [pt_val i j hi hj, hn]
  omega

/-- After the fourth column step of a row block, the numerator over the denominator is the attention of the row:
    the softmax of its 8192 logits against the matching column of the value matrix. -/
theorem attn_block
    (h : (⟨2, ![8192, 256]⟩ : Shape).Idx → EReal) (adj : (⟨2, ![8192, 8192]⟩ : Shape).Idx → BitVec 32) (W : (⟨2, ![256, 256]⟩ : Shape).Idx → EReal) (aSrc aDst : (⟨2, ![256, 1]⟩ : Shape).Idx → EReal)
    (hh : ∀ i, ∃ x : ℝ, h i = x) (hW : ∀ i, ∃ x : ℝ, W i = x) (hs : ∀ i, ∃ x : ℝ, aSrc i = x) (hd : ∀ i, ∃ x : ℝ, aDst i = x)
    (X0 : Fin 64 → Vec Ideal S512x1 .f32) (X1 : Fin 64 → Vec Ideal S1x2048 .f32) (X2 : Fin 64 → Vec Ideal S512x2048 .i32) (T : Fin 64 → Vec Ideal S2048x256 .bf16)
    (hX : ∀ (t : Fin 64) (p : Fin 512) (b : Fin 2048), tileLogit (X0 t) (X1 t) (X2 t) p b = Cert.Spec.logits h adj W aSrc aDst ⟨512 * (t.val / 4) + p.val, by omega⟩ ⟨2048 * (t.val % 4) + b.val, by omega⟩)
    (hT : ∀ (t : Fin 64) (b : Fin 2048) (q : Fin 256), T t (ix2 b q) = Cert.Spec.Wh h W ⟨2048 * (t.val % 4) + b.val, by omega⟩ q)
    (mAt lAt : Fin 64 → Vec Ideal S512x1 .f32) (accAt : Fin 64 → Vec Ideal S512x256 .f32)
    (hA : ∀ t : Fin 64, t.val % 4 = 0 → mAt t = stepM (X0 t) (X1 t) (X2 t) (k0_pay17 (F := Ideal)) ∧ lAt t = stepL (X0 t) (X1 t) (X2 t) (k0_pay17 (F := Ideal)) (k0_pay18 (F := Ideal)) ∧ accAt t = stepAcc (X0 t) (X1 t) (X2 t) (T t) (k0_pay17 (F := Ideal)) (k0_pay19 (F := Ideal)))
    (hB : ∀ (t : Fin 64) (h0 : t.val % 4 ≠ 0), mAt t = stepM (X0 t) (X1 t) (X2 t) (mAt ⟨t.val - 1, by omega⟩) ∧ lAt t = stepL (X0 t) (X1 t) (X2 t) (mAt ⟨t.val - 1, by omega⟩) (lAt ⟨t.val - 1, by omega⟩) ∧ accAt t = stepAcc (X0 t) (X1 t) (X2 t) (T t) (mAt ⟨t.val - 1, by omega⟩) (accAt ⟨t.val - 1, by omega⟩))
    (t : Fin 64) (h3 : t.val % 4 = 3) (p : Fin 512) (q : Fin 256) :
    Ideal.div (accAt t (ix2 p q)) (lAt t (ix2 p 0))
      = Cert.Spec.attn (Cert.Spec.logits h adj W aSrc aDst ⟨512 * (t.val / 4) + p.val, by omega⟩) (fun k => Cert.Spec.Wh h W k q) := by
  -- the row block of the point, and the point as its fourth column step
  obtain ⟨i, hi, hti⟩ : ∃ i, i < 16 ∧ t.val / 4 = i := ⟨t.val / 4, by omega, rfl⟩
  have hpt : pt i 3 = t := Fin.ext (by rw [pt_val i 3 hi (by omega)]; omega)
  -- the logits of the row and the column of values are reals
  choose e he using fun k => Cert.Sweep.logits_real h adj W aSrc aDst hh hW hs hd ⟨512 * (t.val / 4) + p.val, by omega⟩ k
  choose w hw using fun k => Cert.Sweep.Wh_real h W hh hW k q
  -- the logits and the values that column step j reads
  have hlog : ∀ j, j < 4 → ∀ b : Fin 2048, tileLogit (X0 (pt i j)) (X1 (pt i j)) (X2 (pt i j)) p b = ((e (Cert.OnlineSoftmax.col j b) : ℝ) : EReal) :=
    fun j hj b => (hX (pt i j) p b).trans ((congrArg₂ (Cert.Spec.logits h adj W aSrc aDst)
      (row_eq i j hi hj p t.val hti _ _) (col_eq i j hi hj b _)).trans (he _))
  have hval : ∀ j, j < 4 → ∀ b : Fin 2048, T (pt i j) (ix2 b q) = ((w (Cert.OnlineSoftmax.col j b) : ℝ) : EReal) :=
    fun j hj b => (hT (pt i j) b q).trans ((congrArg (fun k => Cert.Spec.Wh h W k q) (col_eq i j hi hj b _)).trans (hw _))
  -- what each step starts from: the starting words at the first step, the previous point's buffers afterwards
  have key : ∀ j, j < 4 → ∃ (mIn lIn : Vec Ideal S512x1 .f32) (accIn : Vec Ideal S512x256 .f32),
      mIn (ix2 p 0) = (seqOf Cert.Spec.wNegInf mAt (ix2 p 0) i) j ∧ lIn (ix2 p 0) = (seqOf Cert.Spec.wZero lAt (ix2 p 0) i) j ∧ accIn (ix2 p q) = (seqOf Cert.Spec.wZero accAt (ix2 p q) i) j
      ∧ mAt (pt i j) = stepM (X0 (pt i j)) (X1 (pt i j)) (X2 (pt i j)) mIn ∧ lAt (pt i j) = stepL (X0 (pt i j)) (X1 (pt i j)) (X2 (pt i j)) mIn lIn
      ∧ accAt (pt i j) = stepAcc (X0 (pt i j)) (X1 (pt i j)) (X2 (pt i j)) (T (pt i j)) mIn accIn := by
    intro j hj
    cases j with
    | zero =>
      obtain ⟨s1, s2, s3⟩ := hA (pt i 0) (by rw [pt_val i 0 hi hj]; omega)
      exact ⟨k0_pay17 (F := Ideal), k0_pay18 (F := Ideal), k0_pay19 (F := Ideal), pay17_apply p, pay18_apply p, pay19_apply p q, s1, s2, s3⟩
    | succ k =>
      have h0 : (pt i (k + 1)).val % 4 ≠ 0 := by rw [pt_val i (k + 1) hi hj]; omega
      obtain ⟨s1, s2, s3⟩ := hB (pt i (k + 1)) h0
      have ep : (⟨(pt i (k + 1)).val - 1, by omega⟩ : Fin 64) = pt i k := Fin.ext (by
        show (pt i (k + 1)).val - 1 = (pt i k).val
        rw [pt_val i (k + 1) hi hj, pt_val i k hi (by omega)]; omega)
      rw [ep] at s1 s2 s3
      exact ⟨mAt (pt i k), lAt (pt i k), accAt (pt i k), rfl, rfl, rfl, s1, s2, s3⟩
  have hM1 : ∀ j, (seqOf Cert.Spec.wNegInf mAt (ix2 p 0) i) (j + 1) = mAt (pt i j) (ix2 p 0) := fun _ => rfl
  have hL1 : ∀ j, (seqOf Cert.Spec.wZero lAt (ix2 p 0) i) (j + 1) = lAt (pt i j) (ix2 p 0) := fun _ => rfl
  have hA1 : ∀ j, (seqOf Cert.Spec.wZero accAt (ix2 p q) i) (j + 1) = accAt (pt i j) (ix2 p q) := fun _ => rfl
  -- the three recurrences of the sweep
  have hm : ∀ j, j < 4 → (seqOf Cert.Spec.wNegInf mAt (ix2 p 0) i) (j + 1) = max ((seqOf Cert.Spec.wNegInf mAt (ix2 p 0) i) j)
      (Finset.univ.fold max Cert.Spec.wNegInf (fun b : Fin 2048 => ((e (Cert.OnlineSoftmax.col j b) : ℝ) : EReal))) := by
    intro j hj
    obtain ⟨mIn, lIn, accIn, e1, e2, e3, s1, s2, s3⟩ := key j hj
    rw [hM1, s1, stepM_apply, e1]
    simp only [hlog j hj]
  have hl : ∀ j, j < 4 → (seqOf Cert.Spec.wZero lAt (ix2 p 0) i) (j + 1) = Ideal.exp ((seqOf Cert.Spec.wNegInf mAt (ix2 p 0) i) j - (seqOf Cert.Spec.wNegInf mAt (ix2 p 0) i) (j + 1)) * (seqOf Cert.Spec.wZero lAt (ix2 p 0) i) j
      + ∑ b : Fin 2048, Ideal.exp (((e (Cert.OnlineSoftmax.col j b) : ℝ) : EReal) - (seqOf Cert.Spec.wNegInf mAt (ix2 p 0) i) (j + 1)) := by
    intro j hj
    obtain ⟨mIn, lIn, accIn, e1, e2, e3, s1, s2, s3⟩ := key j hj
    rw [hL1, hM1, s2, s1, stepL_apply, e1, e2]
    simp only [hlog j hj]
  have ha : ∀ j, j < 4 → (seqOf Cert.Spec.wZero accAt (ix2 p q) i) (j + 1) = Ideal.exp ((seqOf Cert.Spec.wNegInf mAt (ix2 p 0) i) j - (seqOf Cert.Spec.wNegInf mAt (ix2 p 0) i) (j + 1)) * (seqOf Cert.Spec.wZero accAt (ix2 p q) i) j
      + ∑ b : Fin 2048, Ideal.exp (((e (Cert.OnlineSoftmax.col j b) : ℝ) : EReal) - (seqOf Cert.Spec.wNegInf mAt (ix2 p 0) i) (j + 1)) * ((w (Cert.OnlineSoftmax.col j b) : ℝ) : EReal) := by
    intro j hj
    obtain ⟨mIn, lIn, accIn, e1, e2, e3, s1, s2, s3⟩ := key j hj
    rw [hA1, hM1, s3, s1, stepAcc_apply, e1, e3]
    simp only [hlog j hj, hval j hj]
  -- the sweep's quotient, read at the fourth step
  have ha4 : (seqOf Cert.Spec.wZero accAt (ix2 p q) i) 4 = accAt t (ix2 p q) := congrArg (fun s => accAt s (ix2 p q)) hpt
  have hl4 : (seqOf Cert.Spec.wZero lAt (ix2 p 0) i) 4 = lAt t (ix2 p 0) := congrArg (fun s => lAt s (ix2 p 0)) hpt
  have fin := Cert.Sweep.sweep_ratio e w (seqOf Cert.Spec.wNegInf mAt (ix2 p 0) i) (seqOf Cert.Spec.wZero lAt (ix2 p 0) i) (seqOf Cert.Spec.wZero accAt (ix2 p q) i) rfl rfl rfl hm hl ha
  rw [ha4, hl4] at fin
  refine fin.trans ?_
  exact congrArg₂ Cert.Spec.attn (funext fun k => (he k).symm) (funext fun k => (hw k).symm)

end Cert.KernelIdeal.Sweep

end
-- ==== Proof.KOut.lean ====
/-
  One entry of the kernel's output block as the row specification.

  At a point that writes back, the body's output block is the epilogue of the numerator, the
  denominator and the windows' blocks. The windows that hold weights hold the arguments the
  specification's weights are read from; window 4's row is a row of `Wh`; the swept ratio
  numerator / denominator is the reference's attention entry. So the entry is the row
  specification's.
-/
import proofs.«172967_j79852031967736_2_alg».proof.Proof.Gen.KernelIdeal.Frame.Runs
import proofs.«172967_j79852031967736_2_alg».proof.Proof.KBlocks
import proofs.«172967_j79852031967736_2_alg».proof.Proof.KHost
import proofs.«172967_j79852031967736_2_alg».proof.Proof.KHost2
import proofs.«172967_j79852031967736_2_alg».proof.Proof.SpecArgs
import proofs.«172967_j79852031967736_2_alg».proof.Proof.AttnPay
import proofs.«172967_j79852031967736_2_alg».proof.Proof.Finite
import proofs.«172967_j79852031967736_2_alg».proof.Proof.KSweep
import proofs.«172967_j79852031967736_2_alg».proof.Proof.KEpi
import Idealize.ShloMosaic.PureOps.Ideal
import Idealize.ShloMosaic.Lib.ValueIdx
import Idealize.ShloMosaic.Lib.Pipeline.Value

set_option maxRecDepth 16384

noncomputable section

namespace Cert.KernelIdeal.Out

open Idealize.ShloMosaic Idealize.ShloMosaic.ValueIdx Idealize.ShloMosaic.TcCoe Idealize.SL.Sem Cert.KernelIdeal Cert.KernelIdeal.Gen
open Cert.KernelIdeal.Blocks Cert.KernelIdeal.Attn Cert.KernelIdeal.HostValue Cert.KernelIdeal.HostValue2

variable (m : (ℓ : Loc nD τ sig) → Buf (Elt Ideal) ℓ) (c : Dev nD)

/-- The weights of the row specification, from the arguments as launched. -/
abbrev wts : Cert.Spec.Wts :=
  Cert.Spec.wtsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))

/-! ## The weights the windows hold -/

theorem w5 (t : Fin cfg0.N) : ∀ k q, iblk m c 5 t (ix2 k q) = (wts m c).fe1_w k q :=
  fun k q => (iblk5_apply m c t k q).trans (congrFun (V_main_arg15 m c) _)
theorem w6 (t : Fin cfg0.N) : ∀ q, iblk m c 6 t (ix2 0 q) = (wts m c).fe1_b q :=
  fun q => (iblk6_apply m c t 0 q).trans (V_v6_apply m c q)
theorem w7 (t : Fin cfg0.N) : ∀ q, iblk m c 7 t (ix2 0 q) = (wts m c).fe_ln_g q :=
  fun q => (iblk7_apply m c t 0 q).trans (V_v7_apply m c q)
theorem w8 (t : Fin cfg0.N) : ∀ q, iblk m c 8 t (ix2 0 q) = (wts m c).fe_ln_b q :=
  fun q => (iblk8_apply m c t 0 q).trans (V_v8_apply m c q)
theorem w9 (t : Fin cfg0.N) : ∀ k q, iblk m c 9 t (ix2 k q) = (wts m c).fe2_w k q :=
  fun k q => (iblk9_apply m c t k q).trans (congrFun (V_main_arg19 m c) _)
theorem w10 (t : Fin cfg0.N) : ∀ q, iblk m c 10 t (ix2 0 q) = (wts m c).fe2_b q :=
  fun q => (iblk10_apply m c t 0 q).trans (V_v9_apply m c q)
theorem w11 (t : Fin cfg0.N) : ∀ k q, iblk m c 11 t (ix2 k q) = (wts m c).W_bcdt k q :=
  fun k q => (iblk11_apply m c t k q).trans (congrFun (V_main_arg5 m c) _)
theorem w12 (t : Fin cfg0.N) : ∀ q, iblk m c 12 t (ix2 0 q) = (wts m c).b_bcdt q :=
  fun q => (iblk12_apply m c t 0 q).trans (V_v10_apply m c q)
theorem w13 (t : Fin cfg0.N) : ∀ k q, iblk m c 13 t (ix2 k q) = (wts m c).abp_w k q :=
  fun k q => (iblk13_apply m c t k q).trans (congrFun (V_main_arg7 m c) _)
theorem w14 (t : Fin cfg0.N) : ∀ q, iblk m c 14 t (ix2 0 q) = (wts m c).abp_b q :=
  fun q => (iblk14_apply m c t 0 q).trans (V_v11_apply m c q)
theorem w15 (t : Fin cfg0.N) : ∀ k, iblk m c 15 t (ix2 0 k) = (wts m c).cp_w k :=
  fun k => (iblk15_apply m c t 0 k).trans (V_v5_apply m c k)
theorem w16 (t : Fin cfg0.N) : iblk m c 16 t (ix2 0 0) = (wts m c).cp_b :=
  (iblk16_apply m c t 0 0).trans (V_v12_apply m c 0)
theorem w17 (t : Fin cfg0.N) : ∀ q, iblk m c 17 t (ix2 0 q) = (wts m c).A q :=
  fun q => (iblk17_apply m c t 0 q).trans (V_v13_apply m c q)
theorem w18 (t : Fin cfg0.N) : ∀ k q, iblk m c 18 t (ix2 k q) = (wts m c).W_hz k q :=
  fun k q => (iblk18_apply m c t k q).trans (congrFun (V_main_arg11 m c) _)
theorem w19 (t : Fin cfg0.N) : ∀ q, iblk m c 19 t (ix2 0 q) = (wts m c).b_hz q :=
  fun q => (iblk19_apply m c t 0 q).trans (V_v14_apply m c q)
theorem w20 (t : Fin cfg0.N) : iblk m c 20 t (ix2 0 0) = (wts m c).D :=
  (iblk20_apply m c t 0 0).trans (V_v15_apply m c 0)
theorem w21 (t : Fin cfg0.N) : ∀ k q, iblk m c 21 t (ix2 k q) = (wts m c).out_w k q :=
  fun k q => (iblk21_apply m c t k q).trans (congrFun (V_main_arg13 m c) _)
theorem w22 (t : Fin cfg0.N) : ∀ q, iblk m c 22 t (ix2 0 q) = (wts m c).out_b q :=
  fun q => (iblk22_apply m c t 0 q).trans (V_v16_apply m c q)
theorem w23 (t : Fin cfg0.N) : ∀ k q, iblk m c 23 t (ix2 k q) = (wts m c).g1_w k q :=
  fun k q => (iblk23_apply m c t k q).trans (congrFun (V_main_arg23 m c) _)
theorem w24 (t : Fin cfg0.N) : ∀ q, iblk m c 24 t (ix2 0 q) = (wts m c).g1_b q :=
  fun q => (iblk24_apply m c t 0 q).trans (V_v17_apply m c q)
theorem w25 (t : Fin cfg0.N) : ∀ q, iblk m c 25 t (ix2 0 q) = (wts m c).g_ln_g q :=
  fun q => (iblk25_apply m c t 0 q).trans (V_v18_apply m c q)
theorem w26 (t : Fin cfg0.N) : ∀ q, iblk m c 26 t (ix2 0 q) = (wts m c).g_ln_b q :=
  fun q => (iblk26_apply m c t 0 q).trans (V_v19_apply m c q)
theorem w27 (t : Fin cfg0.N) : ∀ k q, iblk m c 27 t (ix2 k q) = (wts m c).g2_w k q :=
  fun k q => (iblk27_apply m c t k q).trans (congrFun (V_main_arg27 m c) _)
theorem w28 (t : Fin cfg0.N) : ∀ q, iblk m c 28 t (ix2 0 q) = (wts m c).g2_b q :=
  fun q => (iblk28_apply m c t 0 q).trans (V_v20_apply m c q)
theorem w29 (t : Fin cfg0.N) : ∀ q, iblk m c 29 t (ix2 0 q) = (wts m c).ln_g q :=
  fun q => (iblk29_apply m c t 0 q).trans (V_v21_apply m c q)
theorem w30 (t : Fin cfg0.N) : ∀ q, iblk m c 30 t (ix2 0 q) = (wts m c).ln_b q :=
  fun q => (iblk30_apply m c t 0 q).trans (V_v22_apply m c q)

/-! ## The row of `Wh` -/

/-- Row `p` of window 4's block is row `ROW t p` of `Wh`. -/
theorem wh_row (t : Fin cfg0.N) (p : Fin 512) :
    (fun q => iblk m c 4 t (ix2 p q)) = Cert.Spec.Wh (aH m c) (aW m c) (ROW t p) :=
  funext fun q => (iblk4_apply m c t p q).trans (V_v0_apply m c (ROW t p) q)

/-! ## The attention -/

/-- The tile of the bf16 copy of `Wh` the body loads at point `t`: its rows `2048 * (t % 4) …`, all 256 columns. -/
def tileAt (t : Fin cfg0.N) : Vec Ideal S2048x256 .bf16 :=
  fun y => iblk m c 3 t (ix2 (COL t (y 0)) (y 1))

theorem tileAt_apply (t : Fin cfg0.N) (b : Fin 2048) (q : Fin 256) :
    tileAt m c t (ix2 b q) = iblk m c 3 t (ix2 (COL t b) q) := rfl

/-- The tile is the rows `COL t b` of `Wh`. -/
theorem tile_wh (t : Fin cfg0.N) (b : Fin 2048) (q : Fin 256) :
    tileAt m c t (ix2 b q) = Cert.Spec.Wh (aH m c) (aW m c) (COL t b) q :=
  (iblk3_apply m c t (COL t b) q).trans (V_v4_apply m c (COL t b) q)

/-- The tile of logits at point `t` is the block of the reference's logits at the row block and the column block. -/
theorem tileLogit_blk (t : Fin cfg0.N) (p : Fin 512) (b : Fin 2048) :
    tileLogit (iblk m c 0 t) (iblk m c 1 t) (iblk m c 2 t) p b
      = Cert.Spec.logits (aH m c) (aAdj m c) (aW m c) (aSrc m c) (aDst m c) (ROW t p) (COL t b) := by
  unfold tileLogit Cert.Spec.logits
  rw [iblk0_apply, iblk1_apply, iblk2_apply, V_v1_apply, V_v3_apply, V_main_arg1]

/-- The swept ratio at the last column step is the reference's attention entry. -/
theorem ratio_entry [Cert.Pre_finite_inputs.Facts] (hpre : Cert.Pre_KernelIdeal m)
    (mAt lAt : Fin cfg0.N → Vec Ideal S512x1 .f32) (accAt : Fin cfg0.N → Vec Ideal S512x256 .f32)
    (hA : ∀ t : Fin cfg0.N, t.val % 4 = 0 → mAt t = stepM (iblk m c 0 t) (iblk m c 1 t) (iblk m c 2 t) (k0_pay17 (F := Ideal))
      ∧ lAt t = stepL (iblk m c 0 t) (iblk m c 1 t) (iblk m c 2 t) (k0_pay17 (F := Ideal)) (k0_pay18 (F := Ideal))
      ∧ accAt t = stepAcc (iblk m c 0 t) (iblk m c 1 t) (iblk m c 2 t) (tileAt m c t) (k0_pay17 (F := Ideal)) (k0_pay19 (F := Ideal)))
    (hB : ∀ (t : Fin cfg0.N) (h0 : t.val % 4 ≠ 0),
      mAt t = stepM (iblk m c 0 t) (iblk m c 1 t) (iblk m c 2 t) (mAt ⟨t.val - 1, by omega⟩)
      ∧ lAt t = stepL (iblk m c 0 t) (iblk m c 1 t) (iblk m c 2 t) (mAt ⟨t.val - 1, by omega⟩) (lAt ⟨t.val - 1, by omega⟩)
      ∧ accAt t = stepAcc (iblk m c 0 t) (iblk m c 1 t) (iblk m c 2 t) (tileAt m c t) (mAt ⟨t.val - 1, by omega⟩) (accAt ⟨t.val - 1, by omega⟩))
    (t : Fin cfg0.N) (h3 : t.val % 4 = 3) (p : Fin 512) (q : Fin 256) :
    Ideal.div (accAt t (ix2 p q)) (lAt t (ix2 p 0))
      = Cert.Spec.attn (Cert.Spec.logits (aH m c) (aAdj m c) (aW m c) (aSrc m c) (aDst m c) (ROW t p))
          (fun k => Cert.Spec.Wh (aH m c) (aW m c) k q) :=
  Cert.KernelIdeal.Sweep.attn_block (aH m c) (aAdj m c) (aW m c) (aSrc m c) (aDst m c)
    (Cert.Finite.arg0_real m hpre c) (Cert.Finite.arg2_real m hpre c) (Cert.Finite.arg3_real m hpre c) (Cert.Finite.arg4_real m hpre c)
    (iblk m c 0) (iblk m c 1) (iblk m c 2) (tileAt m c)
    (tileLogit_blk m c) (tile_wh m c) mAt lAt accAt hA hB t h3 p q

/-! ## One entry of the output block -/

/-- At a point that writes back, entry `(p, q)` of the body's output block is entry `q` of row `ROW t p` of the result. -/
theorem out_entry [Cert.Pre_finite_inputs.Facts] (hpre : Cert.Pre_KernelIdeal m)
    (mAt lAt : Fin cfg0.N → Vec Ideal S512x1 .f32) (accAt : Fin cfg0.N → Vec Ideal S512x256 .f32)
    (hA : ∀ t : Fin cfg0.N, t.val % 4 = 0 → mAt t = stepM (iblk m c 0 t) (iblk m c 1 t) (iblk m c 2 t) (k0_pay17 (F := Ideal))
      ∧ lAt t = stepL (iblk m c 0 t) (iblk m c 1 t) (iblk m c 2 t) (k0_pay17 (F := Ideal)) (k0_pay18 (F := Ideal))
      ∧ accAt t = stepAcc (iblk m c 0 t) (iblk m c 1 t) (iblk m c 2 t) (tileAt m c t) (k0_pay17 (F := Ideal)) (k0_pay19 (F := Ideal)))
    (hB : ∀ (t : Fin cfg0.N) (h0 : t.val % 4 ≠ 0),
      mAt t = stepM (iblk m c 0 t) (iblk m c 1 t) (iblk m c 2 t) (mAt ⟨t.val - 1, by omega⟩)
      ∧ lAt t = stepL (iblk m c 0 t) (iblk m c 1 t) (iblk m c 2 t) (mAt ⟨t.val - 1, by omega⟩) (lAt ⟨t.val - 1, by omega⟩)
      ∧ accAt t = stepAcc (iblk m c 0 t) (iblk m c 1 t) (iblk m c 2 t) (tileAt m c t) (mAt ⟨t.val - 1, by omega⟩) (accAt ⟨t.val - 1, by omega⟩))
    (t : Fin cfg0.N) (h3 : t.val % 4 = 3) (p : Fin 512) (q : Fin 256) :
    Cert.KernelIdeal.Epi.epiBlock (accAt t) (lAt t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (ix2 p q)
      = Cert.Spec.outRow (aH m c) (aAdj m c) (aW m c) (aSrc m c) (aDst m c) (wts m c) (ROW t p) q := by
  refine (Cert.KernelIdeal.Epi.epiBlock_apply (accAt t) (lAt t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (wts m c)
    (w5 m c t) (w6 m c t) (w7 m c t) (w8 m c t) (w9 m c t) (w10 m c t) (w11 m c t) (w12 m c t) (w13 m c t) (w14 m c t) (w15 m c t) (w16 m c t) (w17 m c t) (w18 m c t) (w19 m c t) (w20 m c t) (w21 m c t) (w22 m c t) (w23 m c t) (w24 m c t) (w25 m c t) (w26 m c t) (w27 m c t) (w28 m c t) (w29 m c t) (w30 m c t) p q).trans ?_
  unfold Cert.Spec.outRow
  rw [wh_row m c t p]
  refine congrArg (fun f => Cert.Spec.epi (wts m c) (Cert.Spec.Wh (aH m c) (aW m c) (ROW t p)) f q) ?_
  exact funext fun q' => ratio_entry m c hpre mAt lAt accAt hA hB t h3 p q'

end Cert.KernelIdeal.Out

end
-- ==== Proof.KPieces.lean ====
/-
  What the run's cases leave, at the level of grid points.

  A grid point is a row block and a column step. The body carries three scratch buffers between the
  column steps of a row block: the running row maximum, the running denominator and the running
  numerator block. Each case of the body's run leaves in them one update of what the point before
  left (of the initial values, at the first column step); at the last column step it also writes the
  epilogue of the updated values to the output block.
-/
import proofs.«172967_j79852031967736_2_alg».proof.Proof.PatchedKernelIdeal.Frame
import proofs.«172967_j79852031967736_2_alg».proof.Proof.AttnPay
import proofs.«172967_j79852031967736_2_alg».proof.Proof.KEpi
import proofs.«172967_j79852031967736_2_alg».proof.Proof.KOut
import Idealize.ShloMosaic.Lib.Pipeline.Value
import Idealize.ShloMosaic.Lib.ValueIdx

set_option maxRecDepth 16384

noncomputable section

namespace Cert.KernelIdeal.Pieces

open Idealize.ShloMosaic Idealize.ShloMosaic.ValueIdx Idealize.ShloMosaic.TcCoe Idealize.ShloMosaic.Tactic Idealize.SL.Sem
open Cert.KernelIdeal Cert.KernelIdeal.Gen Cert.KernelIdeal.Attn Cert.KernelIdeal.Epi Cert.KernelIdeal.Out Cert.KernelIdeal.Blocks

/-! ## One lemma per piece the run found, at any instance -/

section Generic
variable {F : FTy → Type} [FloatOps F]

theorem hz : (![0, 0] : Fin 2 → Nat) = fun _ => 0 := funext fun a => by fin_cases a <;> rfl

/-- The tile of the value array that a column step loads. -/
abbrev vtile (i : grid0.Coords) (x3 : Vec F S8192x256 .bf16) : Vec F S2048x256 .bf16 :=
  View.ld x3 (Rect.unit (s := S8192x256) (k0_off1 i) S2048x256.size (k0_off1_inb i))

theorem sout_A_0 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 = k0_pay3 (k0_pay21 x0 x1 x2 (k0_pay17 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30)]
  unfold kernelRun0_A
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_A_1 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 = k0_pay1 (k0_pay24 x0 x1 x2 (k0_pay17 (F := F)) (k0_pay17 (F := F)) (k0_pay18 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30)]
  unfold kernelRun0_A
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_A_2 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 = k0_pay2 (k0_pay22 x0 x1 x2 (k0_pay17 (F := F)) (k0_pay17 (F := F))) (k0_pay23 x0 x1 x2 (k0_pay17 (F := F))) (vtile i x3) (k0_pay19 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30)]
  unfold kernelRun0_A
  dsimp only
  sl_unfold_words
  rw [View.canon_cons_unit_zero (S := S512x256) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]
  rfl

theorem sout_B_0 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay3 (k0_pay21 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_B
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_B_1 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay1 (k0_pay24 x0 x1 x2 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_B
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_B_2 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : ¬cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay2 (k0_pay22 x0 x1 x2 xs0 xs0) (k0_pay23 x0 x1 x2 xs0) (vtile i x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_B
  dsimp only
  sl_unfold_words
  rw [View.canon_cons_unit_zero (S := S512x256) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]
  rfl

theorem sout_C_0 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay3 (k0_pay21 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_C
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_C_1 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay1 (k0_pay24 x0 x1 x2 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_C
  dsimp only
  sl_unfold_words
  rw [View.canon_cons_unit_zero (S := S512x1) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]

theorem sout_C_2 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay2 (k0_pay22 x0 x1 x2 xs0 xs0) (k0_pay23 x0 x1 x2 xs0) (vtile i x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_C
  dsimp only
  sl_unfold_words
  rw [View.canon_cons_unit_zero (S := S512x256) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]
  rfl

theorem out_C_31 (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .i32) (harg4 : arg4.IsWhole) (arg5 : Memref sig .tc .vmem S8192x256 .bf16) (harg5 : arg5.IsWhole) (arg6 : Memref sig .tc .vmem S512x256 .f32) (harg6 : arg6.IsWhole) (arg7 : Memref sig .tc .vmem S256x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x256 .f32) (harg11 : arg11.IsWhole) (arg12 : Memref sig .tc .vmem S1x256 .f32) (harg12 : arg12.IsWhole) (arg13 : Memref sig .tc .vmem S256x384 .f32) (harg13 : arg13.IsWhole) (arg14 : Memref sig .tc .vmem S1x384 .f32) (harg14 : arg14.IsWhole) (arg15 : Memref sig .tc .vmem S128x256 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x128 .f32) (harg19 : arg19.IsWhole) (arg20 : Memref sig .tc .vmem S256x1024 .f32) (harg20 : arg20.IsWhole) (arg21 : Memref sig .tc .vmem S1x1024 .f32) (harg21 : arg21.IsWhole) (arg22 : Memref sig .tc .vmem S1x1 .f32) (harg22 : arg22.IsWhole) (arg23 : Memref sig .tc .vmem S512x256 .f32) (harg23 : arg23.IsWhole) (arg24 : Memref sig .tc .vmem S1x256 .f32) (harg24 : arg24.IsWhole) (arg25 : Memref sig .tc .vmem S512x512 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S512x256 .f32) (harg29 : arg29.IsWhole) (arg30 : Memref sig .tc .vmem S1x256 .f32) (harg30 : arg30.IsWhole) (arg31 : Memref sig .tc .vmem S1x256 .f32) (harg31 : arg31.IsWhole) (arg32 : Memref sig .tc .vmem S1x256 .f32) (harg32 : arg32.IsWhole) (arg33 : Memref sig .tc .vmem S512x256 .f32) (harg33 : arg33.IsWhole) (arg34 : Memref sig .tc .vmem S512x1 .f32) (harg34 : arg34.IsWhole) (arg35 : Memref sig .tc .vmem S512x1 .f32) (harg35 : arg35.IsWhole) (arg36 : Memref sig .tc .vmem S512x256 .f32) (harg36 : arg36.IsWhole) (hc0 : ¬cond0_0 i) (hc1 : cond0_1 i)
    (x0 : Vec F S512x1 .f32) (x1 : Vec F S1x2048 .f32) (x2 : Vec F S512x2048 .i32) (x3 : Vec F S8192x256 .bf16) (x4 : Vec F S512x256 .f32) (x5 : Vec F S256x512 .f32) (x6 : Vec F S1x512 .f32) (x7 : Vec F S1x512 .f32) (x8 : Vec F S1x512 .f32) (x9 : Vec F S512x256 .f32) (x10 : Vec F S1x256 .f32) (x11 : Vec F S256x384 .f32) (x12 : Vec F S1x384 .f32) (x13 : Vec F S128x256 .f32) (x14 : Vec F S1x256 .f32) (x15 : Vec F S1x128 .f32) (x16 : Vec F S1x1 .f32) (x17 : Vec F S1x128 .f32) (x18 : Vec F S256x1024 .f32) (x19 : Vec F S1x1024 .f32) (x20 : Vec F S1x1 .f32) (x21 : Vec F S512x256 .f32) (x22 : Vec F S1x256 .f32) (x23 : Vec F S512x512 .f32) (x24 : Vec F S1x512 .f32) (x25 : Vec F S1x512 .f32) (x26 : Vec F S1x512 .f32) (x27 : Vec F S512x256 .f32) (x28 : Vec F S1x256 .f32) (x29 : Vec F S1x256 .f32) (x30 : Vec F S1x256 .f32) (xs0 : Vec F S512x1 .f32) (xs1 : Vec F S512x1 .f32) (xs2 : Vec F S512x256 .f32) :
    out0_C_31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2 = k0_pay4 (k0_pay5 (k0_pay2 (k0_pay22 x0 x1 x2 xs0 xs0) (k0_pay23 x0 x1 x2 xs0) (vtile i x3) xs2) (k0_pay1 (k0_pay24 x0 x1 x2 xs0 xs0 xs1))) (k0_pay8 (k0_pay7 x4 x5 x6 x7 x8) x9 x10) (k0_pay14 (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32)) (k0_pay15 (k0_pay5 (k0_pay2 (k0_pay22 x0 x1 x2 xs0 xs0) (k0_pay23 x0 x1 x2 xs0) (vtile i x3) xs2) (k0_pay1 (k0_pay24 x0 x1 x2 xs0 xs0 xs1))) (k0_pay12 (k0_pay6 x4) (k0_pay11 (k0_pay6 x4) x11 x12 x17 x13) x14 x18 x19 x20 x21 x22) (k0_pay13 (k0_pay10 (k0_pay6 x4) x11 x12) x15 x16) (Scalar.ofBits .f32 0x3F800000#32) x23 x24 x25 x26) (k0_pay16 x27) x28 x29 x30 := by
  unfold out0_C_31
  rw [View.read_writes_eq_canon _ _ _ (cover0_C_31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 xs0 xs1 xs2)]
  unfold kernelRun0_C
  dsimp only
  sl_unfold_words
  rw [View.canon_cons_unit_zero (S := S512x256) hz]
  simp only [View.readCov_unit_zero (S := S512x1) _ hz, View.readCov_unit_zero (S := S512x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, View.ld_unit_zero (S := S512x1) hz, View.ld_unit_zero (S := S1x2048) hz, View.ld_unit_zero (S := S512x2048) hz, View.ld_unit_zero (S := S8192x256) hz, View.ld_unit_zero (S := S512x256) hz, View.ld_unit_zero (S := S256x512) hz, View.ld_unit_zero (S := S1x512) hz, View.ld_unit_zero (S := S1x256) hz, View.ld_unit_zero (S := S256x384) hz, View.ld_unit_zero (S := S1x384) hz, View.ld_unit_zero (S := S128x256) hz, View.ld_unit_zero (S := S1x128) hz, View.ld_unit_zero (S := S1x1) hz, View.ld_unit_zero (S := S256x1024) hz, View.ld_unit_zero (S := S1x1024) hz, View.ld_unit_zero (S := S512x512) hz]
  first | done | rfl

end Generic

/-! ## The grid points -/

section Points
variable (m : (ℓ : Loc nD τ sig) → Buf (Elt Ideal) ℓ) (c : Dev nD)

/-- The column step of a grid point. -/
theorem coord1 : ∀ t : Fin cfg0.N, ((grid0.coords t) 1).val = t.val % 4 :=
  (by decide +kernel : ∀ t : Fin grid0.N, ((grid0.coords t) 1).val = t.val % 4)

/-- The tile a point loads is the point's tile of the value array. -/
theorem vtile_eq (t : Fin cfg0.N) :
    vtile (grid0.coords t) (iblk m c 3 t : Vec Ideal S8192x256 .bf16) = tileAt m c t := by
  funext y
  unfold tileAt
  show (iblk m c 3 t : S8192x256.Idx → EReal)
      ((Rect.unit (s := S8192x256) (k0_off1 (grid0.coords t)) S2048x256.size (k0_off1_inb (grid0.coords t))).idx y) = _
  refine congrArg (iblk m c 3 t : S8192x256.Idx → EReal) (funext fun a => Fin.ext ?_)
  have ho := k0_off1_eq (grid0.coords t)
  have hc := coord1 t
  match a with
  | ⟨0, _⟩ =>
    show k0_off1 (grid0.coords t) 0 + 1 * (y 0).val = 2048 * (t.val % 4) + (y 0).val
    rw [ho]
    show 2048 * ((grid0.coords t) 1).val + 1 * (y 0).val = _
    rw [hc, Nat.one_mul]
  | ⟨1, _⟩ =>
    show k0_off1 (grid0.coords t) 1 + 1 * (y 1).val = (y 1).val
    rw [ho]
    show 0 + 1 * (y 1).val = _
    rw [Nat.one_mul, Nat.zero_add]

/-- The running maximum, denominator and numerator block after point `t`. -/
abbrev mAt (t : Fin cfg0.N) : Vec Ideal S512x1 .f32 := (outsAt0 m c t.val t.isLt).2.1
abbrev lAt (t : Fin cfg0.N) : Vec Ideal S512x1 .f32 := (outsAt0 m c t.val t.isLt).2.2.1
abbrev accAt (t : Fin cfg0.N) : Vec Ideal S512x256 .f32 := (outsAt0 m c t.val t.isLt).2.2.2

/-- At the first column step of a row block the three running values are one update of the initial ones. -/
theorem scratch_A (t : Fin cfg0.N) (h0 : t.val % 4 = 0) :
    mAt m c t = stepM (iblk m c 0 t) (iblk m c 1 t) (iblk m c 2 t) (k0_pay17 (F := Ideal))
    ∧ lAt m c t = stepL (iblk m c 0 t) (iblk m c 1 t) (iblk m c 2 t) (k0_pay17 (F := Ideal)) (k0_pay18 (F := Ideal))
    ∧ accAt m c t = stepAcc (iblk m c 0 t) (iblk m c 1 t) (iblk m c 2 t) (tileAt m c t) (k0_pay17 (F := Ideal)) (k0_pay19 (F := Ideal)) := by
  have h1 : ¬t.val % 4 = 3 := by omega
  show (outsAt0 m c t.val t.isLt).2.1 = _ ∧ (outsAt0 m c t.val t.isLt).2.2.1 = _ ∧ (outsAt0 m c t.val t.isLt).2.2.2 = _
  rw [outsAt0_A m c t h0 h1]
  dsimp only
  refine ⟨?_, ?_, ?_⟩
  · exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
  · exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
  · refine (sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)).trans ?_
    rw [vtile_eq m c t]
    rfl

/-- At a later column step they are one update of the values the point before left. -/
theorem scratch_B (t : Fin cfg0.N) (h0 : t.val % 4 ≠ 0) :
    mAt m c t = stepM (iblk m c 0 t) (iblk m c 1 t) (iblk m c 2 t) (mAt m c ⟨t.val - 1, Nat.lt_of_le_of_lt (Nat.sub_le t.val 1) t.isLt⟩)
    ∧ lAt m c t = stepL (iblk m c 0 t) (iblk m c 1 t) (iblk m c 2 t) (mAt m c ⟨t.val - 1, Nat.lt_of_le_of_lt (Nat.sub_le t.val 1) t.isLt⟩) (lAt m c ⟨t.val - 1, Nat.lt_of_le_of_lt (Nat.sub_le t.val 1) t.isLt⟩)
    ∧ accAt m c t = stepAcc (iblk m c 0 t) (iblk m c 1 t) (iblk m c 2 t) (tileAt m c t) (mAt m c ⟨t.val - 1, Nat.lt_of_le_of_lt (Nat.sub_le t.val 1) t.isLt⟩) (accAt m c ⟨t.val - 1, Nat.lt_of_le_of_lt (Nat.sub_le t.val 1) t.isLt⟩) := by
  by_cases h1 : t.val % 4 = 3
  · show (outsAt0 m c t.val t.isLt).2.1 = _ ∧ (outsAt0 m c t.val t.isLt).2.2.1 = _ ∧ (outsAt0 m c t.val t.isLt).2.2.2 = _
    rw [outsAt0_C m c t h0 h1]
    dsimp only
    refine ⟨?_, ?_, ?_⟩
    · exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2
    · exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2
    · refine (sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2).trans ?_
      rw [vtile_eq m c t]
      rfl
  · show (outsAt0 m c t.val t.isLt).2.1 = _ ∧ (outsAt0 m c t.val t.isLt).2.2.1 = _ ∧ (outsAt0 m c t.val t.isLt).2.2.2 = _
    rw [outsAt0_B m c t h0 h1]
    dsimp only
    refine ⟨?_, ?_, ?_⟩
    · exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2
    · exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2
    · refine (sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2).trans ?_
      rw [vtile_eq m c t]
      rfl

/-- At the last column step the output block is the epilogue of the updated running values. -/
theorem out_C (t : Fin cfg0.N) (h3 : t.val % 4 = 3) :
    (outsAt0 m c t.val t.isLt).1 = epiBlock (accAt m c t) (lAt m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by
  have h0 : ¬t.val % 4 = 0 := by omega
  have h1 : t.val % 4 = 3 := h3
  show (outsAt0 m c t.val t.isLt).1 = epiBlock (outsAt0 m c t.val t.isLt).2.2.2 (outsAt0 m c t.val t.isLt).2.2.1 (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
  rw [outsAt0_C m c t h0 h1]
  dsimp only
  rw [sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2,
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2]
  exact out_C_31 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (outsAt0 m c (t.val - 1) (Nat.lt_of_le_of_lt (Nat.sub_le t.val 1) t.isLt)).2.1 (outsAt0 m c (t.val - 1) (Nat.lt_of_le_of_lt (Nat.sub_le t.val 1) t.isLt)).2.2.1 (outsAt0 m c (t.val - 1) (Nat.lt_of_le_of_lt (Nat.sub_le t.val 1) t.isLt)).2.2.2

end Points

end Cert.KernelIdeal.Pieces

end
-- ==== Proof.KFinal.lean ====
/-
  The kernel's result array, as one function of the arguments.

  The output block of row block `i` is written back once, after the fourth column step. What the
  body stores there is the epilogue of the block's rows, and the three carried buffers it reads
  hold the running maximum, denominator and numerator of the online softmax over the whole row.
  So every entry `(r, q)` of the result is `Spec.outRow … r q`; the sixteen blocks cover the array.
-/
import proofs.«172967_j79852031967736_2_alg».proof.Proof.PatchedKernelIdeal.Value
import proofs.«172967_j79852031967736_2_alg».proof.Proof.KPieces
import proofs.«172967_j79852031967736_2_alg».proof.Proof.KOut

noncomputable section

namespace Cert.KernelIdeal.Final

open Idealize.ShloMosaic Idealize.ShloMosaic.ValueIdx Idealize.ShloMosaic.TcCoe Idealize.SL.Sem
open Cert.KernelIdeal Cert.KernelIdeal.Gen Cert.KernelIdeal.Blocks Cert.KernelIdeal.HostValue Cert.KernelIdeal.Pieces Cert.KernelIdeal.Out

variable [Cert.Pre_finite_inputs.Facts]
variable (m : (ℓ : Loc nD τ sig) → Buf (Elt Ideal) ℓ) (ρ : Dev nD → PrngReg)

/-- The result array: row `r`, column `q` is the row specification of the arguments. -/
def G (c : Dev nD) : S8192x256.Idx → EReal := fun i =>
  Cert.Spec.outRow (aH m c) (aAdj m c) (aW m c) (aSrc m c) (aDst m c)
    (Cert.Spec.wtsOf (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) (i 0) (i 1)

/-- What a flushing point writes back is its block of `G`. -/
theorem flushed_eq (hpre : Cert.Pre_KernelIdeal m) (c : Dev nD) (t : Fin cfg0.N) (hf : (cfg0.win 31).flush t = true) :
    (dats m 0 c).flushed 31 t = ((cfg0.win 31).blk t).view.read (Elt Ideal) (G m c) := by
  have h3 : t.val % 4 = 3 := (flush31_iff t).mp hf
  rw [Cert.KernelIdeal.Value.flushed31]
  funext j
  obtain ⟨p, q, rfl⟩ : ∃ (p : Fin 512) (q : Fin 256), j = ix2 p q := ⟨j 0, j 1, eq_ix2 j⟩
  show (outsAt0 m c t.val t.isLt).1 (ix2 p q) = G m c (((cfg0.win 31).blk t).view.emb (ix2 p q))
  rw [emb31, out_C m c t h3,
    out_entry m c hpre (mAt m c) (lAt m c) (accAt m c) (fun t h0 => scratch_A m c t h0) (fun t h0 => scratch_B m c t h0) t h3 p q]
  rfl

/-- The result array after the run. -/
theorem final31 (hpre : Cert.Pre_KernelIdeal m) (c : Dev nD) : (dats m 0 c).arrAt 31 cfg0.N = G m c :=
  (dats m 0 c).arrAt_eq_of_cover 31 (G m c) (fun t hf => flushed_eq m hpre c t hf) (fun i => cover31 i)

/-- The kernel's run with its result named. -/
theorem run (hpre : Cert.Pre_KernelIdeal m) :
    θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30) :=
  (θ_run defs _ _).mono (fun r h c => ⟨(h c).1.trans (final31 m hpre c), (h c).2⟩) (Cert.KernelIdeal.Value.run_blocks m ρ)

end Cert.KernelIdeal.Final

end
-- ==== Proof.RunSeq.lean ====
/-
  The reference program's run, over its operation list in five consecutive pieces.

  @main is a straight line of host operations. Every weakly fair execution runs them in order and
  ends with each buffer at the fold of the operations' results over the launch contents; folding
  over a concatenation is folding over the pieces one after the other.
-/
import proofs.«172967_j79852031967736_2_alg».proof.Proof.RunOps

noncomputable section

namespace Cert.ReferenceIdeal.HandRun

open Cert.ReferenceIdeal Cert.ReferenceIdeal.Gen Cert.ReferenceIdeal.RunOps
open Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- @main is its operations in order. -/
theorem main_eq (c : Dev nD) : main (F := F) c = seq (ops1 ++ (ops2 ++ (ops3 ++ (ops4 ++ ops5)))) := rfl

theorem all_sub : (ops1 ++ (ops2 ++ (ops3 ++ (ops4 ++ ops5))) : List (HloOp τ sig (Elt F))).Forall fun op => op.bufs ⊆ tcRefs τ sig :=
  List.forall_iff_forall_mem.mpr fun op h => by
    rcases List.mem_append.mp h with h | h
    · exact List.forall_iff_forall_mem.mp ops1_sub op h
    rcases List.mem_append.mp h with h | h
    · exact List.forall_iff_forall_mem.mp ops2_sub op h
    rcases List.mem_append.mp h with h | h
    · exact List.forall_iff_forall_mem.mp ops3_sub op h
    rcases List.mem_append.mp h with h | h
    · exact List.forall_iff_forall_mem.mp ops4_sub op h
    · exact List.forall_iff_forall_mem.mp ops5_sub op h

set_option maxRecDepth 8192 in
theorem fresh1 : ∀ op ∈ (ops1 : List (HloOp τ sig (Elt F))), op.fresh = ∅ := by
  intro _ h; (repeat (cases h with | head => rfl | tail _ h => ?_)); exact nomatch h
set_option maxRecDepth 8192 in
theorem fresh2 : ∀ op ∈ (ops2 : List (HloOp τ sig (Elt F))), op.fresh = ∅ := by
  intro _ h; (repeat (cases h with | head => rfl | tail _ h => ?_)); exact nomatch h
set_option maxRecDepth 8192 in
theorem fresh3 : ∀ op ∈ (ops3 : List (HloOp τ sig (Elt F))), op.fresh = ∅ := by
  intro _ h; (repeat (cases h with | head => rfl | tail _ h => ?_)); exact nomatch h
set_option maxRecDepth 8192 in
theorem fresh4 : ∀ op ∈ (ops4 : List (HloOp τ sig (Elt F))), op.fresh = ∅ := by
  intro _ h; (repeat (cases h with | head => rfl | tail _ h => ?_)); exact nomatch h
set_option maxRecDepth 8192 in
theorem fresh5 : ∀ op ∈ (ops5 : List (HloOp τ sig (Elt F))), op.fresh = ∅ := by
  intro _ h; (repeat (cases h with | head => rfl | tail _ h => ?_)); exact nomatch h

theorem all_fresh : ∀ op ∈ (ops1 ++ (ops2 ++ (ops3 ++ (ops4 ++ ops5))) : List (HloOp τ sig (Elt F))), op.fresh = ∅ := by
  intro op h
  rcases List.mem_append.mp h with h | h
  · exact fresh1 op h
  rcases List.mem_append.mp h with h | h
  · exact fresh2 op h
  rcases List.mem_append.mp h with h | h
  · exact fresh3 op h
  rcases List.mem_append.mp h with h | h
  · exact fresh4 op h
  · exact fresh5 op h

/-- Every weakly fair execution of the reference terminates with each buffer at the five pieces' fold. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after ops5 (after ops4 (after ops3 (after ops2 (after ops1 (launchContents m d))))) (Proc.devRef .tc b) :=
  (θ_run defs _ _).mono (fun r h d b => (h d b).trans (by rw [after_append, after_append, after_append, after_append]))
    (run_seq scopedRefs_eq scopedSems_eq defs main (fun _ => ops1 ++ (ops2 ++ (ops3 ++ (ops4 ++ ops5)))) main_eq
      (fun _ => all_sub) m ρ (fun _ => all_fresh))

end Cert.ReferenceIdeal.HandRun

end
-- ==== Proof.RunVal1.lean ====
/-
  The first piece of the reference's run (operations 1 to 35): what its buffers hold afterwards.
  The projection `Wh` and the attention output are the stage functions of the operation list applied
  to the argument buffers; a buffer none of the thirty-five operations writes keeps its contents.
-/
import proofs.«172967_j79852031967736_2_alg».proof.Proof.RunOps
import proofs.«172967_j79852031967736_2_alg».proof.Proof.ReadP
import Idealize.ShloMosaic.Lib.StableHlo.Run

noncomputable section

namespace Cert.ReferenceIdeal.HandRun

open Cert.ReferenceIdeal Cert.ReferenceIdeal.Gen Cert.ReferenceIdeal.RunOps Cert.ReferenceIdeal.Read Idealize.ShloMosaic Idealize.ShloMosaic.TcCoe Idealize.SL.Sem Idealize.ShloMosaic.StableHlo

variable {F : FTy → Type} [FloatOps F] (V : Valuation τ sig (Elt F))

/-- After the first piece the buffer of `%0` holds `h · W`. -/
theorem c1_v0 : after ops1 V (Proc.devRef .tc main_v0)
    = val_main_v0 (F := F) (V (Proc.devRef .tc main_arg0)) (V (Proc.devRef .tc main_arg2)) := by
  after_results_simp <;> rfl

set_option maxRecDepth 8192 in
/-- After the first piece the buffer of `%26` holds the attention output. -/
theorem c1_v26 : after ops1 V (Proc.devRef .tc main_v26)
    = val_main_v26 (F := F) (V (Proc.devRef .tc main_arg0)) (V (Proc.devRef .tc main_arg1)) (V (Proc.devRef .tc main_arg2)) (V (Proc.devRef .tc main_arg3)) (V (Proc.devRef .tc main_arg4)) := by
  after_results_simp <;> (try simp only [TRef.ofBuf, TRef.toBuf, cast_eq]) <;> rfl

/-- Every reference the first piece writes, in order. -/
def W1 : List (Ref sig .tc) :=
  [main_v0, main_v1, main_v2, main_v3, main_v4, main_v5, main_v6, main_cst, main_v7, main_v8, main_cst_0, main_v9, main_v10, main_v11, main_c, main_v12, main_v13, main_cst_1, main_call1_v0, main_v14, main_cst_2, main_v15, main_cst_3, main_v16, main_v17, main_v18, main_v19, main_v20, main_v21, main_cst_4, main_v22, main_v23, main_v24, main_v25, main_v26]

/-- A written reference that is in a list is, as a device buffer, in the list's buffers. -/
theorem single_sub_map {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
/-- Each operation of the first piece writes a reference of `W1`. -/
theorem ops1_writes : (ops1 : List (HloOp τ sig (Elt F))).Forall fun op =>
    op.writes ⊆ (W1.map (Proc.devRef (τ := τ) .tc)).toFinset :=
  ⟨single_sub_map (y := main_v0) (by decide),
   single_sub_map (y := main_v1) (by decide),
   single_sub_map (y := main_v2) (by decide),
   single_sub_map (y := main_v3) (by decide),
   single_sub_map (y := main_v4) (by decide),
   single_sub_map (y := main_v5) (by decide),
   single_sub_map (y := main_v6) (by decide),
   single_sub_map (y := main_cst) (by decide),
   single_sub_map (y := main_v7) (by decide),
   single_sub_map (y := main_v8) (by decide),
   single_sub_map (y := main_cst_0) (by decide),
   single_sub_map (y := main_v9) (by decide),
   single_sub_map (y := main_v10) (by decide),
   single_sub_map (y := main_v11) (by decide),
   single_sub_map (y := main_c) (by decide),
   single_sub_map (y := main_v12) (by decide),
   single_sub_map (y := main_v13) (by decide),
   single_sub_map (y := main_cst_1) (by decide),
   single_sub_map (y := main_call1_v0) (by decide),
   single_sub_map (y := main_v14) (by decide),
   single_sub_map (y := main_cst_2) (by decide),
   single_sub_map (y := main_v15) (by decide),
   single_sub_map (y := main_cst_3) (by decide),
   single_sub_map (y := main_v16) (by decide),
   single_sub_map (y := main_v17) (by decide),
   single_sub_map (y := main_v18) (by decide),
   single_sub_map (y := main_v19) (by decide),
   single_sub_map (y := main_v20) (by decide),
   single_sub_map (y := main_v21) (by decide),
   single_sub_map (y := main_cst_4) (by decide),
   single_sub_map (y := main_v22) (by decide),
   single_sub_map (y := main_v23) (by decide),
   single_sub_map (y := main_v24) (by decide),
   single_sub_map (y := main_v25) (by decide),
   single_sub_map (y := main_v26) (by decide)⟩

/-- A buffer the first piece does not write keeps its contents. -/
theorem keep1 (r : Ref sig .tc) (hr : r ∉ W1) : after ops1 V (Proc.devRef .tc r) = V (Proc.devRef .tc r) :=
  after_of_writes_sub ops1 V ops1_writes hr

end Cert.ReferenceIdeal.HandRun

end
-- ==== Proof.RunVal2.lean ====
/-
  The second piece of the reference's operation list (the feature enhancer: linear layer, layer
  norm, silu, linear layer), run from any contents: the buffer of stage %59 ends as the stage
  function of the arguments, and a buffer the piece does not write keeps its contents.
-/
import proofs.«172967_j79852031967736_2_alg».proof.Proof.RunOps
import proofs.«172967_j79852031967736_2_alg».proof.Proof.ReadP
import Idealize.ShloMosaic.Lib.StableHlo.Run

noncomputable section

namespace Cert.ReferenceIdeal.HandRun

open Cert.ReferenceIdeal Cert.ReferenceIdeal.Gen Cert.ReferenceIdeal.RunOps Cert.ReferenceIdeal.Read Idealize.ShloMosaic Idealize.ShloMosaic.TcCoe Idealize.SL.Sem Idealize.ShloMosaic.StableHlo

variable {F : FTy → Type} [FloatOps F] (V : Valuation τ sig (Elt F))

set_option maxRecDepth 8192 in
/-- After the second piece, the buffer of stage %59 holds the stage function of the arguments,
    given that the buffer of stage %0 held its stage function and the six weight arguments are as named. -/
theorem c2_v59 (a0 : (⟨S8192x256, .f32⟩ : BufTy).Contents (Elt F)) (a2 : (⟨S256x256, .f32⟩ : BufTy).Contents (Elt F)) (a15 : (⟨S256x512, .f32⟩ : BufTy).Contents (Elt F)) (a16 : (⟨S512, .f32⟩ : BufTy).Contents (Elt F)) (a17 : (⟨S512, .f32⟩ : BufTy).Contents (Elt F)) (a18 : (⟨S512, .f32⟩ : BufTy).Contents (Elt F)) (a19 : (⟨S512x256, .f32⟩ : BufTy).Contents (Elt F)) (a20 : (⟨S256, .f32⟩ : BufTy).Contents (Elt F))
    (h0 : V (Proc.devRef .tc main_v0) = val_main_v0 (F := F) a0 a2)
    (h15 : V (Proc.devRef .tc main_arg15) = a15) (h16 : V (Proc.devRef .tc main_arg16) = a16) (h17 : V (Proc.devRef .tc main_arg17) = a17) (h18 : V (Proc.devRef .tc main_arg18) = a18) (h19 : V (Proc.devRef .tc main_arg19) = a19) (h20 : V (Proc.devRef .tc main_arg20) = a20) :
    after ops2 V (Proc.devRef .tc main_v59) = val_main_v59 (F := F) a0 a2 a15 a16 a17 a18 a19 a20 := by
  subst h15 h16 h17 h18 h19 h20
  after_results_simp
  simp only [TRef.ofBuf, TRef.toBuf, cast_eq]
  rw [h0]
  rfl

/-- Every reference the second piece writes, in order. -/
def W2 : List (Ref sig .tc) :=
  [main_v27, main_v28, main_v29, main_v30, main_cst_5, main_v31, main_v32, main_cst_6, main_v33, main_v34, main_v35, main_v36, main_v37, main_cst_7, main_v38, main_v39, main_cst_8, main_v40, main_v41, main_v42, main_v43, main_cst_9, main_v44, main_v45, main_v46, main_v47, main_v48, main_v49, main_v50, main_v51, main_v52, main_v53, main_v54, main_call2_v0, main_call2_v1, main_call2_cst, main_call2_v2, main_call2_v3, main_call2_cst_0, main_call2_v4, main_call2_v5, main_v55, main_v56, main_v57, main_v58, main_v59]

/-- A singleton of a listed reference lies in the list's set of device buffers. -/
theorem single_sub_W2 {y : Ref sig .tc} (h : y ∈ W2) :
    ({Proc.devRef (τ := τ) .tc y} : Finset (DevRef τ sig)) ⊆ (W2.map (Proc.devRef (τ := τ) .tc)).toFinset :=
  Finset.singleton_subset_iff.mpr (List.mem_toFinset.mpr (List.mem_map_of_mem h))

/-- Each operation of the second piece writes a listed reference. -/
theorem ops2_writes :
    (ops2 : List (HloOp τ sig (Elt F))).Forall fun op => op.writes ⊆ (W2.map (Proc.devRef (τ := τ) .tc)).toFinset := by
  simp only [ops2, List.Forall, nullary_writes, unary_writes, binary_writes]
  repeat' apply And.intro
  all_goals exact single_sub_W2 (by decide)

/-- A reference the second piece does not write keeps its contents. -/
theorem keep2 (r : Ref sig .tc) (hr : r ∉ W2) : after ops2 V (Proc.devRef .tc r) = V (Proc.devRef .tc r) :=
  after_of_writes_sub ops2 V ops2_writes hr

end Cert.ReferenceIdeal.HandRun

end
-- ==== Proof.RunVal3.lean ====
/-
  The third piece of the reference's operation list, read back: from contents that hold the projection
  `Wh` and the arguments, the list leaves the state-space branch's result; every reference the list does
  not write keeps its contents.
-/
import proofs.«172967_j79852031967736_2_alg».proof.Proof.RunOps
import proofs.«172967_j79852031967736_2_alg».proof.Proof.ReadP
import Idealize.ShloMosaic.Lib.StableHlo.Run

noncomputable section

namespace Cert.ReferenceIdeal.HandRun

open Cert.ReferenceIdeal Cert.ReferenceIdeal.Gen Cert.ReferenceIdeal.RunOps Cert.ReferenceIdeal.Read Idealize.ShloMosaic Idealize.ShloMosaic.TcCoe Idealize.SL.Sem Idealize.ShloMosaic.StableHlo

variable {F : FTy → Type} [FloatOps F] (V : Valuation τ sig (Elt F))

set_option maxRecDepth 8192 in
/-- After the third piece the state-space result holds its stage function of the arguments. -/
theorem c3_v110 (a0 : (⟨S8192x256, .f32⟩ : BufTy).Contents (Elt F)) (a2 : (⟨S256x256, .f32⟩ : BufTy).Contents (Elt F)) (a5 : (⟨S256x384, .f32⟩ : BufTy).Contents (Elt F)) (a6 : (⟨S384, .f32⟩ : BufTy).Contents (Elt F)) (a7 : (⟨S128x256, .f32⟩ : BufTy).Contents (Elt F)) (a8 : (⟨S256, .f32⟩ : BufTy).Contents (Elt F)) (a9 : (⟨S128x1, .f32⟩ : BufTy).Contents (Elt F)) (a10 : (⟨S1, .f32⟩ : BufTy).Contents (Elt F)) (a11 : (⟨S256x1024, .f32⟩ : BufTy).Contents (Elt F)) (a12 : (⟨S1024, .f32⟩ : BufTy).Contents (Elt F)) (a13 : (⟨S512x256, .f32⟩ : BufTy).Contents (Elt F)) (a14 : (⟨S256, .f32⟩ : BufTy).Contents (Elt F)) (a21 : (⟨S128, .f32⟩ : BufTy).Contents (Elt F)) (a22 : (⟨S1, .f32⟩ : BufTy).Contents (Elt F))
    (h0 : V (Proc.devRef .tc main_v0) = val_main_v0 (F := F) a0 a2) (h5 : V (Proc.devRef .tc main_arg5) = a5) (h6 : V (Proc.devRef .tc main_arg6) = a6) (h7 : V (Proc.devRef .tc main_arg7) = a7) (h8 : V (Proc.devRef .tc main_arg8) = a8) (h9 : V (Proc.devRef .tc main_arg9) = a9) (h10 : V (Proc.devRef .tc main_arg10) = a10) (h11 : V (Proc.devRef .tc main_arg11) = a11) (h12 : V (Proc.devRef .tc main_arg12) = a12) (h13 : V (Proc.devRef .tc main_arg13) = a13) (h14 : V (Proc.devRef .tc main_arg14) = a14) (h21 : V (Proc.devRef .tc main_arg21) = a21) (h22 : V (Proc.devRef .tc main_arg22) = a22) :
    after ops3 V (Proc.devRef .tc main_v110) = val_main_v110 (F := F) a0 a2 a5 a6 a7 a8 a9 a10 a11 a12 a13 a14 a21 a22 := by
  subst h5 h6 h7 h8 h9 h10 h11 h12 h13 h14 h21 h22
  unfold ops3
  after_results_simp
  all_goals (try simp only [TRef.ofBuf, TRef.toBuf, cast_eq])
  all_goals (try rw [h0])
  all_goals rfl

/-- A reference of a list, as the one buffer an operation writes, lies among the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- Every reference the third piece writes, in order. -/
def W3 : List (Ref sig .tc) :=
  [main_v60, main_v61, main_v62, main_v63, main_v64, main_v65, main_v66, main_v67, main_v68, main_v69, main_cst_10, main_v70, main_cst_11, main_v71, main_v72, main_v73, main_v74, main_v75, main_v76, main_cst_12, main_v77, main_v78, main_v79, main_v80, main_v81, main_v82, main_v83, main_v84, main_v85, main_v86, main_v87, main_v88, main_v89, main_v90, main_v91, main_v92, main_call3_v0, main_call3_v1, main_call3_cst, main_call3_v2, main_call3_v3, main_call3_cst_0, main_call3_v4, main_call3_v5, main_v93, main_v94, main_v95, main_v96, main_v97, main_v98, main_v99, main_v100, main_v101, main_v102, main_v103, main_v104, main_v105, main_v106, main_cst_13, main_v107, main_v108, main_v109, main_v110]

/-- A reference the third piece does not write keeps its contents. -/
theorem keep3 (r : Ref sig .tc) (hr : r ∉ W3) : after ops3 V (Proc.devRef .tc r) = V (Proc.devRef .tc r) := by
  refine after_of_writes_sub ops3 V ?_ hr
  simp only [ops3, List.Forall, TRef.nullary, TRef.unary, TRef.binary, nullary_writes, unary_writes, binary_writes]
  repeat' apply And.intro
  all_goals exact single_sub_of_mem (by decide)

end Cert.ReferenceIdeal.HandRun

end
-- ==== Proof.RunVal4.lean ====
/-
  Operations 145 to 191 of the reference, read back.

  From the contents the earlier operations leave at the attention output and the state-space
  output, and the arguments the gate reads, the forty-seven operations leave at the gate's second
  linear layer the value the stage function names. Every reference they write is listed; any
  other reference keeps its contents.
-/
import proofs.«172967_j79852031967736_2_alg».proof.Proof.RunOps
import proofs.«172967_j79852031967736_2_alg».proof.Proof.ReadP
import Idealize.ShloMosaic.Lib.StableHlo.Run

noncomputable section

namespace Cert.ReferenceIdeal.HandRun

open Cert.ReferenceIdeal Cert.ReferenceIdeal.Gen Cert.ReferenceIdeal.RunOps Cert.ReferenceIdeal.Read
open Idealize.ShloMosaic Idealize.ShloMosaic.TcCoe Idealize.SL.Sem Idealize.ShloMosaic.StableHlo

variable {F : FTy → Type} [FloatOps F] (V : Valuation τ sig (Elt F))

set_option maxRecDepth 8192 in
/-- After operations 145 to 191 the gate's second linear layer holds its stage function's value. -/
theorem c4_v144 (x0 : (⟨S8192x256, .f32⟩ : BufTy).Contents (Elt F)) (x1 : (⟨S8192x8192, .i32⟩ : BufTy).Contents (Elt F)) (x2 : (⟨S256x256, .f32⟩ : BufTy).Contents (Elt F)) (x3 x4 : (⟨S256x1, .f32⟩ : BufTy).Contents (Elt F)) (x5 : (⟨S256x384, .f32⟩ : BufTy).Contents (Elt F)) (x6 : (⟨S384, .f32⟩ : BufTy).Contents (Elt F)) (x7 : (⟨S128x256, .f32⟩ : BufTy).Contents (Elt F)) (x8 : (⟨S256, .f32⟩ : BufTy).Contents (Elt F)) (x9 : (⟨S128x1, .f32⟩ : BufTy).Contents (Elt F)) (x10 : (⟨S1, .f32⟩ : BufTy).Contents (Elt F)) (x11 : (⟨S256x1024, .f32⟩ : BufTy).Contents (Elt F)) (x12 : (⟨S1024, .f32⟩ : BufTy).Contents (Elt F)) (x13 : (⟨S512x256, .f32⟩ : BufTy).Contents (Elt F)) (x14 : (⟨S256, .f32⟩ : BufTy).Contents (Elt F)) (x21 : (⟨S128, .f32⟩ : BufTy).Contents (Elt F)) (x22 : (⟨S1, .f32⟩ : BufTy).Contents (Elt F)) (x23 : (⟨S512x512, .f32⟩ : BufTy).Contents (Elt F)) (x24 x25 x26 : (⟨S512, .f32⟩ : BufTy).Contents (Elt F)) (x27 : (⟨S512x256, .f32⟩ : BufTy).Contents (Elt F)) (x28 : (⟨S256, .f32⟩ : BufTy).Contents (Elt F))
    (h26 : V (Proc.devRef .tc main_v26) = val_main_v26 (F := F) x0 x1 x2 x3 x4)
    (h110 : V (Proc.devRef .tc main_v110) = val_main_v110 (F := F) x0 x2 x5 x6 x7 x8 x9 x10 x11 x12 x13 x14 x21 x22)
    (h23 : V (Proc.devRef .tc main_arg23) = x23) (h24 : V (Proc.devRef .tc main_arg24) = x24)
    (h25 : V (Proc.devRef .tc main_arg25) = x25) (h26' : V (Proc.devRef .tc main_arg26) = x26)
    (h27 : V (Proc.devRef .tc main_arg27) = x27) (h28 : V (Proc.devRef .tc main_arg28) = x28) :
    after ops4 V (Proc.devRef .tc main_v144)
      = val_main_v144 (F := F) x0 x1 x2 x3 x4 x5 x6 x7 x8 x9 x10 x11 x12 x13 x14 x21 x22 x23 x24 x25 x26 x27 x28 := by
  after_results_simp
  rw [h26, h110, h23, h24, h25, h26', h27, h28]
  (try simp only [TRef.ofBuf, TRef.toBuf, cast_eq])
  rfl

/-! ## What the operations write -/

/-- Every reference operations 145 to 191 write, in order. -/
def W4 : List (Ref sig .tc) :=
  [main_v111, main_v112, main_v113, main_v114, main_v115, main_cst_14, main_v116, main_v117, main_cst_15, main_v118, main_v119, main_v120, main_v121, main_v122, main_cst_16, main_v123, main_v124, main_cst_17, main_v125, main_v126, main_v127, main_v128, main_cst_18, main_v129, main_v130, main_v131, main_v132, main_v133, main_v134, main_v135, main_v136, main_v137, main_v138, main_v139, main_call4_v0, main_call4_v1, main_call4_cst, main_call4_v2, main_call4_v3, main_call4_cst_0, main_call4_v4, main_call4_v5, main_v140, main_v141, main_v142, main_v143, main_v144]

/-- A reference of a list is among the list's device buffers. -/
theorem single_sub_of_mem {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

set_option maxRecDepth 8192 in
/-- Each operation writes a reference of the list. -/
theorem writes4 : (ops4 : List (HloOp τ sig (Elt F))).Forall fun op => op.writes ⊆ (W4.map (Proc.devRef (τ := τ) .tc)).toFinset :=
  ⟨single_sub_of_mem main_v111 (by decide),
   single_sub_of_mem main_v112 (by decide),
   single_sub_of_mem main_v113 (by decide),
   single_sub_of_mem main_v114 (by decide),
   single_sub_of_mem main_v115 (by decide),
   single_sub_of_mem main_cst_14 (by decide),
   single_sub_of_mem main_v116 (by decide),
   single_sub_of_mem main_v117 (by decide),
   single_sub_of_mem main_cst_15 (by decide),
   single_sub_of_mem main_v118 (by decide),
   single_sub_of_mem main_v119 (by decide),
   single_sub_of_mem main_v120 (by decide),
   single_sub_of_mem main_v121 (by decide),
   single_sub_of_mem main_v122 (by decide),
   single_sub_of_mem main_cst_16 (by decide),
   single_sub_of_mem main_v123 (by decide),
   single_sub_of_mem main_v124 (by decide),
   single_sub_of_mem main_cst_17 (by decide),
   single_sub_of_mem main_v125 (by decide),
   single_sub_of_mem main_v126 (by decide),
   single_sub_of_mem main_v127 (by decide),
   single_sub_of_mem main_v128 (by decide),
   single_sub_of_mem main_cst_18 (by decide),
   single_sub_of_mem main_v129 (by decide),
   single_sub_of_mem main_v130 (by decide),
   single_sub_of_mem main_v131 (by decide),
   single_sub_of_mem main_v132 (by decide),
   single_sub_of_mem main_v133 (by decide),
   single_sub_of_mem main_v134 (by decide),
   single_sub_of_mem main_v135 (by decide),
   single_sub_of_mem main_v136 (by decide),
   single_sub_of_mem main_v137 (by decide),
   single_sub_of_mem main_v138 (by decide),
   single_sub_of_mem main_v139 (by decide),
   single_sub_of_mem main_call4_v0 (by decide),
   single_sub_of_mem main_call4_v1 (by decide),
   single_sub_of_mem main_call4_cst (by decide),
   single_sub_of_mem main_call4_v2 (by decide),
   single_sub_of_mem main_call4_v3 (by decide),
   single_sub_of_mem main_call4_cst_0 (by decide),
   single_sub_of_mem main_call4_v4 (by decide),
   single_sub_of_mem main_call4_v5 (by decide),
   single_sub_of_mem main_v140 (by decide),
   single_sub_of_mem main_v141 (by decide),
   single_sub_of_mem main_v142 (by decide),
   single_sub_of_mem main_v143 (by decide),
   single_sub_of_mem main_v144 (by decide)⟩

/-- A reference operations 145 to 191 do not write keeps its contents. -/
theorem keep4 (r : Ref sig .tc) (hr : r ∉ W4) : after ops4 V (Proc.devRef .tc r) = V (Proc.devRef .tc r) :=
  after_of_writes_sub ops4 V writes4 hr

end Cert.ReferenceIdeal.HandRun

end
-- ==== Proof.RunVal5.lean ====
/-
  The last stretch of the reference's operation list, run.

  Operations 192 to 235: the gate's logistic, the gated fusion with the state-space branch and the
  enhanced features, and the final layer norm. From contents that hold the earlier stages' values at
  the buffers this stretch reads, the result buffer holds the last stage's value; a buffer the stretch
  does not write keeps its contents.
-/
import proofs.«172967_j79852031967736_2_alg».proof.Proof.RunOps
import proofs.«172967_j79852031967736_2_alg».proof.Proof.ReadP
import Idealize.ShloMosaic.Lib.StableHlo.Run

noncomputable section

namespace Cert.ReferenceIdeal.HandRun

open Cert.ReferenceIdeal Cert.ReferenceIdeal.Gen Cert.ReferenceIdeal.RunOps Cert.ReferenceIdeal.Read Idealize.ShloMosaic Idealize.ShloMosaic.TcCoe Idealize.SL.Sem Idealize.ShloMosaic.StableHlo

variable {F : FTy → Type} [FloatOps F] (V : Valuation τ sig (Elt F))

set_option maxRecDepth 8192 in
/-- The result of the stretch, from the earlier stages' values. -/
theorem c5_v180 (x0 : (⟨S8192x256, .f32⟩ : BufTy).Contents (Elt F)) (x1 : (⟨S8192x8192, .i32⟩ : BufTy).Contents (Elt F)) (x2 : (⟨S256x256, .f32⟩ : BufTy).Contents (Elt F)) (x3 x4 : (⟨S256x1, .f32⟩ : BufTy).Contents (Elt F)) (x5 : (⟨S256x384, .f32⟩ : BufTy).Contents (Elt F)) (x6 : (⟨S384, .f32⟩ : BufTy).Contents (Elt F)) (x7 : (⟨S128x256, .f32⟩ : BufTy).Contents (Elt F)) (x8 : (⟨S256, .f32⟩ : BufTy).Contents (Elt F)) (x9 : (⟨S128x1, .f32⟩ : BufTy).Contents (Elt F)) (x10 : (⟨S1, .f32⟩ : BufTy).Contents (Elt F)) (x11 : (⟨S256x1024, .f32⟩ : BufTy).Contents (Elt F)) (x12 : (⟨S1024, .f32⟩ : BufTy).Contents (Elt F)) (x13 : (⟨S512x256, .f32⟩ : BufTy).Contents (Elt F)) (x14 : (⟨S256, .f32⟩ : BufTy).Contents (Elt F)) (x15 : (⟨S256x512, .f32⟩ : BufTy).Contents (Elt F)) (x16 x17 x18 : (⟨S512, .f32⟩ : BufTy).Contents (Elt F)) (x19 : (⟨S512x256, .f32⟩ : BufTy).Contents (Elt F)) (x20 : (⟨S256, .f32⟩ : BufTy).Contents (Elt F)) (x21 : (⟨S128, .f32⟩ : BufTy).Contents (Elt F)) (x22 : (⟨S1, .f32⟩ : BufTy).Contents (Elt F)) (x23 : (⟨S512x512, .f32⟩ : BufTy).Contents (Elt F)) (x24 x25 x26 : (⟨S512, .f32⟩ : BufTy).Contents (Elt F)) (x27 : (⟨S512x256, .f32⟩ : BufTy).Contents (Elt F)) (x28 x29 x30 : (⟨S256, .f32⟩ : BufTy).Contents (Elt F))
    (h144 : V (Proc.devRef .tc main_v144) = val_main_v144 (F := F) x0 x1 x2 x3 x4 x5 x6 x7 x8 x9 x10 x11 x12 x13 x14 x21 x22 x23 x24 x25 x26 x27 x28)
    (h26 : V (Proc.devRef .tc main_v26) = val_main_v26 (F := F) x0 x1 x2 x3 x4)
    (h110 : V (Proc.devRef .tc main_v110) = val_main_v110 (F := F) x0 x2 x5 x6 x7 x8 x9 x10 x11 x12 x13 x14 x21 x22)
    (h59 : V (Proc.devRef .tc main_v59) = val_main_v59 (F := F) x0 x2 x15 x16 x17 x18 x19 x20)
    (h29 : V (Proc.devRef .tc main_arg29) = x29) (h30 : V (Proc.devRef .tc main_arg30) = x30) :
    after ops5 V (Proc.devRef .tc main_v180) = val_main_v180 (F := F) x0 x1 x2 x3 x4 x5 x6 x7 x8 x9 x10 x11 x12 x13 x14 x15 x16 x17 x18 x19 x20 x21 x22 x23 x24 x25 x26 x27 x28 x29 x30 := by
  after_results_simp
  rw [h144, h26, h110, h59, h29, h30]
  rfl

/-- Every reference the stretch writes, in order. -/
def W5 : List (Ref sig .tc) :=
  [main_v145, main_v146, main_cst_19, main_v147, main_v148, main_cst_20, main_v149, main_v150, main_v151, main_cst_21, main_v152, main_v153, main_v154, main_v155, main_v156, main_cst_22, main_v157, main_v158, main_cst_23, main_v159, main_v160, main_v161, main_v162, main_v163, main_cst_24, main_v164, main_v165, main_cst_25, main_v166, main_v167, main_v168, main_v169, main_cst_26, main_v170, main_v171, main_v172, main_v173, main_v174, main_v175, main_v176, main_v177, main_v178, main_v179, main_v180]

theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem writes5 : (ops5 : List (HloOp τ sig (Elt F))).Forall fun op => op.writes ⊆ (W5.map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer the stretch does not write keeps its contents. -/
theorem keep5 (r : Ref sig .tc) (hr : r ∉ W5) : after ops5 V (Proc.devRef .tc r) = V (Proc.devRef .tc r) :=
  after_of_writes_sub ops5 V writes5 hr

end Cert.ReferenceIdeal.HandRun

end
-- ==== Proof.RowLaws.lean ====
/-
  Two laws of the extended reals used by every layer norm of the two programs.

  The kernel scales a centred row by `rsqrt (v + ε)`; the reference divides it by `sqrt (v + ε)`.
  The two agree wherever `0 < v + ε` (at `+∞` both give `0`), and the variance `v`, a mean of
  squares, is never negative on the extended reals (`⊥ * ⊥ = ⊤`), so with `ε > 0` no finiteness
  is needed.
-/
import Idealize.ShloMosaic.PureOps.Ideal

noncomputable section

namespace Cert.RowLaws

open Idealize.ShloMosaic

/-- A square is nonnegative on the extended reals, at the infinities too. -/
theorem mul_self_nonneg (a : EReal) : 0 ≤ a * a := by
  induction a using EReal.rec with
  | bot => simp
  | coe r => exact_mod_cast _root_.mul_self_nonneg r
  | top => simp

/-- A sum of squares is nonnegative. -/
theorem sum_mul_self_nonneg {ι : Type*} (s : Finset ι) (f : ι → EReal) : 0 ≤ ∑ k ∈ s, f k * f k :=
  Finset.sum_nonneg fun k _ => mul_self_nonneg (f k)

/-- Dividing a nonnegative extended real by a positive real keeps it nonnegative. -/
theorem div_nonneg_of_pos {s : EReal} {n : ℝ} (hs : 0 ≤ s) (hn : 0 < n) : 0 ≤ Ideal.div s (n : EReal) := by
  rw [Ideal.div_coe hn.ne']
  exact EReal.mul_nonneg hs (by exact_mod_cast (one_div_pos.mpr hn).le)

/-- `v + ε` is positive when `v` is nonnegative and `ε` positive. -/
theorem add_pos_of_nonneg_of_pos {v e : EReal} (hv : 0 ≤ v) (he : 0 < e) : 0 < v + e :=
  lt_of_lt_of_le he (by simpa using add_le_add_left hv e)

/-- Scaling by the reciprocal square root is dividing by the square root, at every positive
    extended real (at `+∞` both sides are `0`). -/
theorem mul_rsqrt_eq_div_sqrt (x : EReal) {y : EReal} (hy : 0 < y) :
    x * Ideal.rsqrt y = Ideal.div x (Ideal.sqrt y) := by
  induction y using EReal.rec with
  | bot => exact absurd hy (by simp)
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le), Ideal.div,
      if_neg (by exact_mod_cast hs.ne'), ← EReal.coe_inv]
  | top => rw [Ideal.rsqrt_top, Ideal.sqrt_top, Ideal.div, if_neg (by simp), EReal.inv_top]

end Cert.RowLaws

end
-- ==== Proof.RefA.lean ====
/-
  The reference's attention, read at an index: the projection `Wh = h · W`, the masked leaky-relu
  logits, the softmax along a row and the attention output; then three row laws the later stages share.
-/
import proofs.«172967_j79852031967736_2_alg».proof.Proof.ReadP
import proofs.«172967_j79852031967736_2_alg».proof.Proof.Spec
import proofs.«172967_j79852031967736_2_alg».proof.Proof.RowLaws
import proofs.«172967_j79852031967736_2_alg».proof.Proof.Consts
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

/-- Two rank-2 indices with the same coordinates are equal. -/
theorem idx2_ext {n0 n1 : Nat} {f g : (⟨2, ![n0, n1]⟩ : Shape).Idx} (h0 : f 0 = g 0) (h1 : f 1 = g 1) : f = g := by
  funext a
  match a with
  | ⟨0, _⟩ => exact h0
  | ⟨1, _⟩ => exact h1

/-- Two rank-1 indices with the same coordinate are equal. -/
theorem idx1_ext {n0 : Nat} {f g : (⟨1, ![n0]⟩ : Shape).Idx} (h0 : f 0 = g 0) : f = g := by
  funext a
  match a with
  | ⟨0, _⟩ => exact h0

/-! ## The projection `Wh = h · W` and the two attention projections -/

theorem v0_apply' (x0 : (⟨S8192x256, .f32⟩ : BufTy).Contents (Elt Ideal)) (x2 : (⟨S256x256, .f32⟩ : BufTy).Contents (Elt Ideal))
    (r : Fin 8192) (c : Fin 256) : val_main_v0 (F := Ideal) x0 x2 (ix2 r c) = Cert.Spec.Wh x0 x2 r c := by
  rw [val_main_v0_apply]
  unfold Cert.Spec.Wh
  refine Finset.sum_congr rfl fun k _ => ?_
  rw [show lidx_main_v0 (ix2 r c) k = ix2 r k from idx2_ext rfl rfl,
    show ridx_main_v0 (ix2 r c) k = ix2 k c from idx2_ext rfl rfl]

theorem v1_apply' (x0 : (⟨S8192x256, .f32⟩ : BufTy).Contents (Elt Ideal)) (x2 : (⟨S256x256, .f32⟩ : BufTy).Contents (Elt Ideal))
    (x3 : (⟨S256x1, .f32⟩ : BufTy).Contents (Elt Ideal)) (r : Fin 8192) :
    val_main_v1 (F := Ideal) x0 x2 x3 (ix2 r 0) = Cert.Spec.proj (Cert.Spec.Wh x0 x2 r) x3 := by
  rw [val_main_v1_apply]
  unfold Cert.Spec.proj
  refine Finset.sum_congr rfl fun c _ => ?_
  rw [show lidx_main_v1 (ix2 r 0) c = ix2 r c from idx2_ext rfl rfl,
    show ridx_main_v1 (ix2 r 0) c = ix2 c 0 from idx2_ext rfl rfl, v0_apply']

theorem v2_apply' (x0 : (⟨S8192x256, .f32⟩ : BufTy).Contents (Elt Ideal)) (x2 : (⟨S256x256, .f32⟩ : BufTy).Contents (Elt Ideal))
    (x4 : (⟨S256x1, .f32⟩ : BufTy).Contents (Elt Ideal)) (r : Fin 8192) :
    val_main_v2 (F := Ideal) x0 x2 x4 (ix2 r 0) = Cert.Spec.proj (Cert.Spec.Wh x0 x2 r) x4 := by
  rw [val_main_v2_apply]
  unfold Cert.Spec.proj
  refine Finset.sum_congr rfl fun c _ => ?_
  rw [show lidx_main_v2 (ix2 r 0) c = ix2 r c from idx2_ext rfl rfl,
    show ridx_main_v2 (ix2 r 0) c = ix2 c 0 from idx2_ext rfl rfl, v0_apply']

/-! ## The logits -/

/-- The sum of the source projection of row `r` and the destination projection of row `k`. -/
theorem v6_apply' (x0 : (⟨S8192x256, .f32⟩ : BufTy).Contents (Elt Ideal)) (x2 : (⟨S256x256, .f32⟩ : BufTy).Contents (Elt Ideal))
    (x3 x4 : (⟨S256x1, .f32⟩ : BufTy).Contents (Elt Ideal)) (r k : Fin 8192) :
    val_main_v6 (F := Ideal) x0 x2 x3 x4 (ix2 r k)
      = Cert.Spec.proj (Cert.Spec.Wh x0 x2 r) x3 + Cert.Spec.proj (Cert.Spec.Wh x0 x2 k) x4 := by
  rw [val_main_v6_apply, val_main_v4_apply, val_main_v5_apply, val_main_v3_apply,
    show idx_main_v4 (ix2 r k) = ix2 r 0 from idx2_ext rfl rfl,
    show idx_main_v3 (idx_main_v5 (ix2 r k)) = ix2 k 0 from idx2_ext rfl rfl, v1_apply', v2_apply']
  rfl

theorem v14_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal)) (r k : Fin 8192) :
    val_main_v14 (F := Ideal) x0 x1 x2 x3 x4 (ix2 r k) = Cert.Spec.logits x0 x1 x2 x3 x4 r k := by
  rw [val_main_v14_apply, val_main_v13_apply, val_main_v12_apply, val_main_c_apply, val_main_v11_apply,
    val_main_v8_apply, val_main_v10_apply, val_main_v7_apply, val_main_v9_apply, val_main_cst_apply,
    val_main_cst_0_apply, val_main_call1_v0_apply, val_main_cst_1_apply, v6_apply']
  rfl

/-! ## The softmax along a row and the attention output -/

/-- The row maximum, from `-∞` and once more against `-∞`. -/
theorem v17_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal)) (r : Fin 8192) :
    val_main_v17 (F := Ideal) x0 x1 x2 x3 x4 (ix1 r) = Cert.Spec.rowMax (Cert.Spec.logits x0 x1 x2 x3 x4 r) := by
  rw [val_main_v17_apply, val_main_v16_apply, val_main_cst_3_apply]
  unfold val_main_v15 Cert.Spec.rowMax
  rw [Host.reduce_eq_fold_single FloatOps.maximumf _ _ reducesTo_S8192x8192_S8192_d1 (by decide) h_S_]
  have hf : (val_main_v14 (F := Ideal) x0 x1 x2 x3 x4 ∘ (show S8192x8192.Reduces [1] S8192 by decide).lift (ix1 r))
      = Cert.Spec.logits x0 x1 x2 x3 x4 r := funext fun k => by
    have e : (show S8192x8192.Reduces [1] S8192 by decide).lift (ix1 r) k = ix2 r (⟨k.val, k.isLt⟩ : Fin 8192) :=
      idx2_ext rfl rfl
    exact (congrArg (val_main_v14 (F := Ideal) x0 x1 x2 x3 x4) e).trans (v14_apply' x0 x1 x2 x3 x4 r ⟨k.val, k.isLt⟩)
  rw [hf]
  rfl

/-- The exponential of a logit less its row maximum. -/
theorem v21_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal)) (r k : Fin 8192) :
    val_main_v21 (F := Ideal) x0 x1 x2 x3 x4 (ix2 r k)
      = Ideal.exp (Cert.Spec.logits x0 x1 x2 x3 x4 r k - Cert.Spec.rowMax (Cert.Spec.logits x0 x1 x2 x3 x4 r)) := by
  rw [val_main_v21_apply, val_main_v20_apply, val_main_v19_apply, val_main_v18_apply,
    show idx_main_v18 (idx_main_v19 (ix2 r k)) = ix1 r from idx1_ext rfl, v17_apply', v14_apply']
  rfl

/-- The softmax denominator of a row. -/
theorem v22_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal)) (r : Fin 8192) :
    val_main_v22 (F := Ideal) x0 x1 x2 x3 x4 (ix1 r)
      = ∑ k : Fin 8192, Ideal.exp (Cert.Spec.logits x0 x1 x2 x3 x4 r k - Cert.Spec.rowMax (Cert.Spec.logits x0 x1 x2 x3 x4 r)) := by
  rw [val_main_v22_apply, val_main_cst_4_apply]
  simp only [Ideal.ofBits_def, Cert.Consts.ofBits_zero, zero_add]
  refine Finset.sum_congr rfl fun k _ => ?_
  rw [show idx_main_v22 (ix1 r) k = ix2 r k from idx2_ext rfl rfl, v21_apply']

theorem v25_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal)) (r k : Fin 8192) :
    val_main_v25 (F := Ideal) x0 x1 x2 x3 x4 (ix2 r k) = Cert.Spec.softmax (Cert.Spec.logits x0 x1 x2 x3 x4 r) k := by
  rw [val_main_v25_apply, val_main_v24_apply, val_main_v23_apply,
    show idx_main_v23 (idx_main_v24 (ix2 r k)) = ix1 r from idx1_ext rfl, v22_apply', v21_apply']
  rfl

theorem v26_apply' (x0 : (⟨S8192x256, .f32⟩ : BufTy).Contents (Elt Ideal)) (x1 : (⟨S8192x8192, .i32⟩ : BufTy).Contents (Elt Ideal))
    (x2 : (⟨S256x256, .f32⟩ : BufTy).Contents (Elt Ideal)) (x3 x4 : (⟨S256x1, .f32⟩ : BufTy).Contents (Elt Ideal))
    (r : Fin 8192) (c : Fin 256) :
    val_main_v26 (F := Ideal) x0 x1 x2 x3 x4 (ix2 r c)
      = Cert.Spec.attn (Cert.Spec.logits x0 x1 x2 x3 x4 r) (fun k => Cert.Spec.Wh x0 x2 k c) := by
  rw [val_main_v26_apply]
  unfold Cert.Spec.attn
  refine Finset.sum_congr rfl fun k _ => ?_
  rw [show lidx_main_v26 (ix2 r c) k = ix2 r k from idx2_ext rfl rfl,
    show ridx_main_v26 (ix2 r c) k = ix2 k c from idx2_ext rfl rfl, v25_apply', v0_apply']

/-! ## Row laws shared by the stages below -/

/-- The layer norm written with a division by the square root is the one written with the
    reciprocal square root: the variance is nonnegative and the epsilon positive. -/
theorem ln_div_sqrt {n : ℕ} (N : EReal) {c : ℝ} (hN : N = (c : EReal)) (hc : 0 < c) (x g b : Fin n → EReal) (q : Fin n) :
    Ideal.div (x q - Cert.Spec.mean N x) (Ideal.sqrt (Cert.Spec.var N x + Cert.Spec.wEps)) * g q + b q
      = Cert.Spec.ln N x g b q := by
  unfold Cert.Spec.ln
  have hv : 0 ≤ Cert.Spec.var N x := by
    unfold Cert.Spec.var
    rw [hN]
    exact Cert.RowLaws.div_nonneg_of_pos (Cert.RowLaws.sum_mul_self_nonneg _ _) hc
  rw [Cert.RowLaws.mul_rsqrt_eq_div_sqrt _ (Cert.RowLaws.add_pos_of_nonneg_of_pos hv Cert.Consts.eps_pos)]

/-- `x · (1 / (1 + e^{-x}))` is `x · σ(x)`. -/
theorem silu_spelled (x : EReal) :
    x * Ideal.div (Ideal.ofBits .f32 0x3F800000#32) (Ideal.ofBits .f32 0x3F800000#32 + Ideal.exp (-x)) = x * Ideal.logistic x := by
  rw [Cert.Consts.ofBits_one]; rfl

theorem lin_apply {a b : ℕ} (x : Fin a → EReal) (W : Fin a → Fin b → EReal) (bias : Fin b → EReal) (q : Fin b) :
    Cert.Spec.lin x W bias q = (∑ k, x k * W k q) + bias q := rfl

end Cert.ReferenceIdeal.RefValue

end
-- ==== Proof.RefB.lean ====
/-
  The reference's feature enhancer read at an index: a linear layer, a layer norm over the row,
  a silu and a second linear layer of a row of `Wh`.
-/
import proofs.«172967_j79852031967736_2_alg».proof.Proof.ReadP
import proofs.«172967_j79852031967736_2_alg».proof.Proof.Spec
import proofs.«172967_j79852031967736_2_alg».proof.Proof.RowLaws
import proofs.«172967_j79852031967736_2_alg».proof.Proof.Consts
import proofs.«172967_j79852031967736_2_alg».proof.Proof.RefA
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

/-! ## The feature enhancer: linear, layer norm, silu, linear -/

/-- The first linear layer. -/
theorem v30_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (w : Cert.Spec.Wts) (h15 : ∀ k q, x15 (ix2 k q) = w.fe1_w k q) (h16 : ∀ q, x16 (ix1 q) = w.fe1_b q) (r : Fin 8192) (q : Fin 512) :
    val_main_v30 (F := Ideal) x0 x2 x15 x16 (ix2 r q) = (Cert.Spec.lin (Cert.Spec.Wh x0 x2 r) w.fe1_w w.fe1_b) q := by
  rw [val_main_v30_apply, val_main_v27_apply, val_main_v29_apply, val_main_v28_apply,
    show idx_main_v28 (idx_main_v29 (ix2 r q)) = ix1 q from idx1_ext rfl, h16, lin_apply]
  refine congrArg (· + w.fe1_b q) (Finset.sum_congr rfl fun k _ => ?_)
  rw [show lidx_main_v27 (ix2 r q) k = ix2 r k from idx2_ext rfl rfl,
    show ridx_main_v27 (ix2 r q) k = ix2 k q from idx2_ext rfl rfl, v0_apply', h15]

/-- Its row mean. -/
theorem v34_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (w : Cert.Spec.Wts) (h15 : ∀ k q, x15 (ix2 k q) = w.fe1_w k q) (h16 : ∀ q, x16 (ix1 q) = w.fe1_b q) (r : Fin 8192) :
    val_main_v34 (F := Ideal) x0 x2 x15 x16 (ix2 r 0) = Cert.Spec.mean Cert.Spec.w512 (Cert.Spec.lin (Cert.Spec.Wh x0 x2 r) w.fe1_w w.fe1_b) := by
  rw [val_main_v34_apply, val_main_v32_apply, val_main_v33_apply, val_main_cst_6_apply, val_main_v31_apply,
    val_main_cst_5_apply]
  simp only [Ideal.ofBits_def, Ideal.hostDivf_def, Cert.Consts.ofBits_zero, zero_add]
  unfold Cert.Spec.mean
  refine congrArg (Ideal.div · _) (Finset.sum_congr rfl fun k _ => ?_)
  rw [show idx_main_v31 (idx_main_v32 (ix2 r 0)) k = ix2 r k from idx2_ext rfl rfl, v30_apply' x0 x2 x15 x16 w h15 h16]

/-- The centred row (the copy that is squared). -/
theorem v36_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (w : Cert.Spec.Wts) (h15 : ∀ k q, x15 (ix2 k q) = w.fe1_w k q) (h16 : ∀ q, x16 (ix1 q) = w.fe1_b q) (r : Fin 8192) (q : Fin 512) :
    val_main_v36 (F := Ideal) x0 x2 x15 x16 (ix2 r q) = (Cert.Spec.lin (Cert.Spec.Wh x0 x2 r) w.fe1_w w.fe1_b) q - Cert.Spec.mean Cert.Spec.w512 (Cert.Spec.lin (Cert.Spec.Wh x0 x2 r) w.fe1_w w.fe1_b) := by
  rw [val_main_v36_apply, val_main_v35_apply, show idx_main_v35 (ix2 r q) = ix2 r 0 from idx2_ext rfl rfl,
    v34_apply' x0 x2 x15 x16 w h15 h16, v30_apply' x0 x2 x15 x16 w h15 h16]
  rfl

/-- The centred row (the copy that is scaled). -/
theorem v43_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (w : Cert.Spec.Wts) (h15 : ∀ k q, x15 (ix2 k q) = w.fe1_w k q) (h16 : ∀ q, x16 (ix1 q) = w.fe1_b q) (r : Fin 8192) (q : Fin 512) :
    val_main_v43 (F := Ideal) x0 x2 x15 x16 (ix2 r q) = (Cert.Spec.lin (Cert.Spec.Wh x0 x2 r) w.fe1_w w.fe1_b) q - Cert.Spec.mean Cert.Spec.w512 (Cert.Spec.lin (Cert.Spec.Wh x0 x2 r) w.fe1_w w.fe1_b) := by
  rw [val_main_v43_apply, val_main_v42_apply, show idx_main_v42 (ix2 r q) = ix2 r 0 from idx2_ext rfl rfl,
    v34_apply' x0 x2 x15 x16 w h15 h16, v30_apply' x0 x2 x15 x16 w h15 h16]
  rfl

/-- The row variance. -/
theorem v41_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (w : Cert.Spec.Wts) (h15 : ∀ k q, x15 (ix2 k q) = w.fe1_w k q) (h16 : ∀ q, x16 (ix1 q) = w.fe1_b q) (r : Fin 8192) :
    val_main_v41 (F := Ideal) x0 x2 x15 x16 (ix2 r 0) = Cert.Spec.var Cert.Spec.w512 (Cert.Spec.lin (Cert.Spec.Wh x0 x2 r) w.fe1_w w.fe1_b) := by
  rw [val_main_v41_apply, val_main_v39_apply, val_main_v40_apply, val_main_cst_8_apply, val_main_v38_apply,
    val_main_cst_7_apply]
  simp only [Ideal.ofBits_def, Ideal.hostDivf_def, Cert.Consts.ofBits_zero, zero_add]
  unfold Cert.Spec.var
  refine congrArg (Ideal.div · _) (Finset.sum_congr rfl fun k _ => ?_)
  rw [show idx_main_v38 (idx_main_v39 (ix2 r 0)) k = ix2 r k from idx2_ext rfl rfl, val_main_v37_apply,
    v36_apply' x0 x2 x15 x16 w h15 h16]
  rfl

/-- The layer norm. -/
theorem v54_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (w : Cert.Spec.Wts) (h15 : ∀ k q, x15 (ix2 k q) = w.fe1_w k q) (h16 : ∀ q, x16 (ix1 q) = w.fe1_b q)
    (h17 : ∀ q, x17 (ix1 q) = w.fe_ln_g q) (h18 : ∀ q, x18 (ix1 q) = w.fe_ln_b q) (r : Fin 8192) (q : Fin 512) :
    val_main_v54 (F := Ideal) x0 x2 x15 x16 x17 x18 (ix2 r q) = (Cert.Spec.ln Cert.Spec.w512 (Cert.Spec.lin (Cert.Spec.Wh x0 x2 r) w.fe1_w w.fe1_b) w.fe_ln_g w.fe_ln_b) q := by
  rw [val_main_v54_apply, val_main_v51_apply, val_main_v48_apply, val_main_v47_apply, val_main_v46_apply,
    val_main_v45_apply, val_main_v44_apply, val_main_cst_9_apply, val_main_v50_apply, val_main_v49_apply,
    val_main_v53_apply, val_main_v52_apply,
    show idx_main_v47 (ix2 r q) = ix2 r 0 from idx2_ext rfl rfl,
    show idx_main_v49 (idx_main_v50 (ix2 r q)) = ix1 q from idx1_ext rfl,
    show idx_main_v52 (idx_main_v53 (ix2 r q)) = ix1 q from idx1_ext rfl, h17, h18,
    v41_apply' x0 x2 x15 x16 w h15 h16, v43_apply' x0 x2 x15 x16 w h15 h16]
  exact ln_div_sqrt _ Cert.Consts.ofBits_512 (by norm_num) _ _ _ q

/-- The silu of the layer norm. -/
theorem v55_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (w : Cert.Spec.Wts) (h15 : ∀ k q, x15 (ix2 k q) = w.fe1_w k q) (h16 : ∀ q, x16 (ix1 q) = w.fe1_b q)
    (h17 : ∀ q, x17 (ix1 q) = w.fe_ln_g q) (h18 : ∀ q, x18 (ix1 q) = w.fe_ln_b q) (r : Fin 8192) (q : Fin 512) :
    val_main_v55 (F := Ideal) x0 x2 x15 x16 x17 x18 (ix2 r q) = Cert.Spec.silu (Cert.Spec.ln Cert.Spec.w512 (Cert.Spec.lin (Cert.Spec.Wh x0 x2 r) w.fe1_w w.fe1_b) w.fe_ln_g w.fe_ln_b) q := by
  rw [val_main_v55_apply, val_main_call2_v5_apply, val_main_call2_v4_apply, val_main_call2_cst_0_apply,
    val_main_call2_v3_apply, val_main_call2_v2_apply, val_main_call2_cst_apply, val_main_call2_v1_apply,
    val_main_call2_v0_apply, v54_apply' x0 x2 x15 x16 x17 x18 w h15 h16 h17 h18]
  exact silu_spelled _

theorem v59_apply' (x0 : (⟨S8192x256, .f32⟩ : BufTy).Contents (Elt Ideal)) (x2 : (⟨S256x256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (w : Cert.Spec.Wts) (h15 : ∀ k q, x15 (ix2 k q) = w.fe1_w k q) (h16 : ∀ q, x16 (ix1 q) = w.fe1_b q)
    (h17 : ∀ q, x17 (ix1 q) = w.fe_ln_g q) (h18 : ∀ q, x18 (ix1 q) = w.fe_ln_b q)
    (h19 : ∀ k q, x19 (ix2 k q) = w.fe2_w k q) (h20 : ∀ q, x20 (ix1 q) = w.fe2_b q) (r : Fin 8192) (q : Fin 256) :
    val_main_v59 (F := Ideal) x0 x2 x15 x16 x17 x18 x19 x20 (ix2 r q) = Cert.Spec.hEnh w (Cert.Spec.Wh x0 x2 r) q := by
  rw [val_main_v59_apply, val_main_v56_apply, val_main_v58_apply, val_main_v57_apply,
    show idx_main_v57 (idx_main_v58 (ix2 r q)) = ix1 q from idx1_ext rfl, h20]
  unfold Cert.Spec.hEnh
  rw [lin_apply]
  refine congrArg (· + w.fe2_b q) (Finset.sum_congr rfl fun k _ => ?_)
  rw [show lidx_main_v56 (ix2 r q) k = ix2 r k from idx2_ext rfl rfl,
    show ridx_main_v56 (ix2 r q) k = ix2 k q from idx2_ext rfl rfl,
    v55_apply' x0 x2 x15 x16 x17 x18 w h15 h16 h17 h18, h19]

end Cert.ReferenceIdeal.RefValue

end
-- ==== Proof.RefC.lean ====
/-
  The reference's state-space branch read at an index: the `B`, `C`, `dt` projection, the softmax of
  `dt + A` against `B`, the gated hidden projection with its silu, the output projection and the
  scalar projection of `C` that scales it.
-/
import proofs.«172967_j79852031967736_2_alg».proof.Proof.ReadP
import proofs.«172967_j79852031967736_2_alg».proof.Proof.Spec
import proofs.«172967_j79852031967736_2_alg».proof.Proof.RowLaws
import proofs.«172967_j79852031967736_2_alg».proof.Proof.Consts
import proofs.«172967_j79852031967736_2_alg».proof.Proof.RefA
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

/-! ## The state-space branch -/

/-- The projection whose three thirds are `B`, `C` and `dt`. -/
theorem v63_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (w : Cert.Spec.Wts) (h5 : ∀ k q, x5 (ix2 k q) = w.W_bcdt k q) (h6 : ∀ q, x6 (ix1 q) = w.b_bcdt q) (r : Fin 8192) (q : Fin 384) :
    val_main_v63 (F := Ideal) x0 x2 x5 x6 (ix2 r q) = Cert.Spec.bcdt w (Cert.Spec.Wh x0 x2 r) q := by
  rw [val_main_v63_apply, val_main_v60_apply, val_main_v62_apply, val_main_v61_apply,
    show idx_main_v61 (idx_main_v62 (ix2 r q)) = ix1 q from idx1_ext rfl, h6]
  unfold Cert.Spec.bcdt
  rw [lin_apply]
  refine congrArg (· + w.b_bcdt q) (Finset.sum_congr rfl fun k _ => ?_)
  rw [show lidx_main_v60 (ix2 r q) k = ix2 r k from idx2_ext rfl rfl,
    show ridx_main_v60 (ix2 r q) k = ix2 k q from idx2_ext rfl rfl, v0_apply', h5]

theorem v64_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (w : Cert.Spec.Wts) (h5 : ∀ k q, x5 (ix2 k q) = w.W_bcdt k q) (h6 : ∀ q, x6 (ix1 q) = w.b_bcdt q) (r : Fin 8192) (q : Fin 128) :
    val_main_v64 (F := Ideal) x0 x2 x5 x6 (ix2 r q) = Cert.Spec.Bq w (Cert.Spec.Wh x0 x2 r) q := by
  rw [val_main_v64_apply, show idx_main_v64 (ix2 r q) = ix2 r (⟨q.val, by omega⟩ : Fin 384) from idx2_ext rfl rfl,
    v63_apply' x0 x2 x5 x6 w h5 h6]
  rfl

theorem v65_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (w : Cert.Spec.Wts) (h5 : ∀ k q, x5 (ix2 k q) = w.W_bcdt k q) (h6 : ∀ q, x6 (ix1 q) = w.b_bcdt q) (r : Fin 8192) (q : Fin 128) :
    val_main_v65 (F := Ideal) x0 x2 x5 x6 (ix2 r q) = Cert.Spec.Cq w (Cert.Spec.Wh x0 x2 r) q := by
  rw [val_main_v65_apply, show idx_main_v65 (ix2 r q) = ix2 r (⟨128 + q.val, by omega⟩ : Fin 384) from idx2_ext rfl rfl,
    v63_apply' x0 x2 x5 x6 w h5 h6]
  rfl

theorem v66_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (w : Cert.Spec.Wts) (h5 : ∀ k q, x5 (ix2 k q) = w.W_bcdt k q) (h6 : ∀ q, x6 (ix1 q) = w.b_bcdt q) (r : Fin 8192) (q : Fin 128) :
    val_main_v66 (F := Ideal) x0 x2 x5 x6 (ix2 r q) = Cert.Spec.dtq w (Cert.Spec.Wh x0 x2 r) q := by
  rw [val_main_v66_apply, show idx_main_v66 (ix2 r q) = ix2 r (⟨256 + q.val, by omega⟩ : Fin 384) from idx2_ext rfl rfl,
    v63_apply' x0 x2 x5 x6 w h5 h6]
  rfl

/-- `dt + A`. -/
theorem v69_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h21 : ∀ q, x21 (ix1 q) = w.A q) (r : Fin 8192) (q : Fin 128) :
    val_main_v69 (F := Ideal) x0 x2 x5 x6 x21 (ix2 r q) = Cert.Spec.dtq w (Cert.Spec.Wh x0 x2 r) q + w.A q := by
  rw [val_main_v69_apply, val_main_v68_apply, val_main_v67_apply,
    show idx_main_v67 (idx_main_v68 (ix2 r q)) = ix1 q from idx1_ext rfl, h21, v66_apply' x0 x2 x5 x6 w h5 h6]
  rfl

/-- Its row maximum. -/
theorem v72_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h21 : ∀ q, x21 (ix1 q) = w.A q) (r : Fin 8192) :
    val_main_v72 (F := Ideal) x0 x2 x5 x6 x21 (ix1 r) = Cert.Spec.rowMax (fun k => Cert.Spec.dtq w (Cert.Spec.Wh x0 x2 r) k + w.A k) := by
  rw [val_main_v72_apply, val_main_v71_apply, val_main_cst_11_apply]
  unfold val_main_v70 Cert.Spec.rowMax
  rw [Host.reduce_eq_fold_single FloatOps.maximumf _ _ reducesTo_S8192x128_S8192_d1 (by decide) h_S_]
  have hf : (val_main_v69 (F := Ideal) x0 x2 x5 x6 x21 ∘ (show S8192x128.Reduces [1] S8192 by decide).lift (ix1 r))
      = fun k : Fin 128 => Cert.Spec.dtq w (Cert.Spec.Wh x0 x2 r) k + w.A k := funext fun k => by
    have e : (show S8192x128.Reduces [1] S8192 by decide).lift (ix1 r) k = ix2 r (⟨k.val, k.isLt⟩ : Fin 128) :=
      idx2_ext rfl rfl
    exact (congrArg (val_main_v69 (F := Ideal) x0 x2 x5 x6 x21) e).trans (v69_apply' x0 x2 x5 x6 x21 w h5 h6 h21 r ⟨k.val, k.isLt⟩)
  rw [hf]
  rfl

theorem v76_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h21 : ∀ q, x21 (ix1 q) = w.A q) (r : Fin 8192) (q : Fin 128) :
    val_main_v76 (F := Ideal) x0 x2 x5 x6 x21 (ix2 r q)
      = Ideal.exp (Cert.Spec.dtq w (Cert.Spec.Wh x0 x2 r) q + w.A q - Cert.Spec.rowMax (fun k => Cert.Spec.dtq w (Cert.Spec.Wh x0 x2 r) k + w.A k)) := by
  rw [val_main_v76_apply, val_main_v75_apply, val_main_v74_apply, val_main_v73_apply,
    show idx_main_v73 (idx_main_v74 (ix2 r q)) = ix1 r from idx1_ext rfl, v72_apply' x0 x2 x5 x6 x21 w h5 h6 h21,
    v69_apply' x0 x2 x5 x6 x21 w h5 h6 h21]
  rfl

theorem v77_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h21 : ∀ q, x21 (ix1 q) = w.A q) (r : Fin 8192) :
    val_main_v77 (F := Ideal) x0 x2 x5 x6 x21 (ix1 r)
      = ∑ k : Fin 128, Ideal.exp (Cert.Spec.dtq w (Cert.Spec.Wh x0 x2 r) k + w.A k - Cert.Spec.rowMax (fun k => Cert.Spec.dtq w (Cert.Spec.Wh x0 x2 r) k + w.A k)) := by
  rw [val_main_v77_apply, val_main_cst_12_apply]
  simp only [Ideal.ofBits_def, Cert.Consts.ofBits_zero, zero_add]
  refine Finset.sum_congr rfl fun k _ => ?_
  rw [show idx_main_v77 (ix1 r) k = ix2 r k from idx2_ext rfl rfl, v76_apply' x0 x2 x5 x6 x21 w h5 h6 h21]

/-- `softmax (dt + A)`. -/
theorem v80_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h21 : ∀ q, x21 (ix1 q) = w.A q) (r : Fin 8192) (q : Fin 128) :
    val_main_v80 (F := Ideal) x0 x2 x5 x6 x21 (ix2 r q) = Cert.Spec.softmax (fun k => Cert.Spec.dtq w (Cert.Spec.Wh x0 x2 r) k + w.A k) q := by
  rw [val_main_v80_apply, val_main_v79_apply, val_main_v78_apply,
    show idx_main_v78 (idx_main_v79 (ix2 r q)) = ix1 r from idx1_ext rfl, v77_apply' x0 x2 x5 x6 x21 w h5 h6 h21,
    v76_apply' x0 x2 x5 x6 x21 w h5 h6 h21]
  rfl

/-- `softmax (dt + A) · B`, projected. -/
theorem v85_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q) (h21 : ∀ q, x21 (ix1 q) = w.A q) (r : Fin 8192) (q : Fin 256) :
    val_main_v85 (F := Ideal) x0 x2 x5 x6 x7 x8 x21 (ix2 r q) = Cert.Spec.ab w (Cert.Spec.Wh x0 x2 r) q := by
  rw [val_main_v85_apply, val_main_v82_apply, val_main_v84_apply, val_main_v83_apply,
    show idx_main_v83 (idx_main_v84 (ix2 r q)) = ix1 q from idx1_ext rfl, h8]
  unfold Cert.Spec.ab
  rw [lin_apply]
  refine congrArg (· + w.abp_b q) (Finset.sum_congr rfl fun k _ => ?_)
  rw [show lidx_main_v82 (ix2 r q) k = ix2 r k from idx2_ext rfl rfl,
    show ridx_main_v82 (ix2 r q) k = ix2 k q from idx2_ext rfl rfl, val_main_v81_apply,
    v80_apply' x0 x2 x5 x6 x21 w h5 h6 h21, v64_apply' x0 x2 x5 x6 w h5 h6, h7]
  rfl

/-- The gated hidden projection. -/
theorem v90_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q) (h21 : ∀ q, x21 (ix1 q) = w.A q) (r : Fin 8192) (q : Fin 1024) :
    val_main_v90 (F := Ideal) x0 x2 x5 x6 x7 x8 x11 x12 x21 (ix2 r q) = Cert.Spec.hz w (Cert.Spec.Wh x0 x2 r) q := by
  rw [val_main_v90_apply, val_main_v87_apply, val_main_v89_apply, val_main_v88_apply,
    show idx_main_v88 (idx_main_v89 (ix2 r q)) = ix1 q from idx1_ext rfl, h12]
  unfold Cert.Spec.hz
  rw [lin_apply]
  refine congrArg (· + w.b_hz q) (Finset.sum_congr rfl fun k _ => ?_)
  rw [show lidx_main_v87 (ix2 r q) k = ix2 r k from idx2_ext rfl rfl,
    show ridx_main_v87 (ix2 r q) k = ix2 k q from idx2_ext rfl rfl, val_main_v86_apply, v0_apply',
    v85_apply' x0 x2 x5 x6 x7 x8 x21 w h5 h6 h7 h8 h21, h11]
  rfl

theorem v91_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q) (h21 : ∀ q, x21 (ix1 q) = w.A q) (r : Fin 8192) (q : Fin 512) :
    val_main_v91 (F := Ideal) x0 x2 x5 x6 x7 x8 x11 x12 x21 (ix2 r q) = Cert.Spec.hPart w (Cert.Spec.Wh x0 x2 r) q := by
  rw [val_main_v91_apply, show idx_main_v91 (ix2 r q) = ix2 r (⟨q.val, by omega⟩ : Fin 1024) from idx2_ext rfl rfl,
    v90_apply' x0 x2 x5 x6 x7 x8 x11 x12 x21 w h5 h6 h7 h8 h11 h12 h21]
  rfl

theorem v92_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q) (h21 : ∀ q, x21 (ix1 q) = w.A q) (r : Fin 8192) (q : Fin 512) :
    val_main_v92 (F := Ideal) x0 x2 x5 x6 x7 x8 x11 x12 x21 (ix2 r q) = Cert.Spec.zq w (Cert.Spec.Wh x0 x2 r) q := by
  rw [val_main_v92_apply, show idx_main_v92 (ix2 r q) = ix2 r (⟨512 + q.val, by omega⟩ : Fin 1024) from idx2_ext rfl rfl,
    v90_apply' x0 x2 x5 x6 x7 x8 x11 x12 x21 w h5 h6 h7 h8 h11 h12 h21]
  rfl

/-- The silu of `z`. -/
theorem v93_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x21 : (⟨S128, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q) (h21 : ∀ q, x21 (ix1 q) = w.A q) (r : Fin 8192) (q : Fin 512) :
    val_main_v93 (F := Ideal) x0 x2 x5 x6 x7 x8 x11 x12 x21 (ix2 r q)
      = Cert.Spec.zq w (Cert.Spec.Wh x0 x2 r) q * Ideal.logistic (Cert.Spec.zq w (Cert.Spec.Wh x0 x2 r) q) := by
  rw [val_main_v93_apply, val_main_call3_v5_apply, val_main_call3_v4_apply, val_main_call3_cst_0_apply,
    val_main_call3_v3_apply, val_main_call3_v2_apply, val_main_call3_cst_apply, val_main_call3_v1_apply,
    val_main_call3_v0_apply, v92_apply' x0 x2 x5 x6 x7 x8 x11 x12 x21 w h5 h6 h7 h8 h11 h12 h21]
  exact silu_spelled _

theorem v98_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x21 : (⟨S128, .f32⟩ : BufTy).Contents (Elt Ideal)) (x22 : (⟨S1, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q) (h21 : ∀ q, x21 (ix1 q) = w.A q) (h22 : x22 (ix1 0) = w.D) (r : Fin 8192) (q : Fin 512) :
    val_main_v98 (F := Ideal) x0 x2 x5 x6 x7 x8 x11 x12 x21 x22 (ix2 r q)
      = Cert.Spec.hPart w (Cert.Spec.Wh x0 x2 r) q * (Cert.Spec.zq w (Cert.Spec.Wh x0 x2 r) q * Ideal.logistic (Cert.Spec.zq w (Cert.Spec.Wh x0 x2 r) q))
        + Cert.Spec.hPart w (Cert.Spec.Wh x0 x2 r) q * w.D := by
  rw [val_main_v98_apply, val_main_v94_apply, val_main_v97_apply, val_main_v96_apply, val_main_v95_apply,
    show idx_main_v95 (idx_main_v96 (ix2 r q)) = ix1 0 from idx1_ext rfl, h22, v91_apply' x0 x2 x5 x6 x7 x8 x11 x12 x21 w h5 h6 h7 h8 h11 h12 h21,
    v93_apply' x0 x2 x5 x6 x7 x8 x11 x12 x21 w h5 h6 h7 h8 h11 h12 h21]
  rfl

theorem v102_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (w : Cert.Spec.Wts) (h5 : ∀ k q, x5 (ix2 k q) = w.W_bcdt k q) (h6 : ∀ q, x6 (ix1 q) = w.b_bcdt q) (h7 : ∀ k q, x7 (ix2 k q) = w.abp_w k q) (h8 : ∀ q, x8 (ix1 q) = w.abp_b q)
    (h11 : ∀ k q, x11 (ix2 k q) = w.W_hz k q) (h12 : ∀ q, x12 (ix1 q) = w.b_hz q)
    (h13 : ∀ k q, x13 (ix2 k q) = w.out_w k q) (h14 : ∀ q, x14 (ix1 q) = w.out_b q)
    (h21 : ∀ q, x21 (ix1 q) = w.A q) (h22 : x22 (ix1 0) = w.D) (r : Fin 8192) (q : Fin 256) :
    val_main_v102 (F := Ideal) x0 x2 x5 x6 x7 x8 x11 x12 x13 x14 x21 x22 (ix2 r q) = Cert.Spec.hs2 w (Cert.Spec.Wh x0 x2 r) q := by
  rw [val_main_v102_apply, val_main_v99_apply, val_main_v101_apply, val_main_v100_apply,
    show idx_main_v100 (idx_main_v101 (ix2 r q)) = ix1 q from idx1_ext rfl, h14]
  unfold Cert.Spec.hs2
  rw [lin_apply]
  refine congrArg (· + w.out_b q) (Finset.sum_congr rfl fun k _ => ?_)
  rw [show lidx_main_v99 (ix2 r q) k = ix2 r k from idx2_ext rfl rfl,
    show ridx_main_v99 (ix2 r q) k = ix2 k q from idx2_ext rfl rfl, v98_apply' x0 x2 x5 x6 x7 x8 x11 x12 x21 x22 w h5 h6 h7 h8 h11 h12 h21 h22, h13]

/-- The scalar projection of `C`. -/
theorem v106_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal)) (x9 : (⟨S128x1, .f32⟩ : BufTy).Contents (Elt Ideal)) (x10 : (⟨S1, .f32⟩ : BufTy).Contents (Elt Ideal)) (w : Cert.Spec.Wts) (h5 : ∀ k q, x5 (ix2 k q) = w.W_bcdt k q) (h6 : ∀ q, x6 (ix1 q) = w.b_bcdt q) (h9 : ∀ k, x9 (ix2 k 0) = w.cp_w k) (h10 : x10 (ix1 0) = w.cp_b) (r : Fin 8192) :
    val_main_v106 (F := Ideal) x0 x2 x5 x6 x9 x10 (ix2 r 0) = Cert.Spec.cProj w (Cert.Spec.Wh x0 x2 r) := by
  rw [val_main_v106_apply, val_main_v103_apply, val_main_v105_apply, val_main_v104_apply,
    show idx_main_v104 (idx_main_v105 (ix2 r 0)) = ix1 0 from idx1_ext rfl, h10]
  unfold Cert.Spec.cProj
  refine congrArg (· + w.cp_b) (Finset.sum_congr rfl fun k _ => ?_)
  rw [show lidx_main_v103 (ix2 r 0) k = ix2 r k from idx2_ext rfl rfl,
    show ridx_main_v103 (ix2 r 0) k = ix2 k 0 from idx2_ext rfl rfl, v65_apply' x0 x2 x5 x6 w h5 h6, h9]

theorem v110_apply' (x0 : (⟨S8192x256, .f32⟩ : BufTy).Contents (Elt Ideal)) (x2 : (⟨S256x256, .f32⟩ : BufTy).Contents (Elt Ideal)) (x5 : (⟨S256x384, .f32⟩ : BufTy).Contents (Elt Ideal)) (x6 : (⟨S384, .f32⟩ : BufTy).Contents (Elt Ideal))
    (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal))
    (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal))
    (x21 : (⟨S128, .f32⟩ : BufTy).Contents (Elt Ideal)) (x22 : (⟨S1, .f32⟩ : BufTy).Contents (Elt Ideal)) (w : Cert.Spec.Wts)
    (h5 : ∀ k q, x5 (ix2 k q) = w.W_bcdt k q) (h6 : ∀ q, x6 (ix1 q) = w.b_bcdt q)
    (h7 : ∀ k q, x7 (ix2 k q) = w.abp_w k q) (h8 : ∀ q, x8 (ix1 q) = w.abp_b q)
    (h9 : ∀ k, x9 (ix2 k 0) = w.cp_w k) (h10 : x10 (ix1 0) = w.cp_b)
    (h11 : ∀ k q, x11 (ix2 k q) = w.W_hz k q) (h12 : ∀ q, x12 (ix1 q) = w.b_hz q)
    (h13 : ∀ k q, x13 (ix2 k q) = w.out_w k q) (h14 : ∀ q, x14 (ix1 q) = w.out_b q)
    (h21 : ∀ q, x21 (ix1 q) = w.A q) (h22 : x22 (ix1 0) = w.D) (r : Fin 8192) (q : Fin 256) :
    val_main_v110 (F := Ideal) x0 x2 x5 x6 x7 x8 x9 x10 x11 x12 x13 x14 x21 x22 (ix2 r q)
      = Cert.Spec.hsFinal w (Cert.Spec.Wh x0 x2 r) q := by
  rw [val_main_v110_apply, val_main_v109_apply, val_main_v108_apply, val_main_v107_apply, val_main_cst_13_apply,
    show idx_main_v109 (ix2 r q) = ix2 r 0 from idx2_ext rfl rfl, v106_apply' x0 x2 x5 x6 x9 x10 w h5 h6 h9 h10,
    v102_apply' x0 x2 x5 x6 x7 x8 x11 x12 x13 x14 x21 x22 w h5 h6 h7 h8 h11 h12 h13 h14 h21 h22]
  rfl

end Cert.ReferenceIdeal.RefValue

end
-- ==== Proof.RefE.lean ====
/-
  The reference program's stages %111 to %180 read at one row: the concatenation of the attention
  row and the state-space row, the gate (linear layer, layer norm, silu, linear layer, sigmoid), the
  gated sum with the enhanced features, and the final layer norm. Given the three earlier results
  at the row, the last stage is the row specification's epilogue.

  The reference spells a layer norm as "centre, divide by the square root of variance plus
  epsilon" and a sigmoid as "one over one plus the exponential of the negation"; the first part
  turns both into the specification's forms. A variance over a positive real length is
  nonnegative, so with a positive epsilon the division by the square root is the scaling by the
  reciprocal square root at every extended real.
-/
import proofs.«172967_j79852031967736_2_alg».proof.Proof.ReadP
import proofs.«172967_j79852031967736_2_alg».proof.Proof.Spec
import proofs.«172967_j79852031967736_2_alg».proof.Proof.RowLaws
import proofs.«172967_j79852031967736_2_alg».proof.Proof.Consts
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue.E

open Idealize.ShloMosaic Idealize.ShloMosaic.ValueIdx Cert.ReferenceIdeal Cert.ReferenceIdeal.Read

/-- The variance of a row over a positive real length is nonnegative, so adding the epsilon word
    gives a positive extended real. -/
theorem var_eps_pos {n : ℕ} (N : EReal) (Nr : ℝ) (hN : N = (Nr : EReal)) (hNr : 0 < Nr) (x : Fin n → EReal) :
    0 < Cert.Spec.var N x + Cert.Spec.wEps := by
  refine Cert.RowLaws.add_pos_of_nonneg_of_pos ?_ Cert.Consts.eps_pos
  unfold Cert.Spec.var
  rw [hN]
  exact Cert.RowLaws.div_nonneg_of_pos (Cert.RowLaws.sum_mul_self_nonneg _ _) hNr

/-- Dividing the centred entry by the square root is scaling it by the reciprocal square root. -/
theorem div_sqrt_eq {n : ℕ} (N : EReal) (Nr : ℝ) (hN : N = (Nr : EReal)) (hNr : 0 < Nr) (x : Fin n → EReal) (a : EReal) :
    Ideal.div a (Ideal.sqrt (Cert.Spec.var N x + Cert.Spec.wEps))
      = a * Ideal.rsqrt (Cert.Spec.var N x + Cert.Spec.wEps) :=
  (Cert.RowLaws.mul_rsqrt_eq_div_sqrt a (var_eps_pos N Nr hN hNr x)).symm

/-- The reference's layer norm of a row, from its mean and variance stages, is the specification's. -/
theorem ln_ref {n : ℕ} (N : EReal) (Nr : ℝ) (hN : N = (Nr : EReal)) (hNr : 0 < Nr) (x g b : Fin n → EReal) (q : Fin n) :
    Ideal.div (x q - Cert.Spec.mean N x) (Ideal.sqrt (Cert.Spec.var N x + Cert.Spec.wEps)) * g q + b q
      = Cert.Spec.ln N x g b q := by
  rw [div_sqrt_eq N Nr hN hNr x]
  rfl

/-- One over one plus the exponential of the negation, spelled with the unit word, is the logistic. -/
theorem logistic_ref (x : EReal) :
    Ideal.div Cert.Spec.wOne (Cert.Spec.wOne + Ideal.exp (-x)) = Ideal.logistic x := by
  show Ideal.div (Ideal.ofBits .f32 0x3F800000#32) (Ideal.ofBits .f32 0x3F800000#32 + Ideal.exp (-x)) = _
  rw [Cert.Consts.ofBits_one]
  rfl

theorem w512_real : Cert.Spec.w512 = ((512 : ℝ) : EReal) := Cert.Consts.ofBits_512
theorem w256_real : Cert.Spec.w256 = ((256 : ℝ) : EReal) := Cert.Consts.ofBits_256

/-! ## The attention row and the state-space row side by side (stage %111) -/

theorem v111_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (r : Fin 8192) (ha hs : Fin 256 → EReal)
    (hA : ∀ c, val_main_v26 (F := Ideal) x0 x1 x2 x3 x4 (ix2 r c) = ha c) (hS : ∀ c, val_main_v110 (F := Ideal) x0 x2 x5 x6 x7 x8 x9 x10 x11 x12 x13 x14 x21 x22 (ix2 r c) = hs c) (q : Fin 512) :
    val_main_v111 (F := Ideal) x0 x1 x2 x3 x4 x5 x6 x7 x8 x9 x10 x11 x12 x13 x14 x21 x22 (ix2 r q) = if h : q.val < 256 then ha ⟨q.val, h⟩ else hs ⟨q.val - 256, by omega⟩ := by
  unfold val_main_v111
  by_cases h : q.val < 256
  · rw [dif_pos h]
    refine (concatenate_pair_apply_left (t := S8192x512) (s₁ := S8192x256) (s₂ := S8192x256) _ _ _ _ (ix2 r q) rfl (ix2 r (⟨q.val, h⟩ : Fin 256)) ?_).trans (hA _)
    intro b
    match b with
    | ⟨0, _⟩ => rfl
    | ⟨1, _⟩ => rfl
  · rw [dif_neg h]
    have hq := q.isLt
    refine (concatenate_pair_apply_right (t := S8192x512) (s₁ := S8192x256) (s₂ := S8192x256) _ _ _ _ (ix2 r q) rfl rfl (ix2 r (⟨q.val - 256, by omega⟩ : Fin 256)) ?_ ?_).trans (hS _)
    · intro b hb
      match b, hb with
      | ⟨0, _⟩, _ => rfl
      | ⟨1, _⟩, hb => exact absurd rfl hb
    · show q.val - 256 + 256 = q.val
      omega

/-! ## The gate's first linear layer (stages %112 to %115) -/

/-- A row of stage %111 times the matrix, plus the bias row. -/
theorem v115_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (w : Cert.Spec.Wts)
    (h23 : ∀ k q, x23 (ix2 k q) = w.g1_w k q) (h24 : ∀ q, x24 (ix1 q) = w.g1_b q)
    (r : Fin 8192) (x : Fin 512 → EReal) (hx : ∀ c, val_main_v111 (F := Ideal) x0 x1 x2 x3 x4 x5 x6 x7 x8 x9 x10 x11 x12 x13 x14 x21 x22 (ix2 r c) = x c) (q : Fin 512) :
    val_main_v115 (F := Ideal) x0 x1 x2 x3 x4 x5 x6 x7 x8 x9 x10 x11 x12 x13 x14 x21 x22 x23 x24 (ix2 r q) = Cert.Spec.lin x w.g1_w w.g1_b q := by
  rw [val_main_v115_apply, val_main_v112_apply, val_main_v114_apply, val_main_v113_apply]
  simp only [Ideal.addf_def]
  unfold Cert.Spec.lin
  congr 1
  · refine Finset.sum_congr rfl fun k _ => ?_
    have e1 : lidx_main_v112 (ix2 r q) k = ix2 r k := funext fun a => by match a with | ⟨0, _⟩ => rfl | ⟨1, _⟩ => rfl
    have e2 : ridx_main_v112 (ix2 r q) k = ix2 k q := funext fun a => by match a with | ⟨0, _⟩ => rfl | ⟨1, _⟩ => rfl
    rw [e1, e2, hx, h23]
  · have e : idx_main_v113 (idx_main_v114 (ix2 r q)) = ix1 q := funext fun a => by match a with | ⟨0, _⟩ => rfl
    rw [e, h24]

/-! ## The layer norm of stage %115 (stages %116 to %139) -/

/-- The mean stage. -/
theorem v119_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (r : Fin 8192) (x : Fin 512 → EReal) (hx : ∀ c, val_main_v115 (F := Ideal) x0 x1 x2 x3 x4 x5 x6 x7 x8 x9 x10 x11 x12 x13 x14 x21 x22 x23 x24 (ix2 r c) = x c) :
    val_main_v119 (F := Ideal) x0 x1 x2 x3 x4 x5 x6 x7 x8 x9 x10 x11 x12 x13 x14 x21 x22 x23 x24 (ix2 r (0 : Fin 1)) = Cert.Spec.mean Cert.Spec.w512 x := by
  rw [val_main_v119_apply, val_main_v117_apply, val_main_v116_apply, val_main_v118_apply, val_main_cst_15_apply, val_main_cst_14_apply]
  simp only [Ideal.hostDivf_def, Ideal.ofBits_def]
  rw [Cert.Consts.ofBits_zero, zero_add]
  unfold Cert.Spec.mean
  congr 1
  refine Finset.sum_congr rfl fun k _ => ?_
  have e : idx_main_v116 (idx_main_v117 (ix2 r (0 : Fin 1))) k = ix2 r k := funext fun a => by match a with | ⟨0, _⟩ => rfl | ⟨1, _⟩ => rfl
  rw [e, hx]

/-- The centred row. -/
theorem v121_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (r : Fin 8192) (x : Fin 512 → EReal) (hx : ∀ c, val_main_v115 (F := Ideal) x0 x1 x2 x3 x4 x5 x6 x7 x8 x9 x10 x11 x12 x13 x14 x21 x22 x23 x24 (ix2 r c) = x c) (q : Fin 512) :
    val_main_v121 (F := Ideal) x0 x1 x2 x3 x4 x5 x6 x7 x8 x9 x10 x11 x12 x13 x14 x21 x22 x23 x24 (ix2 r q) = x q - Cert.Spec.mean Cert.Spec.w512 x := by
  rw [val_main_v121_apply, val_main_v120_apply]
  have e : idx_main_v120 (ix2 r q) = ix2 r (0 : Fin 1) := funext fun a => by match a with | ⟨0, _⟩ => rfl | ⟨1, _⟩ => rfl
  rw [e, v119_row x0 x1 x2 x3 x4 x5 x6 x7 x8 x9 x10 x11 x12 x13 x14 x21 x22 x23 x24 x25 x26 r x hx, hx]
  simp only [Ideal.subf_def]

/-- The variance stage. -/
theorem v126_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (r : Fin 8192) (x : Fin 512 → EReal) (hx : ∀ c, val_main_v115 (F := Ideal) x0 x1 x2 x3 x4 x5 x6 x7 x8 x9 x10 x11 x12 x13 x14 x21 x22 x23 x24 (ix2 r c) = x c) :
    val_main_v126 (F := Ideal) x0 x1 x2 x3 x4 x5 x6 x7 x8 x9 x10 x11 x12 x13 x14 x21 x22 x23 x24 (ix2 r (0 : Fin 1)) = Cert.Spec.var Cert.Spec.w512 x := by
  rw [val_main_v126_apply, val_main_v124_apply, val_main_v123_apply, val_main_v125_apply, val_main_cst_17_apply, val_main_cst_16_apply]
  simp only [Ideal.hostDivf_def, Ideal.ofBits_def]
  rw [Cert.Consts.ofBits_zero, zero_add]
  unfold Cert.Spec.var
  congr 1
  refine Finset.sum_congr rfl fun k _ => ?_
  have e : idx_main_v123 (idx_main_v124 (ix2 r (0 : Fin 1))) k = ix2 r k := funext fun a => by match a with | ⟨0, _⟩ => rfl | ⟨1, _⟩ => rfl
  rw [e, val_main_v122_apply, v121_row x0 x1 x2 x3 x4 x5 x6 x7 x8 x9 x10 x11 x12 x13 x14 x21 x22 x23 x24 x25 x26 r x hx k]
  simp only [Ideal.mulf_def]

/-- The centred row over the square root of variance plus epsilon. -/
theorem v133_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (r : Fin 8192) (x : Fin 512 → EReal) (hx : ∀ c, val_main_v115 (F := Ideal) x0 x1 x2 x3 x4 x5 x6 x7 x8 x9 x10 x11 x12 x13 x14 x21 x22 x23 x24 (ix2 r c) = x c) (q : Fin 512) :
    val_main_v133 (F := Ideal) x0 x1 x2 x3 x4 x5 x6 x7 x8 x9 x10 x11 x12 x13 x14 x21 x22 x23 x24 (ix2 r q)
      = Ideal.div (x q - Cert.Spec.mean Cert.Spec.w512 x) (Ideal.sqrt (Cert.Spec.var Cert.Spec.w512 x + Cert.Spec.wEps)) := by
  rw [val_main_v133_apply, val_main_v128_apply, val_main_v127_apply, val_main_v132_apply, val_main_v131_apply, val_main_v130_apply, val_main_v129_apply, val_main_cst_18_apply]
  have e1 : idx_main_v127 (ix2 r q) = ix2 r (0 : Fin 1) := funext fun a => by match a with | ⟨0, _⟩ => rfl | ⟨1, _⟩ => rfl
  have e2 : idx_main_v132 (ix2 r q) = ix2 r (0 : Fin 1) := funext fun a => by match a with | ⟨0, _⟩ => rfl | ⟨1, _⟩ => rfl
  rw [e1, e2, v119_row x0 x1 x2 x3 x4 x5 x6 x7 x8 x9 x10 x11 x12 x13 x14 x21 x22 x23 x24 x25 x26 r x hx, v126_row x0 x1 x2 x3 x4 x5 x6 x7 x8 x9 x10 x11 x12 x13 x14 x21 x22 x23 x24 x25 x26 r x hx, hx]
  simp only [Ideal.hostDivf_def, Ideal.subf_def, Ideal.addf_def, Ideal.hostUnary_sqrt_def, Ideal.ofBits_def]

/-- The whole layer norm is the specification's. -/
theorem v139_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (w : Cert.Spec.Wts)
    (h25 : ∀ q, x25 (ix1 q) = w.g_ln_g q) (h26 : ∀ q, x26 (ix1 q) = w.g_ln_b q) (r : Fin 8192) (x : Fin 512 → EReal) (hx : ∀ c, val_main_v115 (F := Ideal) x0 x1 x2 x3 x4 x5 x6 x7 x8 x9 x10 x11 x12 x13 x14 x21 x22 x23 x24 (ix2 r c) = x c) (q : Fin 512) :
    val_main_v139 (F := Ideal) x0 x1 x2 x3 x4 x5 x6 x7 x8 x9 x10 x11 x12 x13 x14 x21 x22 x23 x24 x25 x26 (ix2 r q) = Cert.Spec.ln Cert.Spec.w512 x w.g_ln_g w.g_ln_b q := by
  rw [val_main_v139_apply, val_main_v136_apply, val_main_v135_apply, val_main_v134_apply, val_main_v138_apply, val_main_v137_apply, v133_row x0 x1 x2 x3 x4 x5 x6 x7 x8 x9 x10 x11 x12 x13 x14 x21 x22 x23 x24 x25 x26 r x hx q]
  have e1 : idx_main_v134 (idx_main_v135 (ix2 r q)) = ix1 q := funext fun a => by match a with | ⟨0, _⟩ => rfl
  have e2 : idx_main_v137 (idx_main_v138 (ix2 r q)) = ix1 q := funext fun a => by match a with | ⟨0, _⟩ => rfl
  rw [e1, e2, h25, h26]
  simp only [Ideal.mulf_def, Ideal.addf_def]
  exact ln_ref _ 512 w512_real (by norm_num) x _ _ q

/-! ## The silu (the outlined call, stage %140) -/

theorem v140_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (r : Fin 8192) (y : Fin 512 → EReal)
    (hy : ∀ c, val_main_v139 (F := Ideal) x0 x1 x2 x3 x4 x5 x6 x7 x8 x9 x10 x11 x12 x13 x14 x21 x22 x23 x24 x25 x26 (ix2 r c) = y c) (q : Fin 512) :
    val_main_v140 (F := Ideal) x0 x1 x2 x3 x4 x5 x6 x7 x8 x9 x10 x11 x12 x13 x14 x21 x22 x23 x24 x25 x26 (ix2 r q) = Cert.Spec.silu y q := by
  rw [val_main_v140_apply, val_main_call4_v5_apply, val_main_call4_v4_apply, val_main_call4_cst_0_apply, val_main_call4_v3_apply, val_main_call4_v2_apply, val_main_call4_cst_apply, val_main_call4_v1_apply, val_main_call4_v0_apply, hy]
  simp only [Ideal.mulf_def, Ideal.hostDivf_def, Ideal.addf_def, Ideal.hostUnary_exp_def, Ideal.hostNegf_def, Ideal.negf_def, Ideal.ofBits_def]
  unfold Cert.Spec.silu
  congr 1
  exact logistic_ref (y q)

/-! ## The gate's second linear layer (stages %141 to %144) -/

/-- A row of stage %140 times the matrix, plus the bias row. -/
theorem v144_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (w : Cert.Spec.Wts)
    (h27 : ∀ k q, x27 (ix2 k q) = w.g2_w k q) (h28 : ∀ q, x28 (ix1 q) = w.g2_b q)
    (r : Fin 8192) (x : Fin 512 → EReal) (hx : ∀ c, val_main_v140 (F := Ideal) x0 x1 x2 x3 x4 x5 x6 x7 x8 x9 x10 x11 x12 x13 x14 x21 x22 x23 x24 x25 x26 (ix2 r c) = x c) (q : Fin 256) :
    val_main_v144 (F := Ideal) x0 x1 x2 x3 x4 x5 x6 x7 x8 x9 x10 x11 x12 x13 x14 x21 x22 x23 x24 x25 x26 x27 x28 (ix2 r q) = Cert.Spec.lin x w.g2_w w.g2_b q := by
  rw [val_main_v144_apply, val_main_v141_apply, val_main_v143_apply, val_main_v142_apply]
  simp only [Ideal.addf_def]
  unfold Cert.Spec.lin
  congr 1
  · refine Finset.sum_congr rfl fun k _ => ?_
    have e1 : lidx_main_v141 (ix2 r q) k = ix2 r k := funext fun a => by match a with | ⟨0, _⟩ => rfl | ⟨1, _⟩ => rfl
    have e2 : ridx_main_v141 (ix2 r q) k = ix2 k q := funext fun a => by match a with | ⟨0, _⟩ => rfl | ⟨1, _⟩ => rfl
    rw [e1, e2, hx, h27]
  · have e : idx_main_v142 (idx_main_v143 (ix2 r q)) = ix1 q := funext fun a => by match a with | ⟨0, _⟩ => rfl
    rw [e, h28]

/-! ## The sigmoid (stages %145 to %150) -/

theorem v150_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (r : Fin 8192) (z : Fin 256 → EReal)
    (hz : ∀ c, val_main_v144 (F := Ideal) x0 x1 x2 x3 x4 x5 x6 x7 x8 x9 x10 x11 x12 x13 x14 x21 x22 x23 x24 x25 x26 x27 x28 (ix2 r c) = z c) (q : Fin 256) :
    val_main_v150 (F := Ideal) x0 x1 x2 x3 x4 x5 x6 x7 x8 x9 x10 x11 x12 x13 x14 x21 x22 x23 x24 x25 x26 x27 x28 (ix2 r q) = Ideal.logistic (z q) := by
  rw [val_main_v150_apply, val_main_v149_apply, val_main_cst_20_apply, val_main_v148_apply, val_main_v147_apply, val_main_cst_19_apply, val_main_v146_apply, val_main_v145_apply, hz]
  simp only [Ideal.hostDivf_def, Ideal.addf_def, Ideal.hostUnary_exp_def, Ideal.hostNegf_def, Ideal.negf_def, Ideal.ofBits_def]
  exact logistic_ref (z q)

/-! ## The gated sum (stages %151 to %156) -/

theorem v156_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (r : Fin 8192) (g ha hs he : Fin 256 → EReal)
    (hG : ∀ c, val_main_v150 (F := Ideal) x0 x1 x2 x3 x4 x5 x6 x7 x8 x9 x10 x11 x12 x13 x14 x21 x22 x23 x24 x25 x26 x27 x28 (ix2 r c) = g c) (hA : ∀ c, val_main_v26 (F := Ideal) x0 x1 x2 x3 x4 (ix2 r c) = ha c)
    (hS : ∀ c, val_main_v110 (F := Ideal) x0 x2 x5 x6 x7 x8 x9 x10 x11 x12 x13 x14 x21 x22 (ix2 r c) = hs c) (hE : ∀ c, val_main_v59 (F := Ideal) x0 x2 x15 x16 x17 x18 x19 x20 (ix2 r c) = he c) (q : Fin 256) :
    val_main_v156 (F := Ideal) x0 x1 x2 x3 x4 x5 x6 x7 x8 x9 x10 x11 x12 x13 x14 x15 x16 x17 x18 x19 x20 x21 x22 x23 x24 x25 x26 x27 x28 (ix2 r q) = g q * ha q + (Cert.Spec.wOne - g q) * hs q + he q := by
  rw [val_main_v156_apply, val_main_v155_apply, val_main_v151_apply, val_main_v154_apply, val_main_v153_apply, val_main_v152_apply, val_main_cst_21_apply, hG, hA, hS, hE]
  simp only [Ideal.addf_def, Ideal.mulf_def, Ideal.subf_def, Ideal.ofBits_def]

/-! ## The layer norm of stage %156 (stages %157 to %180) -/

/-- The mean stage. -/
theorem v160_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (r : Fin 8192) (x : Fin 256 → EReal) (hx : ∀ c, val_main_v156 (F := Ideal) x0 x1 x2 x3 x4 x5 x6 x7 x8 x9 x10 x11 x12 x13 x14 x15 x16 x17 x18 x19 x20 x21 x22 x23 x24 x25 x26 x27 x28 (ix2 r c) = x c) :
    val_main_v160 (F := Ideal) x0 x1 x2 x3 x4 x5 x6 x7 x8 x9 x10 x11 x12 x13 x14 x15 x16 x17 x18 x19 x20 x21 x22 x23 x24 x25 x26 x27 x28 (ix2 r (0 : Fin 1)) = Cert.Spec.mean Cert.Spec.w256 x := by
  rw [val_main_v160_apply, val_main_v158_apply, val_main_v157_apply, val_main_v159_apply, val_main_cst_23_apply, val_main_cst_22_apply]
  simp only [Ideal.hostDivf_def, Ideal.ofBits_def]
  rw [Cert.Consts.ofBits_zero, zero_add]
  unfold Cert.Spec.mean
  congr 1
  refine Finset.sum_congr rfl fun k _ => ?_
  have e : idx_main_v157 (idx_main_v158 (ix2 r (0 : Fin 1))) k = ix2 r k := funext fun a => by match a with | ⟨0, _⟩ => rfl | ⟨1, _⟩ => rfl
  rw [e, hx]

/-- The centred row. -/
theorem v162_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (r : Fin 8192) (x : Fin 256 → EReal) (hx : ∀ c, val_main_v156 (F := Ideal) x0 x1 x2 x3 x4 x5 x6 x7 x8 x9 x10 x11 x12 x13 x14 x15 x16 x17 x18 x19 x20 x21 x22 x23 x24 x25 x26 x27 x28 (ix2 r c) = x c) (q : Fin 256) :
    val_main_v162 (F := Ideal) x0 x1 x2 x3 x4 x5 x6 x7 x8 x9 x10 x11 x12 x13 x14 x15 x16 x17 x18 x19 x20 x21 x22 x23 x24 x25 x26 x27 x28 (ix2 r q) = x q - Cert.Spec.mean Cert.Spec.w256 x := by
  rw [val_main_v162_apply, val_main_v161_apply]
  have e : idx_main_v161 (ix2 r q) = ix2 r (0 : Fin 1) := funext fun a => by match a with | ⟨0, _⟩ => rfl | ⟨1, _⟩ => rfl
  rw [e, v160_row x0 x1 x2 x3 x4 x5 x6 x7 x8 x9 x10 x11 x12 x13 x14 x15 x16 x17 x18 x19 x20 x21 x22 x23 x24 x25 x26 x27 x28 x29 x30 r x hx, hx]
  simp only [Ideal.subf_def]

/-- The variance stage. -/
theorem v167_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (r : Fin 8192) (x : Fin 256 → EReal) (hx : ∀ c, val_main_v156 (F := Ideal) x0 x1 x2 x3 x4 x5 x6 x7 x8 x9 x10 x11 x12 x13 x14 x15 x16 x17 x18 x19 x20 x21 x22 x23 x24 x25 x26 x27 x28 (ix2 r c) = x c) :
    val_main_v167 (F := Ideal) x0 x1 x2 x3 x4 x5 x6 x7 x8 x9 x10 x11 x12 x13 x14 x15 x16 x17 x18 x19 x20 x21 x22 x23 x24 x25 x26 x27 x28 (ix2 r (0 : Fin 1)) = Cert.Spec.var Cert.Spec.w256 x := by
  rw [val_main_v167_apply, val_main_v165_apply, val_main_v164_apply, val_main_v166_apply, val_main_cst_25_apply, val_main_cst_24_apply]
  simp only [Ideal.hostDivf_def, Ideal.ofBits_def]
  rw [Cert.Consts.ofBits_zero, zero_add]
  unfold Cert.Spec.var
  congr 1
  refine Finset.sum_congr rfl fun k _ => ?_
  have e : idx_main_v164 (idx_main_v165 (ix2 r (0 : Fin 1))) k = ix2 r k := funext fun a => by match a with | ⟨0, _⟩ => rfl | ⟨1, _⟩ => rfl
  rw [e, val_main_v163_apply, v162_row x0 x1 x2 x3 x4 x5 x6 x7 x8 x9 x10 x11 x12 x13 x14 x15 x16 x17 x18 x19 x20 x21 x22 x23 x24 x25 x26 x27 x28 x29 x30 r x hx k]
  simp only [Ideal.mulf_def]

/-- The centred row over the square root of variance plus epsilon. -/
theorem v174_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (r : Fin 8192) (x : Fin 256 → EReal) (hx : ∀ c, val_main_v156 (F := Ideal) x0 x1 x2 x3 x4 x5 x6 x7 x8 x9 x10 x11 x12 x13 x14 x15 x16 x17 x18 x19 x20 x21 x22 x23 x24 x25 x26 x27 x28 (ix2 r c) = x c) (q : Fin 256) :
    val_main_v174 (F := Ideal) x0 x1 x2 x3 x4 x5 x6 x7 x8 x9 x10 x11 x12 x13 x14 x15 x16 x17 x18 x19 x20 x21 x22 x23 x24 x25 x26 x27 x28 (ix2 r q)
      = Ideal.div (x q - Cert.Spec.mean Cert.Spec.w256 x) (Ideal.sqrt (Cert.Spec.var Cert.Spec.w256 x + Cert.Spec.wEps)) := by
  rw [val_main_v174_apply, val_main_v169_apply, val_main_v168_apply, val_main_v173_apply, val_main_v172_apply, val_main_v171_apply, val_main_v170_apply, val_main_cst_26_apply]
  have e1 : idx_main_v168 (ix2 r q) = ix2 r (0 : Fin 1) := funext fun a => by match a with | ⟨0, _⟩ => rfl | ⟨1, _⟩ => rfl
  have e2 : idx_main_v173 (ix2 r q) = ix2 r (0 : Fin 1) := funext fun a => by match a with | ⟨0, _⟩ => rfl | ⟨1, _⟩ => rfl
  rw [e1, e2, v160_row x0 x1 x2 x3 x4 x5 x6 x7 x8 x9 x10 x11 x12 x13 x14 x15 x16 x17 x18 x19 x20 x21 x22 x23 x24 x25 x26 x27 x28 x29 x30 r x hx, v167_row x0 x1 x2 x3 x4 x5 x6 x7 x8 x9 x10 x11 x12 x13 x14 x15 x16 x17 x18 x19 x20 x21 x22 x23 x24 x25 x26 x27 x28 x29 x30 r x hx, hx]
  simp only [Ideal.hostDivf_def, Ideal.subf_def, Ideal.addf_def, Ideal.hostUnary_sqrt_def, Ideal.ofBits_def]

/-- The whole layer norm is the specification's. -/
theorem v180_row (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (w : Cert.Spec.Wts)
    (h29 : ∀ q, x29 (ix1 q) = w.ln_g q) (h30 : ∀ q, x30 (ix1 q) = w.ln_b q) (r : Fin 8192) (x : Fin 256 → EReal) (hx : ∀ c, val_main_v156 (F := Ideal) x0 x1 x2 x3 x4 x5 x6 x7 x8 x9 x10 x11 x12 x13 x14 x15 x16 x17 x18 x19 x20 x21 x22 x23 x24 x25 x26 x27 x28 (ix2 r c) = x c) (q : Fin 256) :
    val_main_v180 (F := Ideal) x0 x1 x2 x3 x4 x5 x6 x7 x8 x9 x10 x11 x12 x13 x14 x15 x16 x17 x18 x19 x20 x21 x22 x23 x24 x25 x26 x27 x28 x29 x30 (ix2 r q) = Cert.Spec.ln Cert.Spec.w256 x w.ln_g w.ln_b q := by
  rw [val_main_v180_apply, val_main_v177_apply, val_main_v176_apply, val_main_v175_apply, val_main_v179_apply, val_main_v178_apply, v174_row x0 x1 x2 x3 x4 x5 x6 x7 x8 x9 x10 x11 x12 x13 x14 x15 x16 x17 x18 x19 x20 x21 x22 x23 x24 x25 x26 x27 x28 x29 x30 r x hx q]
  have e1 : idx_main_v175 (idx_main_v176 (ix2 r q)) = ix1 q := funext fun a => by match a with | ⟨0, _⟩ => rfl
  have e2 : idx_main_v178 (idx_main_v179 (ix2 r q)) = ix1 q := funext fun a => by match a with | ⟨0, _⟩ => rfl
  rw [e1, e2, h29, h30]
  simp only [Ideal.mulf_def, Ideal.addf_def]
  exact ln_ref _ 256 w256_real (by norm_num) x _ _ q

end Cert.ReferenceIdeal.RefValue.E

namespace Cert.ReferenceIdeal.RefValue

open Idealize.ShloMosaic Idealize.ShloMosaic.ValueIdx Cert.ReferenceIdeal Cert.ReferenceIdeal.Read
open Cert.ReferenceIdeal.RefValue.E

/-! ## The reference's last stage at a row is the specification's epilogue -/

theorem v180_apply' (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) (w : Cert.Spec.Wts)
    (h23 : ∀ k q, x23 (ix2 k q) = w.g1_w k q) (h24 : ∀ q, x24 (ix1 q) = w.g1_b q) (h25 : ∀ q, x25 (ix1 q) = w.g_ln_g q) (h26 : ∀ q, x26 (ix1 q) = w.g_ln_b q) (h27 : ∀ k q, x27 (ix2 k q) = w.g2_w k q) (h28 : ∀ q, x28 (ix1 q) = w.g2_b q) (h29 : ∀ q, x29 (ix1 q) = w.ln_g q) (h30 : ∀ q, x30 (ix1 q) = w.ln_b q)
    (r : Fin 8192) (wh ha : Fin 256 → EReal)
    (hA : ∀ c, val_main_v26 (F := Ideal) x0 x1 x2 x3 x4 (ix2 r c) = ha c)
    (hE : ∀ c, val_main_v59 (F := Ideal) x0 x2 x15 x16 x17 x18 x19 x20 (ix2 r c) = Cert.Spec.hEnh w wh c)
    (hS : ∀ c, val_main_v110 (F := Ideal) x0 x2 x5 x6 x7 x8 x9 x10 x11 x12 x13 x14 x21 x22 (ix2 r c) = Cert.Spec.hsFinal w wh c)
    (q : Fin 256) :
    val_main_v180 (F := Ideal) x0 x1 x2 x3 x4 x5 x6 x7 x8 x9 x10 x11 x12 x13 x14 x15 x16 x17 x18 x19 x20 x21 x22 x23 x24 x25 x26 x27 x28 x29 x30 (ix2 r q) = Cert.Spec.epi w wh ha q := by
  have h111 : ∀ c, val_main_v111 (F := Ideal) x0 x1 x2 x3 x4 x5 x6 x7 x8 x9 x10 x11 x12 x13 x14 x21 x22 (ix2 r c) = Cert.Spec.comb w wh ha c :=
    E.v111_row x0 x1 x2 x3 x4 x5 x6 x7 x8 x9 x10 x11 x12 x13 x14 x21 x22 r ha (Cert.Spec.hsFinal w wh) hA hS
  have h115 := E.v115_row x0 x1 x2 x3 x4 x5 x6 x7 x8 x9 x10 x11 x12 x13 x14 x21 x22 x23 x24 w h23 h24 r _ h111
  have h139 := E.v139_row x0 x1 x2 x3 x4 x5 x6 x7 x8 x9 x10 x11 x12 x13 x14 x21 x22 x23 x24 x25 x26 w h25 h26 r _ h115
  have h140 := E.v140_row x0 x1 x2 x3 x4 x5 x6 x7 x8 x9 x10 x11 x12 x13 x14 x21 x22 x23 x24 x25 x26 r _ h139
  have h144 := E.v144_row x0 x1 x2 x3 x4 x5 x6 x7 x8 x9 x10 x11 x12 x13 x14 x21 x22 x23 x24 x25 x26 x27 x28 w h27 h28 r _ h140
  have h150 : ∀ c, val_main_v150 (F := Ideal) x0 x1 x2 x3 x4 x5 x6 x7 x8 x9 x10 x11 x12 x13 x14 x21 x22 x23 x24 x25 x26 x27 x28 (ix2 r c) = Cert.Spec.gate w wh ha c :=
    E.v150_row x0 x1 x2 x3 x4 x5 x6 x7 x8 x9 x10 x11 x12 x13 x14 x21 x22 x23 x24 x25 x26 x27 x28 r _ h144
  have h156 : ∀ c, val_main_v156 (F := Ideal) x0 x1 x2 x3 x4 x5 x6 x7 x8 x9 x10 x11 x12 x13 x14 x15 x16 x17 x18 x19 x20 x21 x22 x23 x24 x25 x26 x27 x28 (ix2 r c) = Cert.Spec.fused w wh ha c :=
    E.v156_row x0 x1 x2 x3 x4 x5 x6 x7 x8 x9 x10 x11 x12 x13 x14 x15 x16 x17 x18 x19 x20 x21 x22 x23 x24 x25 x26 x27 x28 r _ ha _ _ h150 hA hS hE
  exact E.v180_row x0 x1 x2 x3 x4 x5 x6 x7 x8 x9 x10 x11 x12 x13 x14 x15 x16 x17 x18 x19 x20 x21 x22 x23 x24 x25 x26 x27 x28 x29 x30 w h29 h30 r _ h156 q

end Cert.ReferenceIdeal.RefValue

end
-- ==== Proof.RValue.lean ====
/-
  The reference's result array as the row specification.
  Entry `(r, q)` of the result is entry `q` of output row `r`: the epilogue of row `r` of `Wh = h · W` and of
  row `r` of the attention output, under the weights read off the arguments.
-/
import proofs.«172967_j79852031967736_2_alg».proof.Proof.ReadP
import proofs.«172967_j79852031967736_2_alg».proof.Proof.SpecArgs
import proofs.«172967_j79852031967736_2_alg».proof.Proof.RefA
import proofs.«172967_j79852031967736_2_alg».proof.Proof.RefB
import proofs.«172967_j79852031967736_2_alg».proof.Proof.RefC
import proofs.«172967_j79852031967736_2_alg».proof.Proof.RefE

noncomputable section

namespace Cert.ReferenceIdeal.RefValue

open Idealize.ShloMosaic Idealize.ShloMosaic.ValueIdx Idealize.ShloMosaic.TcCoe Idealize.SL.Sem Cert.ReferenceIdeal Cert.ReferenceIdeal.Gen Cert.ReferenceIdeal.Read

/-- The reference's result array is the row specification: entry `(r, q)` is entry `q` of output row `r`,
    the weights read off the arguments. -/
theorem v180_eq (x0 : (⟨S8192x256, .f32⟩ : BufTy).Contents (Elt Ideal)) (x1 : (⟨S8192x8192, .i32⟩ : BufTy).Contents (Elt Ideal)) (x2 : (⟨S256x256, .f32⟩ : BufTy).Contents (Elt Ideal)) (x3 : (⟨S256x1, .f32⟩ : BufTy).Contents (Elt Ideal)) (x4 : (⟨S256x1, .f32⟩ : BufTy).Contents (Elt Ideal)) (x5 : (⟨S256x384, .f32⟩ : BufTy).Contents (Elt Ideal)) (x6 : (⟨S384, .f32⟩ : BufTy).Contents (Elt Ideal)) (x7 : (⟨S128x256, .f32⟩ : BufTy).Contents (Elt Ideal)) (x8 : (⟨S256, .f32⟩ : BufTy).Contents (Elt Ideal)) (x9 : (⟨S128x1, .f32⟩ : BufTy).Contents (Elt Ideal)) (x10 : (⟨S1, .f32⟩ : BufTy).Contents (Elt Ideal)) (x11 : (⟨S256x1024, .f32⟩ : BufTy).Contents (Elt Ideal)) (x12 : (⟨S1024, .f32⟩ : BufTy).Contents (Elt Ideal)) (x13 : (⟨S512x256, .f32⟩ : BufTy).Contents (Elt Ideal)) (x14 : (⟨S256, .f32⟩ : BufTy).Contents (Elt Ideal)) (x15 : (⟨S256x512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x256, .f32⟩ : BufTy).Contents (Elt Ideal)) (x20 : (⟨S256, .f32⟩ : BufTy).Contents (Elt Ideal)) (x21 : (⟨S128, .f32⟩ : BufTy).Contents (Elt Ideal)) (x22 : (⟨S1, .f32⟩ : BufTy).Contents (Elt Ideal)) (x23 : (⟨S512x512, .f32⟩ : BufTy).Contents (Elt Ideal)) (x24 : (⟨S512, .f32⟩ : BufTy).Contents (Elt Ideal)) (x25 : (⟨S512, .f32⟩ : BufTy).Contents (Elt Ideal)) (x26 : (⟨S512, .f32⟩ : BufTy).Contents (Elt Ideal)) (x27 : (⟨S512x256, .f32⟩ : BufTy).Contents (Elt Ideal)) (x28 : (⟨S256, .f32⟩ : BufTy).Contents (Elt Ideal)) (x29 : (⟨S256, .f32⟩ : BufTy).Contents (Elt Ideal)) (x30 : (⟨S256, .f32⟩ : BufTy).Contents (Elt Ideal)) :
    val_main_v180 (F := Ideal) x0 x1 x2 x3 x4 x5 x6 x7 x8 x9 x10 x11 x12 x13 x14 x15 x16 x17 x18 x19 x20 x21 x22 x23 x24 x25 x26 x27 x28 x29 x30 =
      fun i => Cert.Spec.outRow x0 x1 x2 x3 x4 (Cert.Spec.wtsOf x5 x6 x7 x8 x9 x10 x11 x12 x13 x14 x15 x16 x17 x18 x19 x20 x21 x22 x23 x24 x25 x26 x27 x28 x29 x30) (i 0) (i 1) := by
  funext i
  obtain ⟨r, q, rfl⟩ : ∃ r q, i = ix2 r q := ⟨_, _, eq_ix2 i⟩
  exact v180_apply' x0 x1 x2 x3 x4 x5 x6 x7 x8 x9 x10 x11 x12 x13 x14 x15 x16 x17 x18 x19 x20 x21 x22 x23 x24 x25 x26 x27 x28 x29 x30 (Cert.Spec.wtsOf x5 x6 x7 x8 x9 x10 x11 x12 x13 x14 x15 x16 x17 x18 x19 x20 x21 x22 x23 x24 x25 x26 x27 x28 x29 x30)
    (fun _ _ => rfl) (fun _ => rfl) (fun _ => rfl) (fun _ => rfl) (fun _ _ => rfl) (fun _ => rfl) (fun _ => rfl) (fun _ => rfl) r (Cert.Spec.Wh x0 x2 r)
    (fun c => Cert.Spec.attn (Cert.Spec.logits x0 x1 x2 x3 x4 r) (fun k => Cert.Spec.Wh x0 x2 k c))
    (fun c => v26_apply' x0 x1 x2 x3 x4 r c)
    (fun c => v59_apply' x0 x2 x15 x16 x17 x18 x19 x20 (Cert.Spec.wtsOf x5 x6 x7 x8 x9 x10 x11 x12 x13 x14 x15 x16 x17 x18 x19 x20 x21 x22 x23 x24 x25 x26 x27 x28 x29 x30) (fun _ _ => rfl) (fun _ => rfl) (fun _ => rfl) (fun _ => rfl) (fun _ _ => rfl) (fun _ => rfl) r c)
    (fun c => v110_apply' x0 x2 x5 x6 x7 x8 x9 x10 x11 x12 x13 x14 x21 x22 (Cert.Spec.wtsOf x5 x6 x7 x8 x9 x10 x11 x12 x13 x14 x15 x16 x17 x18 x19 x20 x21 x22 x23 x24 x25 x26 x27 x28 x29 x30) (fun _ _ => rfl) (fun _ => rfl) (fun _ _ => rfl) (fun _ => rfl) (fun _ => rfl) rfl (fun _ _ => rfl) (fun _ => rfl) (fun _ _ => rfl) (fun _ => rfl) (fun _ => rfl) rfl r c)
    q

end Cert.ReferenceIdeal.RefValue

end
-- ==== Proof.RunAll.lean ====
/-
  The reference's run with its result named: every weakly fair execution terminates with the
  result array at the row specification of the arguments, and the arguments unchanged.

  The result after the five pieces is read back piece by piece: each piece leaves its last stage
  at the stage function of the arguments, given that the earlier pieces left theirs, and no piece
  writes an argument or an earlier piece's result.
-/
import proofs.«172967_j79852031967736_2_alg».proof.Proof.RunSeq
import proofs.«172967_j79852031967736_2_alg».proof.Proof.RunVal1
import proofs.«172967_j79852031967736_2_alg».proof.Proof.RunVal2
import proofs.«172967_j79852031967736_2_alg».proof.Proof.RunVal3
import proofs.«172967_j79852031967736_2_alg».proof.Proof.RunVal4
import proofs.«172967_j79852031967736_2_alg».proof.Proof.RunVal5
import proofs.«172967_j79852031967736_2_alg».proof.Proof.RValue

noncomputable section

namespace Cert.ReferenceIdeal.RefValue

open Cert.ReferenceIdeal Cert.ReferenceIdeal.Gen Cert.ReferenceIdeal.RunOps Cert.ReferenceIdeal.HandRun Cert.ReferenceIdeal.Read
open Idealize.ShloMosaic Idealize.ShloMosaic.TcCoe Idealize.SL.Sem Idealize.ShloMosaic.StableHlo

variable (V : Valuation τ sig (Elt Ideal))

/-- A buffer none of the first pieces writes keeps its launch contents through them. -/
theorem at1 (r : Ref sig .tc) (h1 : r ∉ W1) : after ops1 V (Proc.devRef .tc r) = V (Proc.devRef .tc r) := keep1 V r h1
theorem at2 (r : Ref sig .tc) (h1 : r ∉ W1) (h2 : r ∉ W2) :
    after ops2 (after ops1 V) (Proc.devRef .tc r) = V (Proc.devRef .tc r) := (keep2 _ r h2).trans (at1 V r h1)
theorem at3 (r : Ref sig .tc) (h1 : r ∉ W1) (h2 : r ∉ W2) (h3 : r ∉ W3) :
    after ops3 (after ops2 (after ops1 V)) (Proc.devRef .tc r) = V (Proc.devRef .tc r) := (keep3 _ r h3).trans (at2 V r h1 h2)
theorem at4 (r : Ref sig .tc) (h1 : r ∉ W1) (h2 : r ∉ W2) (h3 : r ∉ W3) (h4 : r ∉ W4) :
    after ops4 (after ops3 (after ops2 (after ops1 V))) (Proc.devRef .tc r) = V (Proc.devRef .tc r) :=
  (keep4 _ r h4).trans (at3 V r h1 h2 h3)
theorem at5 (r : Ref sig .tc) (h1 : r ∉ W1) (h2 : r ∉ W2) (h3 : r ∉ W3) (h4 : r ∉ W4) (h5 : r ∉ W5) :
    after ops5 (after ops4 (after ops3 (after ops2 (after ops1 V)))) (Proc.devRef .tc r) = V (Proc.devRef .tc r) :=
  (keep5 _ r h5).trans (at4 V r h1 h2 h3 h4)

/-- The result buffer after the five pieces is the last stage function of the launch contents of the arguments. -/
theorem v180_after :
    after ops5 (after ops4 (after ops3 (after ops2 (after ops1 V)))) (Proc.devRef .tc main_v180)
      = val_main_v180 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28)) (V (Proc.devRef .tc main_arg29)) (V (Proc.devRef .tc main_arg30)) := by
  have hv0_1 := c1_v0 V
  have h26_1 := c1_v26 V
  have hv0_2 : after ops2 (after ops1 V) (Proc.devRef .tc main_v0) = _ := (keep2 _ main_v0 (by decide)).trans hv0_1
  have h26_4 : after ops4 (after ops3 (after ops2 (after ops1 V))) (Proc.devRef .tc main_v26) = _ :=
    (keep4 _ main_v26 (by decide)).trans ((keep3 _ main_v26 (by decide)).trans ((keep2 _ main_v26 (by decide)).trans h26_1))
  have h26_3 : after ops3 (after ops2 (after ops1 V)) (Proc.devRef .tc main_v26) = _ :=
    (keep3 _ main_v26 (by decide)).trans ((keep2 _ main_v26 (by decide)).trans h26_1)
  have h59_2 := c2_v59 (after ops1 V) _ _ _ _ _ _ _ _ hv0_1
    (at1 V main_arg15 (by decide)) (at1 V main_arg16 (by decide)) (at1 V main_arg17 (by decide))
    (at1 V main_arg18 (by decide)) (at1 V main_arg19 (by decide)) (at1 V main_arg20 (by decide))
  have h59_4 : after ops4 (after ops3 (after ops2 (after ops1 V))) (Proc.devRef .tc main_v59) = _ :=
    (keep4 _ main_v59 (by decide)).trans ((keep3 _ main_v59 (by decide)).trans h59_2)
  have h110_3 := c3_v110 (after ops2 (after ops1 V)) _ _ _ _ _ _ _ _ _ _ _ _ _ _ hv0_2
    (at2 V main_arg5 (by decide) (by decide)) (at2 V main_arg6 (by decide) (by decide)) (at2 V main_arg7 (by decide) (by decide))
    (at2 V main_arg8 (by decide) (by decide)) (at2 V main_arg9 (by decide) (by decide)) (at2 V main_arg10 (by decide) (by decide))
    (at2 V main_arg11 (by decide) (by decide)) (at2 V main_arg12 (by decide) (by decide)) (at2 V main_arg13 (by decide) (by decide))
    (at2 V main_arg14 (by decide) (by decide)) (at2 V main_arg21 (by decide) (by decide)) (at2 V main_arg22 (by decide) (by decide))
  have h110_4 : after ops4 (after ops3 (after ops2 (after ops1 V))) (Proc.devRef .tc main_v110) = _ :=
    (keep4 _ main_v110 (by decide)).trans h110_3
  have h144_4 := c4_v144 (after ops3 (after ops2 (after ops1 V))) _ _ _ _ _ _ _ _ _ _ _ _ _ _ _ _ _ _ _ _ _ _ _ h26_3 h110_3
    (at3 V main_arg23 (by decide) (by decide) (by decide)) (at3 V main_arg24 (by decide) (by decide) (by decide)) (at3 V main_arg25 (by decide) (by decide) (by decide))
    (at3 V main_arg26 (by decide) (by decide) (by decide)) (at3 V main_arg27 (by decide) (by decide) (by decide)) (at3 V main_arg28 (by decide) (by decide) (by decide))
  exact c5_v180 (after ops4 (after ops3 (after ops2 (after ops1 V)))) _ _ _ _ _ _ _ _ _ _ _ _ _ _ _ _ _ _ _ _ _ _ _ _ _ _ _ _ _ _ _ h144_4 h26_4 h110_4 h59_4
    (at4 V main_arg29 (by decide) (by decide) (by decide) (by decide)) (at4 V main_arg30 (by decide) (by decide) (by decide) (by decide))

variable (m : (ℓ : Loc nD τ sig) → Buf (Elt Ideal) ℓ) (ρ : Dev nD → PrngReg)

/-- The reference's run: the result array is `Spec.outRow` of the arguments, row by row, and the arguments are unchanged. -/
theorem run :
    θ_run defs (onTc (τ := τ) (main (F := Ideal))) ⟨m, fun _ => 0, ρ⟩ fun r => ∀ c : Dev nD,
      r.2.mem ((c.tc : Thread nD τ).loc main_v180)
          = (fun i => Cert.Spec.outRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (Cert.Spec.wtsOf (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun r h c => ⟨((h c main_v180).trans (v180_after (launchContents m c))).trans (v180_eq _ _ _ _ _ _ _ _ _ _ _ _ _ _ _ _ _ _ _ _ _ _ _ _ _ _ _ _ _ _ _),
      (h c main_arg0).trans (at5 (launchContents m c) main_arg0 (by decide) (by decide) (by decide) (by decide) (by decide)),
      (h c main_arg1).trans (at5 (launchContents m c) main_arg1 (by decide) (by decide) (by decide) (by decide) (by decide)),
      (h c main_arg2).trans (at5 (launchContents m c) main_arg2 (by decide) (by decide) (by decide) (by decide) (by decide)),
      (h c main_arg3).trans (at5 (launchContents m c) main_arg3 (by decide) (by decide) (by decide) (by decide) (by decide)),
      (h c main_arg4).trans (at5 (launchContents m c) main_arg4 (by decide) (by decide) (by decide) (by decide) (by decide)),
      (h c main_arg5).trans (at5 (launchContents m c) main_arg5 (by decide) (by decide) (by decide) (by decide) (by decide)),
      (h c main_arg6).trans (at5 (launchContents m c) main_arg6 (by decide) (by decide) (by decide) (by decide) (by decide)),
      (h c main_arg7).trans (at5 (launchContents m c) main_arg7 (by decide) (by decide) (by decide) (by decide) (by decide)),
      (h c main_arg8).trans (at5 (launchContents m c) main_arg8 (by decide) (by decide) (by decide) (by decide) (by decide)),
      (h c main_arg9).trans (at5 (launchContents m c) main_arg9 (by decide) (by decide) (by decide) (by decide) (by decide)),
      (h c main_arg10).trans (at5 (launchContents m c) main_arg10 (by decide) (by decide) (by decide) (by decide) (by decide)),
      (h c main_arg11).trans (at5 (launchContents m c) main_arg11 (by decide) (by decide) (by decide) (by decide) (by decide)),
      (h c main_arg12).trans (at5 (launchContents m c) main_arg12 (by decide) (by decide) (by decide) (by decide) (by decide)),
      (h c main_arg13).trans (at5 (launchContents m c) main_arg13 (by decide) (by decide) (by decide) (by decide) (by decide)),
      (h c main_arg14).trans (at5 (launchContents m c) main_arg14 (by decide) (by decide) (by decide) (by decide) (by decide)),
      (h c main_arg15).trans (at5 (launchContents m c) main_arg15 (by decide) (by decide) (by decide) (by decide) (by decide)),
      (h c main_arg16).trans (at5 (launchContents m c) main_arg16 (by decide) (by decide) (by decide) (by decide) (by decide)),
      (h c main_arg17).trans (at5 (launchContents m c) main_arg17 (by decide) (by decide) (by decide) (by decide) (by decide)),
      (h c main_arg18).trans (at5 (launchContents m c) main_arg18 (by decide) (by decide) (by decide) (by decide) (by decide)),
      (h c main_arg19).trans (at5 (launchContents m c) main_arg19 (by decide) (by decide) (by decide) (by decide) (by decide)),
      (h c main_arg20).trans (at5 (launchContents m c) main_arg20 (by decide) (by decide) (by decide) (by decide) (by decide)),
      (h c main_arg21).trans (at5 (launchContents m c) main_arg21 (by decide) (by decide) (by decide) (by decide) (by decide)),
      (h c main_arg22).trans (at5 (launchContents m c) main_arg22 (by decide) (by decide) (by decide) (by decide) (by decide)),
      (h c main_arg23).trans (at5 (launchContents m c) main_arg23 (by decide) (by decide) (by decide) (by decide) (by decide)),
      (h c main_arg24).trans (at5 (launchContents m c) main_arg24 (by decide) (by decide) (by decide) (by decide) (by decide)),
      (h c main_arg25).trans (at5 (launchContents m c) main_arg25 (by decide) (by decide) (by decide) (by decide) (by decide)),
      (h c main_arg26).trans (at5 (launchContents m c) main_arg26 (by decide) (by decide) (by decide) (by decide) (by decide)),
      (h c main_arg27).trans (at5 (launchContents m c) main_arg27 (by decide) (by decide) (by decide) (by decide) (by decide)),
      (h c main_arg28).trans (at5 (launchContents m c) main_arg28 (by decide) (by decide) (by decide) (by decide) (by decide)),
      (h c main_arg29).trans (at5 (launchContents m c) main_arg29 (by decide) (by decide) (by decide) (by decide) (by decide)),
      (h c main_arg30).trans (at5 (launchContents m c) main_arg30 (by decide) (by decide) (by decide) (by decide) (by decide))⟩)
    (run_after (F := Ideal) m ρ)

end Cert.ReferenceIdeal.RefValue

end
-- ==== Proof.lean ====
/-
  The certificate of the fused attention / state-space / gated-fusion kernel against its jnp
  reference, on the extended reals.

  Both programs compute, for every output row `r`, the row function `Spec.outRow` of the arguments
  (Proof/Spec.lean): `Wh = h · W`; the softmax over row `r` of the masked leaky-relu logits times
  `Wh` (the kernel by an online softmax over four column blocks, equal to the plain softmax on the
  reals once `h`, `W`, `a_src`, `a_dst` are finite); then the row-wise epilogue, whose only
  difference between the programs — scaling by `rsqrt (v + ε)` against dividing by `sqrt (v + ε)` —
  vanishes because a variance is never negative. The kernel's frames are the generated frame runs,
  the reference's frame its run (read back operation by operation) with the result dropped, and nothing was rewritten by
  the idealization, so `preserves` is trivial.
-/
import proofs.«172967_j79852031967736_2_alg».proof.Defs
import proofs.«172967_j79852031967736_2_alg».proof.Proof.Gen.Kernel
import proofs.«172967_j79852031967736_2_alg».proof.Proof.Gen.KernelIdeal
import proofs.«172967_j79852031967736_2_alg».proof.Proof.Gen.ReferenceIdeal
import proofs.«172967_j79852031967736_2_alg».proof.Proof.Gen.Pre_finite_inputs
import proofs.«172967_j79852031967736_2_alg».proof.Proof.PatchedKernel.Frame
import proofs.«172967_j79852031967736_2_alg».proof.Proof.PatchedKernelIdeal.Frame
import proofs.«172967_j79852031967736_2_alg».proof.Proof.KFinal
import proofs.«172967_j79852031967736_2_alg».proof.Proof.RunAll
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

/-- From memories agreeing on the arguments both runs end with the same array: each row is
    `Spec.outRow` of the same arguments. -/
theorem algebraic : Cert.algebraic_KernelIdeal_ReferenceIdeal := by
  intro m ρ m' ρ' hpre hagree
  refine ⟨fun c => Cert.KernelIdeal.Final.G m c, Cert.KernelIdeal.Final.run m ρ hpre, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17, e18, e19, e20, e21, e22, e23, e24, e25, e26, e27, e28, e29, e30⟩ := hagree c
  rw [e0, e1, e2, e3, e4, e5, e6, e7, e8, e9, e10, e11, e12, e13, e14, e15, e16, e17, e18, e19, e20, e21, e22, e23, e24, e25, e26, e27, e28, e29, e30]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
